-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  main_v3
-- ==== Kernel.lean ====
abbrev S32x1x1024x1024 : Shape := ⟨4, ![32, 1, 1024, 1024]⟩
abbrev S32x1024x1024 : Shape := ⟨3, ![32, 1024, 1024]⟩
abbrev S32x128 : Shape := ⟨2, ![32, 128]⟩
abbrev S8x128x1024 : Shape := ⟨3, ![8, 128, 1024]⟩
abbrev S8x128 : Shape := ⟨2, ![8, 128]⟩
abbrev S8 : Shape := ⟨1, ![8]⟩
abbrev S8x1 : Shape := ⟨2, ![8, 1]⟩
abbrev S32x1 : Shape := ⟨2, ![32, 1]⟩
abbrev S32 : Shape := ⟨1, ![32]⟩
abbrev S_ : Shape := ⟨0, ![]⟩
abbrev S32x1024 : Shape := ⟨2, ![32, 1024]⟩
abbrev S8x1024 : Shape := ⟨2, ![8, 1024]⟩
abbrev S8x1x1 : Shape := ⟨3, ![8, 1, 1]⟩
abbrev S8x1x1024 : Shape := ⟨3, ![8, 1, 1024]⟩

abbrev nBuf : Space → Nat
  | .hbm => 138
  | .vmem => 38
  | .smem => 0
  | _ => 0

abbrev hbmTy0_0 (i : Nat) : BufTy := match i % 128 with
  | 0 => ⟨S32x1x1024x1024, .f32⟩
  | 1 => ⟨S32x1024x1024, .f32⟩
  | 2 => ⟨S32x128, .f32⟩
  | 3 => ⟨S32x128, .f32⟩
  | 4 => ⟨S32x128, .f32⟩
  | 5 => ⟨S32x128, .f32⟩
  | 6 => ⟨S32x1, .f32⟩
  | 7 => ⟨S32, .f32⟩
  | 8 => ⟨S_, .f32⟩
  | 9 => ⟨S32, .f32⟩
  | 10 => ⟨S32, .f32⟩
  | 11 => ⟨S32x1, .f32⟩
  | 12 => ⟨S32, .f32⟩
  | 13 => ⟨S_, .f32⟩
  | 14 => ⟨S32, .f32⟩
  | 15 => ⟨S32, .f32⟩
  | 16 => ⟨S32x1024, .f32⟩
  | 17 => ⟨S32x1024, .f32⟩
  | 18 => ⟨S32x128, .f32⟩
  | 19 => ⟨S32x128, .f32⟩
  | 20 => ⟨S32x1, .f32⟩
  | 21 => ⟨S32, .f32⟩
  | 22 => ⟨S32x1, .f32⟩
  | 23 => ⟨S32, .f32⟩
  | 24 => ⟨S32x1024, .i32⟩
  | 25 => ⟨S_, .i32⟩
  | 26 => ⟨S_, .i32⟩
  | 27 => ⟨S32x1024, .i32⟩
  | 28 => ⟨S_, .i32⟩
  | 29 => ⟨S32x1024, .i32⟩
  | 30 => ⟨S32x1024, .i1⟩
  | 31 => ⟨S32x1024, .f32⟩
  | 32 => ⟨S32x1024, .i32⟩
  | 33 => ⟨S_, .i32⟩
  | 34 => ⟨S_, .i32⟩
  | 35 => ⟨S32x1024, .i32⟩
  | 36 => ⟨S32x1024, .i32⟩
  | 37 => ⟨S_, .i32⟩
  | 38 => ⟨S32x1024, .i32⟩
  | 39 => ⟨S32x1024, .i1⟩
  | 40 => ⟨S32x1024, .i1⟩
  | 41 => ⟨S32x1024, .f32⟩
  | 42 => ⟨S32x1024, .i32⟩
  | 43 => ⟨S_, .i32⟩
  | 44 => ⟨S_, .i32⟩
  | 45 => ⟨S32x1024, .i32⟩
  | 46 => ⟨S_, .i32⟩
  | 47 => ⟨S32x1024, .i32⟩
  | 48 => ⟨S32x1024, .i1⟩
  | 49 => ⟨S32x1024, .f32⟩
  | 50 => ⟨S32x1024, .i32⟩
  | 51 => ⟨S_, .i32⟩
  | 52 => ⟨S_, .i32⟩
  | 53 => ⟨S32x1024, .i32⟩
  | 54 => ⟨S32x1024, .i32⟩
  | 55 => ⟨S_, .i32⟩
  | 56 => ⟨S32x1024, .i32⟩
  | 57 => ⟨S32x1024, .i1⟩
  | 58 => ⟨S32x1024, .i1⟩
  | 59 => ⟨S32x1024, .f32⟩
  | 60 => ⟨S_, .f32⟩
  | 61 => ⟨S32, .f32⟩
  | 62 => ⟨S_, .f32⟩
  | 63 => ⟨S32, .f32⟩
  | 64 => ⟨S32, .f32⟩
  | 65 => ⟨S32x128, .f32⟩
  | 66 => ⟨S32x128, .f32⟩
  | 67 => ⟨S32x1, .f32⟩
  | 68 => ⟨S32, .f32⟩
  | 69 => ⟨S32x1, .f32⟩
  | 70 => ⟨S32, .f32⟩
  | 71 => ⟨S_, .f32⟩
  | 72 => ⟨S32, .f32⟩
  | 73 => ⟨S32, .f32⟩
  | 74 => ⟨S32, .f32⟩
  | 75 => ⟨S32, .f32⟩
  | 76 => ⟨S_, .f32⟩
  | 77 => ⟨S32, .f32⟩
  | 78 => ⟨S32, .f32⟩
  | 79 => ⟨S32, .f32⟩
  | 80 => ⟨S_, .f32⟩
  | 81 => ⟨S32, .f32⟩
  | 82 => ⟨S32, .f32⟩
  | 83 => ⟨S32, .f32⟩
  | 84 => ⟨S_, .f32⟩
  | 85 => ⟨S32, .f32⟩
  | 86 => ⟨S32, .i1⟩
  | 87 => ⟨S_, .f32⟩
  | 88 => ⟨S32, .f32⟩
  | 89 => ⟨S_, .f32⟩
  | 90 => ⟨S32, .f32⟩
  | 91 => ⟨S32, .i1⟩
  | 92 => ⟨S_, .f32⟩
  | 93 => ⟨S_, .f32⟩
  | 94 => ⟨S32, .f32⟩
  | 95 => ⟨S32, .f32⟩
  | 96 => ⟨S32, .f32⟩
  | 97 => ⟨S32, .f32⟩
  | 98 => ⟨S32, .f32⟩
  | 99 => ⟨S_, .f32⟩
  | 100 => ⟨S32, .f32⟩
  | 101 => ⟨S32, .i1⟩
  | 102 => ⟨S_, .f32⟩
  | 103 => ⟨S_, .f32⟩
  | 104 => ⟨S32, .f32⟩
  | 105 => ⟨S32, .f32⟩
  | 106 => ⟨S32, .f32⟩
  | 107 => ⟨S32, .f32⟩
  | 108 => ⟨S32, .f32⟩
  | 109 => ⟨S_, .f32⟩
  | 110 => ⟨S32, .f32⟩
  | 111 => ⟨S32, .i1⟩
  | 112 => ⟨S_, .f32⟩
  | 113 => ⟨S32, .f32⟩
  | 114 => ⟨S32, .i1⟩
  | 115 => ⟨S32, .i1⟩
  | 116 => ⟨S_, .f32⟩
  | 117 => ⟨S_, .f32⟩
  | 118 => ⟨S32, .f32⟩
  | 119 => ⟨S32, .f32⟩
  | 120 => ⟨S32, .f32⟩
  | 121 => ⟨S32, .f32⟩
  | 122 => ⟨S32, .f32⟩
  | 123 => ⟨S32, .f32⟩
  | 124 => ⟨S32, .f32⟩
  | 125 => ⟨S_, .f32⟩
  | 126 => ⟨S_, .f32⟩
  | 127 => ⟨S32, .f32⟩
  | _ => ⟨S32x1x1024x1024, .f32⟩

abbrev hbmTy0_1 (i : Nat) : BufTy := match i % 128 with
  | 0 => ⟨S_, .f32⟩
  | 1 => ⟨S_, .f32⟩
  | 2 => ⟨S_, .f32⟩
  | 3 => ⟨S_, .i1⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | _ => ⟨S32x1x1024x1024, .f32⟩

abbrev hbmTy (i : Nat) : BufTy := match i / 128 with
  | 0 => hbmTy0_0 i
  | 1 => hbmTy0_1 i
  | _ => ⟨S32x1x1024x1024, .f32⟩

abbrev bufTy : (tb : Table) → Fin (tcTables nBuf tb) → BufTy
  | .hbm, ⟨i, _⟩ => hbmTy i
  | .local _ .vmem, ⟨0, _⟩ => ⟨S8x128x1024, .f32⟩
  | .local _ .vmem, ⟨1, _⟩ => ⟨S8x128x1024, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128x1024, .f32⟩
  | .local _ .vmem, ⟨11, _⟩ => ⟨S8x128x1024, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x1024, .f32⟩
  | .local _ .vmem, ⟨19, _⟩ => ⟨S8x1024, .f32⟩
  | .local _ .vmem, ⟨20, _⟩ => ⟨S8x128, .f32⟩
  | .local _ .vmem, ⟨21, _⟩ => ⟨S8x128, .f32⟩
  | .local _ .vmem, ⟨22, _⟩ => ⟨S8x128, .f32⟩
  | .local _ .vmem, ⟨23, _⟩ => ⟨S8x128, .f32⟩
  | .local _ .vmem, ⟨24, _⟩ => ⟨S8x128x1024, .f32⟩
  | .local _ .vmem, ⟨25, _⟩ => ⟨S8x128x1024, .f32⟩
  | .local _ .vmem, ⟨26, _⟩ => ⟨S8x128, .f32⟩
  | .local _ .vmem, ⟨27, _⟩ => ⟨S8x128, .f32⟩
  | .local _ .vmem, ⟨28, _⟩ => ⟨S8x128, .f32⟩
  | .local _ .vmem, ⟨29, _⟩ => ⟨S8x128, .f32⟩
  | .local _ .vmem, ⟨30, _⟩ => ⟨S8x128, .f32⟩
  | .local _ .vmem, ⟨31, _⟩ => ⟨S8x128, .f32⟩
  | .local _ .vmem, ⟨32, _⟩ => ⟨S8x1024, .f32⟩
  | .local _ .vmem, ⟨33, _⟩ => ⟨S8x1024, .f32⟩
  | .local _ .vmem, ⟨34, _⟩ => ⟨S8x128, .f32⟩
  | .local _ .vmem, ⟨35, _⟩ => ⟨S8x128, .f32⟩
  | .local _ .vmem, ⟨36, _⟩ => ⟨S8x128, .f32⟩
  | .local _ .vmem, ⟨37, _⟩ => ⟨S8x128, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_call0_c : Ref sig .tc := ⟨.hbm, 25, rfl⟩
abbrev main_call0_call0_v0 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call1_call0_c : Ref sig .tc := ⟨.hbm, 33, rfl⟩
abbrev main_call1_call0_v0 : Ref sig .tc := ⟨.hbm, 34, rfl⟩
abbrev main_v21 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call2_call0_c : Ref sig .tc := ⟨.hbm, 43, rfl⟩
abbrev main_call2_call0_v0 : Ref sig .tc := ⟨.hbm, 44, rfl⟩
abbrev main_v28 : Ref sig .tc := ⟨.hbm, 45, rfl⟩
abbrev main_c_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call3_call0_c : Ref sig .tc := ⟨.hbm, 51, rfl⟩
abbrev main_call3_call0_v0 : Ref sig .tc := ⟨.hbm, 52, rfl⟩
abbrev main_v33 : Ref sig .tc := ⟨.hbm, 53, rfl⟩
abbrev main_v34 : Ref sig .tc := ⟨.hbm, 54, rfl⟩
abbrev main_c_3 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42_0 : Ref sig .tc := ⟨.hbm, 65, rfl⟩
abbrev main_v42_1 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_7 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_8 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_cst_12 : Ref sig .tc := ⟨.hbm, 92, rfl⟩
abbrev main_cst_13 : Ref sig .tc := ⟨.hbm, 93, rfl⟩
abbrev main_call4_v0 : Ref sig .tc := ⟨.hbm, 94, rfl⟩
abbrev main_call4_v1 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_cst_15 : Ref sig .tc := ⟨.hbm, 102, rfl⟩
abbrev main_cst_16 : Ref sig .tc := ⟨.hbm, 103, rfl⟩
abbrev main_call5_v0 : Ref sig .tc := ⟨.hbm, 104, rfl⟩
abbrev main_call5_v1 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_17 : Ref sig .tc := ⟨.hbm, 109, rfl⟩
abbrev main_v70 : Ref sig .tc := ⟨.hbm, 110, rfl⟩
abbrev main_v71 : Ref sig .tc := ⟨.hbm, 111, rfl⟩
abbrev main_cst_18 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_19 : Ref sig .tc := ⟨.hbm, 116, rfl⟩
abbrev main_cst_20 : Ref sig .tc := ⟨.hbm, 117, rfl⟩
abbrev main_call6_v0 : Ref sig .tc := ⟨.hbm, 118, rfl⟩
abbrev main_call6_v1 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_21 : Ref sig .tc := ⟨.hbm, 125, rfl⟩
abbrev main_v80 : Ref sig .tc := ⟨.hbm, 126, rfl⟩
abbrev main_v81 : Ref sig .tc := ⟨.hbm, 127, rfl⟩
abbrev main_cst_22 : Ref sig .tc := ⟨.hbm, 128, rfl⟩
abbrev main_v82 : Ref sig .tc := ⟨.hbm, 129, rfl⟩
abbrev main_cst_23 : Ref sig .tc := ⟨.hbm, 130, rfl⟩
abbrev main_v83 : Ref sig .tc := ⟨.hbm, 131, rfl⟩
abbrev main_cst_24 : Ref sig .tc := ⟨.hbm, 132, rfl⟩
abbrev main_v84 : Ref sig .tc := ⟨.hbm, 133, rfl⟩
abbrev main_v85 : Ref sig .tc := ⟨.hbm, 134, rfl⟩
abbrev main_cst_25 : Ref sig .tc := ⟨.hbm, 135, rfl⟩
abbrev main_call7_v0 : Ref sig .tc := ⟨.hbm, 136, rfl⟩
abbrev main_v86 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc2_sem6_0 : DmaSem sig := 36
abbrev cc2_sem6_1 : DmaSem sig := 37

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S8x128x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S8x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S8x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S8x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S8x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  shapeCasts_S32x1x1024x1024_S32x1024x1024 : S32x1x1024x1024.ShapeCasts S32x1024x1024
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S8x128x1024 : S8x128x1024.ShapeCasts S8x128x1024
  reduces_S8x128x1024_S8x128 : S8x128x1024.Reduces [2] S8x128
  reduces_S8x128_S8 : S8x128.Reduces [1] S8
  natLt_1_32 : 1 < 32
  shapeCasts_S8_S8x1 : S8.ShapeCasts S8x1
  shapeCasts_S8x1_S8x1 : S8x1.ShapeCasts S8x1
  broadcasts_S8x1_S8x128 : S8x1.Broadcasts S8x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  slices_S32x128_S32x1_0_0 : S32x128.Slices ![0, 0] S32x1
  shapeCasts_S32x1_S32 : S32x1.ShapeCasts S32
  bcast_S_S32 : S_.BroadcastsInDim S32 (![] : Fin 0 → Fin S32.rank)
  inb_S8x128_S8x1_0_0 : ∀ a, (![0, 0] : Fin 2 → Nat) a + S8x1.size a ≤ S8x128.size a
  h_S8x1 : 0 < S8x1.numel
  shapeCasts_S8x1_S8 : S8x1.ShapeCasts S8
  shapeCasts_S8_S8x1x1 : S8.ShapeCasts S8x1x1
  broadcasts_S8x1x1_S8x128x1024 : S8x1x1.Broadcasts S8x128x1024
  reduces_S8x128x1024_S8x1024 : S8x128x1024.Reduces [1] S8x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  bcast_S_S_ : S_.BroadcastsInDim S_ (![] : Fin 0 → Fin S_.rank)
  reduceWindows_S32x1024_S32x1024_w1s1p0_0_w1024s1p1023_0 : S32x1024.ReduceWindows (![1, 1024] : Fin 2 → Nat) ![1, 1] ![0, 1023] ![0, 0] S32x1024
  h_S_ : 0 < S_.numel
  bcast_S_S32x1024 : S_.BroadcastsInDim S32x1024 (![] : Fin 0 → Fin S32x1024.rank)
  reducesTo_S32x1024_S32_d1 : S32x1024.ReducesTo [1] S32
  shapeCasts_S8x1024_S8x1x1024 : S8x1024.ShapeCasts S8x1x1024
  broadcasts_S8x1x1024_S8x128x1024 : S8x1x1024.Broadcasts S8x128x1024
  reducesTo_S32_S_d0 : S32.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S32x1024x1024.size a
  hwx0_0 : ∀ i : grid0.Coords, EltTy.bits .f32 = 32 ∨ (Rect.block (s := S32x1024x1024) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x128.size a
  hwx0_1 : ∀ i : grid0.Coords, EltTy.bits .f32 = 32 ∨ (Rect.block (s := S32x128) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S32x128.size a
  hwx0_2 : ∀ i : grid0.Coords, EltTy.bits .f32 = 32 ∨ (Rect.block (s := S32x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S32x128.size a
  hwx0_3 : ∀ i : grid0.Coords, EltTy.bits .f32 = 32 ∨ (Rect.block (s := S32x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S32x128.size a
  hwx0_4 : ∀ i : grid0.Coords, EltTy.bits .f32 = 32 ∨ (Rect.block (s := S32x128) S8x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x1024.size a ≤ S32x1024x1024.size a
  hwx1_0 : ∀ i : grid1.Coords, EltTy.bits .f32 = 32 ∨ (Rect.block (s := S32x1024x1024) S8x128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S32x128.size a
  hwx1_1 : ∀ i : grid1.Coords, EltTy.bits .f32 = 32 ∨ (Rect.block (s := S32x128) S8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S32x128.size a
  hwx1_2 : ∀ i : grid1.Coords, EltTy.bits .f32 = 32 ∨ (Rect.block (s := S32x128) S8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S32x1024.size a
  hwx1_3 : ∀ i : grid1.Coords, EltTy.bits .f32 = 32 ∨ (Rect.block (s := S32x1024) S8x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x1024.size a ≤ S32x1024.size a
  hwx1_4 : ∀ i : grid1.Coords, EltTy.bits .f32 = 32 ∨ (Rect.block (s := S32x1024) S8x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S32x128.size a
  hwx1_5 : ∀ i : grid1.Coords, EltTy.bits .f32 = 32 ∨ (Rect.block (s := S32x128) S8x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S32x128.size a
  hwx1_6 : ∀ i : grid1.Coords, EltTy.bits .f32 = 32 ∨ (Rect.block (s := S32x128) S8x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x128x1024.size a ≤ S32x1024x1024.size a
  hwx2_0 : ∀ i : grid2.Coords, EltTy.bits .f32 = 32 ∨ (Rect.block (s := S32x1024x1024) S8x128x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x128.size a ≤ S32x128.size a
  hwx2_1 : ∀ i : grid2.Coords, EltTy.bits .f32 = 32 ∨ (Rect.block (s := S32x128) S8x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x128.size a ≤ S32x128.size a
  hwx2_2 : ∀ i : grid2.Coords, EltTy.bits .f32 = 32 ∨ (Rect.block (s := S32x128) S8x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x128.size a ≤ S32x1024.size a
  hwx2_3 : ∀ i : grid2.Coords, EltTy.bits .f32 = 32 ∨ (Rect.block (s := S32x1024) S8x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8x1024.size a ≤ S32x1024.size a
  hwx2_4 : ∀ i : grid2.Coords, EltTy.bits .f32 = 32 ∨ (Rect.block (s := S32x1024) S8x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S32x128.size a
  hwx2_5 : ∀ i : grid2.Coords, EltTy.bits .f32 = 32 ∨ (Rect.block (s := S32x128) S8x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x128.size a ≤ S32x128.size a
  hwx2_6 : ∀ i : grid2.Coords, EltTy.bits .f32 = 32 ∨ (Rect.block (s := S32x128) S8x128.size (cc2_transform_6 i) (hinb2_6 i)).WholeWords (EltTy.packing .f32)

variable [Facts₀]

abbrev win0_0 : Pipeline.Window sig grid0 :=
  Pipeline.Window.ofSpec (Memref.whole main_v0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_2) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_3) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S8x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S8x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10_0) S8x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10_1) S8x1024.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10_2) S8x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10_3) S8x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v0) S8x128x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S8x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_1) S8x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26) S8x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v38) S8x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v42_0) S8x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v42_1) S8x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S32x1x1024x1024 : Shape := ⟨4, ![32, 1, 1024, 1024]⟩
abbrev S32x1024x1024 : Shape := ⟨3, ![32, 1024, 1024]⟩
abbrev S_ : Shape := ⟨0, ![]⟩
abbrev S32 : Shape := ⟨1, ![32]⟩
abbrev S32x1x1 : Shape := ⟨3, ![32, 1, 1]⟩
abbrev S32x1024 : Shape := ⟨2, ![32, 1024]⟩
abbrev S32x1024x1 : Shape := ⟨3, ![32, 1024, 1]⟩
abbrev S32x1x1024 : Shape := ⟨3, ![32, 1, 1024]⟩

abbrev nBuf : Space → Nat
  | .hbm => 156
  | .vmem => 0
  | .smem => 0
  | _ => 0

abbrev hbmTy0_0 (i : Nat) : BufTy := match i % 128 with
  | 0 => ⟨S32x1x1024x1024, .f32⟩
  | 1 => ⟨S32x1024x1024, .f32⟩
  | 2 => ⟨S32x1024x1024, .f32⟩
  | 3 => ⟨S32x1024x1024, .f32⟩
  | 4 => ⟨S_, .f32⟩
  | 5 => ⟨S32x1024x1024, .f32⟩
  | 6 => ⟨S32x1024x1024, .f32⟩
  | 7 => ⟨S_, .f32⟩
  | 8 => ⟨S32x1024x1024, .f32⟩
  | 9 => ⟨S32x1024x1024, .f32⟩
  | 10 => ⟨S_, .f32⟩
  | 11 => ⟨S32x1024x1024, .f32⟩
  | 12 => ⟨S32x1024x1024, .f32⟩
  | 13 => ⟨S32x1024x1024, .f32⟩
  | 14 => ⟨S_, .f32⟩
  | 15 => ⟨S32, .f32⟩
  | 16 => ⟨S_, .f32⟩
  | 17 => ⟨S32, .f32⟩
  | 18 => ⟨S32, .f32⟩
  | 19 => ⟨S_, .f32⟩
  | 20 => ⟨S32x1024x1024, .f32⟩
  | 21 => ⟨S32x1024x1024, .i1⟩
  | 22 => ⟨S32x1024x1024, .f32⟩
  | 23 => ⟨S_, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .i1⟩
  | 31 => ⟨S_, .f32⟩
  | 32 => ⟨S_, .f32⟩
  | 33 => ⟨S32, .f32⟩
  | 34 => ⟨S32, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .i1⟩
  | 43 => ⟨S_, .f32⟩
  | 44 => ⟨S_, .f32⟩
  | 45 => ⟨S32, .f32⟩
  | 46 => ⟨S32, .f32⟩
  | 47 => ⟨S32, .f32⟩
  | 48 => ⟨S32, .f32⟩
  | 49 => ⟨S32, .f32⟩
  | 50 => ⟨S_, .f32⟩
  | 51 => ⟨S32, .f32⟩
  | 52 => ⟨S32, .i1⟩
  | 53 => ⟨S_, .f32⟩
  | 54 => ⟨S32, .f32⟩
  | 55 => ⟨S32, .i1⟩
  | 56 => ⟨S32, .i1⟩
  | 57 => ⟨S_, .f32⟩
  | 58 => ⟨S_, .f32⟩
  | 59 => ⟨S32, .f32⟩
  | 60 => ⟨S32, .f32⟩
  | 61 => ⟨S32, .f32⟩
  | 62 => ⟨S32, .f32⟩
  | 63 => ⟨S32, .f32⟩
  | 64 => ⟨S_, .f32⟩
  | 65 => ⟨S32, .f32⟩
  | 66 => ⟨S_, .f32⟩
  | 67 => ⟨S32, .f32⟩
  | 68 => ⟨S32x1x1, .f32⟩
  | 69 => ⟨S32x1024x1024, .f32⟩
  | 70 => ⟨S32x1024x1024, .f32⟩
  | 71 => ⟨S32, .f32⟩
  | 72 => ⟨S_, .f32⟩
  | 73 => ⟨S32, .f32⟩
  | 74 => ⟨S32, .f32⟩
  | 75 => ⟨S32x1x1, .f32⟩
  | 76 => ⟨S32x1024x1024, .f32⟩
  | 77 => ⟨S32x1024x1024, .f32⟩
  | 78 => ⟨S_, .f32⟩
  | 79 => ⟨S32x1024x1024, .f32⟩
  | 80 => ⟨S32x1024x1024, .i1⟩
  | 81 => ⟨S_, .i1⟩
  | 82 => ⟨S32x1024, .i1⟩
  | 83 => ⟨S_, .i1⟩
  | 84 => ⟨S32x1024, .i1⟩
  | 85 => ⟨S32x1024, .i32⟩
  | 86 => ⟨S_, .i32⟩
  | 87 => ⟨S_, .i32⟩
  | 88 => ⟨S32x1024, .i32⟩
  | 89 => ⟨S_, .i32⟩
  | 90 => ⟨S32x1024, .i32⟩
  | 91 => ⟨S32x1024, .i1⟩
  | 92 => ⟨S32x1024, .i1⟩
  | 93 => ⟨S32x1024, .i32⟩
  | 94 => ⟨S_, .i32⟩
  | 95 => ⟨S_, .i32⟩
  | 96 => ⟨S32x1024, .i32⟩
  | 97 => ⟨S32x1024, .i32⟩
  | 98 => ⟨S_, .i32⟩
  | 99 => ⟨S32x1024, .i32⟩
  | 100 => ⟨S32x1024, .i1⟩
  | 101 => ⟨S32x1024, .i1⟩
  | 102 => ⟨S32x1024x1, .i1⟩
  | 103 => ⟨S32x1024, .i32⟩
  | 104 => ⟨S_, .i32⟩
  | 105 => ⟨S_, .i32⟩
  | 106 => ⟨S32x1024, .i32⟩
  | 107 => ⟨S_, .i32⟩
  | 108 => ⟨S32x1024, .i32⟩
  | 109 => ⟨S32x1024, .i1⟩
  | 110 => ⟨S32x1024, .i1⟩
  | 111 => ⟨S32x1024, .i32⟩
  | 112 => ⟨S_, .i32⟩
  | 113 => ⟨S_, .i32⟩
  | 114 => ⟨S32x1024, .i32⟩
  | 115 => ⟨S32x1024, .i32⟩
  | 116 => ⟨S_, .i32⟩
  | 117 => ⟨S32x1024, .i32⟩
  | 118 => ⟨S32x1024, .i1⟩
  | 119 => ⟨S32x1024, .i1⟩
  | 120 => ⟨S32x1x1024, .i1⟩
  | 121 => ⟨S32x1024x1024, .i1⟩
  | 122 => ⟨S32x1024x1024, .i1⟩
  | 123 => ⟨S32x1024x1024, .i1⟩
  | 124 => ⟨S_, .i1⟩
  | 125 => ⟨S32, .i1⟩
  | 126 => ⟨S32x1x1, .i1⟩
  | 127 => ⟨S32x1024x1024, .i1⟩
  | _ => ⟨S32x1x1024x1024, .f32⟩

abbrev hbmTy0_1 (i : Nat) : BufTy := match i % 128 with
  | 0 => ⟨S32x1024x1024, .i1⟩
  | 1 => ⟨S32x1024x1024, .i1⟩
  | 2 => ⟨S_, .i1⟩
  | 3 => ⟨S32, .i1⟩
  | 4 => ⟨S32x1024x1024, .f32⟩
  | 5 => ⟨S32x1024x1024, .f32⟩
  | 6 => ⟨S32x1024x1024, .f32⟩
  | 7 => ⟨S_, .f32⟩
  | 8 => ⟨S32, .f32⟩
  | 9 => ⟨S_, .f32⟩
  | 10 => ⟨S32, .f32⟩
  | 11 => ⟨S32, .f32⟩
  | 12 => ⟨S32, .f32⟩
  | 13 => ⟨S32, .f32⟩
  | 14 => ⟨S_, .f32⟩
  | 15 => ⟨S_, .f32⟩
  | 16 => ⟨S32, .f32⟩
  | 17 => ⟨S32, .f32⟩
  | 18 => ⟨S_, .f32⟩
  | 19 => ⟨S_, .f32⟩
  | 20 => ⟨S_, .f32⟩
  | 21 => ⟨S_, .i1⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | _ => ⟨S32x1x1024x1024, .f32⟩

abbrev hbmTy (i : Nat) : BufTy := match i / 128 with
  | 0 => hbmTy0_0 i
  | 1 => hbmTy0_1 i
  | _ => ⟨S32x1x1024x1024, .f32⟩

abbrev bufTy : (tb : Table) → Fin (tcTables nBuf tb) → BufTy
  | .hbm, ⟨i, _⟩ => hbmTy i
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_5 : Ref sig .tc := ⟨.hbm, 23, rfl⟩
abbrev main_v16 : Ref sig .tc := ⟨.hbm, 24, rfl⟩
abbrev main_cst_6 : Ref sig .tc := ⟨.hbm, 25, rfl⟩
abbrev main_v17 : Ref sig .tc := ⟨.hbm, 26, rfl⟩
abbrev main_v18 : Ref sig .tc := ⟨.hbm, 27, rfl⟩
abbrev main_cst_7 : Ref sig .tc := ⟨.hbm, 28, rfl⟩
abbrev main_v19 : Ref sig .tc := ⟨.hbm, 29, rfl⟩
abbrev main_v20 : Ref sig .tc := ⟨.hbm, 30, rfl⟩
abbrev main_cst_8 : Ref sig .tc := ⟨.hbm, 31, rfl⟩
abbrev main_cst_9 : Ref sig .tc := ⟨.hbm, 32, rfl⟩
abbrev main_call0_v0 : Ref sig .tc := ⟨.hbm, 33, rfl⟩
abbrev main_call0_v1 : Ref sig .tc := ⟨.hbm, 34, rfl⟩
abbrev main_v21 : Ref sig .tc := ⟨.hbm, 35, rfl⟩
abbrev main_v22 : Ref sig .tc := ⟨.hbm, 36, rfl⟩
abbrev main_cst_10 : Ref sig .tc := ⟨.hbm, 37, rfl⟩
abbrev main_v23 : Ref sig .tc := ⟨.hbm, 38, rfl⟩
abbrev main_v24 : Ref sig .tc := ⟨.hbm, 39, rfl⟩
abbrev main_cst_11 : Ref sig .tc := ⟨.hbm, 40, rfl⟩
abbrev main_v25 : Ref sig .tc := ⟨.hbm, 41, rfl⟩
abbrev main_v26 : Ref sig .tc := ⟨.hbm, 42, rfl⟩
abbrev main_cst_12 : Ref sig .tc := ⟨.hbm, 43, rfl⟩
abbrev main_cst_13 : Ref sig .tc := ⟨.hbm, 44, rfl⟩
abbrev main_call1_v0 : Ref sig .tc := ⟨.hbm, 45, rfl⟩
abbrev main_call1_v1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_14 : Ref sig .tc := ⟨.hbm, 50, rfl⟩
abbrev main_v30 : Ref sig .tc := ⟨.hbm, 51, rfl⟩
abbrev main_v31 : Ref sig .tc := ⟨.hbm, 52, rfl⟩
abbrev main_cst_15 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_16 : Ref sig .tc := ⟨.hbm, 57, rfl⟩
abbrev main_cst_17 : Ref sig .tc := ⟨.hbm, 58, rfl⟩
abbrev main_call2_v0 : Ref sig .tc := ⟨.hbm, 59, rfl⟩
abbrev main_call2_v1 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_18 : Ref sig .tc := ⟨.hbm, 64, rfl⟩
abbrev main_v38 : Ref sig .tc := ⟨.hbm, 65, rfl⟩
abbrev main_cst_19 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_20 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_21 : Ref sig .tc := ⟨.hbm, 78, rfl⟩
abbrev main_v49 : Ref sig .tc := ⟨.hbm, 79, rfl⟩
abbrev main_v50 : Ref sig .tc := ⟨.hbm, 80, rfl⟩
abbrev main_c : Ref sig .tc := ⟨.hbm, 81, rfl⟩
abbrev main_v51 : Ref sig .tc := ⟨.hbm, 82, rfl⟩
abbrev main_c_22 : Ref sig .tc := ⟨.hbm, 83, rfl⟩
abbrev main_v52 : Ref sig .tc := ⟨.hbm, 84, rfl⟩
abbrev main_v53 : Ref sig .tc := ⟨.hbm, 85, rfl⟩
abbrev main_call3_call0_c : Ref sig .tc := ⟨.hbm, 86, rfl⟩
abbrev main_call3_call0_v0 : Ref sig .tc := ⟨.hbm, 87, rfl⟩
abbrev main_v54 : Ref sig .tc := ⟨.hbm, 88, rfl⟩
abbrev main_c_23 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_call4_call0_c : Ref sig .tc := ⟨.hbm, 94, rfl⟩
abbrev main_call4_call0_v0 : Ref sig .tc := ⟨.hbm, 95, rfl⟩
abbrev main_v59 : Ref sig .tc := ⟨.hbm, 96, rfl⟩
abbrev main_v60 : Ref sig .tc := ⟨.hbm, 97, rfl⟩
abbrev main_c_24 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_call5_call0_c : Ref sig .tc := ⟨.hbm, 104, rfl⟩
abbrev main_call5_call0_v0 : Ref sig .tc := ⟨.hbm, 105, rfl⟩
abbrev main_v66 : Ref sig .tc := ⟨.hbm, 106, rfl⟩
abbrev main_c_25 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_call6_call0_c : Ref sig .tc := ⟨.hbm, 112, rfl⟩
abbrev main_call6_call0_v0 : Ref sig .tc := ⟨.hbm, 113, rfl⟩
abbrev main_v71 : Ref sig .tc := ⟨.hbm, 114, rfl⟩
abbrev main_v72 : Ref sig .tc := ⟨.hbm, 115, rfl⟩
abbrev main_c_26 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_c_27 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_c_28 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_29 : Ref sig .tc := ⟨.hbm, 135, rfl⟩
abbrev main_v89 : Ref sig .tc := ⟨.hbm, 136, rfl⟩
abbrev main_cst_30 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_31 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_cst_32 : Ref sig .tc := ⟨.hbm, 146, rfl⟩
abbrev main_v97 : Ref sig .tc := ⟨.hbm, 147, rfl⟩
abbrev main_cst_33 : Ref sig .tc := ⟨.hbm, 148, rfl⟩
abbrev main_v98 : Ref sig .tc := ⟨.hbm, 149, rfl⟩
abbrev main_cst_34 : Ref sig .tc := ⟨.hbm, 150, rfl⟩
abbrev main_v99 : Ref sig .tc := ⟨.hbm, 151, rfl⟩
abbrev main_v100 : Ref sig .tc := ⟨.hbm, 152, rfl⟩
abbrev main_cst_35 : Ref sig .tc := ⟨.hbm, 153, rfl⟩
abbrev main_call7_v0 : Ref sig .tc := ⟨.hbm, 154, rfl⟩
abbrev main_v101 : Ref sig .tc := ⟨.hbm, 155, rfl⟩

abbrev nD : Nat := 1
abbrev τ : Topo := Topo.v7x

variable {F : FTy → Type} [FloatOps F]

class Facts₀ : Prop where
  shapeCasts_S32x1x1024x1024_S32x1024x1024 : S32x1x1024x1024.ShapeCasts S32x1024x1024
  bcast_S_S32x1024x1024 : S_.BroadcastsInDim S32x1024x1024 (![] : Fin 0 → Fin S32x1024x1024.rank)
  reducesTo_S32x1024x1024_S32_d1_2 : S32x1024x1024.ReducesTo [1, 2] S32
  h_S_ : 0 < S_.numel
  bcast_S_S32 : S_.BroadcastsInDim S32 (![] : Fin 0 → Fin S32.rank)
  bcast_S32_S32x1x1_0 : S32.BroadcastsInDim S32x1x1 (![0] : Fin 1 → Fin S32x1x1.rank)
  bcast_S32x1x1_S32x1024x1024_0_1_2 : S32x1x1.BroadcastsInDim S32x1024x1024 (![0, 1, 2] : Fin 3 → Fin S32x1024x1024.rank)
  reducesTo_S32x1024x1024_S32x1024_d2 : S32x1024x1024.ReducesTo [2] S32x1024
  reducesTo_S32x1024x1024_S32x1024_d1 : S32x1024x1024.ReducesTo [1] S32x1024
  natLt_1_32 : 1 < 32
  bcast_S_S_ : S_.BroadcastsInDim S_ (![] : Fin 0 → Fin S_.rank)
  reduceWindows_S32x1024_S32x1024_w1s1p0_0_w1024s1p1023_0 : S32x1024.ReduceWindows (![1, 1024] : Fin 2 → Nat) ![1, 1] ![0, 1023] ![0, 0] S32x1024
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024_S32x1x1024_0_2 : S32x1024.BroadcastsInDim S32x1x1024 (![0, 2] : Fin 2 → Fin S32x1x1024.rank)
  bcast_S32x1024x1_S32x1024x1024_0_1_2 : S32x1024x1.BroadcastsInDim S32x1024x1024 (![0, 1, 2] : Fin 3 → Fin S32x1024x1024.rank)
  bcast_S32x1x1024_S32x1024x1024_0_1_2 : S32x1x1024.BroadcastsInDim S32x1024x1024 (![0, 1, 2] : Fin 3 → Fin S32x1024x1024.rank)
  reducesTo_S32_S_d0 : S32.ReducesTo [0] S_

variable [Facts₀]

class Facts : Prop extends Facts₀ where

variable [Facts]
-- ==== Proof.Spec.lean ====
/-
  The mathematics of the certificate, stated with no program in sight.

  One sample b of the batch is a 1024 x 1024 image X(b, r, q) of finite reals.  Both programs compute, per sample,
    sigma = 1 / (1 + e^(-X)),   conf = mean |sigma - 1/2|,   area = mean [sigma > 1/2],
    lo = min X, hi = max X,     pn = (X - lo) / (hi - lo + eps),   bn = [pn > 1/2],
    rows r = OR_q bn(r, q),     cols q = OR_r bn(r, q),
  the two spans (first to last set entry of rows, of cols; one chain of integer host operations, shared by both programs
  and kept opaque here: spanOf), the filled rectangle f(r, q) = span_rows r AND span_cols q, the loss
  mean (pn - f)^2 and the flag "f differs from bn somewhere"; the batch's result is one shared function of the per-sample
  loss, weight and flag (wOf, finalOf).
  The kernel side gets these numbers in three passes over row tiles, with f never formed:
    sum (pn - f)^2 = sum pn^2 - 2 sum_r (sum_q pn(r,q) sc q) sr r + (sum_r sr r)(sum_q sc q)      (f in {0,1}, all finite)
    #{f != bn}     = sum bn + (sum sr)(sum sc) - 2 sum_r (sum_q bn(r,q) sc q) sr r                 (an exact count)
  The reference side forms f, also ANDs it with "bn is set somewhere" (which changes nothing: with no bn set the spans are
  empty), and takes the mean and the OR directly.  The definitions with the prefix k are what the kernel side's arrays
  hold, those with the prefix r what the reference's hold; bridge says they are the same numbers.
-/
import Idealize.ShloMosaic.PureOps
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-! ## Shapes and index types -/

abbrev S0 : Shape := ⟨0, ![]⟩
abbrev S32 : Shape := ⟨1, ![32]⟩
abbrev A3 : Shape := ⟨3, ![32, 1024, 1024]⟩
abbrev R2 : Shape := ⟨2, ![32, 1024]⟩
abbrev L2 : Shape := ⟨2, ![32, 128]⟩
/-- A pixel: (row, column). -/
abbrev P : Type := Fin 1024 × Fin 1024

abbrev A4 : Shape := ⟨4, ![32, 1, 1024, 1024]⟩
/-- The batch with its unit channel axis dropped. -/
def xin (h : A4.ShapeCasts A3) (a : A4.Idx → EReal) : A3.Idx → EReal := shapeCast A3 a h

/-- A per-sample quantity as a vector over the batch. -/
def vec32 {α : Type} (f : Fin 32 → α) : S32.Idx → α := fun j => f (j 0)
/-- A per-sample, per-line quantity as a [32, 1024] array. -/
def arr2 {α : Type} (f : Fin 32 → Fin 1024 → α) : R2.Idx → α := fun j => f (j 0) (j 1)

theorem vec32_apply {α : Type} (f : Fin 32 → α) (b : Fin 32) : vec32 f (ix1 b) = f b := rfl
theorem arr2_apply {α : Type} (f : Fin 32 → Fin 1024 → α) (b : Fin 32) (r : Fin 1024) : arr2 f (ix2 b r) = f b r := rfl

/-! ## The literals, as the extended reals their words denote -/

def half : EReal := Ideal.ofBits .f32 0x3F000000#32
def eps : EReal := Ideal.ofBits .f32 0x322BCC77#32
def nTot : EReal := Ideal.ofBits .f32 0x49800000#32
def two : EReal := Ideal.ofBits .f32 0x40000000#32
def onew : EReal := Ideal.ofBits .f32 0x3F800000#32
def zw : EReal := Ideal.ofBits .f32 0x00000000#32
def topw : EReal := Ideal.ofBits .f32 0x7F800000#32
def botw : EReal := Ideal.ofBits .f32 0xFF800000#32
/-- A one-bit word as the real 0 or 1. -/
def bit (w : BitVec 1) : EReal := ((w.toNat : ℝ) : EReal)

/-! ## Per-sample quantities of an image batch X -/

section Sample
variable (X : A3.Idx → EReal)

/-- X at sample b, pixel p. -/
def at3 (b : Fin 32) (p : P) : EReal := X (ix3 b p.1 p.2)
def lo (b : Fin 32) : EReal := (Finset.univ : Finset P).fold min topw (at3 X b)
def hi (b : Fin 32) : EReal := (Finset.univ : Finset P).fold max botw (at3 X b)
/-- The kernel's sigmoid. -/
def sg (b : Fin 32) (p : P) : EReal := Ideal.logistic (at3 X b p)
def conf (b : Fin 32) : EReal := ∑ p : P, max (sg X b p - half) (-(sg X b p - half))
def area (b : Fin 32) : EReal := ∑ p : P, bit (Ideal.cmp .ogt (sg X b p) half)

variable (l h : Fin 32 → EReal)
/-- The min-max normalized image, over given per-sample extremes l, h. -/
def pn (b : Fin 32) (p : P) : EReal := Ideal.div (at3 X b p - l b) (h b - l b + eps)
def bn (b : Fin 32) (p : P) : BitVec 1 := Ideal.cmp .ogt (pn X l h b p) half
/-- Row r's "any" as the kernel takes it: the maximum over the columns of the 0/1 image, from -inf. -/
def rowF (b : Fin 32) (r : Fin 1024) : EReal := (Finset.univ : Finset (Fin 1024)).fold max botw fun q => bit (bn X l h b (r, q))
/-- Column q's "any" as the kernel accumulates it: the maximum over the rows of the 0/1 image, from 0. -/
def colF (b : Fin 32) (q : Fin 1024) : EReal := (Finset.univ : Finset (Fin 1024)).fold max zw fun r => bit (bn X l h b (r, q))
def sumsq (b : Fin 32) : EReal := ∑ p : P, pn X l h b p * pn X l h b p
def binsum (b : Fin 32) : EReal := ∑ p : P, bit (bn X l h b p)
variable (sr sc : Fin 32 → Fin 1024 → EReal)
def crossPn (b : Fin 32) : EReal := ∑ r : Fin 1024, (∑ q : Fin 1024, pn X l h b (r, q) * sc b q) * sr b r
def crossBn (b : Fin 32) : EReal := ∑ r : Fin 1024, (∑ q : Fin 1024, bit (bn X l h b (r, q)) * sc b q) * sr b r

end Sample

/-! ## The host chains both programs share, kept as functions of their inputs -/

section Host
variable {F : FTy → Type} [FloatOps F]
variable (hb : S0.BroadcastsInDim S32 (![] : Fin 0 → Fin S32.rank)) (hr : S32.ReducesTo [0] S0) (h0 : 0 < S0.numel)

/-- The adaptive weight from confidence and area ratio: 0.4, doubled / times 1.5 / halved by three tests. -/
def wOf (cf ar : FVec F S32 .f32) : FVec F S32 .f32 :=
  mulf (mulf (mulf (broadcastInDim S32 ![] hb (constant S0 .f32 0x3ECCCCCD#32))
        (id (select (cmpf .olt cf (broadcastInDim S32 ![] hb (constant S0 .f32 0x3E99999A#32)))
          (broadcastInDim S32 ![] hb (constant S0 .f32 0x40000000#32)) (broadcastInDim S32 ![] hb (constant S0 .f32 0x3F800000#32)))))
      (id (select (cmpf .olt ar (broadcastInDim S32 ![] hb (constant S0 .f32 0x3D4CCCCD#32)))
          (broadcastInDim S32 ![] hb (constant S0 .f32 0x3FC00000#32)) (broadcastInDim S32 ![] hb (constant S0 .f32 0x3F800000#32)))))
    (id (select (andi (cmpf .ogt cf (broadcastInDim S32 ![] hb (constant S0 .f32 0x3ECCCCCD#32))) (cmpf .ogt ar (broadcastInDim S32 ![] hb (constant S0 .f32 0x3DCCCCCD#32))))
          (broadcastInDim S32 ![] hb (constant S0 .f32 0x3F000000#32)) (broadcastInDim S32 ![] hb (constant S0 .f32 0x3F800000#32))))

/-- The batch's result from the weighted losses and the validity flags: the mean over the valid samples, 0 if none. -/
def finalOf (lw : FVec F S32 .f32) (vb : IVec S32 1) : FVec F S0 .f32 :=
  select (cmpf .ogt (Host.reduceAdd (uitofp (F := F) .f32 vb) (constant S0 .f32 0x00000000#32) hr h0) (constant S0 .f32 0x00000000#32))
    (Host.divf (Host.reduceAdd (mulf lw (uitofp (F := F) .f32 vb)) (constant S0 .f32 0x00000000#32) hr h0)
      (maximumf (Host.reduceAdd (uitofp (F := F) .f32 vb) (constant S0 .f32 0x00000000#32) hr h0) (constant S0 .f32 0x3F800000#32)))
    (id (constant S0 .f32 0x00000000#32))

variable (hrw : R2.ReduceWindows (![1, 1024] : Fin 2 → Nat) ![1, 1] ![0, 1023] ![0, 0] R2)
  (hbS : S0.BroadcastsInDim S0 (![] : Fin 0 → Fin S0.rank)) (hbR : S0.BroadcastsInDim R2 (![] : Fin 0 → Fin R2.rank))

/-- The running count along a line (jnp.cumsum as jax lowers it: a window of 1024 padded 1023 low). -/
def cumsum (a : IVec R2 32) : IVec R2 32 :=
  Host.reduceWindow IntOp.addi ![1, 1024] ![1, 1] ![0, 1023] ![0, 0] a (broadcastInDim S0 ![] hbS (constantI S0 32 0#32)) hrw h0
/-- The span of a 0/1 line a (a' the same line reversed): set from the first set entry to the last. -/
def spanOf (a a' : IVec R2 32) : IVec R2 1 :=
  andi (cmpi .sgt (cumsum h0 hrw hbS a) (broadcastInDim R2 ![] hbR (constantI S0 32 0#32)))
    (cmpi .sgt (Host.reverse [1] (cumsum h0 hrw hbS a')) (broadcastInDim R2 ![] hbR (constantI S0 32 0#32)))

end Host

/-! ## What the kernel side's arrays hold, and what the reference's hold -/

section Sides
variable (h0 : 0 < S0.numel) (hrw : R2.ReduceWindows (![1, 1024] : Fin 2 → Nat) ![1, 1] ![0, 1023] ![0, 0] R2)
  (hbS : S0.BroadcastsInDim S0 (![] : Fin 0 → Fin S0.rank)) (hbR : S0.BroadcastsInDim R2 (![] : Fin 0 → Fin R2.rank))
variable (X : A3.Idx → EReal)

/-- The kernel side's row-any and column-any arrays, and its spans as f32 0/1: the shared span chain on those arrays
    converted to i32. -/
def kRowArr : FVec Ideal R2 .f32 := arr2 (rowF X (lo X) (hi X))
def kColArr : FVec Ideal R2 .f32 := arr2 (colF X (lo X) (hi X))
def kSr : FVec Ideal R2 .f32 :=
  uitofp .f32 (spanOf h0 hrw hbS hbR (fptosi 32 (kRowArr X)) (fptosi 32 (Host.reverse [1] (kRowArr X))))
def kSc : FVec Ideal R2 .f32 :=
  uitofp .f32 (spanOf h0 hrw hbS hbR (fptosi 32 (kColArr X)) (fptosi 32 (Host.reverse [1] (kColArr X))))
def kRc (b : Fin 32) : EReal := zw + ∑ r : Fin 1024, kSr h0 hrw hbS hbR X (ix2 b r)
def kCc (b : Fin 32) : EReal := zw + ∑ q : Fin 1024, kSc h0 hrw hbS hbR X (ix2 b q)
def kConf (b : Fin 32) : EReal := Ideal.div (conf X b) nTot
def kArea (b : Fin 32) : EReal := Ideal.div (area X b) nTot
def kLoss (b : Fin 32) : EReal :=
  Ideal.div ((sumsq X (lo X) (hi X) b
      - two * crossPn X (lo X) (hi X) (fun b r => kSr h0 hrw hbS hbR X (ix2 b r)) (fun b q => kSc h0 hrw hbS hbR X (ix2 b q)) b)
    + kRc h0 hrw hbS hbR X b * kCc h0 hrw hbS hbR X b) nTot
def kValid (b : Fin 32) : BitVec 1 :=
  Ideal.cmp .ogt ((binsum X (lo X) (hi X) b + kRc h0 hrw hbS hbR X b * kCc h0 hrw hbS hbR X b)
    - two * crossBn X (lo X) (hi X) (fun b r => kSr h0 hrw hbS hbR X (ix2 b r)) (fun b q => kSc h0 hrw hbS hbR X (ix2 b q)) b) half

/-- The reference's sigmoid, spelled out. -/
def rsg (b : Fin 32) (p : P) : EReal := Ideal.div onew (onew + Ideal.exp (-(at3 X b p)))
def rConf (b : Fin 32) : EReal := Ideal.div (zw + ∑ p : P, max (rsg X b p - half) (-(rsg X b p - half))) nTot
def rArea (b : Fin 32) : EReal := Ideal.div (zw + ∑ p : P, bit (Ideal.cmp .ogt (rsg X b p) half)) nTot
def rRows (b : Fin 32) (r : Fin 1024) : BitVec 1 := (Finset.univ : Finset (Fin 1024)).fold IntOp.ori 0#1 fun q => bn X (lo X) (hi X) b (r, q)
def rCols (b : Fin 32) (q : Fin 1024) : BitVec 1 := (Finset.univ : Finset (Fin 1024)).fold IntOp.ori 0#1 fun r => bn X (lo X) (hi X) b (r, q)
def rAny (b : Fin 32) : BitVec 1 := (Finset.univ : Finset P).fold IntOp.ori 0#1 fun p => bn X (lo X) (hi X) b p
def rSr : R2.Idx → BitVec 1 :=
  spanOf h0 hrw hbS hbR (extui 32 (arr2 (rRows X)) (by decide)) (extui 32 (Host.reverse [1] (arr2 (rRows X))) (by decide))
def rSc : R2.Idx → BitVec 1 :=
  spanOf h0 hrw hbS hbR (extui 32 (arr2 (rCols X)) (by decide)) (extui 32 (Host.reverse [1] (arr2 (rCols X))) (by decide))
/-- The filled rectangle, as the reference forms it. -/
def rFill (b : Fin 32) (p : P) : BitVec 1 :=
  IntOp.andi (IntOp.andi (rSr h0 hrw hbS hbR X (ix2 b p.1)) (rSc h0 hrw hbS hbR X (ix2 b p.2))) (rAny X b)
def rLoss (b : Fin 32) : EReal :=
  Ideal.div (zw + ∑ p : P, (pn X (lo X) (hi X) b p - bit (rFill h0 hrw hbS hbR X b p)) * (pn X (lo X) (hi X) b p - bit (rFill h0 hrw hbS hbR X b p))) nTot
def rValid (b : Fin 32) : BitVec 1 :=
  (Finset.univ : Finset P).fold IntOp.ori 0#1 fun p => IntOp.cmpi .ne (rFill h0 hrw hbS hbR X b p) (bn X (lo X) (hi X) b p)

end Sides

end Cert.Spec

end
-- ==== Proof.KDefs.lean ====
/-
  Names for what the kernel side's three passes are entered with and leave, at the ideal instance: the arrays a pass
  reads (the image, the extremes' arrays, the two span arrays) as functions of the entry contents V, and the shared
  host chains instantiated at this program's shape facts.
-/
import proofs.«117029_j24532853195288_1_alg».proof.Proof.Gen.KernelIdeal.Frame
import proofs.«117029_j24532853195288_1_alg».proof.Proof.Spec

noncomputable section

namespace Cert.KernelIdeal.Val

open Cert.KernelIdeal Cert.KernelIdeal.Gen Idealize.ShloMosaic Idealize.ShloMosaic.TcCoe Idealize.ShloMosaic.ValueIdx Idealize.SL.Sem

/-- The TensorCore's buffer contents a pass is entered with. -/
abbrev Entry : Type := (c : Dev nD) → (b : Ref sig .tc) → Buf (Elt Ideal) ((c : Thread nD τ).loc b)

variable (V : Entry)

/-- The image batch a pass reads. -/
abbrev xOf (c : Dev nD) : FVec Ideal S32x1024x1024 .f32 := V c main_v0
/-- The per-sample minimum and maximum as passes 2 and 3 read them: lane 0 of the [32, 128] arrays. -/
abbrev loArr (c : Dev nD) : FVec Ideal S32x128 .f32 := V c main_v1_0
abbrev hiArr (c : Dev nD) : FVec Ideal S32x128 .f32 := V c main_v1_1
abbrev loOf (c : Dev nD) : Fin 32 → EReal := fun b => loArr V c (ix2 b 0)
abbrev hiOf (c : Dev nD) : Fin 32 → EReal := fun b => hiArr V c (ix2 b 0)
/-- The row and column spans pass 3 reads. -/
abbrev srArr (c : Dev nD) : FVec Ideal S32x1024 .f32 := V c main_v26
abbrev scArr (c : Dev nD) : FVec Ideal S32x1024 .f32 := V c main_v38
abbrev srOf (c : Dev nD) : Fin 32 → Fin 1024 → EReal := fun b r => srArr V c (ix2 b r)
abbrev scOf (c : Dev nD) : Fin 32 → Fin 1024 → EReal := fun b q => scArr V c (ix2 b q)

/-- The per-sample vectors the host side carries between the passes. -/
abbrev v5Of (c : Dev nD) : FVec Ideal S32 .f32 := V c main_v5
abbrev v9Of (c : Dev nD) : FVec Ideal S32 .f32 := V c main_v9
abbrev v12Of (c : Dev nD) : FVec Ideal S32 .f32 := V c main_v12
abbrev v14Of (c : Dev nD) : FVec Ideal S32 .f32 := V c main_v14
abbrev v41Of (c : Dev nD) : FVec Ideal S32 .f32 := V c main_v41
/-- Pass 1's result arrays after the pass (entered with V): minimum, maximum, confidence sum, area count. -/
abbrev lo0 (c : Dev nD) : FVec Ideal S32x128 .f32 := (dat0 (F := Ideal) V c).arrAt 1 cfg0.N
abbrev hi0 (c : Dev nD) : FVec Ideal S32x128 .f32 := (dat0 (F := Ideal) V c).arrAt 2 cfg0.N
abbrev conf0 (c : Dev nD) : FVec Ideal S32x128 .f32 := (dat0 (F := Ideal) V c).arrAt 3 cfg0.N
abbrev area0 (c : Dev nD) : FVec Ideal S32x128 .f32 := (dat0 (F := Ideal) V c).arrAt 4 cfg0.N
/-- Pass 2's: row any, column any, squared-image sum, thresholded count. -/
abbrev rows1 (c : Dev nD) : FVec Ideal S32x1024 .f32 := (dat1 (F := Ideal) V c).arrAt 3 cfg1.N
abbrev cols1 (c : Dev nD) : FVec Ideal S32x1024 .f32 := (dat1 (F := Ideal) V c).arrAt 4 cfg1.N
abbrev sumsq1 (c : Dev nD) : FVec Ideal S32x128 .f32 := (dat1 (F := Ideal) V c).arrAt 5 cfg1.N
abbrev binsum1 (c : Dev nD) : FVec Ideal S32x128 .f32 := (dat1 (F := Ideal) V c).arrAt 6 cfg1.N
/-- Pass 3's: the two cross terms. -/
abbrev cpn2 (c : Dev nD) : FVec Ideal S32x128 .f32 := (dat2 (F := Ideal) V c).arrAt 5 cfg2.N
abbrev cbn2 (c : Dev nD) : FVec Ideal S32x128 .f32 := (dat2 (F := Ideal) V c).arrAt 6 cfg2.N

/-- The shared host chains at this program's shape facts. -/
abbrev kSpan (a a' : IVec S32x1024 32) : IVec S32x1024 1 :=
  Cert.Spec.spanOf Gen.h_S_ Gen.reduceWindows_S32x1024_S32x1024_w1s1p0_0_w1024s1p1023_0 Gen.bcast_S_S_ Gen.bcast_S_S32x1024 a a'
abbrev kW (cf ar : FVec Ideal S32 .f32) : FVec Ideal S32 .f32 := Cert.Spec.wOf Gen.bcast_S_S32 cf ar
abbrev kFinal (lw : FVec Ideal S32 .f32) (vb : IVec S32 1) : FVec Ideal S_ .f32 := Cert.Spec.finalOf Gen.reducesTo_S32_S_d0 Gen.h_S_ lw vb

/-- A boundary's contents read at the TensorCore's references. -/
abbrev VK (W : Dev nD → Valuation τ sig (Elt Ideal)) : Entry := fun c b => W c b

/-- The image batch as @main's first operation leaves it: the argument with its unit axis dropped. -/
abbrev Xk (m : (ℓ : Loc nD τ sig) → Buf (Elt Ideal) ℓ) (c : Dev nD) : FVec Ideal S32x1024x1024 .f32 :=
  Cert.Spec.xin Gen.shapeCasts_S32x1x1024x1024_S32x1024x1024 (m ((c : Thread nD τ).loc main_arg0))

end Cert.KernelIdeal.Val

end
-- ==== Proof.LibFiber.lean ====
/-
  General lemmas: a reduction over some axes of a rank-3 or rank-2 array, read at an index given by its coordinates, as a sum or
  a fold over the coordinates of the reduced axes; and a sum or fold over 0 .. T*K - 1 cut into T runs of K.
-/
import Idealize.ShloMosaic.PureOps
import Idealize.ShloMosaic.PureOps.Ideal
import Idealize.ShloMosaic.PureOps.Ideal.Laws
import Idealize.ShloMosaic.PureOps.Reduce
import Idealize.ShloMosaic.Lib.ValueIdx

noncomputable section

namespace Cert.LibFiber

open Idealize.ShloMosaic Idealize.ShloMosaic.ValueIdx
open scoped BigOperators

variable {A B C : Nat}

abbrev T3 (A B C : Nat) : Shape := ⟨3, ![A, B, C]⟩
abbrev T2 (A B : Nat) : Shape := ⟨2, ![A, B]⟩
abbrev T1 (A : Nat) : Shape := ⟨1, ![A]⟩
abbrev T0 : Shape := ⟨0, ![]⟩

/-! ## The index over a reduced index with the dropped coordinate put back, by coordinates -/

/-- Last axis of a rank-3 array dropped: the index over (a, b) with q on the last axis is (a, b, q). -/
theorem lift_3_2 (h : (T3 A B C).Reduces [2] (T2 A B)) (a : Fin A) (b : Fin B) (q : Fin C) :
    h.lift (ix2 a b) q = ix3 a b q := by
  funext d
  match d with
  | ⟨0, _⟩ => exact Fin.ext rfl
  | ⟨1, _⟩ => exact Fin.ext rfl
  | ⟨2, _⟩ => exact Fin.ext rfl

/-- Middle axis of a rank-3 array dropped: the index over (a, q) with r on the middle axis is (a, r, q). -/
theorem lift_3_1 (h : (T3 A B C).Reduces [1] (T2 A C)) (a : Fin A) (q : Fin C) (r : Fin B) :
    h.lift (ix2 a q) r = ix3 a r q := by
  funext d
  match d with
  | ⟨0, _⟩ => exact Fin.ext rfl
  | ⟨1, _⟩ => exact Fin.ext rfl
  | ⟨2, _⟩ => exact Fin.ext rfl

/-- Last axis of a rank-2 array dropped: the index over a with r on the last axis is (a, r). -/
theorem lift_2_1 (h : (T2 A B).Reduces [1] (T1 A)) (a : Fin A) (r : Fin B) :
    h.lift (ix1 a) r = ix2 a r := by
  funext d
  match d with
  | ⟨0, _⟩ => exact Fin.ext rfl
  | ⟨1, _⟩ => exact Fin.ext rfl

/-! ## The indices of a rank-3 array that drop to a under removal of the two trailing axes -/

/-- With the two trailing axes removed, the kept coordinate is the leading one. -/
theorem drop_3_12_val (h' : (T3 A B C).ReducesTo [1, 2] (T1 A)) (i : (T3 A B C).Idx) :
    (h'.drop i 0 : Nat) = (i 0 : Nat) := rfl

/-- (a, r, q) determines (r, q). -/
theorem ix3_pair_injective (a : Fin A) :
    Function.Injective fun p : Fin B × Fin C => (ix3 a p.1 p.2 : (T3 A B C).Idx) :=
  fun p p' e => Prod.ext (congrFun e 1) (congrFun e 2)

/-- The indices that drop to a are exactly the (a, r, q). -/
theorem filter_3_12 (h' : (T3 A B C).ReducesTo [1, 2] (T1 A)) (a : Fin A) :
    (Finset.univ.filter fun i : (T3 A B C).Idx => h'.drop i = ix1 a)
      = Finset.univ.image fun p : Fin B × Fin C => (ix3 a p.1 p.2 : (T3 A B C).Idx) := by
  ext i
  simp only [Finset.mem_filter, Finset.mem_univ, true_and, Finset.mem_image]
  constructor
  · intro hi
    have h0 : (i 0 : Nat) = a :=
      (drop_3_12_val h' i).symm.trans (congrArg (fun j : (T1 A).Idx => (j 0 : Nat)) hi)
    refine ⟨(i 1, i 2), ?_⟩
    funext d
    match d with
    | ⟨0, _⟩ => exact Fin.ext h0.symm
    | ⟨1, _⟩ => rfl
    | ⟨2, _⟩ => rfl
  · rintro ⟨p, rfl⟩
    funext d
    match d with
    | ⟨0, _⟩ => exact Fin.ext (drop_3_12_val h' _)

/-! ## The host's reductions (stablehlo.reduce), at the ideal values -/

/-- A host float sum over the two trailing axes of a rank-3 array: the initial value plus the sum over both coordinates. -/
theorem hostAdd_3_12 (h' : (T3 A B C).ReducesTo [1, 2] (T1 A)) (x : (T3 A B C).Idx → EReal) (init : EReal) (a : Fin A) :
    Ideal.hostReduceAdd h' x init (ix1 a) = init + ∑ p : Fin B × Fin C, x (ix3 a p.1 p.2) := by
  unfold Ideal.hostReduceAdd
  rw [filter_3_12 h' a, Finset.sum_image fun p _ p' _ e => ix3_pair_injective a e]

/-- A host float sum over the trailing axis of a rank-2 array. -/
theorem hostAdd_2_1 (h' : (T2 A B).ReducesTo [1] (T1 A)) (x : (T2 A B).Idx → EReal) (init : EReal) (a : Fin A) :
    Ideal.hostReduceAdd h' x init (ix1 a) = init + ∑ r : Fin B, x (ix2 a r) :=
  have h : (T2 A B).Reduces [1] (T1 A) := ⟨h'.1, Nat.one_pos, h'.2⟩
  (Ideal.hostReduceAdd_single h' h x init (ix1 a)).trans
    (congrArg (init + ·) (Finset.sum_congr rfl fun r _ => congrArg x (lift_2_1 h a r)))

/-- A host reduce by a commutative, associative operation over the two trailing axes of a rank-3 array. -/
theorem hostFold_3_12 {α : Type} (f : α → α → α) [Std.Commutative f] [Std.Associative f]
    (h' : (T3 A B C).ReducesTo [1, 2] (T1 A)) (x : (T3 A B C).Idx → α) (init : T0.Idx → α) (hu : 0 < T0.numel) (a : Fin A) :
    Host.reduce f x init h' hu (ix1 a)
      = (Finset.univ : Finset (Fin B × Fin C)).fold f (init (Shape.Idx.first hu)) fun p => x (ix3 a p.1 p.2) := by
  rw [Host.reduce_eq_fold, filter_3_12 h' a, Finset.fold_image fun p _ p' _ e => ix3_pair_injective a e]
  rfl

/-- … over the last axis. -/
theorem hostFold_3_2 {α : Type} (f : α → α → α) [Std.Commutative f] [Std.Associative f]
    (h' : (T3 A B C).ReducesTo [2] (T2 A B)) (x : (T3 A B C).Idx → α) (init : T0.Idx → α) (hu : 0 < T0.numel) (a : Fin A) (b : Fin B) :
    Host.reduce f x init h' hu (ix2 a b)
      = (Finset.univ : Finset (Fin C)).fold f (init (Shape.Idx.first hu)) fun q => x (ix3 a b q) :=
  have h : (T3 A B C).Reduces [2] (T2 A B) := ⟨h'.1, Nat.two_pos, h'.2⟩
  (Host.reduce_eq_fold_single f x init h' h hu (ix2 a b)).trans
    (congrArg (Finset.fold f (init (Shape.Idx.first hu)) · (Finset.univ : Finset (Fin C)))
      (funext fun q => congrArg x (lift_3_2 h a b q)))

/-- … over the middle axis. -/
theorem hostFold_3_1 {α : Type} (f : α → α → α) [Std.Commutative f] [Std.Associative f]
    (h' : (T3 A B C).ReducesTo [1] (T2 A C)) (x : (T3 A B C).Idx → α) (init : T0.Idx → α) (hu : 0 < T0.numel) (a : Fin A) (q : Fin C) :
    Host.reduce f x init h' hu (ix2 a q)
      = (Finset.univ : Finset (Fin B)).fold f (init (Shape.Idx.first hu)) fun r => x (ix3 a r q) :=
  have h : (T3 A B C).Reduces [1] (T2 A C) := ⟨h'.1, Nat.two_pos, h'.2⟩
  (Host.reduce_eq_fold_single f x init h' h hu (ix2 a q)).trans
    (congrArg (Finset.fold f (init (Shape.Idx.first hu)) · (Finset.univ : Finset (Fin B)))
      (funext fun r => congrArg x (lift_3_1 h a q r)))

/-! ## A kernel's reductions (vector.multi_reduction), at the ideal values -/

variable {φ : FTy}

/-- A float minimum over one axis: the fold of min from the accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

theorem mrAdd_3_2 (src : FVec Ideal (T3 A B C) φ) (acc : BitVec φ.bits) (h : (T3 A B C).Reduces [2] (T2 A B))
    (hφ : FKind.Formats φ) (hacc : acc = FKind.add.neutral φ hφ) (a : Fin A) (b : Fin B) :
    multiReduction .add [2] (T2 A B) src acc h hφ hacc (ix2 a b) = ∑ q : Fin C, src (ix3 a b q) :=
  (Ideal.multiReduction_add_single src acc h hφ hacc (ix2 a b)).trans
    (Finset.sum_congr rfl fun q _ => congrArg src (lift_3_2 h a b q))

theorem mrAdd_2_1 (src : FVec Ideal (T2 A B) φ) (acc : BitVec φ.bits) (h : (T2 A B).Reduces [1] (T1 A))
    (hφ : FKind.Formats φ) (hacc : acc = FKind.add.neutral φ hφ) (a : Fin A) :
    multiReduction .add [1] (T1 A) src acc h hφ hacc (ix1 a) = ∑ r : Fin B, src (ix2 a r) :=
  (Ideal.multiReduction_add_single src acc h hφ hacc (ix1 a)).trans
    (Finset.sum_congr rfl fun r _ => congrArg src (lift_2_1 h a r))

theorem mrMax_3_2 (src : FVec Ideal (T3 A B C) φ) (acc : BitVec φ.bits) (h : (T3 A B C).Reduces [2] (T2 A B))
    (hφ : FKind.Formats φ) (hacc : acc = FKind.maximumf.neutral φ hφ) (a : Fin A) (b : Fin B) :
    multiReduction .maximumf [2] (T2 A B) src acc h hφ hacc (ix2 a b)
      = (Finset.univ : Finset (Fin C)).fold max (Ideal.ofBits φ acc) fun q => src (ix3 a b q) :=
  (Ideal.multiReduction_maximumf_single src acc h hφ hacc (ix2 a b)).trans
    (congrArg (Finset.fold max (Ideal.ofBits φ acc) · (Finset.univ : Finset (Fin C)))
      (funext fun q => congrArg src (lift_3_2 h a b q)))

theorem mrMax_3_1 (src : FVec Ideal (T3 A B C) φ) (acc : BitVec φ.bits) (h : (T3 A B C).Reduces [1] (T2 A C))
    (hφ : FKind.Formats φ) (hacc : acc = FKind.maximumf.neutral φ hφ) (a : Fin A) (q : Fin C) :
    multiReduction .maximumf [1] (T2 A C) src acc h hφ hacc (ix2 a q)
      = (Finset.univ : Finset (Fin B)).fold max (Ideal.ofBits φ acc) fun r => src (ix3 a r q) :=
  (Ideal.multiReduction_maximumf_single src acc h hφ hacc (ix2 a q)).trans
    (congrArg (Finset.fold max (Ideal.ofBits φ acc) · (Finset.univ : Finset (Fin B)))
      (funext fun r => congrArg src (lift_3_1 h a q r)))

theorem mrMax_2_1 (src : FVec Ideal (T2 A B) φ) (acc : BitVec φ.bits) (h : (T2 A B).Reduces [1] (T1 A))
    (hφ : FKind.Formats φ) (hacc : acc = FKind.maximumf.neutral φ hφ) (a : Fin A) :
    multiReduction .maximumf [1] (T1 A) src acc h hφ hacc (ix1 a)
      = (Finset.univ : Finset (Fin B)).fold max (Ideal.ofBits φ acc) fun r => src (ix2 a r) :=
  (Ideal.multiReduction_maximumf_single src acc h hφ hacc (ix1 a)).trans
    (congrArg (Finset.fold max (Ideal.ofBits φ acc) · (Finset.univ : Finset (Fin B)))
      (funext fun r => congrArg src (lift_2_1 h a r)))

theorem mrMin_3_2 (src : FVec Ideal (T3 A B C) φ) (acc : BitVec φ.bits) (h : (T3 A B C).Reduces [2] (T2 A B))
    (hφ : FKind.Formats φ) (hacc : acc = FKind.minimumf.neutral φ hφ) (a : Fin A) (b : Fin B) :
    multiReduction .minimumf [2] (T2 A B) src acc h hφ hacc (ix2 a b)
      = (Finset.univ : Finset (Fin C)).fold min (Ideal.ofBits φ acc) fun q => src (ix3 a b q) :=
  (multiReduction_minimumf_single src acc h hφ hacc (ix2 a b)).trans
    (congrArg (Finset.fold min (Ideal.ofBits φ acc) · (Finset.univ : Finset (Fin C)))
      (funext fun q => congrArg src (lift_3_2 h a b q)))

theorem mrMin_2_1 (src : FVec Ideal (T2 A B) φ) (acc : BitVec φ.bits) (h : (T2 A B).Reduces [1] (T1 A))
    (hφ : FKind.Formats φ) (hacc : acc = FKind.minimumf.neutral φ hφ) (a : Fin A) :
    multiReduction .minimumf [1] (T1 A) src acc h hφ hacc (ix1 a)
      = (Finset.univ : Finset (Fin B)).fold min (Ideal.ofBits φ acc) fun r => src (ix2 a r) :=
  (multiReduction_minimumf_single src acc h hφ hacc (ix1 a)).trans
    (congrArg (Finset.fold min (Ideal.ofBits φ acc) · (Finset.univ : Finset (Fin B)))
      (funext fun r => congrArg src (lift_2_1 h a r)))

/-! ## 0 .. T*K - 1 as T runs of K -/

/-- The position K*t + i of a run's entry. -/
def tileIx (T K : Nat) (t : Fin T) (i : Fin K) : Fin (T * K) :=
  ⟨K * t.val + i.val, by
    have h1 := t.isLt; have h2 := i.isLt
    calc K * t.val + i.val < K * t.val + K := by omega
      _ = K * (t.val + 1) := by ring
      _ ≤ K * T := Nat.mul_le_mul_left K h1
      _ = T * K := Nat.mul_comm K T⟩

/-- The position of a run's entry is the image of (run, place in the run) under the standard pairing of
    Fin T × Fin K with Fin (T * K). -/
theorem tileIx_eq (T K : Nat) (t : Fin T) (i : Fin K) : tileIx T K t i = finProdFinEquiv (t, i) :=
  Fin.ext (Nat.add_comm _ _)

theorem sum_tile {M : Type*} [AddCommMonoid M] (T K : Nat) (f : Fin (T * K) → M) :
    ∑ r : Fin (T * K), f r = ∑ t : Fin T, ∑ i : Fin K, f (tileIx T K t i) := by
  rw [← Equiv.sum_comp finProdFinEquiv f, Fintype.sum_prod_type]
  exact Finset.sum_congr rfl fun t _ => Finset.sum_congr rfl fun i _ => congrArg f (tileIx_eq T K t i).symm

/-- A fold of a constant e with op e e = e stays e. -/
theorem fold_const_idem {ι α : Type*} (op : α → α → α) [Std.Commutative op] [Std.Associative op] (e : α) (he : op e e = e)
    (s : Finset ι) : s.fold op e (fun _ => e) = e := by
  induction s using Finset.cons_induction with
  | empty => rfl
  | cons a s ha ih => rw [Finset.fold_cons, ih, he]

/-- A fold over a product set from a value e with op e e = e: the fold over the first coordinate of the folds over the second. -/
theorem fold_product {ι κ α : Type*} (op : α → α → α) [Std.Commutative op] [Std.Associative op] (e : α) (he : op e e = e)
    (s : Finset ι) (t : Finset κ) (f : ι × κ → α) :
    (s ×ˢ t).fold op e f = s.fold op e fun a => t.fold op e fun b => f (a, b) := by
  classical
  induction s using Finset.induction_on with
  | empty => simp
  | insert a s ha ih =>
    rw [Finset.fold_insert ha, ← ih]
    have hd : Disjoint (t.map ⟨Prod.mk a, Prod.mk_right_injective a⟩) (s ×ˢ t) := by
      rw [Finset.disjoint_left]
      intro p hp hq
      obtain ⟨b, _, rfl⟩ := Finset.mem_map.1 hp
      exact ha (Finset.mem_product.1 hq).1
    have hu : insert a s ×ˢ t = (t.map ⟨Prod.mk a, Prod.mk_right_injective a⟩).disjUnion (s ×ˢ t) hd := by
      ext p
      simp only [Finset.mem_product, Finset.mem_insert, Finset.mem_disjUnion, Finset.mem_map, Function.Embedding.coeFn_mk]
      constructor
      · rintro ⟨h1 | h1, h2⟩
        · exact Or.inl ⟨p.2, h2, by rw [← h1]⟩
        · exact Or.inr ⟨h1, h2⟩
      · rintro (⟨b, hb, rfl⟩ | ⟨h1, h2⟩)
        · exact ⟨Or.inl rfl, hb⟩
        · exact ⟨Or.inr h1, h2⟩
    rw [hu]
    refine (congrArg (fun b => Finset.fold op b f _) he.symm).trans ?_
    rw [Finset.fold_disjUnion, Finset.fold_map]
    rfl

theorem fold_tile {α : Type*} (op : α → α → α) [Std.Commutative op] [Std.Associative op] (e : α) (he : op e e = e)
    (T K : Nat) (f : Fin (T * K) → α) :
    (Finset.univ : Finset (Fin (T * K))).fold op e f
      = (Finset.univ : Finset (Fin T)).fold op e fun t => (Finset.univ : Finset (Fin K)).fold op e fun i => f (tileIx T K t i) := by
  rw [← Finset.map_univ_equiv finProdFinEquiv, Finset.fold_map, ← Finset.univ_product_univ, fold_product op e he]
  exact Finset.fold_congr fun t _ => Finset.fold_congr fun i _ => congrArg f (tileIx_eq T K t i).symm

/-- Sums over rows and columns as one sum over pixels. -/
theorem sum_pair {M : Type*} [AddCommMonoid M] (f : Fin B × Fin C → M) :
    ∑ p : Fin B × Fin C, f p = ∑ r : Fin B, ∑ q : Fin C, f (r, q) := Fintype.sum_prod_type f

theorem fold_pair {α : Type*} (op : α → α → α) [Std.Commutative op] [Std.Associative op] (e : α) (he : op e e = e)
    (f : Fin B × Fin C → α) :
    (Finset.univ : Finset (Fin B × Fin C)).fold op e f
      = (Finset.univ : Finset (Fin B)).fold op e fun r => (Finset.univ : Finset (Fin C)).fold op e fun q => f (r, q) := by
  rw [← Finset.univ_product_univ]
  exact fold_product op e he _ _ f

end Cert.LibFiber

end
-- ==== Proof.KHostA.lean ====
/-
  The host operations before pass 1 and between passes 1 and 2, read off the boundary contents: the image batch is the argument with
  its unit axis dropped and is still there at pass 2's entry; pass 1's minimum and maximum arrays are what pass 2 is entered with; the
  confidence and the area ratio are lane 0 of pass 1's sums divided by the pixel count.
-/
import proofs.«117029_j24532853195288_1_alg».proof.Proof.KDefs
import proofs.«117029_j24532853195288_1_alg».proof.Proof.LibFiber
import Idealize.ShloMosaic.Lib.StableHlo.Run
import Idealize.ShloMosaic.Lib.Pipeline.Value
import Idealize.ShloMosaic.Lib.ValueLayout

noncomputable section

namespace Cert.KernelIdeal.Val

open Cert.KernelIdeal Cert.KernelIdeal.Gen Idealize.ShloMosaic Idealize.ShloMosaic.TcCoe Idealize.ShloMosaic.ValueIdx Idealize.SL.Sem Idealize.ShloMosaic.Pipeline
open scoped BigOperators

variable (m : (ℓ : Loc nD τ sig) → Buf (Elt Ideal) ℓ) (ρ : Dev nD → PrngReg)

/-- The one operation before pass 1 is the reshape of the argument: its result buffer holds the argument's shape cast. -/
theorem V1_v0 (c : Dev nD) : xOf (V1 m ρ) c = Xk m c := by
  show StableHlo.after hostOps0 (W0 m ρ c) (Proc.devRef .tc main_v0) = _
  after_results
  rfl

/-- No operation between passes 1 and 2 writes the image batch, and pass 1 only reads it. -/
theorem V3_v0 (c : Dev nD) : xOf (V3 m ρ) c = Xk m c := by
  have e3 : W3 m ρ c (Proc.devRef .tc main_v0) = W2 m ρ c (Proc.devRef .tc main_v0) := by
    show StableHlo.after hostOps1 (W2 m ρ c) (Proc.devRef .tc main_v0) = _
    after_results
  have e2 : W2 m ρ c (Proc.devRef .tc main_v0) = (dat0 (V1 m ρ) c).arrAt 0 cfg0.N := W2_arr m ρ c 0
  have e1 : (dat0 (V1 m ρ) c).arrAt 0 cfg0.N = (dat0 (V1 m ρ) c).A 0 := Dat.arrAt_in _ 0 rfl _
  have e0 : (dat0 (V1 m ρ) c).A 0 = V1 m ρ c main_v0 := A_eq0 (V1 m ρ) c 0
  exact (e3.trans (e2.trans (e1.trans e0))).trans (V1_v0 m ρ c)

/-- No operation between passes 1 and 2 writes pass 1's minimum array. -/
theorem V3_lo (c : Dev nD) : loArr (V3 m ρ) c = lo0 (V1 m ρ) c := by
  have e3 : W3 m ρ c (Proc.devRef .tc main_v1_0) = W2 m ρ c (Proc.devRef .tc main_v1_0) := by
    show StableHlo.after hostOps1 (W2 m ρ c) (Proc.devRef .tc main_v1_0) = _
    after_results
  exact e3.trans (W2_arr m ρ c 1)

/-- Nor its maximum array. -/
theorem V3_hi (c : Dev nD) : hiArr (V3 m ρ) c = hi0 (V1 m ρ) c := by
  have e3 : W3 m ρ c (Proc.devRef .tc main_v1_1) = W2 m ρ c (Proc.devRef .tc main_v1_1) := by
    show StableHlo.after hostOps1 (W2 m ρ c) (Proc.devRef .tc main_v1_1) = _
    after_results
  exact e3.trans (W2_arr m ρ c 2)

/-- Lane 0 of a [32, 128] array, as a vector over the batch, divided by the pixel count: the slice [0:32, 0:1], the
    reshape to [32] and the division by the broadcast literal, as one function of the array. -/
def lane0OverPixels (s : FVec Ideal S32x128 .f32) : FVec Ideal S32 .f32 :=
  Host.divf (F := Ideal)
    (shapeCast S32 (extractStridedSlice S32x1 ![0, 0] s slices_S32x128_S32x1_0_0) shapeCasts_S32x1_S32)
    (broadcastInDim S32 ![] bcast_S_S32 (constant (F := Ideal) S_ .f32 0x49800000#32))

/-- At sample b it is the array's entry (b, 0) over the pixel count: the reshape keeps the row-major position b, the slice
    starts at the origin, the broadcast scalar is the literal everywhere. -/
theorem lane0OverPixels_apply (s : FVec Ideal S32x128 .f32) (b : Fin 32) :
    lane0OverPixels s (ix1 b) = Ideal.div (s (ix2 b 0)) Cert.Spec.nTot := by
  have h1 : shapeCast S32 (extractStridedSlice S32x1 ![0, 0] s slices_S32x128_S32x1_0_0) shapeCasts_S32x1_S32 (ix1 b)
      = extractStridedSlice S32x1 ![0, 0] s slices_S32x128_S32x1_0_0 (ix2 b (0 : Fin 1)) :=
    shapeCast_apply _ _ (ix1 b) (ix2 b (0 : Fin 1)) (by
      rw [Shape.rowMajor_val_two, Shape.rowMajor_val_one]
      show b.val * 1 + 0 = b.val
      omega)
  have h2 : extractStridedSlice S32x1 ![0, 0] s slices_S32x128_S32x1_0_0 (ix2 b (0 : Fin 1)) = s (ix2 b (0 : Fin 128)) :=
    extractStridedSlice_apply _ _ _ (ix2 b (0 : Fin 1)) (ix2 b (0 : Fin 128)) (fun a => by
      match a with
      | ⟨0, _⟩ => show b.val = 0 + b.val; omega
      | ⟨1, _⟩ => show (0 : Nat) = 0 + 0; rfl)
  have h3 : broadcastInDim S32 ![] bcast_S_S32 (constant (F := Ideal) S_ .f32 0x49800000#32) (ix1 b) = Cert.Spec.nTot :=
    (broadcastInDim_apply ![] bcast_S_S32 (constant (F := Ideal) S_ .f32 0x49800000#32) (ix1 b) (fun a => Fin.elim0 a)
      (fun a => Fin.elim0 a)).trans rfl
  show Ideal.div _ _ = _
  rw [h1, h2, h3]

/-- The confidence vector pass 2's host side carries: lane 0 of pass 1's confidence sums over the pixel count. -/
theorem V3_v5 (c : Dev nD) (b : Fin 32) :
    v5Of (V3 m ρ) c (ix1 b)
      = Ideal.div (conf0 (V1 m ρ) c (ix2 b 0)) Cert.Spec.nTot := by
  have e2 : W2 m ρ c (Proc.devRef .tc main_v1_2) = conf0 (V1 m ρ) c := W2_arr m ρ c 3
  have e3 : v5Of (V3 m ρ) c = lane0OverPixels (conf0 (V1 m ρ) c) := by
    show StableHlo.after hostOps1 (W2 m ρ c) (Proc.devRef .tc main_v5) = _
    after_results
    rw [e2]
    rfl
  rw [e3]
  exact lane0OverPixels_apply _ b

/-- The area ratio: lane 0 of pass 1's area counts over the pixel count. -/
theorem V3_v9 (c : Dev nD) (b : Fin 32) :
    v9Of (V3 m ρ) c (ix1 b)
      = Ideal.div (area0 (V1 m ρ) c (ix2 b 0)) Cert.Spec.nTot := by
  have e2 : W2 m ρ c (Proc.devRef .tc main_v1_3) = area0 (V1 m ρ) c := W2_arr m ρ c 4
  have e3 : v9Of (V3 m ρ) c = lane0OverPixels (area0 (V1 m ρ) c) := by
    show StableHlo.after hostOps1 (W2 m ρ c) (Proc.devRef .tc main_v9) = _
    after_results
    rw [e2]
    rfl
  rw [e3]
  exact lane0OverPixels_apply _ b

end Cert.KernelIdeal.Val

end
-- ==== Proof.KHostB.lean ====
/-
  The host operations between passes 2 and 3, read off the boundary contents: what pass 3 is entered with. The image and the
  extremes' arrays are untouched; the two span arrays are the shared span chain applied to pass 2's "any" arrays converted to
  integers, converted back to 0/1 floats; the squared-image sum and the thresholded count are lane 0 of pass 2's sums; the filled
  rectangle's area is the product of the two spans' sums.
-/
import proofs.«117029_j24532853195288_1_alg».proof.Proof.KDefs
import proofs.«117029_j24532853195288_1_alg».proof.Proof.LibFiber
import Idealize.ShloMosaic.Lib.StableHlo.Run
import Idealize.ShloMosaic.Lib.Pipeline.Value
import Idealize.ShloMosaic.Lib.ValueLayout

noncomputable section

namespace Cert.KernelIdeal.Val

open Cert.KernelIdeal Cert.KernelIdeal.Gen Idealize.ShloMosaic Idealize.ShloMosaic.TcCoe Idealize.ShloMosaic.ValueIdx Idealize.SL.Sem Idealize.ShloMosaic.Pipeline
open scoped BigOperators

variable (m : (ℓ : Loc nD τ sig) → Buf (Elt Ideal) ℓ) (ρ : Dev nD → PrngReg)

/-- A buffer that no operation of a stretch writes holds after the stretch what it held before. -/
local macro "keeps" "[" ops:ident "]" : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (by decide))))

namespace Pass23

/-! ## Each stretch's results, from any contents V whose operand buffers hold given arrays -/

section Stretch
variable (V : Valuation τ sig (Elt Ideal))

-- nothing below depends on the running count's values: it is carried as a name
attribute [local irreducible] Host.reduceWindow

/-- The running count along a line, at this program's shape facts. -/
abbrev kCum (a : IVec S32x1024 32) : IVec S32x1024 32 :=
  Cert.Spec.cumsum Gen.h_S_ Gen.reduceWindows_S32x1024_S32x1024_w1s1p0_0_w1024s1p1023_0 Gen.bcast_S_S_ a
/-- The [32, 1024] array of integer zeros the counts are compared with. -/
abbrev kZero : IVec S32x1024 32 := broadcastInDim S32x1024 ![] Gen.bcast_S_S32x1024 (constantI S_ 32 0#32)
/-- Lane 0 of a [32, 128] array as a vector: the slice of the first column, reshaped. -/
abbrev kLane0 (x : FVec Ideal S32x128 .f32) : FVec Ideal S32 .f32 :=
  shapeCast S32 (extractStridedSlice S32x1 ![0, 0] x slices_S32x128_S32x1_0_0) shapeCasts_S32x1_S32

theorem s2_v12 (x : FVec Ideal S32x128 .f32) (hx : V (Proc.devRef .tc main_v10_2) = x) :
    StableHlo.after hostOps2 V (Proc.devRef .tc main_v12) = kLane0 x := by
  subst hx; after_results; rfl
theorem s2_v14 (x : FVec Ideal S32x128 .f32) (hx : V (Proc.devRef .tc main_v10_3) = x) :
    StableHlo.after hostOps2 V (Proc.devRef .tc main_v14) = kLane0 x := by
  subst hx; after_results; rfl
theorem s2_v15 (x : FVec Ideal S32x1024 .f32) (hx : V (Proc.devRef .tc main_v10_0) = x) :
    StableHlo.after hostOps2 V (Proc.devRef .tc main_v15) = fptosi 32 x := by
  subst hx; after_results
theorem s2_1_v16 (a : IVec S32x1024 32) (ha : V (Proc.devRef .tc main_v15) = a) :
    StableHlo.after hostOps2_1 V (Proc.devRef .tc main_v16) = kCum a := by
  subst ha; after_results; rfl
theorem s2_2_v18 (a : IVec S32x1024 32) (ha : V (Proc.devRef .tc main_v16) = a) :
    StableHlo.after hostOps2_2 V (Proc.devRef .tc main_v18) = cmpi .sgt a kZero := by
  subst ha; after_results
theorem s2_2_v20 (x : FVec Ideal S32x1024 .f32) (hx : V (Proc.devRef .tc main_v10_0) = x) :
    StableHlo.after hostOps2_2 V (Proc.devRef .tc main_v20) = fptosi 32 (Host.reverse [1] x) := by
  subst hx; after_results
theorem s2_3_v21 (a : IVec S32x1024 32) (ha : V (Proc.devRef .tc main_v20) = a) :
    StableHlo.after hostOps2_3 V (Proc.devRef .tc main_v21) = kCum a := by
  subst ha; after_results; rfl
theorem s2_4_v26 (p : IVec S32x1024 1) (a : IVec S32x1024 32) (hp : V (Proc.devRef .tc main_v18) = p)
    (ha : V (Proc.devRef .tc main_v21) = a) :
    StableHlo.after hostOps2_4 V (Proc.devRef .tc main_v26)
      = uitofp (F := Ideal) .f32 (andi p (cmpi .sgt (Host.reverse [1] a) kZero)) := by
  subst hp; subst ha; after_results
theorem s2_4_v27 (x : FVec Ideal S32x1024 .f32) (hx : V (Proc.devRef .tc main_v10_1) = x) :
    StableHlo.after hostOps2_4 V (Proc.devRef .tc main_v27) = fptosi 32 x := by
  subst hx; after_results
theorem s2_5_v28 (a : IVec S32x1024 32) (ha : V (Proc.devRef .tc main_v27) = a) :
    StableHlo.after hostOps2_5 V (Proc.devRef .tc main_v28) = kCum a := by
  subst ha; after_results; rfl
theorem s2_6_v30 (a : IVec S32x1024 32) (ha : V (Proc.devRef .tc main_v28) = a) :
    StableHlo.after hostOps2_6 V (Proc.devRef .tc main_v30) = cmpi .sgt a kZero := by
  subst ha; after_results
theorem s2_6_v32 (x : FVec Ideal S32x1024 .f32) (hx : V (Proc.devRef .tc main_v10_1) = x) :
    StableHlo.after hostOps2_6 V (Proc.devRef .tc main_v32) = fptosi 32 (Host.reverse [1] x) := by
  subst hx; after_results
theorem s2_7_v33 (a : IVec S32x1024 32) (ha : V (Proc.devRef .tc main_v32) = a) :
    StableHlo.after hostOps2_7 V (Proc.devRef .tc main_v33) = kCum a := by
  subst ha; after_results; rfl
theorem s2_8_v38 (p : IVec S32x1024 1) (a : IVec S32x1024 32) (hp : V (Proc.devRef .tc main_v30) = p)
    (ha : V (Proc.devRef .tc main_v33) = a) :
    StableHlo.after hostOps2_8 V (Proc.devRef .tc main_v38)
      = uitofp (F := Ideal) .f32 (andi p (cmpi .sgt (Host.reverse [1] a) kZero)) := by
  subst hp; subst ha; after_results

/-- The filled rectangle's area: the product of the two span arrays' line sums, the second span array being the one this
    stretch itself leaves. -/
theorem s2_8_v41 (x y : FVec Ideal S32x1024 .f32) (hx : V (Proc.devRef .tc main_v26) = x)
    (hy : StableHlo.after hostOps2_8 V (Proc.devRef .tc main_v38) = y) :
    StableHlo.after hostOps2_8 V (Proc.devRef .tc main_v41)
      = mulf (Host.reduceAdd (F := Ideal) x (constant (F := Ideal) S_ .f32 0x00000000#32) reducesTo_S32x1024_S32_d1 h_S_)
          (Host.reduceAdd (F := Ideal) y (constant (F := Ideal) S_ .f32 0x00000000#32) reducesTo_S32x1024_S32_d1 h_S_) := by
  subst hx; subst hy; after_results

end Stretch

/-! ## Reading lane 0 and the line sums at a sample -/

/-- The first column of a [32, 128] array, sliced out and reshaped to a vector, read at sample b: the array at (b, 0). -/
theorem kLane0_apply (x : FVec Ideal S32x128 .f32) (b : Fin 32) : kLane0 x (ix1 b) = x (ix2 b 0) := by
  refine (shapeCast_apply _ _ (ix1 b) (ix2 b (0 : Fin 1)) ?_).trans ?_
  · rw [Shape.rowMajor_val_two, Shape.rowMajor_val_one]; show b.val * 1 + 0 = b.val; omega
  · exact extractStridedSlice_apply _ _ _ (ix2 b (0 : Fin 1)) (ix2 b (0 : Fin 128)) fun a =>
      match a with
      | ⟨0, _⟩ => by show b.val = 0 + b.val; omega
      | ⟨1, _⟩ => by show 0 = 0 + 0; rfl

/-- The host's sum of a [32, 1024] array along its lines from the zero word, read at sample b. -/
theorem lineSum_apply (x : FVec Ideal S32x1024 .f32) (b : Fin 32) :
    Host.reduceAdd (F := Ideal) x (constant (F := Ideal) S_ .f32 0x00000000#32) reducesTo_S32x1024_S32_d1 h_S_ (ix1 b)
      = Cert.Spec.zw + ∑ r : Fin 1024, x (ix2 b r) :=
  Cert.LibFiber.hostAdd_2_1 reducesTo_S32x1024_S32_d1 x _ b

/-! ## The span chains, boundary by boundary -/

section Chain
variable (c : Dev nD)

/-! ### Rows: pass 2's row-any array through the count, the reversed count and the two comparisons -/

theorem W4_rows : W4 m ρ c (Proc.devRef .tc main_v10_0) = rows1 (V3 m ρ) c := W4_arr m ρ c 3
theorem W6_rows : W6 m ρ c (Proc.devRef .tc main_v10_0) = rows1 (V3 m ρ) c :=
  calc W6 m ρ c (Proc.devRef .tc main_v10_0)
    _ = W5 m ρ c (Proc.devRef .tc main_v10_0) := by keeps [hostOps2_1]
    _ = W4 m ρ c (Proc.devRef .tc main_v10_0) := by keeps [hostOps2]
    _ = _ := W4_rows m ρ c
theorem W5_v15 : W5 m ρ c (Proc.devRef .tc main_v15) = fptosi 32 (rows1 (V3 m ρ) c) := s2_v15 (W4 m ρ c) _ (W4_rows m ρ c)
theorem W6_v16 : W6 m ρ c (Proc.devRef .tc main_v16) = kCum (fptosi 32 (rows1 (V3 m ρ) c)) := s2_1_v16 (W5 m ρ c) _ (W5_v15 m ρ c)
theorem W7_v18 : W7 m ρ c (Proc.devRef .tc main_v18) = cmpi .sgt (kCum (fptosi 32 (rows1 (V3 m ρ) c))) kZero :=
  s2_2_v18 (W6 m ρ c) _ (W6_v16 m ρ c)
theorem W7_v20 : W7 m ρ c (Proc.devRef .tc main_v20) = fptosi 32 (Host.reverse [1] (rows1 (V3 m ρ) c)) :=
  s2_2_v20 (W6 m ρ c) _ (W6_rows m ρ c)
theorem W8_v21 : W8 m ρ c (Proc.devRef .tc main_v21) = kCum (fptosi 32 (Host.reverse [1] (rows1 (V3 m ρ) c))) :=
  s2_3_v21 (W7 m ρ c) _ (W7_v20 m ρ c)
theorem W8_v18 : W8 m ρ c (Proc.devRef .tc main_v18) = cmpi .sgt (kCum (fptosi 32 (rows1 (V3 m ρ) c))) kZero :=
  calc W8 m ρ c (Proc.devRef .tc main_v18)
    _ = W7 m ρ c (Proc.devRef .tc main_v18) := by keeps [hostOps2_3]
    _ = _ := W7_v18 m ρ c
theorem W9_v26 : W9 m ρ c (Proc.devRef .tc main_v26)
    = uitofp (F := Ideal) .f32 (andi (cmpi .sgt (kCum (fptosi 32 (rows1 (V3 m ρ) c))) kZero)
        (cmpi .sgt (Host.reverse [1] (kCum (fptosi 32 (Host.reverse [1] (rows1 (V3 m ρ) c))))) kZero)) :=
  s2_4_v26 (W8 m ρ c) _ _ (W8_v18 m ρ c) (W8_v21 m ρ c)

/-! ### Columns: the same chain on pass 2's column-any array -/

theorem W4_cols : W4 m ρ c (Proc.devRef .tc main_v10_1) = cols1 (V3 m ρ) c := W4_arr m ρ c 4
theorem W8_cols : W8 m ρ c (Proc.devRef .tc main_v10_1) = cols1 (V3 m ρ) c :=
  calc W8 m ρ c (Proc.devRef .tc main_v10_1)
    _ = W7 m ρ c (Proc.devRef .tc main_v10_1) := by keeps [hostOps2_3]
    _ = W6 m ρ c (Proc.devRef .tc main_v10_1) := by keeps [hostOps2_2]
    _ = W5 m ρ c (Proc.devRef .tc main_v10_1) := by keeps [hostOps2_1]
    _ = W4 m ρ c (Proc.devRef .tc main_v10_1) := by keeps [hostOps2]
    _ = _ := W4_cols m ρ c
theorem W10_cols : W10 m ρ c (Proc.devRef .tc main_v10_1) = cols1 (V3 m ρ) c :=
  calc W10 m ρ c (Proc.devRef .tc main_v10_1)
    _ = W9 m ρ c (Proc.devRef .tc main_v10_1) := by keeps [hostOps2_5]
    _ = W8 m ρ c (Proc.devRef .tc main_v10_1) := by keeps [hostOps2_4]
    _ = _ := W8_cols m ρ c
theorem W9_v27 : W9 m ρ c (Proc.devRef .tc main_v27) = fptosi 32 (cols1 (V3 m ρ) c) := s2_4_v27 (W8 m ρ c) _ (W8_cols m ρ c)
theorem W10_v28 : W10 m ρ c (Proc.devRef .tc main_v28) = kCum (fptosi 32 (cols1 (V3 m ρ) c)) := s2_5_v28 (W9 m ρ c) _ (W9_v27 m ρ c)
theorem W11_v30 : W11 m ρ c (Proc.devRef .tc main_v30) = cmpi .sgt (kCum (fptosi 32 (cols1 (V3 m ρ) c))) kZero :=
  s2_6_v30 (W10 m ρ c) _ (W10_v28 m ρ c)
theorem W11_v32 : W11 m ρ c (Proc.devRef .tc main_v32) = fptosi 32 (Host.reverse [1] (cols1 (V3 m ρ) c)) :=
  s2_6_v32 (W10 m ρ c) _ (W10_cols m ρ c)
theorem W12_v33 : W12 m ρ c (Proc.devRef .tc main_v33) = kCum (fptosi 32 (Host.reverse [1] (cols1 (V3 m ρ) c))) :=
  s2_7_v33 (W11 m ρ c) _ (W11_v32 m ρ c)
theorem W12_v30 : W12 m ρ c (Proc.devRef .tc main_v30) = cmpi .sgt (kCum (fptosi 32 (cols1 (V3 m ρ) c))) kZero :=
  calc W12 m ρ c (Proc.devRef .tc main_v30)
    _ = W11 m ρ c (Proc.devRef .tc main_v30) := by keeps [hostOps2_7]
    _ = _ := W11_v30 m ρ c

end Chain

end Pass23

open Pass23

/-! ## What pass 3 is entered with -/

-- The image batch is the argument with its unit axis dropped: only the first operation writes its buffer, and passes 1
-- and 2 read it through an input window, whose array leaves a pass as it entered.
theorem V13_v0 (c : Dev nD) : xOf (V13 m ρ) c = Xk m c :=
  calc W13 m ρ c (Proc.devRef .tc main_v0)
    _ = W12 m ρ c (Proc.devRef .tc main_v0) := by keeps [hostOps2_8]
    _ = W11 m ρ c (Proc.devRef .tc main_v0) := by keeps [hostOps2_7]
    _ = W10 m ρ c (Proc.devRef .tc main_v0) := by keeps [hostOps2_6]
    _ = W9 m ρ c (Proc.devRef .tc main_v0) := by keeps [hostOps2_5]
    _ = W8 m ρ c (Proc.devRef .tc main_v0) := by keeps [hostOps2_4]
    _ = W7 m ρ c (Proc.devRef .tc main_v0) := by keeps [hostOps2_3]
    _ = W6 m ρ c (Proc.devRef .tc main_v0) := by keeps [hostOps2_2]
    _ = W5 m ρ c (Proc.devRef .tc main_v0) := by keeps [hostOps2_1]
    _ = W4 m ρ c (Proc.devRef .tc main_v0) := by keeps [hostOps2]
    _ = (dat1 (V3 m ρ) c).arrAt 0 cfg1.N := W4_arr m ρ c 0
    _ = (dat1 (V3 m ρ) c).A 0 := Dat.arrAt_in _ 0 rfl _
    _ = W3 m ρ c (Proc.devRef .tc main_v0) := A_eq1 (V3 m ρ) c 0
    _ = W2 m ρ c (Proc.devRef .tc main_v0) := by keeps [hostOps1]
    _ = (dat0 (V1 m ρ) c).arrAt 0 cfg0.N := W2_arr m ρ c 0
    _ = (dat0 (V1 m ρ) c).A 0 := Dat.arrAt_in _ 0 rfl _
    _ = W1 m ρ c (Proc.devRef .tc main_v0) := A_eq0 (V1 m ρ) c 0
    _ = Xk m c := by
      show StableHlo.after hostOps0 (W0 m ρ c) (Proc.devRef .tc main_v0) = _
      after_results
      rfl
-- Pass 1's minimum array: an input window of pass 2, written by no stretch.
theorem V13_lo (c : Dev nD) : loArr (V13 m ρ) c = lo0 (V1 m ρ) c :=
  calc W13 m ρ c (Proc.devRef .tc main_v1_0)
    _ = W12 m ρ c (Proc.devRef .tc main_v1_0) := by keeps [hostOps2_8]
    _ = W11 m ρ c (Proc.devRef .tc main_v1_0) := by keeps [hostOps2_7]
    _ = W10 m ρ c (Proc.devRef .tc main_v1_0) := by keeps [hostOps2_6]
    _ = W9 m ρ c (Proc.devRef .tc main_v1_0) := by keeps [hostOps2_5]
    _ = W8 m ρ c (Proc.devRef .tc main_v1_0) := by keeps [hostOps2_4]
    _ = W7 m ρ c (Proc.devRef .tc main_v1_0) := by keeps [hostOps2_3]
    _ = W6 m ρ c (Proc.devRef .tc main_v1_0) := by keeps [hostOps2_2]
    _ = W5 m ρ c (Proc.devRef .tc main_v1_0) := by keeps [hostOps2_1]
    _ = W4 m ρ c (Proc.devRef .tc main_v1_0) := by keeps [hostOps2]
    _ = (dat1 (V3 m ρ) c).arrAt 1 cfg1.N := W4_arr m ρ c 1
    _ = (dat1 (V3 m ρ) c).A 1 := Dat.arrAt_in _ 1 rfl _
    _ = W3 m ρ c (Proc.devRef .tc main_v1_0) := A_eq1 (V3 m ρ) c 1
    _ = W2 m ρ c (Proc.devRef .tc main_v1_0) := by keeps [hostOps1]
    _ = (dat0 (V1 m ρ) c).arrAt 1 cfg0.N := W2_arr m ρ c 1
-- Pass 1's maximum array, likewise.
theorem V13_hi (c : Dev nD) : hiArr (V13 m ρ) c = hi0 (V1 m ρ) c :=
  calc W13 m ρ c (Proc.devRef .tc main_v1_1)
    _ = W12 m ρ c (Proc.devRef .tc main_v1_1) := by keeps [hostOps2_8]
    _ = W11 m ρ c (Proc.devRef .tc main_v1_1) := by keeps [hostOps2_7]
    _ = W10 m ρ c (Proc.devRef .tc main_v1_1) := by keeps [hostOps2_6]
    _ = W9 m ρ c (Proc.devRef .tc main_v1_1) := by keeps [hostOps2_5]
    _ = W8 m ρ c (Proc.devRef .tc main_v1_1) := by keeps [hostOps2_4]
    _ = W7 m ρ c (Proc.devRef .tc main_v1_1) := by keeps [hostOps2_3]
    _ = W6 m ρ c (Proc.devRef .tc main_v1_1) := by keeps [hostOps2_2]
    _ = W5 m ρ c (Proc.devRef .tc main_v1_1) := by keeps [hostOps2_1]
    _ = W4 m ρ c (Proc.devRef .tc main_v1_1) := by keeps [hostOps2]
    _ = (dat1 (V3 m ρ) c).arrAt 2 cfg1.N := W4_arr m ρ c 2
    _ = (dat1 (V3 m ρ) c).A 2 := Dat.arrAt_in _ 2 rfl _
    _ = W3 m ρ c (Proc.devRef .tc main_v1_1) := A_eq1 (V3 m ρ) c 2
    _ = W2 m ρ c (Proc.devRef .tc main_v1_1) := by keeps [hostOps1]
    _ = (dat0 (V1 m ρ) c).arrAt 2 cfg0.N := W2_arr m ρ c 2
-- The confidence vector: no window of pass 2, and written by no stretch.
theorem V13_v5 (c : Dev nD) : v5Of (V13 m ρ) c = v5Of (V3 m ρ) c :=
  calc W13 m ρ c (Proc.devRef .tc main_v5)
    _ = W12 m ρ c (Proc.devRef .tc main_v5) := by keeps [hostOps2_8]
    _ = W11 m ρ c (Proc.devRef .tc main_v5) := by keeps [hostOps2_7]
    _ = W10 m ρ c (Proc.devRef .tc main_v5) := by keeps [hostOps2_6]
    _ = W9 m ρ c (Proc.devRef .tc main_v5) := by keeps [hostOps2_5]
    _ = W8 m ρ c (Proc.devRef .tc main_v5) := by keeps [hostOps2_4]
    _ = W7 m ρ c (Proc.devRef .tc main_v5) := by keeps [hostOps2_3]
    _ = W6 m ρ c (Proc.devRef .tc main_v5) := by keeps [hostOps2_2]
    _ = W5 m ρ c (Proc.devRef .tc main_v5) := by keeps [hostOps2_1]
    _ = W4 m ρ c (Proc.devRef .tc main_v5) := by keeps [hostOps2]
    _ = W3 m ρ c (Proc.devRef .tc main_v5) := W4_of_ne m ρ c main_v5 (by decide)
-- The area-ratio vector, likewise.
theorem V13_v9 (c : Dev nD) : v9Of (V13 m ρ) c = v9Of (V3 m ρ) c :=
  calc W13 m ρ c (Proc.devRef .tc main_v9)
    _ = W12 m ρ c (Proc.devRef .tc main_v9) := by keeps [hostOps2_8]
    _ = W11 m ρ c (Proc.devRef .tc main_v9) := by keeps [hostOps2_7]
    _ = W10 m ρ c (Proc.devRef .tc main_v9) := by keeps [hostOps2_6]
    _ = W9 m ρ c (Proc.devRef .tc main_v9) := by keeps [hostOps2_5]
    _ = W8 m ρ c (Proc.devRef .tc main_v9) := by keeps [hostOps2_4]
    _ = W7 m ρ c (Proc.devRef .tc main_v9) := by keeps [hostOps2_3]
    _ = W6 m ρ c (Proc.devRef .tc main_v9) := by keeps [hostOps2_2]
    _ = W5 m ρ c (Proc.devRef .tc main_v9) := by keeps [hostOps2_1]
    _ = W4 m ρ c (Proc.devRef .tc main_v9) := by keeps [hostOps2]
    _ = W3 m ρ c (Proc.devRef .tc main_v9) := W4_of_ne m ρ c main_v9 (by decide)
/-- The row-span array pass 3 reads. -/
theorem V13_sr (c : Dev nD) :
    srArr (V13 m ρ) c
      = uitofp .f32 (kSpan (fptosi 32 (rows1 (V3 m ρ) c))
          (fptosi 32 (Host.reverse [1] (rows1 (V3 m ρ) c)))) :=
  calc W13 m ρ c (Proc.devRef .tc main_v26)
    _ = W12 m ρ c (Proc.devRef .tc main_v26) := by keeps [hostOps2_8]
    _ = W11 m ρ c (Proc.devRef .tc main_v26) := by keeps [hostOps2_7]
    _ = W10 m ρ c (Proc.devRef .tc main_v26) := by keeps [hostOps2_6]
    _ = W9 m ρ c (Proc.devRef .tc main_v26) := by keeps [hostOps2_5]
    _ = _ := W9_v26 m ρ c
/-- The column-span array pass 3 reads. -/
theorem V13_sc (c : Dev nD) :
    scArr (V13 m ρ) c
      = uitofp .f32 (kSpan (fptosi 32 (cols1 (V3 m ρ) c))
          (fptosi 32 (Host.reverse [1] (cols1 (V3 m ρ) c)))) :=
  s2_8_v38 (W12 m ρ c) _ _ (W12_v30 m ρ c) (W12_v33 m ρ c)
-- The squared-image sum: lane 0 of pass 2's sum array, through the first stretch's slice and reshape.
theorem V13_v12 (c : Dev nD) (b : Fin 32) :
    v12Of (V13 m ρ) c (ix1 b) = sumsq1 (V3 m ρ) c (ix2 b 0) := by
  have e : W13 m ρ c (Proc.devRef .tc main_v12) = kLane0 (sumsq1 (V3 m ρ) c) :=
    calc W13 m ρ c (Proc.devRef .tc main_v12)
      _ = W12 m ρ c (Proc.devRef .tc main_v12) := by keeps [hostOps2_8]
      _ = W11 m ρ c (Proc.devRef .tc main_v12) := by keeps [hostOps2_7]
      _ = W10 m ρ c (Proc.devRef .tc main_v12) := by keeps [hostOps2_6]
      _ = W9 m ρ c (Proc.devRef .tc main_v12) := by keeps [hostOps2_5]
      _ = W8 m ρ c (Proc.devRef .tc main_v12) := by keeps [hostOps2_4]
      _ = W7 m ρ c (Proc.devRef .tc main_v12) := by keeps [hostOps2_3]
      _ = W6 m ρ c (Proc.devRef .tc main_v12) := by keeps [hostOps2_2]
      _ = W5 m ρ c (Proc.devRef .tc main_v12) := by keeps [hostOps2_1]
      _ = _ := s2_v12 (W4 m ρ c) _ (W4_arr m ρ c 5)
  show W13 m ρ c (Proc.devRef .tc main_v12) (ix1 b) = _
  rw [e]
  exact kLane0_apply _ b
-- The thresholded count, likewise.
theorem V13_v14 (c : Dev nD) (b : Fin 32) :
    v14Of (V13 m ρ) c (ix1 b) = binsum1 (V3 m ρ) c (ix2 b 0) := by
  have e : W13 m ρ c (Proc.devRef .tc main_v14) = kLane0 (binsum1 (V3 m ρ) c) :=
    calc W13 m ρ c (Proc.devRef .tc main_v14)
      _ = W12 m ρ c (Proc.devRef .tc main_v14) := by keeps [hostOps2_8]
      _ = W11 m ρ c (Proc.devRef .tc main_v14) := by keeps [hostOps2_7]
      _ = W10 m ρ c (Proc.devRef .tc main_v14) := by keeps [hostOps2_6]
      _ = W9 m ρ c (Proc.devRef .tc main_v14) := by keeps [hostOps2_5]
      _ = W8 m ρ c (Proc.devRef .tc main_v14) := by keeps [hostOps2_4]
      _ = W7 m ρ c (Proc.devRef .tc main_v14) := by keeps [hostOps2_3]
      _ = W6 m ρ c (Proc.devRef .tc main_v14) := by keeps [hostOps2_2]
      _ = W5 m ρ c (Proc.devRef .tc main_v14) := by keeps [hostOps2_1]
      _ = _ := s2_v14 (W4 m ρ c) _ (W4_arr m ρ c 6)
  show W13 m ρ c (Proc.devRef .tc main_v14) (ix1 b) = _
  rw [e]
  exact kLane0_apply _ b
-- The filled rectangle's area: the last stretch multiplies the two span arrays' line sums, each taken from the zero word.
theorem V13_v41 (c : Dev nD) (b : Fin 32) :
    v41Of (V13 m ρ) c (ix1 b)
      = (Cert.Spec.zw + ∑ r : Fin 1024, srArr (V13 m ρ) c (ix2 b r))
        * (Cert.Spec.zw + ∑ q : Fin 1024, scArr (V13 m ρ) c (ix2 b q)) := by
  have e26 : W13 m ρ c (Proc.devRef .tc main_v26) = W12 m ρ c (Proc.devRef .tc main_v26) := by keeps [hostOps2_8]
  have e : W13 m ρ c (Proc.devRef .tc main_v41)
      = mulf (Host.reduceAdd (F := Ideal) (srArr (V13 m ρ) c) (constant (F := Ideal) S_ .f32 0x00000000#32) reducesTo_S32x1024_S32_d1 h_S_)
          (Host.reduceAdd (F := Ideal) (scArr (V13 m ρ) c) (constant (F := Ideal) S_ .f32 0x00000000#32) reducesTo_S32x1024_S32_d1 h_S_) :=
    s2_8_v41 (W12 m ρ c) _ _ e26.symm rfl
  show W13 m ρ c (Proc.devRef .tc main_v41) (ix1 b) = _
  rw [e, mulf_apply, lineSum_apply, lineSum_apply]

end Cert.KernelIdeal.Val

end
-- ==== Proof.KHostC.lean ====
/-
  The host operations after pass 3, read off the boundary contents: the per-sample loss and validity flag from pass 3's cross terms
  and the earlier sums, and the program's result as the shared weight and final chains applied to them.
-/
import proofs.«117029_j24532853195288_1_alg».proof.Proof.KDefs
import proofs.«117029_j24532853195288_1_alg».proof.Proof.LibFiber
import Idealize.ShloMosaic.Lib.StableHlo.Run
import Idealize.ShloMosaic.Lib.Pipeline.Value
import Idealize.ShloMosaic.Lib.ValueLayout

noncomputable section

namespace Cert.KernelIdeal.Val

open Cert.KernelIdeal Cert.KernelIdeal.Gen Idealize.ShloMosaic Idealize.ShloMosaic.TcCoe Idealize.ShloMosaic.ValueIdx Idealize.SL.Sem Idealize.ShloMosaic.Pipeline
open scoped BigOperators

variable (m : (ℓ : Loc nD τ sig) → Buf (Elt Ideal) ℓ) (ρ : Dev nD → PrngReg)

/-- The per-sample loss and validity flag, as the first stretch after pass 3 leaves them. -/
def lossK (c : Dev nD) : FVec Ideal S32 .f32 := VK (W15 m ρ) c main_v52
def validK (c : Dev nD) : IVec S32 1 := VK (W15 m ρ) c main_v58

/-- The program's result buffer at the end of @main. -/
abbrev outK (c : Dev nD) : FVec Ideal S_ .f32 := VK (W22 m ρ) c main_v86

namespace HostC

/-! ## Lane 0 of a [32, 128] array, and a broadcast literal, read at a sample -/

/-- The lane-0 column of a [32, 128] array as a vector over the batch (the slice and reshape the program applies). -/
abbrev lane0 (A : FVec Ideal S32x128 .f32) : FVec Ideal S32 .f32 :=
  shapeCast S32 (extractStridedSlice S32x1 ![0, 0] A slices_S32x128_S32x1_0_0) shapeCasts_S32x1_S32

/-- Sample b of the [32] vector is row b of the [32, 1] column (same row-major position), which is entry (b, 0) of the array
    (offsets 0, 0). -/
theorem lane0_apply (A : FVec Ideal S32x128 .f32) (b : Fin 32) : lane0 A (ix1 b) = A (ix2 b 0) := by
  refine (shapeCast_apply _ shapeCasts_S32x1_S32 (ix1 b) (ix2 b (0 : Fin 1)) ?_).trans ?_
  · rw [Shape.rowMajor_val_two, Shape.rowMajor_val_one]
    show b.val * 1 + 0 = b.val
    omega
  · refine extractStridedSlice_apply _ A slices_S32x128_S32x1_0_0 (ix2 b (0 : Fin 1)) (ix2 b (0 : Fin 128)) fun a => ?_
    match a with
    | ⟨0, _⟩ => show b.val = 0 + b.val; omega
    | ⟨1, _⟩ => rfl

/-- A literal broadcast over the batch. -/
abbrev bc (w : BitVec 32) : FVec Ideal S32 .f32 := broadcastInDim S32 ![] bcast_S_S32 (constant (F := Ideal) S_ .f32 w)

/-- A broadcast literal read at an index is the literal's extended real. -/
theorem bc_apply (w : BitVec 32) (j : S32.Idx) : bc w j = Ideal.ofBits .f32 w :=
  broadcastInDim_apply ![] bcast_S_S32 _ j ix0 fun a => a.elim0

/-! ## Region 2's exit: its two result arrays, and the per-sample vectors it leaves as it found them -/

theorem W14_v42_0 (c : Dev nD) : (W14 m ρ c (Proc.devRef .tc main_v42_0) : FVec Ideal S32x128 .f32) = cpn2 (V13 m ρ) c :=
  W14_arr m ρ c (5 : Fin cfg2.W)
theorem W14_v42_1 (c : Dev nD) : (W14 m ρ c (Proc.devRef .tc main_v42_1) : FVec Ideal S32x128 .f32) = cbn2 (V13 m ρ) c :=
  W14_arr m ρ c (6 : Fin cfg2.W)
theorem W14_v12 (c : Dev nD) : (W14 m ρ c (Proc.devRef .tc main_v12) : FVec Ideal S32 .f32) = v12Of (V13 m ρ) c :=
  W14_of_ne m ρ c main_v12 (by decide)
theorem W14_v14 (c : Dev nD) : (W14 m ρ c (Proc.devRef .tc main_v14) : FVec Ideal S32 .f32) = v14Of (V13 m ρ) c :=
  W14_of_ne m ρ c main_v14 (by decide)
theorem W14_v41 (c : Dev nD) : (W14 m ρ c (Proc.devRef .tc main_v41) : FVec Ideal S32 .f32) = v41Of (V13 m ρ) c :=
  W14_of_ne m ρ c main_v41 (by decide)
theorem W14_v5 (c : Dev nD) : (W14 m ρ c (Proc.devRef .tc main_v5) : FVec Ideal S32 .f32) = v5Of (V13 m ρ) c :=
  W14_of_ne m ρ c main_v5 (by decide)
theorem W14_v9 (c : Dev nD) : (W14 m ρ c (Proc.devRef .tc main_v9) : FVec Ideal S32 .f32) = v9Of (V13 m ρ) c :=
  W14_of_ne m ρ c main_v9 (by decide)

/-! ## The first stretch after pass 3: the loss and the flag as vectors -/

/-- The loss vector: ((v12 − 2·cross_pn) + v41) / 2^20, the cross term from lane 0 of pass 3's first result array. -/
theorem lossK_eq (c : Dev nD) :
    lossK m ρ c
      = Host.divf (F := Ideal)
          (addf (subf (v12Of (V13 m ρ) c) (mulf (bc 0x40000000#32) (lane0 (cpn2 (V13 m ρ) c)))) (v41Of (V13 m ρ) c))
          (bc 0x49800000#32) := by
  unfold lossK
  show StableHlo.after hostOps3 (W14 m ρ c) (Proc.devRef .tc main_v52) = _
  after_results
  rw [W14_v12, W14_v41, W14_v42_0]
  rfl

/-- The flag vector: ((v14 + v41) − 2·cross_bn) > ½, the cross term from lane 0 of pass 3's second result array. -/
theorem validK_eq (c : Dev nD) :
    validK m ρ c
      = cmpf (F := Ideal) .ogt
          (subf (addf (v14Of (V13 m ρ) c) (v41Of (V13 m ρ) c)) (mulf (bc 0x40000000#32) (lane0 (cbn2 (V13 m ρ) c))))
          (bc 0x3F000000#32) := by
  unfold validK
  show StableHlo.after hostOps3 (W14 m ρ c) (Proc.devRef .tc main_v58) = _
  after_results_simp
  rw [W14_v14, W14_v41, W14_v42_1]
  rfl

/-! ### What else the first stretch leaves: the confidence and the area ratio untouched, and the start of the weight chain
    (the literal 0.4 broadcast, the first test on the confidence, the literals 2 and 1) -/

theorem W15_v5 (c : Dev nD) : (W15 m ρ c (Proc.devRef .tc main_v5) : FVec Ideal S32 .f32) = v5Of (V13 m ρ) c := by
  show StableHlo.after hostOps3 (W14 m ρ c) (Proc.devRef .tc main_v5) = _
  after_results_simp
  exact W14_v5 m ρ c
theorem W15_v9 (c : Dev nD) : (W15 m ρ c (Proc.devRef .tc main_v9) : FVec Ideal S32 .f32) = v9Of (V13 m ρ) c := by
  show StableHlo.after hostOps3 (W14 m ρ c) (Proc.devRef .tc main_v9) = _
  after_results_simp
  exact W14_v9 m ρ c
theorem W15_v59 (c : Dev nD) : (W15 m ρ c (Proc.devRef .tc main_v59) : FVec Ideal S32 .f32) = bc 0x3ECCCCCD#32 := by
  show StableHlo.after hostOps3 (W14 m ρ c) (Proc.devRef .tc main_v59) = _
  after_results_simp
theorem W15_v61 (c : Dev nD) :
    (W15 m ρ c (Proc.devRef .tc main_v61) : IVec S32 1) = cmpf (F := Ideal) .olt (v5Of (V13 m ρ) c) (bc 0x3E99999A#32) := by
  show StableHlo.after hostOps3 (W14 m ρ c) (Proc.devRef .tc main_v61) = _
  after_results_simp
  rw [W14_v5]
theorem W15_cst12 (c : Dev nD) :
    (W15 m ρ c (Proc.devRef .tc main_cst_12) : FVec Ideal S_ .f32) = constant (F := Ideal) S_ .f32 0x40000000#32 := by
  show StableHlo.after hostOps3 (W14 m ρ c) (Proc.devRef .tc main_cst_12) = _
  after_results_simp
theorem W15_cst13 (c : Dev nD) :
    (W15 m ρ c (Proc.devRef .tc main_cst_13) : FVec Ideal S_ .f32) = constant (F := Ideal) S_ .f32 0x3F800000#32 := by
  show StableHlo.after hostOps3 (W14 m ρ c) (Proc.devRef .tc main_cst_13) = _
  after_results_simp

/-! ## The seven later stretches as one fold from the contents the first stretch leaves -/

/-- From any contents V after the first stretch, with confidence a5 and area ratio a9 in their buffers and the first stretch's
    start of the weight chain (the literal 0.4, the first test, the literals 2 and 1) in theirs: the result buffer after the
    seven later stretches is the shared final chain on the loss buffer times the shared weight chain of a5, a9, and the flag
    buffer. Both sides are the same operations: the three selects of the weight run in @_where's own buffers and the last
    select in @_where_1's, which the fold reads through. -/
theorem tail_v86 (V : Valuation τ sig (Elt Ideal)) (a5 a9 : FVec Ideal S32 .f32)
    (h5 : (V (Proc.devRef .tc main_v5) : FVec Ideal S32 .f32) = a5)
    (h9 : (V (Proc.devRef .tc main_v9) : FVec Ideal S32 .f32) = a9)
    (h59 : (V (Proc.devRef .tc main_v59) : FVec Ideal S32 .f32) = bc 0x3ECCCCCD#32)
    (h61 : (V (Proc.devRef .tc main_v61) : IVec S32 1) = cmpf (F := Ideal) .olt a5 (bc 0x3E99999A#32))
    (h12 : (V (Proc.devRef .tc main_cst_12) : FVec Ideal S_ .f32) = constant (F := Ideal) S_ .f32 0x40000000#32)
    (h13 : (V (Proc.devRef .tc main_cst_13) : FVec Ideal S_ .f32) = constant (F := Ideal) S_ .f32 0x3F800000#32) :
    (StableHlo.after hostOps3_7 (StableHlo.after hostOps3_6 (StableHlo.after hostOps3_5 (StableHlo.after hostOps3_4
        (StableHlo.after hostOps3_3 (StableHlo.after hostOps3_2 (StableHlo.after hostOps3_1 V))))))
        (Proc.devRef .tc main_v86) : FVec Ideal S_ .f32)
      = kFinal (mulf (V (Proc.devRef .tc main_v52) : FVec Ideal S32 .f32) (kW a5 a9))
          (V (Proc.devRef .tc main_v58) : IVec S32 1) := by
  after_results_simp
  rw [h59, h61, h12, h13, h5, h9]
  rfl

end HostC

open HostC

theorem lossK_apply (c : Dev nD) (b : Fin 32) :
    lossK m ρ c (ix1 b)
      = Ideal.div ((v12Of (V13 m ρ) c (ix1 b)
            - Cert.Spec.two * cpn2 (V13 m ρ) c (ix2 b 0))
          + v41Of (V13 m ρ) c (ix1 b)) Cert.Spec.nTot := by
  rw [lossK_eq]
  show Ideal.div ((v12Of (V13 m ρ) c (ix1 b) - bc 0x40000000#32 (ix1 b) * lane0 (cpn2 (V13 m ρ) c) (ix1 b))
      + v41Of (V13 m ρ) c (ix1 b)) (bc 0x49800000#32 (ix1 b)) = _
  rw [bc_apply, bc_apply, lane0_apply]
  rfl

theorem validK_apply (c : Dev nD) (b : Fin 32) :
    validK m ρ c (ix1 b)
      = Ideal.cmp .ogt (((v14Of (V13 m ρ) c (ix1 b) + v41Of (V13 m ρ) c (ix1 b))
          - Cert.Spec.two * cbn2 (V13 m ρ) c (ix2 b 0))) Cert.Spec.half := by
  rw [validK_eq]
  show Ideal.cmp .ogt ((v14Of (V13 m ρ) c (ix1 b) + v41Of (V13 m ρ) c (ix1 b))
      - bc 0x40000000#32 (ix1 b) * lane0 (cbn2 (V13 m ρ) c) (ix1 b)) (bc 0x3F000000#32 (ix1 b)) = _
  rw [bc_apply, bc_apply, lane0_apply]
  rfl

theorem V22_out (c : Dev nD) :
    outK m ρ c
      = kFinal (mulf (lossK m ρ c) (kW (v5Of (V13 m ρ) c) (v9Of (V13 m ρ) c))) (validK m ρ c) :=
  tail_v86 (W15 m ρ c) _ _ (W15_v5 m ρ c) (W15_v9 m ρ c) (W15_v59 m ρ c) (W15_v61 m ρ c) (W15_cst12 m ρ c) (W15_cst13 m ρ c)

end Cert.KernelIdeal.Val

end
-- ==== Proof.Reg0MinMax.lean ====
/-
  Pass 1, the extremes: after the pass, every lane of sample b's row in the two [32, 128] result arrays holds the minimum, the
  maximum, of the sample's 1024 x 1024 pixels — the running min / max over the 8 row tiles of each tile's own min / max.
-/
import proofs.«117029_j24532853195288_1_alg».proof.Proof.KDefs
import proofs.«117029_j24532853195288_1_alg».proof.Proof.LibFiber
import Idealize.ShloMosaic.Lib.Pipeline.Value
import Idealize.ShloMosaic.Lib.ValueLayout

noncomputable section

namespace Cert.KernelIdeal.Val

open Cert.KernelIdeal Cert.KernelIdeal.Gen Idealize.ShloMosaic Idealize.ShloMosaic.TcCoe Idealize.ShloMosaic.ValueIdx Idealize.SL.Sem Idealize.ShloMosaic.Pipeline
open scoped BigOperators

/-! The entries of this namespace: what each case of the body leaves in the two blocks, those blocks read at an index, the
    blocks point by point along a run of 8 row tiles, and the write-back at the run's last point. -/
namespace MinMax0

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a run's first tile the minimum block is reset to +inf and then lowered by the tile's minimum. -/
theorem out_A_1 (c : Dev nD) (i : grid0.Coords) (a2 : Memref sig .tc .vmem S8x128x1024 .f32) (h2 : a2.IsWhole) (a3 : Memref sig .tc .vmem S8x128 .f32) (h3 : a3.IsWhole) (a4 : Memref sig .tc .vmem S8x128 .f32) (h4 : a4.IsWhole) (a5 : Memref sig .tc .vmem S8x128 .f32) (h5 : a5.IsWhole) (a6 : Memref sig .tc .vmem S8x128 .f32) (h6 : a6.IsWhole) (hc : cond0_0 i) (x0 : Vec F S8x128x1024 .f32) :
    out0_A_1 c i a2 h2 a3 h3 a4 h4 a5 h5 a6 h6 hc x0 = k0_pay13 x0 (k0_pay9 (F := F)) := by
  unfold out0_A_1
  rw [View.read_writes_eq_canon _ _ _ (cover0_A_1 c i a2 h2 a3 h3 a4 h4 a5 h5 a6 h6 hc x0)]
  unfold kernelRun0_A
  dsimp only
  sl_unfold_words
  rw [View.canon_cons_unit_zero (S := S8x128) hz2]
  simp only [View.readAt_eq_ld, h2.read_unread, View.ld_unit_zero (S := S8x128x1024) hz3,
    View.readCov_unit_zero (S := S8x128) _ hz2]

/-- At a later tile the minimum block, holding xo, is lowered by the tile's minimum. -/
theorem out_B_1 (c : Dev nD) (i : grid0.Coords) (a2 : Memref sig .tc .vmem S8x128x1024 .f32) (h2 : a2.IsWhole) (a3 : Memref sig .tc .vmem S8x128 .f32) (h3 : a3.IsWhole) (a4 : Memref sig .tc .vmem S8x128 .f32) (h4 : a4.IsWhole) (a5 : Memref sig .tc .vmem S8x128 .f32) (h5 : a5.IsWhole) (a6 : Memref sig .tc .vmem S8x128 .f32) (h6 : a6.IsWhole) (hc : ¬cond0_0 i) (x0 : Vec F S8x128x1024 .f32)
    (xo1 xo2 xo3 xo4 : Vec F S8x128 .f32) :
    out0_B_1 c i a2 h2 a3 h3 a4 h4 a5 h5 a6 h6 hc x0 xo1 xo2 xo3 xo4 = k0_pay13 x0 xo1 := by
  unfold out0_B_1
  rw [View.read_writes_eq_canon _ _ _ (cover0_B_1 c i a2 h2 a3 h3 a4 h4 a5 h5 a6 h6 hc x0 xo1 xo2 xo3 xo4)]
  unfold kernelRun0_B
  dsimp only
  sl_unfold_words
  rw [View.canon_unit_zero hz2]
  simp only [View.readAt_eq_ld, h2.read_unread, h3.read_unread, View.ld_unit_zero (S := S8x128x1024) hz3,
    View.ld_unit_zero (S := S8x128) hz2]

/-- At a run's first tile the maximum block is reset to -inf and then raised by the tile's maximum. -/
theorem out_A_2 (c : Dev nD) (i : grid0.Coords) (a2 : Memref sig .tc .vmem S8x128x1024 .f32) (h2 : a2.IsWhole) (a3 : Memref sig .tc .vmem S8x128 .f32) (h3 : a3.IsWhole) (a4 : Memref sig .tc .vmem S8x128 .f32) (h4 : a4.IsWhole) (a5 : Memref sig .tc .vmem S8x128 .f32) (h5 : a5.IsWhole) (a6 : Memref sig .tc .vmem S8x128 .f32) (h6 : a6.IsWhole) (hc : cond0_0 i) (x0 : Vec F S8x128x1024 .f32) :
    out0_A_2 c i a2 h2 a3 h3 a4 h4 a5 h5 a6 h6 hc x0 = k0_pay1 (k0_pay6 x0) (k0_pay10 (F := F)) := by
  unfold out0_A_2
  rw [View.read_writes_eq_canon _ _ _ (cover0_A_2 c i a2 h2 a3 h3 a4 h4 a5 h5 a6 h6 hc x0)]
  unfold kernelRun0_A
  dsimp only
  sl_unfold_words
  rw [View.canon_cons_unit_zero (S := S8x128) hz2]
  simp only [View.readAt_eq_ld, h2.read_unread, View.ld_unit_zero (S := S8x128x1024) hz3,
    View.readCov_unit_zero (S := S8x128) _ hz2]

/-- At a later tile the maximum block, holding xo, is raised by the tile's maximum. -/
theorem out_B_2 (c : Dev nD) (i : grid0.Coords) (a2 : Memref sig .tc .vmem S8x128x1024 .f32) (h2 : a2.IsWhole) (a3 : Memref sig .tc .vmem S8x128 .f32) (h3 : a3.IsWhole) (a4 : Memref sig .tc .vmem S8x128 .f32) (h4 : a4.IsWhole) (a5 : Memref sig .tc .vmem S8x128 .f32) (h5 : a5.IsWhole) (a6 : Memref sig .tc .vmem S8x128 .f32) (h6 : a6.IsWhole) (hc : ¬cond0_0 i) (x0 : Vec F S8x128x1024 .f32)
    (xo1 xo2 xo3 xo4 : Vec F S8x128 .f32) :
    out0_B_2 c i a2 h2 a3 h3 a4 h4 a5 h5 a6 h6 hc x0 xo1 xo2 xo3 xo4 = k0_pay1 (k0_pay6 x0) xo2 := by
  unfold out0_B_2
  rw [View.read_writes_eq_canon _ _ _ (cover0_B_2 c i a2 h2 a3 h3 a4 h4 a5 h5 a6 h6 hc x0 xo1 xo2 xo3 xo4)]
  unfold kernelRun0_B
  dsimp only
  sl_unfold_words
  rw [View.canon_unit_zero hz2]
  simp only [View.readAt_eq_ld, h2.read_unread, h4.read_unread, View.ld_unit_zero (S := S8x128x1024) hz3,
    View.ld_unit_zero (S := S8x128) hz2]

end Pieces

section Payload

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-sample vector spread over the 128 lanes reads, at (b', l), the vector at b'. -/
theorem lanes_apply (v : FVec Ideal S8 .f32) (b' : Fin 8) (l : Fin 128) :
    broadcastTo S8x128 (shapeCast S8x1 (shapeCast S8x1 v shapeCasts_S8_S8x1) shapeCasts_S8x1_S8x1)
      broadcasts_S8x1_S8x128 (ix2 b' l) = v (ix1 b') := by
  rw [broadcastTo_a1_ab_apply, shapeCast_self, shapeCast_a_a1_apply]

/-- A tile's minimum for its sample b': over the tile's 128 rows and 1024 columns, from +inf. -/
def tileLo (x : Vec Ideal S8x128x1024 .f32) (b' : Fin 8) : EReal :=
  (Finset.univ : Finset (Fin 128)).fold min (Ideal.ofBits .f32 0x7F800000#32) fun r =>
    (Finset.univ : Finset (Fin 1024)).fold min (Ideal.ofBits .f32 0x7F800000#32) fun q => x (ix3 b' r q)

/-- A tile's maximum for its sample b', from -inf. -/
def tileHi (x : Vec Ideal S8x128x1024 .f32) (b' : Fin 8) : EReal :=
  (Finset.univ : Finset (Fin 128)).fold max (Ideal.ofBits .f32 0xFF800000#32) fun r =>
    (Finset.univ : Finset (Fin 1024)).fold max (Ideal.ofBits .f32 0xFF800000#32) fun q => x (ix3 b' r q)

/-- The minimum over the rows of an [8, 128] array. -/
theorem minRows_apply (y : FVec Ideal S8x128 .f32) (b' : Fin 8) :
    multiReduction (F := Ideal) .minimumf [1] S8 y 0x7F800000#32 reduces_S8x128_S8 (.inl rfl) rfl (ix1 b')
      = (Finset.univ : Finset (Fin 128)).fold min (Ideal.ofBits .f32 0x7F800000#32) fun r => y (ix2 b' r) :=
  LibFiber.mrMin_2_1 (A := 8) (B := 128) (φ := .f32) y 0x7F800000#32 reduces_S8x128_S8 (.inl rfl) rfl b'

/-- The minimum over the columns of an [8, 128, 1024] array. -/
theorem minCols_apply (x : FVec Ideal S8x128x1024 .f32) (b' : Fin 8) (r : Fin 128) :
    multiReduction (F := Ideal) .minimumf [2] S8x128 x 0x7F800000#32 reduces_S8x128x1024_S8x128 (.inl rfl) rfl (ix2 b' r)
      = (Finset.univ : Finset (Fin 1024)).fold min (Ideal.ofBits .f32 0x7F800000#32) fun q => x (ix3 b' r q) :=
  LibFiber.mrMin_3_2 (A := 8) (B := 128) (C := 1024) (φ := .f32) x 0x7F800000#32 reduces_S8x128x1024_S8x128 (.inl rfl) rfl b' r

/-- The maximum over the rows of an [8, 128] array. -/
theorem maxRows_apply (y : FVec Ideal S8x128 .f32) (b' : Fin 8) :
    multiReduction (F := Ideal) .maximumf [1] S8 y 0xFF800000#32 reduces_S8x128_S8 (.inl rfl) rfl (ix1 b')
      = (Finset.univ : Finset (Fin 128)).fold max (Ideal.ofBits .f32 0xFF800000#32) fun r => y (ix2 b' r) :=
  LibFiber.mrMax_2_1 (A := 8) (B := 128) (φ := .f32) y 0xFF800000#32 reduces_S8x128_S8 (.inl rfl) rfl b'

/-- The maximum over the columns of an [8, 128, 1024] array. -/
theorem maxCols_apply (x : FVec Ideal S8x128x1024 .f32) (b' : Fin 8) (r : Fin 128) :
    multiReduction (F := Ideal) .maximumf [2] S8x128 x 0xFF800000#32 reduces_S8x128x1024_S8x128 (.inl rfl) rfl (ix2 b' r)
      = (Finset.univ : Finset (Fin 1024)).fold max (Ideal.ofBits .f32 0xFF800000#32) fun q => x (ix3 b' r q) :=
  LibFiber.mrMax_3_2 (A := 8) (B := 128) (C := 1024) (φ := .f32) x 0xFF800000#32 reduces_S8x128x1024_S8x128 (.inl rfl) rfl b' r

/-- The minimum over columns, then over rows. -/
theorem min2_apply (x : FVec Ideal S8x128x1024 .f32) (b' : Fin 8) :
    multiReduction (F := Ideal) .minimumf [1] S8
      (multiReduction (F := Ideal) .minimumf [2] S8x128 x 0x7F800000#32 reduces_S8x128x1024_S8x128 (.inl rfl) rfl)
      0x7F800000#32 reduces_S8x128_S8 (.inl rfl) rfl (ix1 b') = tileLo x b' := by
  refine (minRows_apply _ b').trans ?_
  unfold tileLo
  exact Finset.fold_congr (fun r _ => minCols_apply x b' r)

/-- The maximum over columns, then over rows. -/
theorem max2_apply (x : FVec Ideal S8x128x1024 .f32) (b' : Fin 8) :
    multiReduction (F := Ideal) .maximumf [1] S8
      (multiReduction (F := Ideal) .maximumf [2] S8x128 x 0xFF800000#32 reduces_S8x128x1024_S8x128 (.inl rfl) rfl)
      0xFF800000#32 reduces_S8x128_S8 (.inl rfl) rfl (ix1 b') = tileHi x b' := by
  refine (maxRows_apply _ b').trans ?_
  unfold tileHi
  exact Finset.fold_congr (fun r _ => maxCols_apply x b' r)

/-- The stored minimum block at (b', l): the block before, lowered by the tile's minimum for b'. -/
theorem pay13_apply (x0 : Vec Ideal S8x128x1024 .f32) (xo : Vec Ideal S8x128 .f32) (b' : Fin 8) (l : Fin 128) :
    k0_pay13 (F := Ideal) x0 xo (ix2 b' l) = min (xo (ix2 b' l)) (tileLo x0 b') := by
  unfold k0_pay13 k0_pay4
  dsimp only
  refine (minimumf_apply _ _ _).trans ?_
  refine congrArg₂ min ?_ ?_
  · exact congrFun (shapeCast_self xo _) _
  · refine (lanes_apply _ b' l).trans ?_
    refine (min2_apply _ b').trans ?_
    rw [shapeCast_self]

/-- The stored maximum block at (b', l): the block before, raised by the tile's maximum for b'. -/
theorem pay1_apply (x0 : Vec Ideal S8x128x1024 .f32) (xo : Vec Ideal S8x128 .f32) (b' : Fin 8) (l : Fin 128) :
    k0_pay1 (F := Ideal) (k0_pay6 x0) xo (ix2 b' l) = max (xo (ix2 b' l)) (tileHi x0 b') := by
  unfold k0_pay1 k0_pay6 k0_pay4
  dsimp only
  refine (maximumf_apply _ _ _).trans ?_
  refine congrArg₂ max ?_ ?_
  · exact congrFun (shapeCast_self xo _) _
  · refine (lanes_apply _ b' l).trans ?_
    refine (max2_apply _ b').trans ?_
    rw [shapeCast_self]

/-- The reset blocks: +inf and -inf in every lane. -/
theorem pay9_apply (j : S8x128.Idx) : k0_pay9 (F := Ideal) j = Ideal.ofBits .f32 0x7F800000#32 := rfl
theorem pay10_apply (j : S8x128.Idx) : k0_pay10 (F := Ideal) j = Ideal.ofBits .f32 0xFF800000#32 := rfl

end Payload

section Run

variable (V : Entry)

/-- The image window's block at a point. -/
abbrev xblk (c : Dev nD) (t : Fin cfg0.N) : Vec Ideal S8x128x1024 .f32 := iblk0 (F := Ideal) V c 0 t

/-- The windows' block indices over the grid: point t = 8 g + r takes sample block g and row tile r of the image,
    and block g of the two result arrays. -/
theorem idx_facts0 : ∀ t : Fin cfg0.N, win0_0.index t (0 : Fin 3) = t.val / 8 ∧ win0_0.index t (1 : Fin 3) = t.val % 8
    ∧ win0_0.index t (2 : Fin 3) = 0 ∧ win0_1.index t (0 : Fin 2) = t.val / 8 ∧ win0_1.index t (1 : Fin 2) = 0
    ∧ win0_2.index t (0 : Fin 2) = t.val / 8 ∧ win0_2.index t (1 : Fin 2) = 0 :=
  (by decide +kernel : ∀ t : Fin grid0.N, _)

/-- The block at point t holds, at (b', i, q), pixel (128 (t % 8) + i, q) of sample 8 (t / 8) + b'. -/
theorem xblk_apply (c : Dev nD) (t : Fin cfg0.N) (b' : Fin 8) (i : Fin 128) (q : Fin 1024) (s : Fin 32) (r : Fin 1024)
    (hs : s.val = 8 * (t.val / 8) + b'.val) (hr : r.val = 128 * (t.val % 8) + i.val) :
    xblk V c t (ix3 b' i q) = xOf V c (ix3 s r q) := by
  obtain ⟨e0, e1, e2, -⟩ := idx_facts0 t
  show ((cfg0.win 0).blk t).view.read (Elt Ideal) (V c (Pipeline.arrRef spec0 0)) (ix3 b' i q) = _
  rw [View.read_apply]
  refine congrArg (xOf V c) (funext fun a => Fin.ext ?_)
  match a with
  | ⟨0, _⟩ => show win0_0.index t (0 : Fin 3) * 8 + 1 * b'.val = s.val; omega
  | ⟨1, _⟩ => show win0_0.index t (1 : Fin 3) * 128 + 1 * i.val = r.val; omega
  | ⟨2, _⟩ => show win0_0.index t (2 : Fin 3) * 1024 + 1 * q.val = q.val; omega

/-- Below a tile's minimum: below +inf and below every pixel of the tile. -/
theorem le_tileLo (x : Vec Ideal S8x128x1024 .f32) (b' : Fin 8) (cc : EReal) :
    cc ≤ tileLo x b' ↔ cc ≤ Ideal.ofBits .f32 0x7F800000#32 ∧ ∀ (i : Fin 128) (q : Fin 1024), cc ≤ x (ix3 b' i q) := by
  unfold tileLo
  rw [Finset.le_fold_min]
  constructor
  · rintro ⟨h, hh⟩
    exact ⟨h, fun i q => ((Finset.le_fold_min cc).mp (hh i (Finset.mem_univ i))).2 q (Finset.mem_univ q)⟩
  · rintro ⟨h, hh⟩
    exact ⟨h, fun i _ => (Finset.le_fold_min cc).mpr ⟨h, fun q _ => hh i q⟩⟩

/-- Above a tile's maximum: above -inf and above every pixel of the tile. -/
theorem tileHi_le (x : Vec Ideal S8x128x1024 .f32) (b' : Fin 8) (cc : EReal) :
    tileHi x b' ≤ cc ↔ Ideal.ofBits .f32 0xFF800000#32 ≤ cc ∧ ∀ (i : Fin 128) (q : Fin 1024), x (ix3 b' i q) ≤ cc := by
  unfold tileHi
  rw [Finset.fold_max_le]
  constructor
  · rintro ⟨h, hh⟩
    exact ⟨h, fun i q => ((Finset.fold_max_le cc).mp (hh i (Finset.mem_univ i))).2 q (Finset.mem_univ q)⟩
  · rintro ⟨h, hh⟩
    exact ⟨h, fun i _ => (Finset.fold_max_le cc).mpr ⟨h, fun q _ => hh i q⟩⟩

/-! ### The minimum block point by point -/

/-- At a run's first point: +inf lowered by the tile's minimum. -/
theorem lo_at_A (c : Dev nD) (t : Fin cfg0.N) (h0 : t.val % 8 = 0) (b' : Fin 8) (l : Fin 128) :
    (outsAt0 (F := Ideal) V c t.val t.isLt).1 (ix2 b' l)
      = min (Ideal.ofBits .f32 0x7F800000#32) (tileLo (xblk V c t) b') := by
  rw [outsAt0_A V c t h0]
  dsimp only
  refine (congrFun (out_A_1 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk V c t)) (ix2 b' l)).trans ?_
  exact pay13_apply (xblk V c t) (k0_pay9 (F := Ideal)) b' l

/-- At a later point: what the point before left, lowered by the tile's minimum. -/
theorem lo_at_B (c : Dev nD) (n : ℕ) (h : n + 1 < cfg0.N) (h0 : ¬(n + 1) % 8 = 0) (b' : Fin 8) (l : Fin 128) :
    (outsAt0 (F := Ideal) V c (n + 1) h).1 (ix2 b' l)
      = min ((outsAt0 (F := Ideal) V c n (Nat.lt_of_succ_lt h)).1 (ix2 b' l)) (tileLo (xblk V c ⟨n + 1, h⟩) b') := by
  rw [outsAt0_B V c ⟨n + 1, h⟩ h0]
  dsimp only
  refine (congrFun (out_B_1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh))
    (xblk V c ⟨n + 1, h⟩) (outsAt0 (F := Ideal) V c n (Nat.lt_of_succ_lt h)).1 (outsAt0 (F := Ideal) V c n (Nat.lt_of_succ_lt h)).2.1 (outsAt0 (F := Ideal) V c n (Nat.lt_of_succ_lt h)).2.2.1 (outsAt0 (F := Ideal) V c n (Nat.lt_of_succ_lt h)).2.2.2) (ix2 b' l)).trans ?_
  exact pay13_apply (xblk V c ⟨n + 1, h⟩) (outsAt0 (F := Ideal) V c n (Nat.lt_of_succ_lt h)).1 b' l

/-- After a run's first point the minimum block bounds exactly +inf and the pixels of the first 128 rows. -/
theorem lo_inv_A (c : Dev nD) (t : Fin cfg0.N) (h0 : t.val % 8 = 0) (b' : Fin 8) (l : Fin 128) (s : Fin 32)
    (hs : s.val = 8 * (t.val / 8) + b'.val) (cc : EReal) :
    cc ≤ (outsAt0 (F := Ideal) V c t.val t.isLt).1 (ix2 b' l) ↔
      cc ≤ Ideal.ofBits .f32 0x7F800000#32 ∧
        ∀ (r : Fin 1024) (q : Fin 1024), r.val < 128 * (t.val % 8 + 1) → cc ≤ xOf V c (ix3 s r q) := by
  rw [lo_at_A V c t h0 b' l, le_min_iff, le_tileLo]
  constructor
  · rintro ⟨ht, -, hq⟩
    refine ⟨ht, fun r q hr => ?_⟩
    exact le_of_le_of_eq (hq ⟨r.val, by omega⟩ q) (xblk_apply V c t b' ⟨r.val, by omega⟩ q s r hs (by dsimp only; omega))
  · rintro ⟨ht, hp⟩
    refine ⟨ht, ht, fun i q => ?_⟩
    have hi := i.isLt
    exact le_of_le_of_eq (hp ⟨i.val, by omega⟩ q (by dsimp only; omega))
      (xblk_apply V c t b' i q s ⟨i.val, by omega⟩ hs (by dsimp only; omega)).symm

/-- After point n the minimum block at (b', l) bounds exactly +inf and the pixels of sample 8 (n / 8) + b' in the
    rows of the run's tiles so far, 0 .. 128 (n % 8 + 1) - 1. -/
theorem lo_inv (c : Dev nD) : ∀ (n : ℕ) (h : n < cfg0.N) (b' : Fin 8) (l : Fin 128) (s : Fin 32),
    s.val = 8 * (n / 8) + b'.val → ∀ cc : EReal,
    (cc ≤ (outsAt0 (F := Ideal) V c n h).1 (ix2 b' l) ↔
      cc ≤ Ideal.ofBits .f32 0x7F800000#32 ∧
        ∀ (r : Fin 1024) (q : Fin 1024), r.val < 128 * (n % 8 + 1) → cc ≤ xOf V c (ix3 s r q)) := by
  intro n
  induction n with
  | zero =>
    intro h b' l s hs cc
    exact lo_inv_A V c ⟨0, h⟩ rfl b' l s hs cc
  | succ n ih =>
    intro h b' l s hs cc
    by_cases h0 : (n + 1) % 8 = 0
    · exact lo_inv_A V c ⟨n + 1, h⟩ h0 b' l s hs cc
    · have hm : (n + 1) % 8 = n % 8 + 1 := by omega
      have hd : (n + 1) / 8 = n / 8 := by omega
      rw [lo_at_B V c n h h0 b' l, le_min_iff, ih (Nat.lt_of_succ_lt h) b' l s (by omega) cc, le_tileLo]
      constructor
      · rintro ⟨⟨ht, hp⟩, -, hq⟩
        refine ⟨ht, fun r q hr => ?_⟩
        by_cases hlt : r.val < 128 * (n % 8 + 1)
        · exact hp r q hlt
        · exact le_of_le_of_eq (hq ⟨r.val - 128 * ((n + 1) % 8), by omega⟩ q)
            (xblk_apply V c ⟨n + 1, h⟩ b' ⟨r.val - 128 * ((n + 1) % 8), by omega⟩ q s r hs (by dsimp only; omega))
      · rintro ⟨ht, hp⟩
        refine ⟨⟨ht, fun r q hr => hp r q (by omega)⟩, ht, fun i q => ?_⟩
        have hi := i.isLt
        exact le_of_le_of_eq (hp ⟨128 * ((n + 1) % 8) + i.val, by omega⟩ q (by dsimp only; omega))
          (xblk_apply V c ⟨n + 1, h⟩ b' i q s ⟨128 * ((n + 1) % 8) + i.val, by omega⟩ hs rfl).symm

/-! ### The maximum block point by point -/

/-- At a run's first point: -inf raised by the tile's maximum. -/
theorem hi_at_A (c : Dev nD) (t : Fin cfg0.N) (h0 : t.val % 8 = 0) (b' : Fin 8) (l : Fin 128) :
    (outsAt0 (F := Ideal) V c t.val t.isLt).2.1 (ix2 b' l)
      = max (Ideal.ofBits .f32 0xFF800000#32) (tileHi (xblk V c t) b') := by
  rw [outsAt0_A V c t h0]
  dsimp only
  refine (congrFun (out_A_2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk V c t)) (ix2 b' l)).trans ?_
  exact pay1_apply (xblk V c t) (k0_pay10 (F := Ideal)) b' l

/-- At a later point: what the point before left, raised by the tile's maximum. -/
theorem hi_at_B (c : Dev nD) (n : ℕ) (h : n + 1 < cfg0.N) (h0 : ¬(n + 1) % 8 = 0) (b' : Fin 8) (l : Fin 128) :
    (outsAt0 (F := Ideal) V c (n + 1) h).2.1 (ix2 b' l)
      = max ((outsAt0 (F := Ideal) V c n (Nat.lt_of_succ_lt h)).2.1 (ix2 b' l)) (tileHi (xblk V c ⟨n + 1, h⟩) b') := by
  rw [outsAt0_B V c ⟨n + 1, h⟩ h0]
  dsimp only
  refine (congrFun (out_B_2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh))
    (xblk V c ⟨n + 1, h⟩) (outsAt0 (F := Ideal) V c n (Nat.lt_of_succ_lt h)).1 (outsAt0 (F := Ideal) V c n (Nat.lt_of_succ_lt h)).2.1 (outsAt0 (F := Ideal) V c n (Nat.lt_of_succ_lt h)).2.2.1 (outsAt0 (F := Ideal) V c n (Nat.lt_of_succ_lt h)).2.2.2) (ix2 b' l)).trans ?_
  exact pay1_apply (xblk V c ⟨n + 1, h⟩) (outsAt0 (F := Ideal) V c n (Nat.lt_of_succ_lt h)).2.1 b' l

/-- After a run's first point the maximum block is bounded exactly by the bounds of -inf and of the pixels of the first
    128 rows. -/
theorem hi_inv_A (c : Dev nD) (t : Fin cfg0.N) (h0 : t.val % 8 = 0) (b' : Fin 8) (l : Fin 128) (s : Fin 32)
    (hs : s.val = 8 * (t.val / 8) + b'.val) (cc : EReal) :
    (outsAt0 (F := Ideal) V c t.val t.isLt).2.1 (ix2 b' l) ≤ cc ↔
      Ideal.ofBits .f32 0xFF800000#32 ≤ cc ∧
        ∀ (r : Fin 1024) (q : Fin 1024), r.val < 128 * (t.val % 8 + 1) → xOf V c (ix3 s r q) ≤ cc := by
  rw [hi_at_A V c t h0 b' l, max_le_iff, tileHi_le]
  constructor
  · rintro ⟨ht, -, hq⟩
    refine ⟨ht, fun r q hr => ?_⟩
    exact le_of_eq_of_le (xblk_apply V c t b' ⟨r.val, by omega⟩ q s r hs (by dsimp only; omega)).symm (hq ⟨r.val, by omega⟩ q)
  · rintro ⟨ht, hp⟩
    refine ⟨ht, ht, fun i q => ?_⟩
    have hi := i.isLt
    exact le_of_eq_of_le (xblk_apply V c t b' i q s ⟨i.val, by omega⟩ hs (by dsimp only; omega))
      (hp ⟨i.val, by omega⟩ q (by dsimp only; omega))

/-- After point n the maximum block at (b', l) is bounded exactly by the bounds of -inf and of the pixels of sample
    8 (n / 8) + b' in the rows of the run's tiles so far. -/
theorem hi_inv (c : Dev nD) : ∀ (n : ℕ) (h : n < cfg0.N) (b' : Fin 8) (l : Fin 128) (s : Fin 32),
    s.val = 8 * (n / 8) + b'.val → ∀ cc : EReal,
    ((outsAt0 (F := Ideal) V c n h).2.1 (ix2 b' l) ≤ cc ↔
      Ideal.ofBits .f32 0xFF800000#32 ≤ cc ∧
        ∀ (r : Fin 1024) (q : Fin 1024), r.val < 128 * (n % 8 + 1) → xOf V c (ix3 s r q) ≤ cc) := by
  intro n
  induction n with
  | zero =>
    intro h b' l s hs cc
    exact hi_inv_A V c ⟨0, h⟩ rfl b' l s hs cc
  | succ n ih =>
    intro h b' l s hs cc
    by_cases h0 : (n + 1) % 8 = 0
    · exact hi_inv_A V c ⟨n + 1, h⟩ h0 b' l s hs cc
    · have hm : (n + 1) % 8 = n % 8 + 1 := by omega
      have hd : (n + 1) / 8 = n / 8 := by omega
      rw [hi_at_B V c n h h0 b' l, max_le_iff, ih (Nat.lt_of_succ_lt h) b' l s (by omega) cc, tileHi_le]
      constructor
      · rintro ⟨⟨ht, hp⟩, -, hq⟩
        refine ⟨ht, fun r q hr => ?_⟩
        by_cases hlt : r.val < 128 * (n % 8 + 1)
        · exact hp r q hlt
        · exact le_of_eq_of_le
            (xblk_apply V c ⟨n + 1, h⟩ b' ⟨r.val - 128 * ((n + 1) % 8), by omega⟩ q s r hs (by dsimp only; omega)).symm
            (hq ⟨r.val - 128 * ((n + 1) % 8), by omega⟩ q)
      · rintro ⟨ht, hp⟩
        refine ⟨⟨ht, fun r q hr => hp r q (by omega)⟩, ht, fun i q => ?_⟩
        have hi := i.isLt
        exact le_of_eq_of_le (xblk_apply V c ⟨n + 1, h⟩ b' i q s ⟨128 * ((n + 1) % 8) + i.val, by omega⟩ hs rfl)
          (hp ⟨128 * ((n + 1) % 8) + i.val, by omega⟩ q (by dsimp only; omega))

end Run

section Final

variable (V : Entry)

/-- The [32, 128] array whose row b holds the sample's minimum in every lane. -/
def loArrOf (c : Dev nD) : FVec Ideal S32x128 .f32 := fun j => Cert.Spec.lo (xOf V c) (j 0)

/-- At a run's last point the minimum block is block t / 8 of that array. -/
theorem lo_block (c : Dev nD) (t : Fin cfg0.N) (h7 : t.val % 8 = 7) (y : S8x128.Idx) :
    (outsAt0 (F := Ideal) V c t.val t.isLt).1 y = loArrOf V c (((cfg0.win 1).blk t).view.emb y) := by
  obtain ⟨b', l, rfl⟩ : ∃ (b' : Fin 8) (l : Fin 128), y = ix2 b' l := ⟨y 0, y 1, eq_ix2 y⟩
  have hN : cfg0.N = 32 := N_0
  have ht := t.isLt
  obtain ⟨-, -, -, e0, -⟩ := idx_facts0 t
  have hemb : ((cfg0.win 1).blk t).view.emb (ix2 b' l) 0 = (⟨8 * (t.val / 8) + b'.val, by omega⟩ : Fin 32) :=
    Fin.ext (by show win0_1.index t (0 : Fin 2) * 8 + 1 * b'.val = _; dsimp only; omega)
  show _ = Cert.Spec.lo (xOf V c) (((cfg0.win 1).blk t).view.emb (ix2 b' l) 0)
  rw [hemb]
  refine eq_of_forall_le_iff fun cc => ?_
  rw [lo_inv V c t.val t.isLt b' l ⟨8 * (t.val / 8) + b'.val, by omega⟩ rfl cc]
  unfold Cert.Spec.lo
  rw [Finset.le_fold_min]
  constructor
  · rintro ⟨hh, hp⟩
    exact ⟨hh, fun p _ => hp p.1 p.2 (by have := p.1.isLt; omega)⟩
  · rintro ⟨hh, hp⟩
    exact ⟨hh, fun r q _ => hp (r, q) (Finset.mem_univ _)⟩

/-- What a run's last point writes back of the minimum array. -/
theorem lo_flushed (c : Dev nD) (t : Fin cfg0.N) (hf : (cfg0.win 1).flush t = true) :
    (dat0 (F := Ideal) V c).flushed 1 t = ((cfg0.win 1).blk t).view.read (Elt Ideal) (loArrOf V c) := by
  have h7 : t.val % 8 = 7 := (flush0_1 t).mp hf
  show (cfg0.win 1).cut (grid0.coords t) ((dat0 (F := Ideal) V c).after 1 t) = _
  rw [after0_1]
  funext y
  exact lo_block V c t h7 y

/-- An index of the minimum array is in point t's block iff each coordinate is in the block's range. -/
theorem mem_blk1 (t : Fin cfg0.N) (i : S32x128.Idx) :
    i ∈ ((cfg0.win 1).blk t).view.set ↔ ∀ a : Fin 2, win0_1.index t a * S8x128.size a ≤ (i a).val
      ∧ (i a).val < win0_1.index t a * S8x128.size a + S8x128.size a := by
  show i ∈ ((View.whole main_v1_0).slice (win0_1.rect t)).set ↔ _
  rw [View.set_slice_whole, Rect.mem_set_unit]
  exact Iff.rfl

/-- Row b of the minimum array is written back at the last point of run b / 8. -/
theorem cover1 (i : S32x128.Idx) :
    ∃ t : Fin cfg0.N, (cfg0.win 1).flush t = true ∧ i ∈ ((cfg0.win 1).blk t).view.set := by
  have hN : cfg0.N = 32 := N_0
  have hi0 : (i 0).val < 32 := (i 0).isLt
  have hi1 : (i 1).val < 128 := (i 1).isLt
  obtain ⟨t, ht⟩ : ∃ t : Fin cfg0.N, t.val = 8 * ((i 0).val / 8) + 7 := ⟨⟨8 * ((i 0).val / 8) + 7, by omega⟩, rfl⟩
  refine ⟨t, (flush0_1 t).mpr (by omega), ?_⟩
  rw [mem_blk1]
  obtain ⟨-, -, -, e0, e1, -⟩ := idx_facts0 t
  intro a
  match a with
  | ⟨0, _⟩ =>
    show win0_1.index t (0 : Fin 2) * 8 ≤ (i 0).val ∧ (i 0).val < win0_1.index t (0 : Fin 2) * 8 + 8
    omega
  | ⟨1, _⟩ =>
    show win0_1.index t (1 : Fin 2) * 128 ≤ (i 1).val ∧ (i 1).val < win0_1.index t (1 : Fin 2) * 128 + 128
    omega

/-- The minimum array after the pass. -/
theorem lo_final (c : Dev nD) : lo0 V c = loArrOf V c :=
  (dat0 (F := Ideal) V c).arrAt_eq_of_cover 1 (loArrOf V c) (lo_flushed V c) cover1

/-- The [32, 128] array whose row b holds the sample's maximum in every lane. -/
def hiArrOf (c : Dev nD) : FVec Ideal S32x128 .f32 := fun j => Cert.Spec.hi (xOf V c) (j 0)

/-- At a run's last point the maximum block is block t / 8 of that array. -/
theorem hi_block (c : Dev nD) (t : Fin cfg0.N) (h7 : t.val % 8 = 7) (y : S8x128.Idx) :
    (outsAt0 (F := Ideal) V c t.val t.isLt).2.1 y = hiArrOf V c (((cfg0.win 2).blk t).view.emb y) := by
  obtain ⟨b', l, rfl⟩ : ∃ (b' : Fin 8) (l : Fin 128), y = ix2 b' l := ⟨y 0, y 1, eq_ix2 y⟩
  have hN : cfg0.N = 32 := N_0
  have ht := t.isLt
  obtain ⟨-, -, -, -, -, e0, -⟩ := idx_facts0 t
  have hemb : ((cfg0.win 2).blk t).view.emb (ix2 b' l) 0 = (⟨8 * (t.val / 8) + b'.val, by omega⟩ : Fin 32) :=
    Fin.ext (by show win0_2.index t (0 : Fin 2) * 8 + 1 * b'.val = _; dsimp only; omega)
  show _ = Cert.Spec.hi (xOf V c) (((cfg0.win 2).blk t).view.emb (ix2 b' l) 0)
  rw [hemb]
  refine eq_of_forall_ge_iff fun cc => ?_
  rw [hi_inv V c t.val t.isLt b' l ⟨8 * (t.val / 8) + b'.val, by omega⟩ rfl cc]
  unfold Cert.Spec.hi
  rw [Finset.fold_max_le]
  constructor
  · rintro ⟨hh, hp⟩
    exact ⟨hh, fun p _ => hp p.1 p.2 (by have := p.1.isLt; omega)⟩
  · rintro ⟨hh, hp⟩
    exact ⟨hh, fun r q _ => hp (r, q) (Finset.mem_univ _)⟩

/-- What a run's last point writes back of the maximum array. -/
theorem hi_flushed (c : Dev nD) (t : Fin cfg0.N) (hf : (cfg0.win 2).flush t = true) :
    (dat0 (F := Ideal) V c).flushed 2 t = ((cfg0.win 2).blk t).view.read (Elt Ideal) (hiArrOf V c) := by
  have h7 : t.val % 8 = 7 := (flush0_2 t).mp hf
  show (cfg0.win 2).cut (grid0.coords t) ((dat0 (F := Ideal) V c).after 2 t) = _
  rw [after0_2]
  funext y
  exact hi_block V c t h7 y

/-- An index of the maximum array is in point t's block iff each coordinate is in the block's range. -/
theorem mem_blk2 (t : Fin cfg0.N) (i : S32x128.Idx) :
    i ∈ ((cfg0.win 2).blk t).view.set ↔ ∀ a : Fin 2, win0_2.index t a * S8x128.size a ≤ (i a).val
      ∧ (i a).val < win0_2.index t a * S8x128.size a + S8x128.size a := by
  show i ∈ ((View.whole main_v1_1).slice (win0_2.rect t)).set ↔ _
  rw [View.set_slice_whole, Rect.mem_set_unit]
  exact Iff.rfl

/-- Row b of the maximum array is written back at the last point of run b / 8. -/
theorem cover2 (i : S32x128.Idx) :
    ∃ t : Fin cfg0.N, (cfg0.win 2).flush t = true ∧ i ∈ ((cfg0.win 2).blk t).view.set := by
  have hN : cfg0.N = 32 := N_0
  have hi0 : (i 0).val < 32 := (i 0).isLt
  have hi1 : (i 1).val < 128 := (i 1).isLt
  obtain ⟨t, ht⟩ : ∃ t : Fin cfg0.N, t.val = 8 * ((i 0).val / 8) + 7 := ⟨⟨8 * ((i 0).val / 8) + 7, by omega⟩, rfl⟩
  refine ⟨t, (flush0_2 t).mpr (by omega), ?_⟩
  rw [mem_blk2]
  obtain ⟨-, -, -, -, -, e0, e1⟩ := idx_facts0 t
  intro a
  match a with
  | ⟨0, _⟩ =>
    show win0_2.index t (0 : Fin 2) * 8 ≤ (i 0).val ∧ (i 0).val < win0_2.index t (0 : Fin 2) * 8 + 8
    omega
  | ⟨1, _⟩ =>
    show win0_2.index t (1 : Fin 2) * 128 ≤ (i 1).val ∧ (i 1).val < win0_2.index t (1 : Fin 2) * 128 + 128
    omega

/-- The maximum array after the pass. -/
theorem hi_final (c : Dev nD) : hi0 V c = hiArrOf V c :=
  (dat0 (F := Ideal) V c).arrAt_eq_of_cover 2 (hiArrOf V c) (hi_flushed V c) cover2

end Final

end MinMax0

variable (V : Entry)

/-- The minimum array after pass 1. -/
theorem reg0_lo (c : Dev nD) (b : Fin 32) (l : Fin 128) :
    lo0 V c (ix2 b l) = Cert.Spec.lo (xOf V c) b := by
  rw [MinMax0.lo_final V c]
  rfl

/-- The maximum array after pass 1. -/
theorem reg0_hi (c : Dev nD) (b : Fin 32) (l : Fin 128) :
    hi0 V c (ix2 b l) = Cert.Spec.hi (xOf V c) b := by
  rw [MinMax0.hi_final V c]
  rfl

end Cert.KernelIdeal.Val

end
-- ==== Proof.Reg0Sums.lean ====
/-
  Pass 1, the two sums: after the pass, every lane of sample b's row in the confidence array holds the sum over the sample's pixels of
  |sigmoid - 1/2|, and in the area array the count of pixels with sigmoid > 1/2 — each accumulated over the 8 row tiles.
-/
import proofs.«117029_j24532853195288_1_alg».proof.Proof.KDefs
import proofs.«117029_j24532853195288_1_alg».proof.Proof.LibFiber
import Idealize.ShloMosaic.Lib.Pipeline.Value
import Idealize.ShloMosaic.Lib.ValueLayout

noncomputable section

namespace Cert.KernelIdeal.Val

open Cert.KernelIdeal Cert.KernelIdeal.Gen Idealize.ShloMosaic Idealize.ShloMosaic.TcCoe Idealize.ShloMosaic.ValueIdx Idealize.SL.Sem Idealize.ShloMosaic.Pipeline
open scoped BigOperators

/-! ## What one call of the body leaves in the two accumulated blocks -/

section Pieces
variable {F : FTy → Type} [FloatOps F]

/-- The zero offsets of a whole-block load or store. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Away from the first tile of a run the confidence block ends at its old contents plus the block's confidence sums, -/
theorem out_B_3 (c : Dev nD) (i : grid0.Coords) (a2 : Memref sig .tc .vmem S8x128x1024 .f32) (h2 : a2.IsWhole)
    (a3 : Memref sig .tc .vmem S8x128 .f32) (h3 : a3.IsWhole) (a4 : Memref sig .tc .vmem S8x128 .f32) (h4 : a4.IsWhole)
    (a5 : Memref sig .tc .vmem S8x128 .f32) (h5 : a5.IsWhole) (a6 : Memref sig .tc .vmem S8x128 .f32) (h6 : a6.IsWhole)
    (hc : ¬cond0_0 i) (x : Vec F S8x128x1024 .f32) (xo1 xo2 xo3 xo4 : Vec F S8x128 .f32) :
    out0_B_3 c i a2 h2 a3 h3 a4 h4 a5 h5 a6 h6 hc x xo1 xo2 xo3 xo4 = k0_pay2 (k0_pay7 x) xo3 := by
  unfold out0_B_3
  rw [View.read_writes_eq_canon _ _ _ (cover0_B_3 c i a2 h2 a3 h3 a4 h4 a5 h5 a6 h6 hc x xo1 xo2 xo3 xo4)]
  unfold kernelRun0_B
  dsimp only
  sl_unfold_words
  rw [View.canon_unit_zero hz2]
  simp only [View.readAt_eq_ld, h2.read_unread, h5.read_unread, View.ld_unit_zero (S := S8x128) hz2, View.ld_unit_zero (S := S8x128x1024) hz3]

/-- and the area block at its old contents plus the block's area counts. -/
theorem out_B_4 (c : Dev nD) (i : grid0.Coords) (a2 : Memref sig .tc .vmem S8x128x1024 .f32) (h2 : a2.IsWhole)
    (a3 : Memref sig .tc .vmem S8x128 .f32) (h3 : a3.IsWhole) (a4 : Memref sig .tc .vmem S8x128 .f32) (h4 : a4.IsWhole)
    (a5 : Memref sig .tc .vmem S8x128 .f32) (h5 : a5.IsWhole) (a6 : Memref sig .tc .vmem S8x128 .f32) (h6 : a6.IsWhole)
    (hc : ¬cond0_0 i) (x : Vec F S8x128x1024 .f32) (xo1 xo2 xo3 xo4 : Vec F S8x128 .f32) :
    out0_B_4 c i a2 h2 a3 h3 a4 h4 a5 h5 a6 h6 hc x xo1 xo2 xo3 xo4 = k0_pay3 (k0_pay8 x) xo4 := by
  unfold out0_B_4
  rw [View.read_writes_eq_canon _ _ _ (cover0_B_4 c i a2 h2 a3 h3 a4 h4 a5 h5 a6 h6 hc x xo1 xo2 xo3 xo4)]
  unfold kernelRun0_B
  dsimp only
  sl_unfold_words
  rw [View.canon_unit_zero hz2]
  simp only [View.readAt_eq_ld, h2.read_unread, h6.read_unread, View.ld_unit_zero (S := S8x128) hz2, View.ld_unit_zero (S := S8x128x1024) hz3]

/-- At the first tile of a run the confidence block is first set to the zero block, read back, and then takes the block's sums; -/
theorem out_A_3 (c : Dev nD) (i : grid0.Coords) (a2 : Memref sig .tc .vmem S8x128x1024 .f32) (h2 : a2.IsWhole)
    (a3 : Memref sig .tc .vmem S8x128 .f32) (h3 : a3.IsWhole) (a4 : Memref sig .tc .vmem S8x128 .f32) (h4 : a4.IsWhole)
    (a5 : Memref sig .tc .vmem S8x128 .f32) (h5 : a5.IsWhole) (a6 : Memref sig .tc .vmem S8x128 .f32) (h6 : a6.IsWhole)
    (hc : cond0_0 i) (x : Vec F S8x128x1024 .f32) :
    out0_A_3 c i a2 h2 a3 h3 a4 h4 a5 h5 a6 h6 hc x = k0_pay2 (k0_pay7 x) (k0_pay11 (F := F)) := by
  unfold out0_A_3
  rw [View.read_writes_eq_canon _ _ _ (cover0_A_3 c i a2 h2 a3 h3 a4 h4 a5 h5 a6 h6 hc x)]
  unfold kernelRun0_A
  dsimp only
  sl_unfold_words
  rw [View.canon_cons_unit_zero (S := S8x128) hz2, View.readCov_unit_zero (S := S8x128) _ hz2]
  simp only [View.readAt_eq_ld, h2.read_unread, View.ld_unit_zero (S := S8x128) hz2, View.ld_unit_zero (S := S8x128x1024) hz3]

/-- the area block likewise. -/
theorem out_A_4 (c : Dev nD) (i : grid0.Coords) (a2 : Memref sig .tc .vmem S8x128x1024 .f32) (h2 : a2.IsWhole)
    (a3 : Memref sig .tc .vmem S8x128 .f32) (h3 : a3.IsWhole) (a4 : Memref sig .tc .vmem S8x128 .f32) (h4 : a4.IsWhole)
    (a5 : Memref sig .tc .vmem S8x128 .f32) (h5 : a5.IsWhole) (a6 : Memref sig .tc .vmem S8x128 .f32) (h6 : a6.IsWhole)
    (hc : cond0_0 i) (x : Vec F S8x128x1024 .f32) :
    out0_A_4 c i a2 h2 a3 h3 a4 h4 a5 h5 a6 h6 hc x = k0_pay3 (k0_pay8 x) (k0_pay12 (F := F)) := by
  unfold out0_A_4
  rw [View.read_writes_eq_canon _ _ _ (cover0_A_4 c i a2 h2 a3 h3 a4 h4 a5 h5 a6 h6 hc x)]
  unfold kernelRun0_A
  dsimp only
  sl_unfold_words
  rw [View.canon_cons_unit_zero (S := S8x128) hz2, View.readCov_unit_zero (S := S8x128) _ hz2]
  simp only [View.readAt_eq_ld, h2.read_unread, View.ld_unit_zero (S := S8x128) hz2, View.ld_unit_zero (S := S8x128x1024) hz3]

end Pieces

/-! ## The body's two sums over one block, read at an index -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row value kept as a column and spread over the lanes: `[a] → [a, 1] → [a, 1] → [a, b]` reads, at `(p, c)`, row `p`'s value. -/
theorem rowSpread_apply {a b : ℕ} (v : (⟨1, ![a]⟩ : Shape).Idx → α) (h1 : (⟨1, ![a]⟩ : Shape).ShapeCasts ⟨2, ![a, 1]⟩)
    (h2 : (⟨2, ![a, 1]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (shapeCast ⟨2, ![a, 1]⟩ v h1) h2) h3 (ix2 p c) = v (ix1 p) := by
  rw [shapeCast_self]
  exact (broadcastTo_a1_ab_apply _ h3 p c).trans (shapeCast_a_a1_apply v h1 p 0)

end Layout

/-- One pixel's term of the confidence sum: |σ(x) − ½|, as the larger of the difference and its negative. -/
def cterm (x : EReal) : EReal := max (Ideal.logistic x - Cert.Spec.half) (-(Ideal.logistic x - Cert.Spec.half))
/-- One pixel's term of the area count: 1 where σ(x) > ½, else 0. -/
def aterm (x : EReal) : EReal := Cert.Spec.bit (Ideal.cmp .ogt (Ideal.logistic x) Cert.Spec.half)

/-- A one-bit word widened to 32 bits and read as a signed integer is the real 0 or 1 it denotes. -/
theorem sitofp_extui_bit (w : BitVec 1) : (FloatOps.sitofp (F := Ideal) .f32 (w.setWidth 32) : EReal) = Cert.Spec.bit w := by
  show ((((w.setWidth 32).toInt : ℤ) : ℝ) : EReal) = ((w.toNat : ℝ) : EReal)
  have e : (w.setWidth 32).toInt = (w.toNat : ℤ) := by
    rcases BitVec.eq_zero_or_eq_one w with h | h <;> subst h <;> decide
  rw [e, Int.cast_natCast]

/-- The confidence payload of a block: every lane of row b' holds the sum of the block's terms of sample b'. -/
theorem pay7_apply (x : FVec Ideal S8x128x1024 .f32) (b' : Fin 8) (l : Fin 128) :
    k0_pay7 (F := Ideal) x (ix2 b' l) = ∑ i' : Fin 128, ∑ q : Fin 1024, cterm (x (ix3 b' i' q)) := by
  unfold k0_pay7
  refine (rowSpread_apply _ _ _ _ b' l).trans ?_
  refine (Cert.LibFiber.mrAdd_2_1 _ _ _ _ _ b').trans ?_
  refine Finset.sum_congr rfl fun i' _ => ?_
  refine (Cert.LibFiber.mrAdd_3_2 _ _ _ _ _ b' i').trans ?_
  refine Finset.sum_congr rfl fun q _ => ?_
  unfold k0_pay5 k0_pay4
  exact congrArg cterm (congrFun (shapeCast_self x _) (ix3 b' i' q))

/-- The area payload of a block: every lane of row b' holds the count of the block's pixels of sample b' above ½. -/
theorem pay8_apply (x : FVec Ideal S8x128x1024 .f32) (b' : Fin 8) (l : Fin 128) :
    k0_pay8 (F := Ideal) x (ix2 b' l) = ∑ i' : Fin 128, ∑ q : Fin 1024, aterm (x (ix3 b' i' q)) := by
  unfold k0_pay8
  refine (rowSpread_apply _ _ _ _ b' l).trans ?_
  refine (Cert.LibFiber.mrAdd_2_1 _ _ _ _ _ b').trans ?_
  refine Finset.sum_congr rfl fun i' _ => ?_
  refine (Cert.LibFiber.mrAdd_3_2 _ _ _ _ _ b' i').trans ?_
  refine Finset.sum_congr rfl fun q _ => ?_
  unfold k0_pay5 k0_pay4
  refine (sitofp_extui_bit _).trans ?_
  exact congrArg aterm (congrFun (shapeCast_self x _) (ix3 b' i' q))

/-! ## The running sums over a run of 8 row tiles -/

section Run
variable (V : Entry)

/-- The image window's block at a point, and the two accumulated outputs' blocks after it. -/
abbrev xblk (c : Dev nD) (n : ℕ) (h : n < cfg0.N) : Vec Ideal S8x128x1024 .f32 := iblk0 (F := Ideal) V c 0 ⟨n, h⟩
abbrev cacc (c : Dev nD) (n : ℕ) (h : n < cfg0.N) : Vec Ideal S8x128 .f32 := (outsAt0 (F := Ideal) V c n h).2.2.1
abbrev aacc (c : Dev nD) (n : ℕ) (h : n < cfg0.N) : Vec Ideal S8x128 .f32 := (outsAt0 (F := Ideal) V c n h).2.2.2

/-- At the first tile of a run the confidence block is reset to the zero block and takes the tile's sums. -/
theorem cacc_reset (c : Dev nD) (n : ℕ) (h : n < cfg0.N) (h0 : n % 8 = 0) :
    cacc V c n h = k0_pay2 (k0_pay7 (xblk V c n h)) (k0_pay11 (F := Ideal)) := by
  have h0' : (⟨n, h⟩ : Fin cfg0.N).val % 8 = 0 := h0
  show (outsAt0 (F := Ideal) V c (⟨n, h⟩ : Fin cfg0.N).val (⟨n, h⟩ : Fin cfg0.N).isLt).2.2.1 = _
  rw [outsAt0_A V c ⟨n, h⟩ h0']
  dsimp only
  exact out_A_3 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    (ms0_3 ⟨n, h⟩) (hs0_3 ⟨n, h⟩) (ms0_4 ⟨n, h⟩) (hs0_4 ⟨n, h⟩) ((hcond0_0 ⟨n, h⟩).mpr h0') (iblk0 (F := Ideal) V c 0 ⟨n, h⟩)

/-- At every later tile it takes the tile's sums on top of what the tile before left. -/
theorem cacc_step (c : Dev nD) (n : ℕ) (h : n + 1 < cfg0.N) (hB : ¬(n + 1) % 8 = 0) :
    cacc V c (n + 1) h = k0_pay2 (k0_pay7 (xblk V c (n + 1) h)) (cacc V c n (Nat.lt_of_succ_lt h)) := by
  have hB' : ¬(⟨n + 1, h⟩ : Fin cfg0.N).val % 8 = 0 := hB
  show (outsAt0 (F := Ideal) V c (⟨n + 1, h⟩ : Fin cfg0.N).val (⟨n + 1, h⟩ : Fin cfg0.N).isLt).2.2.1 = _
  rw [outsAt0_B V c ⟨n + 1, h⟩ hB']
  dsimp only
  exact out_B_3 (F := Ideal) c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
    (fun hh => hB' ((hcond0_0 ⟨n + 1, h⟩).mp hh)) (iblk0 (F := Ideal) V c 0 ⟨n + 1, h⟩)
    (outsAt0 (F := Ideal) V c n (Nat.lt_of_succ_lt h)).1 (outsAt0 (F := Ideal) V c n (Nat.lt_of_succ_lt h)).2.1
    (outsAt0 (F := Ideal) V c n (Nat.lt_of_succ_lt h)).2.2.1 (outsAt0 (F := Ideal) V c n (Nat.lt_of_succ_lt h)).2.2.2

/-- The area block likewise: reset at the first tile of a run, -/
theorem aacc_reset (c : Dev nD) (n : ℕ) (h : n < cfg0.N) (h0 : n % 8 = 0) :
    aacc V c n h = k0_pay3 (k0_pay8 (xblk V c n h)) (k0_pay12 (F := Ideal)) := by
  have h0' : (⟨n, h⟩ : Fin cfg0.N).val % 8 = 0 := h0
  show (outsAt0 (F := Ideal) V c (⟨n, h⟩ : Fin cfg0.N).val (⟨n, h⟩ : Fin cfg0.N).isLt).2.2.2 = _
  rw [outsAt0_A V c ⟨n, h⟩ h0']
  dsimp only
  exact out_A_4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    (ms0_3 ⟨n, h⟩) (hs0_3 ⟨n, h⟩) (ms0_4 ⟨n, h⟩) (hs0_4 ⟨n, h⟩) ((hcond0_0 ⟨n, h⟩).mpr h0') (iblk0 (F := Ideal) V c 0 ⟨n, h⟩)

/-- and added to at every later one. -/
theorem aacc_step (c : Dev nD) (n : ℕ) (h : n + 1 < cfg0.N) (hB : ¬(n + 1) % 8 = 0) :
    aacc V c (n + 1) h = k0_pay3 (k0_pay8 (xblk V c (n + 1) h)) (aacc V c n (Nat.lt_of_succ_lt h)) := by
  have hB' : ¬(⟨n + 1, h⟩ : Fin cfg0.N).val % 8 = 0 := hB
  show (outsAt0 (F := Ideal) V c (⟨n + 1, h⟩ : Fin cfg0.N).val (⟨n + 1, h⟩ : Fin cfg0.N).isLt).2.2.2 = _
  rw [outsAt0_B V c ⟨n + 1, h⟩ hB']
  dsimp only
  exact out_B_4 (F := Ideal) c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
    (fun hh => hB' ((hcond0_0 ⟨n + 1, h⟩).mp hh)) (iblk0 (F := Ideal) V c 0 ⟨n + 1, h⟩)
    (outsAt0 (F := Ideal) V c n (Nat.lt_of_succ_lt h)).1 (outsAt0 (F := Ideal) V c n (Nat.lt_of_succ_lt h)).2.1
    (outsAt0 (F := Ideal) V c n (Nat.lt_of_succ_lt h)).2.2.1 (outsAt0 (F := Ideal) V c n (Nat.lt_of_succ_lt h)).2.2.2

/-- The two accumulating stores at an index: what the block held plus the tile's value. -/
theorem pay2_apply (v26 v41 : FVec Ideal S8x128 .f32) (i : S8x128.Idx) : k0_pay2 (F := Ideal) v26 v41 i = v41 i + v26 i := by
  unfold k0_pay2
  exact congrArg (· + v26 i) (congrFun (shapeCast_self v41 _) i)
theorem pay3_apply (v29 v45 : FVec Ideal S8x128 .f32) (i : S8x128.Idx) : k0_pay3 (F := Ideal) v29 v45 i = v45 i + v29 i := by
  unfold k0_pay3
  exact congrArg (· + v29 i) (congrFun (shapeCast_self v45 _) i)

/-- The terms φ of sample-row b' of the block at point n, summed over the block's pixels. -/
def tileSum (φ : EReal → EReal) (c : Dev nD) (n : ℕ) (h : n < cfg0.N) (b' : Fin 8) : EReal :=
  ∑ i' : Fin 128, ∑ q : Fin 1024, φ (xblk V c n h (ix3 b' i' q))

/-- A block that is reset to the zero word plus the tile's sums at the first tile of a run, and takes the tile's sums on top of its
    contents at each later tile, holds after tile j of run g the sums of tiles 0 … j of the run. -/
theorem acc_eq (φ : EReal → EReal) (c : Dev nD) (acc : (n : ℕ) → n < cfg0.N → S8x128.Idx → EReal)
    (hreset : ∀ (n : ℕ) (h : n < cfg0.N), n % 8 = 0 → ∀ (b' : Fin 8) (l : Fin 128),
      acc n h (ix2 b' l) = Ideal.ofBits .f32 0x00000000#32 + tileSum V φ c n h b')
    (hstep : ∀ (n : ℕ) (h : n + 1 < cfg0.N), ¬(n + 1) % 8 = 0 → ∀ (b' : Fin 8) (l : Fin 128),
      acc (n + 1) h (ix2 b' l) = acc n (Nat.lt_of_succ_lt h) (ix2 b' l) + tileSum V φ c (n + 1) h b')
    (g : ℕ) (b' : Fin 8) (l : Fin 128) : ∀ (j : ℕ) (hj : j < 8) (h : 8 * g + j < cfg0.N),
      acc (8 * g + j) h (ix2 b' l) = ∑ s : Fin (j + 1), tileSum V φ c (8 * g + s.val) (by have := s.isLt; omega) b'
  | 0, _, h => by
    rw [hreset (8 * g + 0) h (by omega) b' l, Ideal.ofBits_zero_f32, zero_add, Fin.sum_univ_one]
    rfl
  | j + 1, hj, h => by
    show acc ((8 * g + j) + 1) h (ix2 b' l) = _
    rw [hstep (8 * g + j) h (by omega) b' l, acc_eq φ c acc hreset hstep g b' l j (by omega) (Nat.lt_of_succ_lt h),
      Fin.sum_univ_castSucc (n := j + 1)]
    rfl

end Run

/-! ## From the blocks to the arrays -/

section Final
variable (V : Entry)

/-- Where the windows' blocks sit at point t = 8 g + r: the image's at samples 8 g …, rows 128 r …; an accumulated output's at
    samples 8 g …. -/
theorem idx_facts0 : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)
theorem idx_facts3 : ∀ t : Fin cfg0.N, win0_3.index t (0 : Fin 2) = t.val / 8 ∧ win0_3.index t (1 : Fin 2) = 0 :=
  (by decide +kernel : ∀ t : Fin grid0.N, _)
theorem idx_facts4 : ∀ t : Fin cfg0.N, win0_4.index t (0 : Fin 2) = t.val / 8 ∧ win0_4.index t (1 : Fin 2) = 0 :=
  (by decide +kernel : ∀ t : Fin grid0.N, _)

/-- The image block at point t holds X at samples 8 (t / 8) + b', rows 128 (t % 8) + i'. -/
theorem xblk_apply (c : Dev nD) (n : ℕ) (h : n < cfg0.N) (b' : Fin 8) (i' : Fin 128) (q : Fin 1024) (B : Fin 32) (R : Fin 1024)
    (hB : B.val = 8 * (n / 8) + b'.val) (hR : R.val = 128 * (n % 8) + i'.val) :
    xblk V c n h (ix3 b' i' q) = xOf V c (ix3 B R q) := by
  obtain ⟨e0, e1, e2⟩ := idx_facts0 ⟨n, h⟩
  unfold xblk iblk0
  rw [View.read_apply]
  show V c main_v0 _ = V c main_v0 _
  refine congrArg (V c main_v0) ?_
  funext a
  apply Fin.ext
  match a with
  | ⟨0, _⟩ => show win0_0.index ⟨n, h⟩ (0 : Fin 3) * 8 + 1 * b'.val = B.val; rw [e0, hB]; dsimp only; omega
  | ⟨1, _⟩ => show win0_0.index ⟨n, h⟩ (1 : Fin 3) * 128 + 1 * i'.val = R.val; rw [e1, hR]; dsimp only; omega
  | ⟨2, _⟩ => show win0_0.index ⟨n, h⟩ (2 : Fin 3) * 1024 + 1 * q.val = q.val; rw [e2]; omega

/-- A sum over a sample's pixels, cut into the 8 row tiles of 128 rows. -/
theorem sum_tiles (φ : EReal → EReal) (X : S32x1024x1024.Idx → EReal) (b : Fin 32) :
    ∑ p : Cert.Spec.P, φ (X (ix3 b p.1 p.2))
      = ∑ s : Fin 8, ∑ i' : Fin 128, ∑ q : Fin 1024, φ (X (ix3 b (Cert.LibFiber.tileIx 8 128 s i') q)) :=
  (Cert.LibFiber.sum_pair (B := 1024) (C := 1024) fun p => φ (X (ix3 b p.1 p.2))).trans
    (Cert.LibFiber.sum_tile 8 128 fun r : Fin 1024 => ∑ q : Fin 1024, φ (X (ix3 b r q)))

/-- So the 8 tiles' sums of run g, for sample-row b', are the sum over all pixels of sample 8 g + b'. -/
theorem run_sum (φ : EReal → EReal) (c : Dev nD) (g : ℕ) (hg : 8 * g + 7 < cfg0.N) (b' : Fin 8) (B : Fin 32) (hB : B.val = 8 * g + b'.val) :
    ∑ s : Fin 8, tileSum V φ c (8 * g + s.val) (by have := s.isLt; omega) b' = ∑ p : Cert.Spec.P, φ (xOf V c (ix3 B p.1 p.2)) := by
  rw [sum_tiles φ (xOf V c) B]
  refine Finset.sum_congr rfl fun s _ => ?_
  unfold tileSum
  refine Finset.sum_congr rfl fun i' _ => ?_
  refine Finset.sum_congr rfl fun q _ => ?_
  have hs := s.isLt
  refine congrArg φ (xblk_apply V c (8 * g + s.val) _ b' i' q B (Cert.LibFiber.tileIx 8 128 s i') ?_ ?_)
  · rw [hB]; omega
  · show 128 * s.val + i'.val = 128 * ((8 * g + s.val) % 8) + i'.val
    omega

end Final

/-! ## The two arrays after the pass -/

section Arrays
variable (V : Entry)

/-- What the confidence and area arrays hold after the pass: in every lane of row b, sample b's sum. -/
def confG (c : Dev nD) : S32x128.Idx → EReal := fun i => Cert.Spec.conf (xOf V c) (i 0)
def areaG (c : Dev nD) : S32x128.Idx → EReal := fun i => Cert.Spec.area (xOf V c) (i 0)

theorem conf_eq_sum (X : S32x1024x1024.Idx → EReal) (b : Fin 32) :
    Cert.Spec.conf X b = ∑ p : Cert.Spec.P, cterm (X (ix3 b p.1 p.2)) := Finset.sum_congr rfl fun p _ => rfl
theorem area_eq_sum (X : S32x1024x1024.Idx → EReal) (b : Fin 32) :
    Cert.Spec.area X b = ∑ p : Cert.Spec.P, aterm (X (ix3 b p.1 p.2)) := Finset.sum_congr rfl fun p _ => rfl

/-- At the last tile of a run the confidence block holds, in row b', the whole sum of sample 8 (t / 8) + b'. -/
theorem cacc_flush (c : Dev nD) (t : Fin cfg0.N) (h7 : t.val % 8 = 7) (y : S8x128.Idx) (B : Fin 32)
    (hB : B.val = 8 * (t.val / 8) + (y 0).val) : cacc V c t.val t.isLt y = Cert.Spec.conf (xOf V c) B := by
  obtain ⟨b', l, rfl⟩ : ∃ (b' : Fin 8) (l : Fin 128), y = ix2 b' l := ⟨y 0, y 1, eq_ix2 y⟩
  have hN : cfg0.N = 32 := N_0
  have ht := t.isLt
  have hlt : 8 * (t.val / 8) + 7 < cfg0.N := by omega
  have same : ∀ (u : ℕ) (hu : u < cfg0.N), u = t.val → cacc V c u hu = cacc V c t.val t.isLt := fun u hu e => by subst e; rfl
  rw [← same (8 * (t.val / 8) + 7) hlt (by omega), conf_eq_sum]
  refine (acc_eq V cterm c (cacc V c) ?_ ?_ (t.val / 8) b' l 7 (by omega) hlt).trans (run_sum V cterm c (t.val / 8) hlt b' B hB)
  · intro n h h0 b' l
    rw [cacc_reset V c n h h0, pay2_apply, pay7_apply]; rfl
  · intro n h hB b' l
    rw [cacc_step V c n h hB, pay2_apply, pay7_apply]; rfl

theorem aacc_flush (c : Dev nD) (t : Fin cfg0.N) (h7 : t.val % 8 = 7) (y : S8x128.Idx) (B : Fin 32)
    (hB : B.val = 8 * (t.val / 8) + (y 0).val) : aacc V c t.val t.isLt y = Cert.Spec.area (xOf V c) B := by
  obtain ⟨b', l, rfl⟩ : ∃ (b' : Fin 8) (l : Fin 128), y = ix2 b' l := ⟨y 0, y 1, eq_ix2 y⟩
  have hN : cfg0.N = 32 := N_0
  have ht := t.isLt
  have hlt : 8 * (t.val / 8) + 7 < cfg0.N := by omega
  have same : ∀ (u : ℕ) (hu : u < cfg0.N), u = t.val → aacc V c u hu = aacc V c t.val t.isLt := fun u hu e => by subst e; rfl
  rw [← same (8 * (t.val / 8) + 7) hlt (by omega), area_eq_sum]
  refine (acc_eq V aterm c (aacc V c) ?_ ?_ (t.val / 8) b' l 7 (by omega) hlt).trans (run_sum V aterm c (t.val / 8) hlt b' B hB)
  · intro n h h0 b' l
    rw [aacc_reset V c n h h0, pay3_apply, pay8_apply]; rfl
  · intro n h hB b' l
    rw [aacc_step V c n h hB, pay3_apply, pay8_apply]; rfl

/-- What a point writes back into the confidence array is its block of any array G that the block's rows agree with: row b' of the
    block at the last tile of run t / 8 sits at row 8 (t / 8) + b' of the array. -/
theorem flushed3_of (c : Dev nD) (G : S32x128.Idx → EReal)
    (hG : ∀ (t : Fin cfg0.N), t.val % 8 = 7 → ∀ (y : S8x128.Idx) (i : S32x128.Idx),
      (i 0).val = 8 * (t.val / 8) + (y 0).val → cacc V c t.val t.isLt y = G i)
    (t : Fin cfg0.N) (hf : (cfg0.win 3).flush t = true) :
    (dat0 (F := Ideal) V c).flushed 3 t = ((cfg0.win 3).blk t).view.read (Elt Ideal) G := by
  have h7 : t.val % 8 = 7 := (flush0_3 t).mp hf
  obtain ⟨e0, e1⟩ := idx_facts3 t
  show (cfg0.win 3).cut (grid0.coords t) ((dat0 (F := Ideal) V c).after 3 t) = _
  rw [after0_3]
  funext y
  show cacc V c t.val t.isLt ((cfg0.win 3).xinj (grid0.coords t) y) = G (((cfg0.win 3).blk t).view.emb y)
  refine hG t h7 _ _ ?_
  show win0_3.index t (0 : Fin 2) * 8 + 1 * (y 0).val = 8 * (t.val / 8) + (y 0).val
  rw [e0]; omega

theorem flushed4_of (c : Dev nD) (G : S32x128.Idx → EReal)
    (hG : ∀ (t : Fin cfg0.N), t.val % 8 = 7 → ∀ (y : S8x128.Idx) (i : S32x128.Idx),
      (i 0).val = 8 * (t.val / 8) + (y 0).val → aacc V c t.val t.isLt y = G i)
    (t : Fin cfg0.N) (hf : (cfg0.win 4).flush t = true) :
    (dat0 (F := Ideal) V c).flushed 4 t = ((cfg0.win 4).blk t).view.read (Elt Ideal) G := by
  have h7 : t.val % 8 = 7 := (flush0_4 t).mp hf
  obtain ⟨e0, e1⟩ := idx_facts4 t
  show (cfg0.win 4).cut (grid0.coords t) ((dat0 (F := Ideal) V c).after 4 t) = _
  rw [after0_4]
  funext y
  show aacc V c t.val t.isLt ((cfg0.win 4).xinj (grid0.coords t) y) = G (((cfg0.win 4).blk t).view.emb y)
  refine hG t h7 _ _ ?_
  show win0_4.index t (0 : Fin 2) * 8 + 1 * (y 0).val = 8 * (t.val / 8) + (y 0).val
  rw [e0]; omega

theorem conf_flushed (c : Dev nD) (t : Fin cfg0.N) (hf : (cfg0.win 3).flush t = true) :
    (dat0 (F := Ideal) V c).flushed 3 t = ((cfg0.win 3).blk t).view.read (Elt Ideal) (confG V c) :=
  flushed3_of V c (confG V c) (fun t h7 y i hi => cacc_flush V c t h7 y (i 0) hi) t hf

theorem area_flushed (c : Dev nD) (t : Fin cfg0.N) (hf : (cfg0.win 4).flush t = true) :
    (dat0 (F := Ideal) V c).flushed 4 t = ((cfg0.win 4).blk t).view.read (Elt Ideal) (areaG V c) :=
  flushed4_of V c (areaG V c) (fun t h7 y i hi => aacc_flush V c t h7 y (i 0) hi) t hf

end Arrays

variable (V : Entry)

theorem reg0_conf (c : Dev nD) (b : Fin 32) (l : Fin 128) :
    conf0 V c (ix2 b l) = Cert.Spec.conf (xOf V c) b := by
  have hN : cfg0.N = 32 := N_0
  have hb := b.isLt
  have e : confG V c (ix2 b l) = Cert.Spec.conf (xOf V c) b := by unfold confG; rfl
  rw [← e]
  obtain ⟨t, htv⟩ : ∃ t : Fin cfg0.N, t.val = 8 * (b.val / 8) + 7 := ⟨⟨8 * (b.val / 8) + 7, by omega⟩, rfl⟩
  have hf : (cfg0.win 3).flush t = true := (flush0_3 t).mpr (by rw [htv]; omega)
  obtain ⟨e0, e1⟩ := idx_facts3 t
  refine (dat0 (F := Ideal) V c).arrAt_apply_of_mem 3 (confG V c) (conf_flushed V c) cfg0.N t (ix2 b l) t.isLt hf ?_
  show ix2 b l ∈ ((View.whole main_v1_2).slice (win0_3.rect t)).set
  rw [View.set_slice_whole, Rect.mem_set_unit]
  intro a
  match a with
  | ⟨0, _⟩ =>
    show win0_3.index t (0 : Fin 2) * 8 ≤ b.val ∧ b.val < win0_3.index t (0 : Fin 2) * 8 + 8
    rw [e0, htv]; omega
  | ⟨1, _⟩ =>
    show win0_3.index t (1 : Fin 2) * 128 ≤ l.val ∧ l.val < win0_3.index t (1 : Fin 2) * 128 + 128
    rw [e1]; have := l.isLt; omega

theorem reg0_area (c : Dev nD) (b : Fin 32) (l : Fin 128) :
    area0 V c (ix2 b l) = Cert.Spec.area (xOf V c) b := by
  have hN : cfg0.N = 32 := N_0
  have hb := b.isLt
  have e : areaG V c (ix2 b l) = Cert.Spec.area (xOf V c) b := by unfold areaG; rfl
  rw [← e]
  obtain ⟨t, htv⟩ : ∃ t : Fin cfg0.N, t.val = 8 * (b.val / 8) + 7 := ⟨⟨8 * (b.val / 8) + 7, by omega⟩, rfl⟩
  have hf : (cfg0.win 4).flush t = true := (flush0_4 t).mpr (by rw [htv]; omega)
  obtain ⟨e0, e1⟩ := idx_facts4 t
  refine (dat0 (F := Ideal) V c).arrAt_apply_of_mem 4 (areaG V c) (area_flushed V c) cfg0.N t (ix2 b l) t.isLt hf ?_
  show ix2 b l ∈ ((View.whole main_v1_3).slice (win0_4.rect t)).set
  rw [View.set_slice_whole, Rect.mem_set_unit]
  intro a
  match a with
  | ⟨0, _⟩ =>
    show win0_4.index t (0 : Fin 2) * 8 ≤ b.val ∧ b.val < win0_4.index t (0 : Fin 2) * 8 + 8
    rw [e0, htv]; omega
  | ⟨1, _⟩ =>
    show win0_4.index t (1 : Fin 2) * 128 ≤ l.val ∧ l.val < win0_4.index t (1 : Fin 2) * 128 + 128
    rw [e1]; have := l.isLt; omega

end Cert.KernelIdeal.Val

end
-- ==== Proof.Reg1Any.lean ====
/-
  Pass 2, the row "any" array: row r of sample b holds the maximum, from −inf, over the columns q of the 0/1 thresholded image
  bn(r, q) = [pn(r, q) > 1/2], pn = (x − lo) / ((hi − lo) + eps). Point t = 8 g + r' of the grid (4, 8) holds samples 8 g .. 8 g + 7 and
  rows 128 r' .. 128 r' + 127; it reads lo and hi at lane 0 of the two extremes' blocks, forms the 0/1 tile, and stores the tile's maximum
  over the columns as block (g, r') of the array, whole, at every point: nothing is accumulated, and each row is written by the one tile
  that owns it.
-/
import proofs.«117029_j24532853195288_1_alg».proof.Proof.KDefs
import proofs.«117029_j24532853195288_1_alg».proof.Proof.LibFiber
import Idealize.ShloMosaic.Lib.Pipeline.Value
import Idealize.ShloMosaic.Lib.ValueLayout

noncomputable section

namespace Cert.KernelIdeal.Val

open Cert.KernelIdeal Cert.KernelIdeal.Gen Idealize.ShloMosaic Idealize.ShloMosaic.TcCoe Idealize.ShloMosaic.ValueIdx Idealize.SL.Sem Idealize.ShloMosaic.Pipeline
open Idealize.ShloMosaic.Tactic
open scoped BigOperators

namespace RowAny

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Lane 0 of an [8,128] block: the [8,1] column the body loads from the minimum and maximum blocks. -/
abbrev col0 (x : Vec F S8x128 .f32) : Vec F S8x1 .f32 :=
  View.ld x (Rect.unit (s := S8x128) ![0, 0] S8x1.size inb_S8x128_S8x1_0_0)

/-- The row-any block the first point of a run of 8 row tiles leaves: the one store of the maximum over the columns of the
    thresholded tile, a function of the image tile and of lane 0 of the two extremes' blocks. -/
theorem rows_A (c : Dev nD) (i : grid1.Coords) (a2 : Memref sig .tc .vmem S8x128x1024 .f32) (h2 : a2.IsWhole) (a3 : Memref sig .tc .vmem S8x128 .f32) (h3 : a3.IsWhole) (a4 : Memref sig .tc .vmem S8x128 .f32) (h4 : a4.IsWhole) (a5 : Memref sig .tc .vmem S8x128 .f32) (h5 : a5.IsWhole) (a6 : Memref sig .tc .vmem S8x1024 .f32) (h6 : a6.IsWhole) (a7 : Memref sig .tc .vmem S8x128 .f32) (h7 : a7.IsWhole) (a8 : Memref sig .tc .vmem S8x128 .f32) (h8 : a8.IsWhole) (hc : cond1_0 i)
    (x0 : Vec F S8x128x1024 .f32) (x1 : Vec F S8x128 .f32) (x2 : Vec F S8x128 .f32) :
    out1_A_3 c i a2 h2 a3 h3 a4 h4 a5 h5 a6 h6 a7 h7 a8 h8 hc x0 x1 x2 = k1_pay6 x0 (col0 x1) (col0 x2) := by
  unfold out1_A_3
  rw [View.read_writes_eq_canon _ _ _ (cover1_A_3 c i a2 h2 a3 h3 a4 h4 a5 h5 a6 h6 a7 h7 a8 h8 hc x0 x1 x2)]
  unfold kernelRun1_A
  dsimp only
  sl_unfold_words
  rw [View.canon_unit_zero hz2]
  simp only [View.readAt_eq_ld, h2.read_unread, h3.read_unread, h4.read_unread, View.ld_unit_zero (S := S8x128x1024) hz3]

/-- The same at every other point: the block is stored whole, whatever the accumulated outputs held. -/
theorem rows_B (c : Dev nD) (i : grid1.Coords) (a2 : Memref sig .tc .vmem S8x128x1024 .f32) (h2 : a2.IsWhole) (a3 : Memref sig .tc .vmem S8x128 .f32) (h3 : a3.IsWhole) (a4 : Memref sig .tc .vmem S8x128 .f32) (h4 : a4.IsWhole) (a5 : Memref sig .tc .vmem S8x128 .f32) (h5 : a5.IsWhole) (a6 : Memref sig .tc .vmem S8x1024 .f32) (h6 : a6.IsWhole) (a7 : Memref sig .tc .vmem S8x128 .f32) (h7 : a7.IsWhole) (a8 : Memref sig .tc .vmem S8x128 .f32) (h8 : a8.IsWhole) (hc : ¬cond1_0 i)
    (x0 : Vec F S8x128x1024 .f32) (x1 : Vec F S8x128 .f32) (x2 : Vec F S8x128 .f32)
    (xo4 : Vec F S8x1024 .f32) (xo5 : Vec F S8x128 .f32) (xo6 : Vec F S8x128 .f32) :
    out1_B_3 c i a2 h2 a3 h3 a4 h4 a5 h5 a6 h6 a7 h7 a8 h8 hc x0 x1 x2 xo4 xo5 xo6 = k1_pay6 x0 (col0 x1) (col0 x2) := by
  unfold out1_B_3
  rw [View.read_writes_eq_canon _ _ _ (cover1_B_3 c i a2 h2 a3 h3 a4 h4 a5 h5 a6 h6 a7 h7 a8 h8 hc x0 x1 x2 xo4 xo5 xo6)]
  unfold kernelRun1_B
  dsimp only
  sl_unfold_words
  rw [View.canon_unit_zero hz2]
  simp only [View.readAt_eq_ld, h2.read_unread, h3.read_unread, h4.read_unread, View.ld_unit_zero (S := S8x128x1024) hz3]

end Pieces

/-! ## The tile's arithmetic at an index -/

section Payload

variable {α : Type}

/-- An [8,1,1] array broadcast over a tile reads its sample's one entry. -/
theorem bcast_811 (v : S8x1x1.Idx → α) (h : S8x1x1.Broadcasts S8x128x1024) (b : Fin 8) (i : Fin 128) (q : Fin 1024) :
    broadcastTo S8x128x1024 v h (ix3 b i q) = v (ix3 b (0 : Fin 1) (0 : Fin 1)) := by
  refine broadcastTo_apply v h (ix3 b i q) (ix3 b (0 : Fin 1) (0 : Fin 1)) fun a => ?_
  match a with
  | ⟨0, _⟩ => rfl
  | ⟨1, _⟩ => rfl
  | ⟨2, _⟩ => rfl

/-- [8] cast to [8,1,1]. -/
theorem cast_8_811 (v : S8.Idx → α) (h : S8.ShapeCasts S8x1x1) (b : Fin 8) :
    shapeCast S8x1x1 v h (ix3 b (0 : Fin 1) (0 : Fin 1)) = v (ix1 b) :=
  shapeCast_apply v h _ _ (by
    rw [Shape.rowMajor_val_one, Shape.rowMajor_val_three]
    show b.val = (b.val * 1 + 0) * 1 + 0
    omega)

/-- [8,1] cast to [8]. -/
theorem cast_81_8 (v : S8x1.Idx → α) (h : S8x1.ShapeCasts S8) (b : Fin 8) :
    shapeCast S8 v h (ix1 b) = v (ix2 b (0 : Fin 1)) :=
  shapeCast_apply v h _ _ (by
    rw [Shape.rowMajor_val_two, Shape.rowMajor_val_one]
    show b.val * 1 + 0 = b.val
    omega)

/-- A 0/1 word zero-extended and converted is the real 0 or 1. -/
theorem sitofp_extui (w : BitVec 1) :
    (FloatOps.sitofp (F := Ideal) .f32 (w.setWidth 32) : EReal) = Cert.Spec.bit w := by
  have e : (w.setWidth 32).toInt = (w.toNat : ℤ) := by
    rcases BitVec.eq_zero_or_eq_one w with h | h <;> subst h <;> decide
  show (((w.setWidth 32).toInt : ℝ) : EReal) = ((w.toNat : ℝ) : EReal)
  rw [e, Int.cast_natCast]

/-- The normalized tile: (x − lo) / ((hi − lo) + eps), the extremes read at the sample's row of the two columns. -/
def pnT (x0 : FVec Ideal S8x128x1024 .f32) (v2 v4 : FVec Ideal S8x1 .f32) (b : Fin 8) (i : Fin 128) (q : Fin 1024) : EReal :=
  Ideal.div (x0 (ix3 b i q) - v2 (ix2 b (0 : Fin 1)))
    (v4 (ix2 b (0 : Fin 1)) - v2 (ix2 b (0 : Fin 1)) + Ideal.ofBits .f32 0x322BCC77#32)

/-- Its 0/1 threshold at one half. -/
def bnT (x0 : FVec Ideal S8x128x1024 .f32) (v2 v4 : FVec Ideal S8x1 .f32) (b : Fin 8) (i : Fin 128) (q : Fin 1024) : EReal :=
  Cert.Spec.bit (Ideal.cmp .ogt (pnT x0 v2 v4 b i q) (Ideal.ofBits .f32 0x3F000000#32))

theorem pay4_apply (x0 : FVec Ideal S8x128x1024 .f32) (v2 v4 : FVec Ideal S8x1 .f32) (b : Fin 8) (i : Fin 128) (q : Fin 1024) :
    k1_pay4 (F := Ideal) x0 v2 v4 (ix3 b i q) = pnT x0 v2 v4 b i q := by
  unfold k1_pay4 pnT
  rw [divf_apply, subf_apply, bcast_811, bcast_811, addf_apply, subf_apply, cast_8_811, cast_8_811, cast_81_8, cast_81_8,
    shapeCast_self, broadcast_apply]
  rfl

theorem pay5_apply (x0 : FVec Ideal S8x128x1024 .f32) (v2 v4 : FVec Ideal S8x1 .f32) (b : Fin 8) (i : Fin 128) (q : Fin 1024) :
    k1_pay5 (F := Ideal) x0 v2 v4 (ix3 b i q) = bnT x0 v2 v4 b i q := by
  unfold k1_pay5 bnT
  rw [sitofp_apply, extui_apply, cmpf_apply, broadcast_apply, pay4_apply]
  exact sitofp_extui _

/-- The stored row-any block at an entry: the maximum over the columns of the 0/1 tile, from −inf. -/
theorem pay6_apply (x0 : FVec Ideal S8x128x1024 .f32) (v2 v4 : FVec Ideal S8x1 .f32) (b : Fin 8) (i : Fin 128) :
    k1_pay6 (F := Ideal) x0 v2 v4 (ix2 b i)
      = (Finset.univ : Finset (Fin 1024)).fold max (Ideal.ofBits .f32 0xFF800000#32) fun q => bnT x0 v2 v4 b i q := by
  unfold k1_pay6
  refine (Cert.LibFiber.mrMax_3_2 (A := 8) (B := 128) (C := 1024) (k1_pay5 (F := Ideal) x0 v2 v4) _ _ _ _ b i).trans ?_
  exact congrArg (fun f => (Finset.univ : Finset (Fin 1024)).fold max (Ideal.ofBits .f32 0xFF800000#32) f)
    (funext fun q => pay5_apply x0 v2 v4 b i q)

end Payload

/-! ## The blocks of a point, read off the arrays the pass is entered with -/

section Blocks

variable (V : Entry)

/-- The image tile and the minimum and maximum blocks the three input windows hold at point t. -/
abbrev xblk (c : Dev nD) (t : Fin cfg1.N) : Vec Ideal S8x128x1024 .f32 := iblk1 (F := Ideal) V c 0 t
abbrev loblk (c : Dev nD) (t : Fin cfg1.N) : Vec Ideal S8x128 .f32 := iblk1 (F := Ideal) V c 1 t
abbrev hiblk (c : Dev nD) (t : Fin cfg1.N) : Vec Ideal S8x128 .f32 := iblk1 (F := Ideal) V c 2 t

/-- The index maps over the grid (4, 8): point t = 8 g + r fetches samples 8 g .. 8 g + 7, rows 128 r .. 128 r + 127 of the
    image, the same samples of the two extremes' arrays, and writes the row-any block (g, r). -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 2) = t.val / 8 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = t.val % 8 :=
  (by decide +kernel : ∀ t : Fin grid1.N, _)

/-- The sample that entry b' of point t's tile belongs to, -/
def sIx (t : Fin cfg1.N) (b' : Fin 8) : Fin 32 :=
  ⟨8 * (t.val / 8) + b'.val, by have := t.isLt; have hN : cfg1.N = 32 := N_1; omega⟩
/-- and the image row of its row i'. -/
def rIx (t : Fin cfg1.N) (i' : Fin 128) : Fin 1024 := ⟨128 * (t.val % 8) + i'.val, by omega⟩

theorem xblk_apply (c : Dev nD) (t : Fin cfg1.N) (b' : Fin 8) (i' : Fin 128) (q : Fin 1024) :
    xblk V c t (ix3 b' i' q) = xOf V c (ix3 (sIx t b') (rIx t i') q) := by
  obtain ⟨e0, e1, e2, -⟩ := idx_facts t
  show iblk1 (F := Ideal) V c 0 t (ix3 b' i' q) = xOf V c _
  unfold iblk1
  rw [View.read_apply]
  show xOf V c _ = xOf V c _
  refine congrArg (xOf V c) (funext fun a => Fin.ext ?_)
  match a with
  | ⟨0, _⟩ => show win1_0.index t (0 : Fin 3) * 8 + 1 * b'.val = 8 * (t.val / 8) + b'.val; rw [e0]; omega
  | ⟨1, _⟩ => show win1_0.index t (1 : Fin 3) * 128 + 1 * i'.val = 128 * (t.val % 8) + i'.val; rw [e1]; omega
  | ⟨2, _⟩ => show win1_0.index t (2 : Fin 3) * 1024 + 1 * q.val = q.val; rw [e2]; omega

theorem lo_apply (c : Dev nD) (t : Fin cfg1.N) (b' : Fin 8) :
    col0 (loblk V c t) (ix2 b' (0 : Fin 1)) = loOf V c (sIx t b') := by
  obtain ⟨-, -, -, e0, e1, -⟩ := idx_facts t
  show iblk1 (F := Ideal) V c 1 t ((Rect.unit (s := S8x128) ![0, 0] S8x1.size inb_S8x128_S8x1_0_0).idx (ix2 b' (0 : Fin 1)))
    = loArr V c (ix2 (sIx t b') 0)
  unfold iblk1
  rw [View.read_apply]
  show loArr V c _ = loArr V c _
  refine congrArg (loArr V c) (funext fun a => Fin.ext ?_)
  match a with
  | ⟨0, _⟩ => show win1_1.index t (0 : Fin 2) * 8 + 1 * (0 + 1 * b'.val) = 8 * (t.val / 8) + b'.val; rw [e0]; omega
  | ⟨1, _⟩ => show win1_1.index t (1 : Fin 2) * 128 + 1 * (0 + 1 * 0) = 0; rw [e1]

theorem hi_apply (c : Dev nD) (t : Fin cfg1.N) (b' : Fin 8) :
    col0 (hiblk V c t) (ix2 b' (0 : Fin 1)) = hiOf V c (sIx t b') := by
  obtain ⟨-, -, -, -, -, e0, e1, -⟩ := idx_facts t
  show iblk1 (F := Ideal) V c 2 t ((Rect.unit (s := S8x128) ![0, 0] S8x1.size inb_S8x128_S8x1_0_0).idx (ix2 b' (0 : Fin 1)))
    = hiArr V c (ix2 (sIx t b') 0)
  unfold iblk1
  rw [View.read_apply]
  show hiArr V c _ = hiArr V c _
  refine congrArg (hiArr V c) (funext fun a => Fin.ext ?_)
  match a with
  | ⟨0, _⟩ => show win1_2.index t (0 : Fin 2) * 8 + 1 * (0 + 1 * b'.val) = 8 * (t.val / 8) + b'.val; rw [e0]; omega
  | ⟨1, _⟩ => show win1_2.index t (1 : Fin 2) * 128 + 1 * (0 + 1 * 0) = 0; rw [e1]

/-- The thresholded tile of point t is the thresholded image at the tile's samples and rows. -/
theorem bnT_tile (c : Dev nD) (t : Fin cfg1.N) (b' : Fin 8) (i' : Fin 128) (q : Fin 1024) :
    bnT (xblk V c t) (col0 (loblk V c t)) (col0 (hiblk V c t)) b' i' q
      = Cert.Spec.bit (Cert.Spec.bn (xOf V c) (loOf V c) (hiOf V c) (sIx t b') (rIx t i', q)) := by
  have hx := xblk_apply V c t b' i' q
  have hl := lo_apply V c t b'
  have hh := hi_apply V c t b'
  unfold bnT pnT
  rw [hx, hl, hh]
  rfl

end Blocks

/-! ## The row-any array -/

section Rows

variable (V : Entry)

/-- What the row-any output's staging buffer holds after point n. -/
abbrev rowsAt (c : Dev nD) (n : ℕ) (h : n < cfg1.N) : Vec Ideal S8x128 .f32 := (outsAt1 (F := Ideal) V c n h).1

/-- At every point, first of a run or not, it is the row-any payload of the point's three blocks: the block is stored
    whole and nothing of it is carried over. -/
theorem rowsAt_eq (c : Dev nD) (t : Fin cfg1.N) :
    rowsAt V c t.val t.isLt = k1_pay6 (F := Ideal) (xblk V c t) (col0 (loblk V c t)) (col0 (hiblk V c t)) := by
  by_cases h0 : t.val % 8 = 0
  · show (outsAt1 (F := Ideal) V c t.val t.isLt).1 = _
    rw [outsAt1_A V c t h0]
    dsimp only
    exact rows_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t)
  · show (outsAt1 (F := Ideal) V c t.val t.isLt).1 = _
    rw [outsAt1_B V c t h0]
    dsimp only
    exact rows_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t)
      (outsAt1 (F := Ideal) V c (t.val - 1) (Nat.lt_of_le_of_lt (Nat.sub_le _ _) t.isLt)).2.1 (outsAt1 (F := Ideal) V c (t.val - 1) (Nat.lt_of_le_of_lt (Nat.sub_le _ _) t.isLt)).2.2.1 (outsAt1 (F := Ideal) V c (t.val - 1) (Nat.lt_of_le_of_lt (Nat.sub_le _ _) t.isLt)).2.2.2

/-- Entry (b', i') of it is row 128 r + i' of sample 8 g + b': the maximum over that row's columns of the 0/1 image. -/
theorem rowsAt_apply (c : Dev nD) (t : Fin cfg1.N) (b' : Fin 8) (i' : Fin 128) :
    rowsAt V c t.val t.isLt (ix2 b' i') = Cert.Spec.rowF (xOf V c) (loOf V c) (hiOf V c) (sIx t b') (rIx t i') := by
  refine (congrFun (rowsAt_eq V c t) (ix2 b' i')).trans ?_
  refine (pay6_apply (xblk V c t) (col0 (loblk V c t)) (col0 (hiblk V c t)) b' i').trans ?_
  show _ = (Finset.univ : Finset (Fin 1024)).fold max (Ideal.ofBits .f32 0xFF800000#32)
    fun q => Cert.Spec.bit (Cert.Spec.bn (xOf V c) (loOf V c) (hiOf V c) (sIx t b') (rIx t i', q))
  exact congrArg (fun f => (Finset.univ : Finset (Fin 1024)).fold max (Ideal.ofBits .f32 0xFF800000#32) f)
    (funext fun q => bnT_tile V c t b' i' q)

/-- The whole array the pass leaves: row r of sample b at the row's maximum. -/
abbrev rowsG (c : Dev nD) : FVec Ideal S32x1024 .f32 := Cert.Spec.arr2 (Cert.Spec.rowF (xOf V c) (loOf V c) (hiOf V c))

/-- Every point writes back its block of that array. -/
theorem rows_flushed (c : Dev nD) (t : Fin cfg1.N) :
    (dat1 (F := Ideal) V c).flushed 3 t = ((cfg1.win 3).blk t).view.read (Elt Ideal) (rowsG V c) := by
  obtain ⟨-, -, -, -, -, -, -, e0, e1⟩ := idx_facts t
  show (cfg1.win 3).cut (grid1.coords t) ((dat1 (F := Ideal) V c).after 3 t) = _
  rw [after1_3]
  funext j
  have hj0 : (j 0).val < 8 := (j 0).isLt
  have hj1 : (j 1).val < 128 := (j 1).isLt
  rw [View.read_apply]
  have hemb : ((cfg1.win 3).blk t).view.emb j = ix2 (sIx t ⟨(j 0).val, hj0⟩) (rIx t ⟨(j 1).val, hj1⟩) := by
    funext a; apply Fin.ext
    match a with
    | ⟨0, _⟩ => show win1_3.index t (0 : Fin 2) * 8 + 1 * (j 0).val = 8 * (t.val / 8) + (j 0).val; rw [e0]; omega
    | ⟨1, _⟩ => show win1_3.index t (1 : Fin 2) * 128 + 1 * (j 1).val = 128 * (t.val % 8) + (j 1).val; rw [e1]; omega
  have hx : (cfg1.win 3).xinj (grid1.coords t) j = ix2 (⟨(j 0).val, hj0⟩ : Fin 8) (⟨(j 1).val, hj1⟩ : Fin 128) :=
    funext fun a => match a with | ⟨0, _⟩ => rfl | ⟨1, _⟩ => rfl
  show rowsAt V c t.val t.isLt ((cfg1.win 3).xinj (grid1.coords t) j) = rowsG V c (((cfg1.win 3).blk t).view.emb j)
  exact (congrArg (rowsAt V c t.val t.isLt) hx).trans
    ((rowsAt_apply V c t ⟨(j 0).val, hj0⟩ ⟨(j 1).val, hj1⟩).trans (congrArg (rowsG V c) hemb).symm)

end Rows

end RowAny

open RowAny

variable (V : Entry)

/-- Row r of sample b of the array pass 2 leaves is the row's maximum over the columns of the 0/1 image: the point
    8 (b / 8) + r / 128 holds the row in its block, and every point writes back its block of one and the same array. -/
theorem reg1_rows (c : Dev nD) (b : Fin 32) (r : Fin 1024) :
    rows1 V c (ix2 b r) = Cert.Spec.rowF (xOf V c) (loOf V c) (hiOf V c) b r := by
  have hN : cfg1.N = 32 := N_1
  have hb := b.isLt
  have hr := r.isLt
  -- the point that owns row r of sample b
  have ht : 8 * (b.val / 8) + r.val / 128 < cfg1.N := by omega
  obtain ⟨-, -, -, -, -, -, -, e0, e1⟩ := idx_facts ⟨8 * (b.val / 8) + r.val / 128, ht⟩
  refine ((dat1 (F := Ideal) V c).arrAt_apply_of_mem 3 (rowsG V c) (fun t _ => rows_flushed V c t) cfg1.N
    ⟨8 * (b.val / 8) + r.val / 128, ht⟩ (ix2 b r) ht (flush1_3 _) ?_).trans rfl
  show ix2 b r ∈ ((View.whole main_v10_0).slice (win1_3.rect ⟨8 * (b.val / 8) + r.val / 128, ht⟩)).set
  rw [View.set_slice_whole, Rect.mem_set_unit]
  intro a
  match a with
  | ⟨0, _⟩ =>
    show win1_3.index ⟨8 * (b.val / 8) + r.val / 128, ht⟩ (0 : Fin 2) * 8 ≤ b.val
      ∧ b.val < win1_3.index ⟨8 * (b.val / 8) + r.val / 128, ht⟩ (0 : Fin 2) * 8 + 8
    rw [e0]; show (8 * (b.val / 8) + r.val / 128) / 8 * 8 ≤ b.val ∧ b.val < (8 * (b.val / 8) + r.val / 128) / 8 * 8 + 8; omega
  | ⟨1, _⟩ =>
    show win1_3.index ⟨8 * (b.val / 8) + r.val / 128, ht⟩ (1 : Fin 2) * 128 ≤ r.val
      ∧ r.val < win1_3.index ⟨8 * (b.val / 8) + r.val / 128, ht⟩ (1 : Fin 2) * 128 + 128
    rw [e1]; show (8 * (b.val / 8) + r.val / 128) % 8 * 128 ≤ r.val ∧ r.val < (8 * (b.val / 8) + r.val / 128) % 8 * 128 + 128; omega

end Cert.KernelIdeal.Val

end
-- ==== Proof.Consts.lean ====
/-
  The float literals the two programs spell, as the extended reals their words denote at the ideal instance. One module states
  them all; every other module of this proof reads them here.
-/
import proofs.«117029_j24532853195288_1_alg».proof.Proof.Spec

noncomputable section

namespace Cert.Consts

open Idealize.ShloMosaic Cert.Spec

/-- 0.0 -/
theorem zw_eq : zw = 0 := by
  unfold zw; simp [Ideal.ofBits, Ideal.ieee]
/-- 1.0 -/
theorem onew_eq : onew = 1 := by
  unfold onew; simp [Ideal.ofBits, Ideal.ieee, -EReal.coe_mul]; norm_num
/-- 0.5 -/
theorem half_eq : half = ((1 / 2 : ℝ) : EReal) := by
  unfold half; simp [Ideal.ofBits, Ideal.ieee, -EReal.coe_mul]; norm_num
/-- 2.0 -/
theorem two_eq : two = ((2 : ℝ) : EReal) := by
  unfold two; simp [Ideal.ofBits, Ideal.ieee, -EReal.coe_mul]; norm_num
/-- 2^20, the pixel count -/
theorem nTot_eq : nTot = ((1048576 : ℝ) : EReal) := by
  unfold nTot; simp [Ideal.ofBits, Ideal.ieee, -EReal.coe_mul]; norm_num
/-- +inf -/
theorem topw_eq : topw = ⊤ := by
  unfold topw; simp [Ideal.ofBits, Ideal.ieee]
/-- -inf -/
theorem botw_eq : botw = ⊥ := by
  unfold botw; simp [Ideal.ofBits, Ideal.ieee]
/-- The small positive constant added to the range: 11258999 / 2^50. -/
theorem eps_eq : eps = ((11258999 / 1125899906842624 : ℝ) : EReal) := by
  unfold eps; simp [Ideal.ofBits, Ideal.ieee, -EReal.coe_mul]; norm_num
theorem eps_pos : ∃ e : ℝ, 0 < e ∧ eps = (e : EReal) := ⟨_, by norm_num, eps_eq⟩
/-- +inf as the precondition spells it. -/
theorem ofBits_inf : Ideal.ofBits .f32 0x7F800000#32 = ⊤ := topw_eq

end Cert.Consts

end
-- ==== Proof.Reg1Cols.lean ====
/-
  Pass 2, the column "any" array: column q of sample b holds the maximum over all rows of the 0/1 thresholded image, accumulated from 0
  over the 8 row tiles (each tile's own maximum over its 128 rows is taken from -inf).
-/
import proofs.«117029_j24532853195288_1_alg».proof.Proof.KDefs
import proofs.«117029_j24532853195288_1_alg».proof.Proof.LibFiber
import proofs.«117029_j24532853195288_1_alg».proof.Proof.Consts
import Idealize.ShloMosaic.Lib.Pipeline.Value
import Idealize.ShloMosaic.Lib.ValueLayout

noncomputable section

namespace Cert.KernelIdeal.Val

open Cert.KernelIdeal Cert.KernelIdeal.Gen Idealize.ShloMosaic Idealize.ShloMosaic.TcCoe Idealize.ShloMosaic.ValueIdx Idealize.SL.Sem Idealize.ShloMosaic.Pipeline
open scoped BigOperators

namespace Cols

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Lane 0 of an [8,128] block: the [8,1] column the body loads from the minimum and maximum blocks. -/
abbrev col0 (x : Vec F S8x128 .f32) : Vec F S8x1 .f32 :=
  View.ld x (Rect.unit (s := S8x128) ![0, 0] S8x1.size inb_S8x128_S8x1_0_0)

/-- The column accumulator after a run's first tile: the zero block joined with the tile's maximum over its rows. -/
theorem out_A (c : Dev nD) (i : grid1.Coords) (a2 : Memref sig .tc .vmem S8x128x1024 .f32) (h2 : a2.IsWhole) (a3 : Memref sig .tc .vmem S8x128 .f32) (h3 : a3.IsWhole) (a4 : Memref sig .tc .vmem S8x128 .f32) (h4 : a4.IsWhole) (a5 : Memref sig .tc .vmem S8x128 .f32) (h5 : a5.IsWhole) (a6 : Memref sig .tc .vmem S8x1024 .f32) (h6 : a6.IsWhole) (a7 : Memref sig .tc .vmem S8x128 .f32) (h7 : a7.IsWhole) (a8 : Memref sig .tc .vmem S8x128 .f32) (h8 : a8.IsWhole) (hc : cond1_0 i)
    (x0 : Vec F S8x128x1024 .f32) (x1 : Vec F S8x128 .f32) (x2 : Vec F S8x128 .f32) :
    out1_A_4 c i a2 h2 a3 h3 a4 h4 a5 h5 a6 h6 a7 h7 a8 h8 hc x0 x1 x2 = k1_pay1 (k1_pay7 x0 (col0 x1) (col0 x2)) (k1_pay10 (F := F)) := by
  unfold out1_A_4
  rw [View.read_writes_eq_canon _ _ _ (cover1_A_4 c i a2 h2 a3 h3 a4 h4 a5 h5 a6 h6 a7 h7 a8 h8 hc x0 x1 x2)]
  unfold kernelRun1_A
  dsimp only
  sl_unfold_words
  rw [View.canon_cons_unit_zero (S := S8x1024) hz2]
  simp only [View.readAt_eq_ld, h2.read_unread, h3.read_unread, h4.read_unread, View.ld_unit_zero (S := S8x128x1024) hz3,
    View.readCov_unit_zero (S := S8x1024) _ hz2]

/-- The column accumulator after a later tile: what the tile before left joined with the tile's maximum over its rows. -/
theorem out_B (c : Dev nD) (i : grid1.Coords) (a2 : Memref sig .tc .vmem S8x128x1024 .f32) (h2 : a2.IsWhole) (a3 : Memref sig .tc .vmem S8x128 .f32) (h3 : a3.IsWhole) (a4 : Memref sig .tc .vmem S8x128 .f32) (h4 : a4.IsWhole) (a5 : Memref sig .tc .vmem S8x128 .f32) (h5 : a5.IsWhole) (a6 : Memref sig .tc .vmem S8x1024 .f32) (h6 : a6.IsWhole) (a7 : Memref sig .tc .vmem S8x128 .f32) (h7 : a7.IsWhole) (a8 : Memref sig .tc .vmem S8x128 .f32) (h8 : a8.IsWhole) (hc : ¬cond1_0 i)
    (x0 : Vec F S8x128x1024 .f32) (x1 : Vec F S8x128 .f32) (x2 : Vec F S8x128 .f32)
    (xo4 : Vec F S8x1024 .f32) (xo5 : Vec F S8x128 .f32) (xo6 : Vec F S8x128 .f32) :
    out1_B_4 c i a2 h2 a3 h3 a4 h4 a5 h5 a6 h6 a7 h7 a8 h8 hc x0 x1 x2 xo4 xo5 xo6 = k1_pay1 (k1_pay7 x0 (col0 x1) (col0 x2)) xo4 := by
  unfold out1_B_4
  rw [View.read_writes_eq_canon _ _ _ (cover1_B_4 c i a2 h2 a3 h3 a4 h4 a5 h5 a6 h6 a7 h7 a8 h8 hc x0 x1 x2 xo4 xo5 xo6)]
  unfold kernelRun1_B
  dsimp only
  sl_unfold_words
  rw [View.canon_unit_zero hz2]
  simp only [View.readAt_eq_ld, h2.read_unread, h3.read_unread, h4.read_unread, h6.read_unread, View.ld_unit_zero (S := S8x128x1024) hz3,
    View.ld_unit_zero (S := S8x1024) hz2]

end Pieces

section Payload

/-- A one-bit word widened to 32 bits and converted as a signed integer is the real 0 or 1 the bit denotes. -/
theorem sitofp_extui_bit (w : BitVec 1) :
    FloatOps.sitofp (F := Ideal) .f32 (w.setWidth 32) = Cert.Spec.bit w := by
  rcases BitVec.eq_zero_or_eq_one w with h | h <;> subst h
  · show (((BitVec.setWidth 32 0#1).toInt : ℝ) : EReal) = (((0#1 : BitVec 1).toNat : ℝ) : EReal)
    rw [show (BitVec.setWidth 32 0#1).toInt = 0 from by decide, show (0#1 : BitVec 1).toNat = 0 from rfl]
    simp
  · show (((BitVec.setWidth 32 1#1).toInt : ℝ) : EReal) = (((1#1 : BitVec 1).toNat : ℝ) : EReal)
    rw [show (BitVec.setWidth 32 1#1).toInt = 1 from by decide, show (1#1 : BitVec 1).toNat = 1 from rfl]
    simp

/-- An [a, 1] array cast to [a] reads, at i, the operand at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An [a] array cast to [a, 1, 1] reads, at (i, 0, 0), the operand at i. -/
theorem shapeCast_a_a11_apply {α : Type} {a : ℕ} (x : (⟨1, ![a]⟩ : Shape).Idx → α)
    (h : (⟨1, ![a]⟩ : Shape).ShapeCasts ⟨3, ![a, 1, 1]⟩) (i : Fin a) :
    shapeCast ⟨3, ![a, 1, 1]⟩ x h (ix3 i (0 : Fin 1) (0 : Fin 1)) = x (ix1 i) :=
  shapeCast_apply x h _ _ (by
    rw [Shape.rowMajor_val_three, Shape.rowMajor_val_one]
    show i.val = (i.val * 1 + 0) * 1 + 0
    omega)

/-- An [a, 1, 1] array broadcast to [a, b, c] reads, at (p, r, q), the operand at (p, 0, 0). -/
theorem broadcastTo_a11_abc_apply {α : Type} {a b c : ℕ} (v : (⟨3, ![a, 1, 1]⟩ : Shape).Idx → α)
    (h : (⟨3, ![a, 1, 1]⟩ : Shape).Broadcasts ⟨3, ![a, b, c]⟩) (p : Fin a) (r : Fin b) (q : Fin c) :
    broadcastTo ⟨3, ![a, b, c]⟩ v h (ix3 p r q) = v (ix3 p (0 : Fin 1) (0 : Fin 1)) := by
  refine broadcastTo_apply v h (ix3 p r q) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- The normalized pixel of a tile, from the image block and the two [8, 1] columns of extremes. -/
theorem pay4_apply (x0 : Vec Ideal S8x128x1024 .f32) (v2 v4 : Vec Ideal S8x1 .f32) (b' : Fin 8) (r : Fin 128) (q : Fin 1024) :
    k1_pay4 (F := Ideal) x0 v2 v4 (ix3 b' r q)
      = Ideal.div (x0 (ix3 b' r q) - v2 (ix2 b' (0 : Fin 1)))
          (v4 (ix2 b' (0 : Fin 1)) - v2 (ix2 b' (0 : Fin 1)) + Ideal.ofBits .f32 0x322BCC77#32) := by
  unfold k1_pay4
  try dsimp only
  refine (divf_apply _ _ _).trans ?_
  refine congrArg₂ Ideal.div ?_ ?_
  · refine (subf_apply _ _ _).trans ?_
    refine congrArg₂ (· - ·) ?_ ?_
    · exact congrFun (shapeCast_self x0 _) _
    · refine (broadcastTo_a11_abc_apply _ _ b' r q).trans ?_
      refine (shapeCast_a_a11_apply _ _ b').trans ?_
      exact shapeCast_a1_a_apply v2 _ b'
  · refine (broadcastTo_a11_abc_apply _ _ b' r q).trans ?_
    refine (addf_apply _ _ _).trans ?_
    refine congrArg₂ (· + ·) ?_ rfl
    refine (subf_apply _ _ _).trans ?_
    refine congrArg₂ (· - ·) ?_ ?_
    · refine (shapeCast_a_a11_apply _ _ b').trans ?_
      exact shapeCast_a1_a_apply v4 _ b'
    · refine (shapeCast_a_a11_apply _ _ b').trans ?_
      exact shapeCast_a1_a_apply v2 _ b'

/-- The thresholded pixel of a tile as the real 0 or 1. -/
theorem pay5_apply (x0 : Vec Ideal S8x128x1024 .f32) (v2 v4 : Vec Ideal S8x1 .f32) (b' : Fin 8) (r : Fin 128) (q : Fin 1024) :
    k1_pay5 (F := Ideal) x0 v2 v4 (ix3 b' r q)
      = Cert.Spec.bit (Ideal.cmp .ogt (k1_pay4 (F := Ideal) x0 v2 v4 (ix3 b' r q)) (Ideal.ofBits .f32 0x3F000000#32)) := by
  unfold k1_pay5
  try dsimp only
  exact sitofp_extui_bit _

/-- The tile's maximum over its rows, per column, from -inf. -/
theorem pay7_apply (x0 : Vec Ideal S8x128x1024 .f32) (v2 v4 : Vec Ideal S8x1 .f32) (b' : Fin 8) (q : Fin 1024) :
    k1_pay7 (F := Ideal) x0 v2 v4 (ix2 b' q)
      = (Finset.univ : Finset (Fin 128)).fold max (Ideal.ofBits .f32 0xFF800000#32)
          fun r => k1_pay5 (F := Ideal) x0 v2 v4 (ix3 b' r q) := by
  unfold k1_pay7
  try dsimp only
  exact LibFiber.mrMax_3_1 (k1_pay5 (F := Ideal) x0 v2 v4) 0xFF800000#32 reduces_S8x128x1024_S8x1024 (.inl rfl) rfl b' q

/-- The stored block at (b', q): the block before joined with the tile's column maximum. -/
theorem pay1_apply (v21 : FVec Ideal S8x1024 .f32) (xo : Vec Ideal S8x1024 .f32) (b' : Fin 8) (q : Fin 1024) :
    k1_pay1 (F := Ideal) v21 xo (ix2 b' q) = max (xo (ix2 b' q)) (v21 (ix2 b' q)) := by
  unfold k1_pay1
  try dsimp only
  refine (maximumf_apply _ _ _).trans ?_
  exact congrArg₂ max (congrFun (shapeCast_self xo _) _) rfl

/-- The reset block: the zero word everywhere. -/
theorem pay10_apply (j : S8x1024.Idx) : k1_pay10 (F := Ideal) j = Ideal.ofBits .f32 0x00000000#32 := rfl

end Payload

section Blocks

variable (V : Entry)

/-- The blocks a point reads: the image tile and the two blocks of extremes, by their literal types. -/
abbrev xblk (c : Dev nD) (t : Fin cfg1.N) : Vec Ideal S8x128x1024 .f32 := iblk1 (F := Ideal) V c 0 t
abbrev loblk (c : Dev nD) (t : Fin cfg1.N) : Vec Ideal S8x128 .f32 := iblk1 (F := Ideal) V c 1 t
abbrev hiblk (c : Dev nD) (t : Fin cfg1.N) : Vec Ideal S8x128 .f32 := iblk1 (F := Ideal) V c 2 t

/-- The index maps over the grid: point t reads samples 8 (t / 8) .. and rows 128 (t % 8) .., and writes the column block of
    samples 8 (t / 8) .. -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 2) = t.val / 8 ∧ win1_1.index t (1 : Fin 2) = 0
    ∧ win1_2.index t (0 : Fin 2) = t.val / 8 ∧ win1_2.index t (1 : Fin 2) = 0
    ∧ win1_4.index t (0 : Fin 2) = t.val / 8 ∧ win1_4.index t (1 : Fin 2) = 0 :=
  (by decide +kernel : ∀ t : Fin grid1.N, _)

/-- The image tile at (b', i', q) is the image at sample 8 (t / 8) + b', row 128 (t % 8) + i', column q. -/
theorem xblk_apply (c : Dev nD) (t : Fin cfg1.N) (b' : Fin 8) (i' : Fin 128) (q : Fin 1024) (B : Fin 32) (R : Fin 1024)
    (hB : B.val = 8 * (t.val / 8) + b'.val) (hR : R.val = 128 * (t.val % 8) + i'.val) :
    xblk V c t (ix3 b' i' q) = xOf V c (ix3 B R q) := by
  obtain ⟨e0, e1, e2, -⟩ := idx_facts t
  show iblk1 (F := Ideal) V c 0 t _ = _
  unfold iblk1
  rw [View.read_apply]
  show V c main_v0 _ = V c main_v0 _
  congr 1
  funext a
  apply Fin.ext
  match a with
  | ⟨0, _⟩ => show win1_0.index t (0 : Fin 3) * 8 + 1 * b'.val = B.val; rw [e0, hB]; omega
  | ⟨1, _⟩ => show win1_0.index t (1 : Fin 3) * 128 + 1 * i'.val = R.val; rw [e1, hR]; omega
  | ⟨2, _⟩ => show win1_0.index t (2 : Fin 3) * 1024 + 1 * q.val = q.val; rw [e2]; omega

/-- Lane 0 of the minimum block at b' is the minimum array at sample 8 (t / 8) + b', lane 0. -/
theorem loblk_apply (c : Dev nD) (t : Fin cfg1.N) (b' : Fin 8) (B : Fin 32) (hB : B.val = 8 * (t.val / 8) + b'.val) :
    col0 (loblk V c t) (ix2 b' (0 : Fin 1)) = loArr V c (ix2 B (0 : Fin 128)) := by
  obtain ⟨-, -, -, e0, e1, -⟩ := idx_facts t
  show iblk1 (F := Ideal) V c 1 t _ = _
  unfold iblk1
  rw [View.read_apply]
  show V c main_v1_0 _ = V c main_v1_0 _
  congr 1
  funext a
  apply Fin.ext
  match a with
  | ⟨0, _⟩ => show win1_1.index t (0 : Fin 2) * 8 + 1 * (0 + 1 * b'.val) = B.val; rw [e0, hB]; omega
  | ⟨1, _⟩ => show win1_1.index t (1 : Fin 2) * 128 + 1 * (0 + 1 * 0) = 0; rw [e1]

/-- Lane 0 of the maximum block likewise. -/
theorem hiblk_apply (c : Dev nD) (t : Fin cfg1.N) (b' : Fin 8) (B : Fin 32) (hB : B.val = 8 * (t.val / 8) + b'.val) :
    col0 (hiblk V c t) (ix2 b' (0 : Fin 1)) = hiArr V c (ix2 B (0 : Fin 128)) := by
  obtain ⟨-, -, -, -, -, e0, e1, -⟩ := idx_facts t
  show iblk1 (F := Ideal) V c 2 t _ = _
  unfold iblk1
  rw [View.read_apply]
  show V c main_v1_1 _ = V c main_v1_1 _
  congr 1
  funext a
  apply Fin.ext
  match a with
  | ⟨0, _⟩ => show win1_2.index t (0 : Fin 2) * 8 + 1 * (0 + 1 * b'.val) = B.val; rw [e0, hB]; omega
  | ⟨1, _⟩ => show win1_2.index t (1 : Fin 2) * 128 + 1 * (0 + 1 * 0) = 0; rw [e1]

/-- The 0/1 thresholded image at sample B, row R, column q, as a real. -/
abbrev px (c : Dev nD) (B : Fin 32) (R : Fin 1024) (q : Fin 1024) : EReal :=
  Cert.Spec.bit (Cert.Spec.bn (xOf V c) (loOf V c) (hiOf V c) B (R, q))

/-- The thresholded tile a point forms is the thresholded image on the tile's samples and rows. -/
theorem tile_px (c : Dev nD) (t : Fin cfg1.N) (b' : Fin 8) (i' : Fin 128) (q : Fin 1024) (B : Fin 32) (R : Fin 1024)
    (hB : B.val = 8 * (t.val / 8) + b'.val) (hR : R.val = 128 * (t.val % 8) + i'.val) :
    k1_pay5 (F := Ideal) (xblk V c t) (col0 (loblk V c t)) (col0 (hiblk V c t)) (ix3 b' i' q) = px V c B R q := by
  refine (pay5_apply _ _ _ b' i' q).trans ?_
  refine congrArg (fun z => Cert.Spec.bit (Ideal.cmp .ogt z (Ideal.ofBits .f32 0x3F000000#32))) ?_
  refine (pay4_apply _ _ _ b' i' q).trans ?_
  rw [xblk_apply V c t b' i' q B R hB hR, loblk_apply V c t b' B hB, hiblk_apply V c t b' B hB]
  rfl

/-- The tile's column maximum at a point, from -inf. -/
def tileMax (c : Dev nD) (t : Fin cfg1.N) (b' : Fin 8) (q : Fin 1024) : EReal :=
  k1_pay7 (F := Ideal) (xblk V c t) (col0 (loblk V c t)) (col0 (hiblk V c t)) (ix2 b' q)

/-- It is below a bound exactly when every thresholded pixel of the tile's column is. -/
theorem tileMax_le (c : Dev nD) (t : Fin cfg1.N) (b' : Fin 8) (q : Fin 1024) (B : Fin 32)
    (hB : B.val = 8 * (t.val / 8) + b'.val) (cc : EReal) :
    tileMax V c t b' q ≤ cc ↔ ∀ R : Fin 1024, R.val / 128 = t.val % 8 → px V c B R q ≤ cc := by
  unfold tileMax
  rw [pay7_apply, Finset.fold_max_le]
  constructor
  · rintro ⟨-, hall⟩ R hR
    have hlt : R.val % 128 < 128 := Nat.mod_lt _ (by norm_num)
    have := hall ⟨R.val % 128, hlt⟩ (Finset.mem_univ _)
    rwa [tile_px V c t b' ⟨R.val % 128, hlt⟩ q B R hB (by show R.val = 128 * (t.val % 8) + R.val % 128; omega)] at this
  · intro hall
    refine ⟨?_, fun i' _ => ?_⟩
    · show Cert.Spec.botw ≤ cc
      rw [Cert.Consts.botw_eq]; exact bot_le
    · have hi : i'.val < 128 := i'.isLt
      have ht : t.val % 8 < 8 := Nat.mod_lt _ (by norm_num)
      have hlt : 128 * (t.val % 8) + i'.val < 1024 := by omega
      rw [tile_px V c t b' i' q B ⟨128 * (t.val % 8) + i'.val, hlt⟩ hB rfl]
      exact hall _ (by show (128 * (t.val % 8) + i'.val) / 128 = t.val % 8; omega)

end Blocks

section Run

variable (V : Entry)

/-- After a run's first tile the accumulator holds the zero word joined with that tile's column maximum. -/
theorem step_A (c : Dev nD) (t : Fin cfg1.N) (h0 : t.val % 8 = 0) (b' : Fin 8) (q : Fin 1024) :
    (outsAt1 (F := Ideal) V c t.val t.isLt).2.1 (ix2 b' q)
      = max (Ideal.ofBits .f32 0x00000000#32) (tileMax V c t b' q) := by
  rw [outsAt1_A V c t h0]
  dsimp only
  refine (congrFun (out_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 (F := Ideal) V c 0 t) (iblk1 (F := Ideal) V c 1 t) (iblk1 (F := Ideal) V c 2 t)) (ix2 b' q)).trans ?_
  exact pay1_apply _ _ b' q

/-- After a later tile it holds what the tile before left joined with this tile's column maximum. -/
theorem step_B (c : Dev nD) (t : Fin cfg1.N) (h0 : ¬t.val % 8 = 0) (b' : Fin 8) (q : Fin 1024) :
    (outsAt1 (F := Ideal) V c t.val t.isLt).2.1 (ix2 b' q)
      = max ((outsAt1 (F := Ideal) V c (t.val - 1) (Nat.lt_of_le_of_lt (Nat.sub_le _ _) t.isLt)).2.1 (ix2 b' q))
          (tileMax V c t b' q) := by
  rw [outsAt1_B V c t h0]
  dsimp only
  refine (congrFun (out_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 (F := Ideal) V c 0 t) (iblk1 (F := Ideal) V c 1 t) (iblk1 (F := Ideal) V c 2 t)
    (outsAt1 (F := Ideal) V c (t.val - 1) (Nat.lt_of_le_of_lt (Nat.sub_le _ _) t.isLt)).2.1
    (outsAt1 (F := Ideal) V c (t.val - 1) (Nat.lt_of_le_of_lt (Nat.sub_le _ _) t.isLt)).2.2.1
    (outsAt1 (F := Ideal) V c (t.val - 1) (Nat.lt_of_le_of_lt (Nat.sub_le _ _) t.isLt)).2.2.2) (ix2 b' q)).trans ?_
  exact pay1_apply _ _ b' q

/-- The contents after a point depend on the point's number only. -/
theorem outs_congr (c : Dev nD) (n n' : Nat) (e : n = n') (h : n < cfg1.N) (h' : n' < cfg1.N) :
    outsAt1 (F := Ideal) V c n h = outsAt1 (F := Ideal) V c n' h' := by
  subst e; rfl

/-- THE RUN OF 8 TILES. After tile j of the run for samples 8 g .., the accumulator at (b', q) is below a bound exactly when
    the zero word is and every thresholded pixel of column q in rows 0 .. 128 (j + 1) - 1 of sample 8 g + b' is. -/
theorem inv (c : Dev nD) (g : Nat) (hg : g < 4) (b' : Fin 8) (q : Fin 1024) (B : Fin 32) (hB : B.val = 8 * g + b'.val)
    (cc : EReal) :
    ∀ (j : Nat) (hj : j < 8) (h : 8 * g + j < cfg1.N),
      (outsAt1 (F := Ideal) V c (8 * g + j) h).2.1 (ix2 b' q) ≤ cc ↔
        (Ideal.ofBits .f32 0x00000000#32 ≤ cc ∧ ∀ R : Fin 1024, R.val / 128 ≤ j → px V c B R q ≤ cc)
  | 0, hj, h => by
    have key : (outsAt1 (F := Ideal) V c (8 * g + 0) h).2.1 (ix2 b' q)
        = max (Ideal.ofBits .f32 0x00000000#32) (tileMax V c ⟨8 * g + 0, h⟩ b' q) :=
      step_A V c ⟨8 * g + 0, h⟩ (by show (8 * g + 0) % 8 = 0; omega) b' q
    rw [key, max_le_iff,
      tileMax_le V c ⟨8 * g + 0, h⟩ b' q B (by show B.val = 8 * ((8 * g + 0) / 8) + b'.val; omega) cc]
    constructor
    · rintro ⟨h1, h2⟩
      exact ⟨h1, fun R hR => h2 R (by show R.val / 128 = (8 * g + 0) % 8; omega)⟩
    · rintro ⟨h1, h2⟩
      exact ⟨h1, fun R hR => h2 R (by have : R.val / 128 = (8 * g + 0) % 8 := hR; omega)⟩
  | j + 1, hj, h => by
    have hne : ¬(8 * g + (j + 1)) % 8 = 0 := by omega
    have key : (outsAt1 (F := Ideal) V c (8 * g + (j + 1)) h).2.1 (ix2 b' q)
        = max ((outsAt1 (F := Ideal) V c (8 * g + j) (Nat.lt_of_succ_lt h)).2.1 (ix2 b' q))
            (tileMax V c ⟨8 * g + (j + 1), h⟩ b' q) := by
      have := step_B V c ⟨8 * g + (j + 1), h⟩ hne b' q
      rw [outs_congr V c ((⟨8 * g + (j + 1), h⟩ : Fin cfg1.N).val - 1) (8 * g + j)
        (by show 8 * g + (j + 1) - 1 = 8 * g + j; omega) _ (Nat.lt_of_succ_lt h)] at this
      exact this
    have ih := inv c g hg b' q B hB cc j (by omega) (Nat.lt_of_succ_lt h)
    rw [key, max_le_iff, ih,
      tileMax_le V c ⟨8 * g + (j + 1), h⟩ b' q B (by show B.val = 8 * ((8 * g + (j + 1)) / 8) + b'.val; omega) cc]
    constructor
    · rintro ⟨⟨h1, h2⟩, h3⟩
      refine ⟨h1, fun R hR => ?_⟩
      by_cases hc : R.val / 128 ≤ j
      · exact h2 R hc
      · exact h3 R (by show R.val / 128 = (8 * g + (j + 1)) % 8; omega)
    · rintro ⟨h1, h2⟩
      exact ⟨⟨h1, fun R hR => h2 R (by omega)⟩,
        fun R hR => h2 R (by have : R.val / 128 = (8 * g + (j + 1)) % 8 := hR; omega)⟩

end Run

section Final

variable (V : Entry)

/-- The column "any" array as the mathematics states it: at (b, q), the maximum from 0 of column q of sample b's 0/1 image. -/
abbrev Gcols (c : Dev nD) : FVec Ideal S32x1024 .f32 :=
  fun i => Cert.Spec.colF (xOf V c) (loOf V c) (hiOf V c) (i 0) (i 1)

/-- The column block's extents at every point. -/
theorem size_facts : ∀ t : Fin cfg1.N,
    win1_4.xsize (grid1.coords t) (0 : Fin 2) = 8 ∧ win1_4.xsize (grid1.coords t) (1 : Fin 2) = 1024 :=
  (by decide +kernel : ∀ t : Fin grid1.N, _)

/-- After a run's last tile the accumulator holds the whole column's maximum from 0. -/
theorem acc_last (c : Dev nD) (t : Fin cfg1.N) (h7 : t.val % 8 = 7) (b' : Fin 8) (q : Fin 1024) (B : Fin 32)
    (hB : B.val = 8 * (t.val / 8) + b'.val) :
    (outsAt1 (F := Ideal) V c t.val t.isLt).2.1 (ix2 b' q) = Cert.Spec.colF (xOf V c) (loOf V c) (hiOf V c) B q := by
  have hN : cfg1.N = 32 := N_1
  have ht : t.val < 32 := Nat.lt_of_lt_of_eq t.isLt hN
  have hlt : 8 * (t.val / 8) + 7 < cfg1.N := Nat.lt_of_lt_of_eq (by omega : 8 * (t.val / 8) + 7 < 32) hN.symm
  rw [outs_congr V c t.val (8 * (t.val / 8) + 7) (by omega) t.isLt hlt]
  refine eq_of_forall_ge_iff fun cc => ?_
  rw [inv V c (t.val / 8) (by omega) b' q B hB cc 7 (by norm_num) hlt]
  unfold Cert.Spec.colF
  rw [Finset.fold_max_le]
  constructor
  · rintro ⟨h1, h2⟩
    exact ⟨h1, fun r _ => h2 r (by have := r.isLt; omega)⟩
  · rintro ⟨h1, h2⟩
    exact ⟨h1, fun R _ => h2 R (Finset.mem_univ _)⟩

/-- What a run's last point writes back is its block of that array. -/
theorem flushed_eq (c : Dev nD) (t : Fin cfg1.N) (hf : (cfg1.win 4).flush t = true) :
    (dat1 (F := Ideal) V c).flushed 4 t = ((cfg1.win 4).blk t).view.read (Elt Ideal) (Gcols V c) := by
  have h7 : t.val % 8 = 7 := (flush1_4 t).mp hf
  have hN : cfg1.N = 32 := N_1
  have ht : t.val < 32 := Nat.lt_of_lt_of_eq t.isLt hN
  obtain ⟨-, -, -, -, -, -, -, e0, e1⟩ := idx_facts t
  show (cfg1.win 4).cut (grid1.coords t) ((dat1 (F := Ideal) V c).after 4 t) = _
  rw [after1_4]
  funext y
  obtain ⟨b', q, rfl⟩ : ∃ (b' : Fin 8) (q : Fin 1024), y = ix2 b' q := ⟨y 0, y 1, eq_ix2 (n0 := 8) (n1 := 1024) y⟩
  have hb : b'.val < 8 := b'.isLt
  show (outsAt1 (F := Ideal) V c t.val t.isLt).2.1 (ix2 b' q) = Gcols V c (((cfg1.win 4).blk t).view.emb (ix2 b' q))
  have hemb : ((cfg1.win 4).blk t).view.emb (ix2 b' q)
      = (ix2 (⟨8 * (t.val / 8) + b'.val, by omega⟩ : Fin 32) q : S32x1024.Idx) := by
    funext a
    apply Fin.ext
    match a with
    | ⟨0, _⟩ => show win1_4.index t (0 : Fin 2) * 8 + 1 * b'.val = 8 * (t.val / 8) + b'.val; rw [e0]; omega
    | ⟨1, _⟩ => show win1_4.index t (1 : Fin 2) * 1024 + 1 * q.val = q.val; rw [e1]; omega
  rw [hemb]
  exact acc_last V c t h7 b' q _ rfl

end Final

end Cols

variable (V : Entry)

theorem reg1_cols (c : Dev nD) (b : Fin 32) (q : Fin 1024) :
    cols1 V c (ix2 b q) = Cert.Spec.colF (xOf V c) (loOf V c) (hiOf V c) b q := by
  have hN : cfg1.N = 32 := N_1
  have hb : b.val < 32 := b.isLt
  have hlt : 8 * (b.val / 8) + 7 < cfg1.N := Nat.lt_of_lt_of_eq (by omega : 8 * (b.val / 8) + 7 < 32) hN.symm
  have e0 : win1_4.index ⟨8 * (b.val / 8) + 7, hlt⟩ (0 : Fin 2) = (8 * (b.val / 8) + 7) / 8 :=
    (Cols.idx_facts ⟨8 * (b.val / 8) + 7, hlt⟩).2.2.2.2.2.2.2.1
  have e1 : win1_4.index ⟨8 * (b.val / 8) + 7, hlt⟩ (1 : Fin 2) = 0 :=
    (Cols.idx_facts ⟨8 * (b.val / 8) + 7, hlt⟩).2.2.2.2.2.2.2.2
  obtain ⟨s0, s1⟩ := Cols.size_facts ⟨8 * (b.val / 8) + 7, hlt⟩
  refine (dat1 (F := Ideal) V c).arrAt_apply_of_mem 4 (Cols.Gcols V c) (Cols.flushed_eq V c) cfg1.N
    ⟨8 * (b.val / 8) + 7, hlt⟩ (ix2 b q) hlt
    ((flush1_4 ⟨8 * (b.val / 8) + 7, hlt⟩).mpr (by show (8 * (b.val / 8) + 7) % 8 = 7; omega)) ?_
  show ix2 b q ∈ ((View.whole main_v10_1).slice (win1_4.rect ⟨8 * (b.val / 8) + 7, hlt⟩)).set
  rw [View.set_slice_whole, Rect.mem_set_unit]
  intro a
  match a with
  | ⟨0, _⟩ =>
    show win1_4.index ⟨8 * (b.val / 8) + 7, hlt⟩ (0 : Fin 2) * win1_4.size (0 : Fin 2) ≤ b.val
      ∧ b.val < win1_4.index ⟨8 * (b.val / 8) + 7, hlt⟩ (0 : Fin 2) * win1_4.size (0 : Fin 2)
          + win1_4.xsize (grid1.coords ⟨8 * (b.val / 8) + 7, hlt⟩) (0 : Fin 2)
    rw [e0, s0, show win1_4.size (0 : Fin 2) = 8 from rfl]
    omega
  | ⟨1, _⟩ =>
    show win1_4.index ⟨8 * (b.val / 8) + 7, hlt⟩ (1 : Fin 2) * win1_4.size (1 : Fin 2) ≤ q.val
      ∧ q.val < win1_4.index ⟨8 * (b.val / 8) + 7, hlt⟩ (1 : Fin 2) * win1_4.size (1 : Fin 2)
          + win1_4.xsize (grid1.coords ⟨8 * (b.val / 8) + 7, hlt⟩) (1 : Fin 2)
    rw [e1, s1]
    have := q.isLt
    omega

end Cert.KernelIdeal.Val

end
-- ==== Proof.Reg1Sums.lean ====
/-
  Pass 2, the two sums: every lane of sample b's row holds the sum over the sample's pixels of the squared normalized image, and the
  count of pixels over the threshold — each accumulated over the 8 row tiles.

  Point t = 8 g + r of the grid handles samples 8 g … 8 g + 7 and rows 128 r … 128 r + 127. At r = 0 the two blocks are set to
  0 + (the tile's sums), at r > 0 the tile's sums are added to what the tile before left, and the blocks are written back after
  r = 7: row b' then holds Σ_r Σ_i' Σ_q over the 8 · 128 rows and 1024 columns, which is the sum over all pixels of sample
  8 g + b' (addition on the extended reals is commutative and associative: no finiteness is used).
-/
import proofs.«117029_j24532853195288_1_alg».proof.Proof.KDefs
import proofs.«117029_j24532853195288_1_alg».proof.Proof.LibFiber
import Idealize.ShloMosaic.Lib.Pipeline.Value
import Idealize.ShloMosaic.Lib.ValueLayout
import Idealize.ShloMosaic.Lib.Tactic

noncomputable section

namespace Cert.KernelIdeal.Val

open Cert.KernelIdeal Cert.KernelIdeal.Gen Idealize.ShloMosaic Idealize.ShloMosaic.TcCoe Idealize.ShloMosaic.ValueIdx Idealize.SL.Sem Idealize.ShloMosaic.Pipeline
open scoped BigOperators

namespace Sums1

/-! ## What the body leaves in the two accumulated blocks, for any float values -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Lane 0 of an [8, 128] block as an [8, 1] column: what the body's load of the 8 x 1 rectangle at the origin reads. -/
abbrev col0 (x : Vec F S8x128 .f32) : Vec F S8x1 .f32 :=
  View.ld x (Rect.unit (s := S8x128) ![0, 0] S8x1.size inb_S8x128_S8x1_0_0)

/-- The zero block the first row tile of a sample group stores before it accumulates. -/
abbrev zblk : Vec F S8x128 .f32 := broadcast S8x128 (Scalar.ofBits .f32 0x00000000#32)

/-- At the first row tile of a group the squared-image block is left at the zero block plus this tile's sum. -/
theorem sq_first (c : Dev nD) (i : grid1.Coords) (a2 : Memref sig .tc .vmem S8x128x1024 .f32) (h2 : a2.IsWhole) (a3 : Memref sig .tc .vmem S8x128 .f32) (h3 : a3.IsWhole) (a4 : Memref sig .tc .vmem S8x128 .f32) (h4 : a4.IsWhole) (a5 : Memref sig .tc .vmem S8x128 .f32) (h5 : a5.IsWhole) (a6 : Memref sig .tc .vmem S8x1024 .f32) (h6 : a6.IsWhole) (a7 : Memref sig .tc .vmem S8x128 .f32) (h7 : a7.IsWhole) (a8 : Memref sig .tc .vmem S8x128 .f32) (h8 : a8.IsWhole) (hc : cond1_0 i)
    (x0 : Vec F S8x128x1024 .f32) (x1 : Vec F S8x128 .f32) (x2 : Vec F S8x128 .f32) :
    out1_A_5 c i a2 h2 a3 h3 a4 h4 a5 h5 a6 h6 a7 h7 a8 h8 hc x0 x1 x2 = addf zblk (k1_pay8 x0 (col0 x1) (col0 x2)) := by
  unfold out1_A_5
  rw [View.read_writes_eq_canon _ _ _ (cover1_A_5 c i a2 h2 a3 h3 a4 h4 a5 h5 a6 h6 a7 h7 a8 h8 hc x0 x1 x2)]
  unfold kernelRun1_A
  dsimp only
  sl_unfold_words
  rw [View.canon_cons_unit_zero (S := S8x128) hz2, View.readCov_unit_zero (S := S8x128) _ hz2]
  unfold k1_pay2 k1_pay11
  simp only [View.readAt_eq_ld, h2.read_unread, h3.read_unread, h4.read_unread, View.ld_unit_zero (S := S8x128x1024) hz3, shapeCast_self]

/-- At a later row tile it is left at what the tile before left plus this tile's sum. -/
theorem sq_next (c : Dev nD) (i : grid1.Coords) (a2 : Memref sig .tc .vmem S8x128x1024 .f32) (h2 : a2.IsWhole) (a3 : Memref sig .tc .vmem S8x128 .f32) (h3 : a3.IsWhole) (a4 : Memref sig .tc .vmem S8x128 .f32) (h4 : a4.IsWhole) (a5 : Memref sig .tc .vmem S8x128 .f32) (h5 : a5.IsWhole) (a6 : Memref sig .tc .vmem S8x1024 .f32) (h6 : a6.IsWhole) (a7 : Memref sig .tc .vmem S8x128 .f32) (h7 : a7.IsWhole) (a8 : Memref sig .tc .vmem S8x128 .f32) (h8 : a8.IsWhole) (hc : ¬cond1_0 i)
    (x0 : Vec F S8x128x1024 .f32) (x1 : Vec F S8x128 .f32) (x2 : Vec F S8x128 .f32) (xo4 : Vec F S8x1024 .f32) (xo5 : Vec F S8x128 .f32) (xo6 : Vec F S8x128 .f32) :
    out1_B_5 c i a2 h2 a3 h3 a4 h4 a5 h5 a6 h6 a7 h7 a8 h8 hc x0 x1 x2 xo4 xo5 xo6 = addf xo5 (k1_pay8 x0 (col0 x1) (col0 x2)) := by
  unfold out1_B_5
  rw [View.read_writes_eq_canon _ _ _ (cover1_B_5 c i a2 h2 a3 h3 a4 h4 a5 h5 a6 h6 a7 h7 a8 h8 hc x0 x1 x2 xo4 xo5 xo6)]
  unfold kernelRun1_B
  dsimp only
  sl_unfold_words
  rw [View.canon_unit_zero hz2]
  unfold k1_pay2
  simp only [View.readAt_eq_ld, h2.read_unread, h3.read_unread, h4.read_unread, h7.read_unread, View.ld_unit_zero (S := S8x128x1024) hz3, View.ld_unit_zero (S := S8x128) hz2, shapeCast_self]

/-- The same two facts for the block of the thresholded image's count. -/
theorem bn_first (c : Dev nD) (i : grid1.Coords) (a2 : Memref sig .tc .vmem S8x128x1024 .f32) (h2 : a2.IsWhole) (a3 : Memref sig .tc .vmem S8x128 .f32) (h3 : a3.IsWhole) (a4 : Memref sig .tc .vmem S8x128 .f32) (h4 : a4.IsWhole) (a5 : Memref sig .tc .vmem S8x128 .f32) (h5 : a5.IsWhole) (a6 : Memref sig .tc .vmem S8x1024 .f32) (h6 : a6.IsWhole) (a7 : Memref sig .tc .vmem S8x128 .f32) (h7 : a7.IsWhole) (a8 : Memref sig .tc .vmem S8x128 .f32) (h8 : a8.IsWhole) (hc : cond1_0 i)
    (x0 : Vec F S8x128x1024 .f32) (x1 : Vec F S8x128 .f32) (x2 : Vec F S8x128 .f32) :
    out1_A_6 c i a2 h2 a3 h3 a4 h4 a5 h5 a6 h6 a7 h7 a8 h8 hc x0 x1 x2 = addf zblk (k1_pay9 x0 (col0 x1) (col0 x2)) := by
  unfold out1_A_6
  rw [View.read_writes_eq_canon _ _ _ (cover1_A_6 c i a2 h2 a3 h3 a4 h4 a5 h5 a6 h6 a7 h7 a8 h8 hc x0 x1 x2)]
  unfold kernelRun1_A
  dsimp only
  sl_unfold_words
  rw [View.canon_cons_unit_zero (S := S8x128) hz2, View.readCov_unit_zero (S := S8x128) _ hz2]
  unfold k1_pay3 k1_pay12
  simp only [View.readAt_eq_ld, h2.read_unread, h3.read_unread, h4.read_unread, View.ld_unit_zero (S := S8x128x1024) hz3, shapeCast_self]

theorem bn_next (c : Dev nD) (i : grid1.Coords) (a2 : Memref sig .tc .vmem S8x128x1024 .f32) (h2 : a2.IsWhole) (a3 : Memref sig .tc .vmem S8x128 .f32) (h3 : a3.IsWhole) (a4 : Memref sig .tc .vmem S8x128 .f32) (h4 : a4.IsWhole) (a5 : Memref sig .tc .vmem S8x128 .f32) (h5 : a5.IsWhole) (a6 : Memref sig .tc .vmem S8x1024 .f32) (h6 : a6.IsWhole) (a7 : Memref sig .tc .vmem S8x128 .f32) (h7 : a7.IsWhole) (a8 : Memref sig .tc .vmem S8x128 .f32) (h8 : a8.IsWhole) (hc : ¬cond1_0 i)
    (x0 : Vec F S8x128x1024 .f32) (x1 : Vec F S8x128 .f32) (x2 : Vec F S8x128 .f32) (xo4 : Vec F S8x1024 .f32) (xo5 : Vec F S8x128 .f32) (xo6 : Vec F S8x128 .f32) :
    out1_B_6 c i a2 h2 a3 h3 a4 h4 a5 h5 a6 h6 a7 h7 a8 h8 hc x0 x1 x2 xo4 xo5 xo6 = addf xo6 (k1_pay9 x0 (col0 x1) (col0 x2)) := by
  unfold out1_B_6
  rw [View.read_writes_eq_canon _ _ _ (cover1_B_6 c i a2 h2 a3 h3 a4 h4 a5 h5 a6 h6 a7 h7 a8 h8 hc x0 x1 x2 xo4 xo5 xo6)]
  unfold kernelRun1_B
  dsimp only
  sl_unfold_words
  rw [View.canon_unit_zero hz2]
  unfold k1_pay3
  simp only [View.readAt_eq_ld, h2.read_unread, h3.read_unread, h4.read_unread, h8.read_unread, View.ld_unit_zero (S := S8x128x1024) hz3, View.ld_unit_zero (S := S8x128) hz2, shapeCast_self]

end Pieces

/-! ## Layout operations of the body, read at explicit coordinates -/

section Layout
variable {α : Type}

/-- [8, 1] → [8]: entry b is entry (b, 0). -/
theorem cast_81_8 (v : S8x1.Idx → α) (h : S8x1.ShapeCasts S8) (b' : Fin 8) : shapeCast S8 v h (ix1 b') = v (ix2 b' 0) :=
  shapeCast_apply v h (ix1 b') (ix2 b' 0) (by
    rw [Shape.rowMajor_val_one, Shape.rowMajor_val_two]; show b'.val * 1 + 0 = b'.val; omega)

/-- [8] → [8, 1]. -/
theorem cast_8_81 (v : S8.Idx → α) (h : S8.ShapeCasts S8x1) (b' : Fin 8) : shapeCast S8x1 v h (ix2 b' 0) = v (ix1 b') :=
  shapeCast_apply v h (ix2 b' 0) (ix1 b') (by
    rw [Shape.rowMajor_val_one, Shape.rowMajor_val_two]; show b'.val = b'.val * 1 + 0; omega)

/-- [8] → [8, 1, 1]. -/
theorem cast_8_811 (v : S8.Idx → α) (h : S8.ShapeCasts S8x1x1) (b' : Fin 8) : shapeCast S8x1x1 v h (ix3 b' 0 0) = v (ix1 b') :=
  shapeCast_apply v h (ix3 b' 0 0) (ix1 b') (by
    rw [Shape.rowMajor_val_one, Shape.rowMajor_val_three]; show b'.val = (b'.val * 1 + 0) * 1 + 0; omega)

/-- [8, 1] → [8, 128]: every lane of row b holds entry (b, 0). -/
theorem bcast_81_8x128 (v : S8x1.Idx → α) (h : S8x1.Broadcasts S8x128) (b' : Fin 8) (l : Fin 128) :
    broadcastTo S8x128 v h (ix2 b' l) = v (ix2 b' 0) :=
  broadcastTo_apply v h (ix2 b' l) (ix2 b' 0) (fun a => match a with | ⟨0, _⟩ => rfl | ⟨1, _⟩ => rfl)

/-- [8, 1, 1] → [8, 128, 1024]: every pixel of sample b holds entry (b, 0, 0). -/
theorem bcast_811_full (v : S8x1x1.Idx → α) (h : S8x1x1.Broadcasts S8x128x1024) (b' : Fin 8) (i' : Fin 128) (q : Fin 1024) :
    broadcastTo S8x128x1024 v h (ix3 b' i' q) = v (ix3 b' 0 0) :=
  broadcastTo_apply v h (ix3 b' i' q) (ix3 b' 0 0) (fun a => match a with | ⟨0, _⟩ => rfl | ⟨1, _⟩ => rfl | ⟨2, _⟩ => rfl)

end Layout

/-- Lane 0 of a block, read at row b. -/
theorem col0_apply {F : FTy → Type} [FloatOps F] (x : Vec F S8x128 .f32) (b' : Fin 8) : col0 x (ix2 b' 0) = x (ix2 b' 0) := by
  show x _ = x _
  congr 1
  funext a; apply Fin.ext
  match a with
  | ⟨0, _⟩ => show 0 + 1 * b'.val = b'.val; omega
  | ⟨1, _⟩ => show 0 + 1 * 0 = 0; rfl

/-- A one-bit word widened and read as a signed integer is the real 0 or 1 it denotes. -/
theorem sitofp_extui_bit (w : BitVec 1) : (((w.setWidth 32).toInt : ℝ) : EReal) = Cert.Spec.bit w := by
  unfold Cert.Spec.bit
  by_cases h : w = 1#1
  · subst h
    have e : (BitVec.setWidth 32 1#1).toInt = 1 := by decide
    rw [e]; norm_num
  · obtain rfl := eq_zero_of_ne_one h
    have e : (BitVec.setWidth 32 0#1).toInt = 0 := by decide
    rw [e]; norm_num

/-! ## The body's arithmetic at a pixel and at a lane, over the extended reals -/

/-- The normalized image at a pixel of the tile: (x − lo) / ((hi − lo) + eps), lo and hi read at the sample's row of the columns. -/
theorem pn_tile (x0 : FVec Ideal S8x128x1024 .f32) (v2 v4 : FVec Ideal S8x1 .f32) (b' : Fin 8) (i' : Fin 128) (q : Fin 1024) :
    k1_pay4 (F := Ideal) x0 v2 v4 (ix3 b' i' q)
      = Ideal.div (x0 (ix3 b' i' q) - v2 (ix2 b' 0)) (v4 (ix2 b' 0) - v2 (ix2 b' 0) + Ideal.ofBits .f32 0x322BCC77#32) := by
  unfold k1_pay4
  rw [divf_apply, subf_apply, bcast_811_full, bcast_811_full, addf_apply, subf_apply, cast_8_811, cast_8_811, cast_81_8, cast_81_8,
    shapeCast_self]
  rfl

/-- The 0/1 image at a pixel of the tile. -/
theorem bn_tile (x0 : FVec Ideal S8x128x1024 .f32) (v2 v4 : FVec Ideal S8x1 .f32) (b' : Fin 8) (i' : Fin 128) (q : Fin 1024) :
    k1_pay5 (F := Ideal) x0 v2 v4 (ix3 b' i' q)
      = Cert.Spec.bit (Ideal.cmp .ogt (k1_pay4 (F := Ideal) x0 v2 v4 (ix3 b' i' q)) (Ideal.ofBits .f32 0x3F000000#32)) := by
  unfold k1_pay5
  rw [sitofp_apply, extui_apply, cmpf_apply, broadcast_apply]
  exact sitofp_extui_bit _

/-- Every lane of row b of the tile's squared sum holds the sum over the tile's rows and columns. -/
theorem sq_tile (x0 : FVec Ideal S8x128x1024 .f32) (v2 v4 : FVec Ideal S8x1 .f32) (b' : Fin 8) (l : Fin 128) :
    k1_pay8 (F := Ideal) x0 v2 v4 (ix2 b' l)
      = ∑ i' : Fin 128, ∑ q : Fin 1024, k1_pay4 (F := Ideal) x0 v2 v4 (ix3 b' i' q) * k1_pay4 (F := Ideal) x0 v2 v4 (ix3 b' i' q) := by
  unfold k1_pay8
  dsimp only
  rw [bcast_81_8x128, shapeCast_self, cast_8_81]
  refine (LibFiber.mrAdd_2_1 (A := 8) (B := 128) _ _ _ _ _ b').trans ?_
  refine Finset.sum_congr rfl fun i' _ => ?_
  exact LibFiber.mrAdd_3_2 (A := 8) (B := 128) (C := 1024) _ _ _ _ _ b' i'

/-- The same for the count of the 0/1 image. -/
theorem cnt_tile (x0 : FVec Ideal S8x128x1024 .f32) (v2 v4 : FVec Ideal S8x1 .f32) (b' : Fin 8) (l : Fin 128) :
    k1_pay9 (F := Ideal) x0 v2 v4 (ix2 b' l) = ∑ i' : Fin 128, ∑ q : Fin 1024, k1_pay5 (F := Ideal) x0 v2 v4 (ix3 b' i' q) := by
  unfold k1_pay9
  dsimp only
  rw [bcast_81_8x128, shapeCast_self, cast_8_81]
  refine (LibFiber.mrAdd_2_1 (A := 8) (B := 128) _ _ _ _ _ b').trans ?_
  refine Finset.sum_congr rfl fun i' _ => ?_
  exact LibFiber.mrAdd_3_2 (A := 8) (B := 128) (C := 1024) _ _ _ _ _ b' i'

/-! ## The input blocks of a point, and the tile's two addends -/

variable (V : Entry)

/-- The image, minimum and maximum blocks the body finds at point t. -/
abbrev xblk (c : Dev nD) (t : Fin cfg1.N) : FVec Ideal S8x128x1024 .f32 := iblk1 (F := Ideal) V c 0 t
abbrev loblk (c : Dev nD) (t : Fin cfg1.N) : FVec Ideal S8x128 .f32 := iblk1 (F := Ideal) V c 1 t
abbrev hiblk (c : Dev nD) (t : Fin cfg1.N) : FVec Ideal S8x128 .f32 := iblk1 (F := Ideal) V c 2 t

/-- Where the windows' blocks sit at point t = 8 g + r: the image's at sample block g, row block r; the extremes' and the
    two sums' at sample block g. -/
theorem idx1 : ∀ t : Fin cfg1.N, win1_0.index t 0 = t.val / 8 ∧ win1_0.index t 1 = t.val % 8 ∧ win1_0.index t 2 = 0
    ∧ win1_1.index t 0 = t.val / 8 ∧ win1_1.index t 1 = 0 ∧ win1_2.index t 0 = t.val / 8 ∧ win1_2.index t 1 = 0
    ∧ win1_5.index t 0 = t.val / 8 ∧ win1_5.index t 1 = 0 ∧ win1_6.index t 0 = t.val / 8 ∧ win1_6.index t 1 = 0 :=
  (by decide +kernel : ∀ t : Fin grid1.N, _)

/-- The image block at t holds X[8 g + b', 128 r + i', q]. -/
theorem xblk_apply (c : Dev nD) (t : Fin cfg1.N) (b' : Fin 8) (i' : Fin 128) (q : Fin 1024) (B : Fin 32) (R : Fin 1024)
    (hB : B.val = 8 * (t.val / 8) + b'.val) (hR : R.val = 128 * (t.val % 8) + i'.val) :
    xblk V c t (ix3 b' i' q) = xOf V c (ix3 B R q) := by
  obtain ⟨e0, e1, e2, -⟩ := idx1 t
  unfold xblk iblk1
  rw [View.read_apply]
  show V c main_v0 _ = V c main_v0 _
  congr 1
  funext a; apply Fin.ext
  match a with
  | ⟨0, _⟩ => show win1_0.index t 0 * 8 + 1 * b'.val = B.val; rw [e0, hB]; omega
  | ⟨1, _⟩ => show win1_0.index t 1 * 128 + 1 * i'.val = R.val; rw [e1, hR]; omega
  | ⟨2, _⟩ => show win1_0.index t 2 * 1024 + 1 * q.val = q.val; rw [e2]; omega

/-- Lane 0 of the minimum block at t holds lo(8 g + b'). -/
theorem loblk_apply (c : Dev nD) (t : Fin cfg1.N) (b' : Fin 8) (B : Fin 32) (hB : B.val = 8 * (t.val / 8) + b'.val) :
    col0 (F := Ideal) (loblk V c t) (ix2 b' 0) = loOf V c B := by
  obtain ⟨-, -, -, e0, e1, -⟩ := idx1 t
  rw [col0_apply]
  unfold loblk iblk1
  rw [View.read_apply]
  show V c main_v1_0 _ = V c main_v1_0 _
  congr 1
  funext a; apply Fin.ext
  match a with
  | ⟨0, _⟩ => show win1_1.index t 0 * 8 + 1 * b'.val = B.val; rw [e0, hB]; omega
  | ⟨1, _⟩ => show win1_1.index t 1 * 128 + 1 * 0 = 0; rw [e1]

/-- Lane 0 of the maximum block at t holds hi(8 g + b'). -/
theorem hiblk_apply (c : Dev nD) (t : Fin cfg1.N) (b' : Fin 8) (B : Fin 32) (hB : B.val = 8 * (t.val / 8) + b'.val) :
    col0 (F := Ideal) (hiblk V c t) (ix2 b' 0) = hiOf V c B := by
  obtain ⟨-, -, -, -, -, e0, e1, -⟩ := idx1 t
  rw [col0_apply]
  unfold hiblk iblk1
  rw [View.read_apply]
  show V c main_v1_1 _ = V c main_v1_1 _
  congr 1
  funext a; apply Fin.ext
  match a with
  | ⟨0, _⟩ => show win1_2.index t 0 * 8 + 1 * b'.val = B.val; rw [e0, hB]; omega
  | ⟨1, _⟩ => show win1_2.index t 1 * 128 + 1 * 0 = 0; rw [e1]

/-- What point n adds to the squared-image block, and to the count block. -/
abbrev tSq (c : Dev nD) (n : ℕ) (h : n < cfg1.N) : FVec Ideal S8x128 .f32 :=
  k1_pay8 (F := Ideal) (xblk V c ⟨n, h⟩) (col0 (loblk V c ⟨n, h⟩)) (col0 (hiblk V c ⟨n, h⟩))
abbrev tBn (c : Dev nD) (n : ℕ) (h : n < cfg1.N) : FVec Ideal S8x128 .f32 :=
  k1_pay9 (F := Ideal) (xblk V c ⟨n, h⟩) (col0 (loblk V c ⟨n, h⟩)) (col0 (hiblk V c ⟨n, h⟩))

/-- The normalized image of the batch at a pixel of point t's tile. -/
theorem pn_at (c : Dev nD) (t : Fin cfg1.N) (b' : Fin 8) (i' : Fin 128) (q : Fin 1024) (B : Fin 32) (R : Fin 1024)
    (hB : B.val = 8 * (t.val / 8) + b'.val) (hR : R.val = 128 * (t.val % 8) + i'.val) :
    k1_pay4 (F := Ideal) (xblk V c t) (col0 (loblk V c t)) (col0 (hiblk V c t)) (ix3 b' i' q)
      = Cert.Spec.pn (xOf V c) (loOf V c) (hiOf V c) B (R, q) := by
  rw [pn_tile, xblk_apply V c t b' i' q B R hB hR, loblk_apply V c t b' B hB, hiblk_apply V c t b' B hB]
  rfl

/-- The squared-image addend of point t at lane l of row b': the sum of pn² over the tile's 128 rows of sample 8 g + b'. -/
theorem tSq_apply (c : Dev nD) (n : ℕ) (h : n < cfg1.N) (b' : Fin 8) (l : Fin 128) (B : Fin 32) (s : Fin 8)
    (hB : B.val = 8 * (n / 8) + b'.val) (hs : s.val = n % 8) :
    tSq V c n h (ix2 b' l) = ∑ i' : Fin 128, ∑ q : Fin 1024,
      Cert.Spec.pn (xOf V c) (loOf V c) (hiOf V c) B (LibFiber.tileIx 8 128 s i', q)
        * Cert.Spec.pn (xOf V c) (loOf V c) (hiOf V c) B (LibFiber.tileIx 8 128 s i', q) := by
  refine (sq_tile _ _ _ b' l).trans ?_
  refine Finset.sum_congr rfl fun i' _ => Finset.sum_congr rfl fun q _ => ?_
  rw [pn_at V c ⟨n, h⟩ b' i' q B (LibFiber.tileIx 8 128 s i') hB (by show 128 * s.val + i'.val = _; rw [hs])]

/-- The count addend likewise: the number of the tile's pixels of sample 8 g + b' over the threshold. -/
theorem tBn_apply (c : Dev nD) (n : ℕ) (h : n < cfg1.N) (b' : Fin 8) (l : Fin 128) (B : Fin 32) (s : Fin 8)
    (hB : B.val = 8 * (n / 8) + b'.val) (hs : s.val = n % 8) :
    tBn V c n h (ix2 b' l) = ∑ i' : Fin 128, ∑ q : Fin 1024,
      Cert.Spec.bit (Cert.Spec.bn (xOf V c) (loOf V c) (hiOf V c) B (LibFiber.tileIx 8 128 s i', q)) := by
  refine (cnt_tile _ _ _ b' l).trans ?_
  refine Finset.sum_congr rfl fun i' _ => Finset.sum_congr rfl fun q _ => ?_
  rw [bn_tile, pn_at V c ⟨n, h⟩ b' i' q B (LibFiber.tileIx 8 128 s i') hB (by show 128 * s.val + i'.val = _; rw [hs])]
  rfl

/-! ## The two accumulated blocks over a run of 8 row tiles -/

/-- What the squared-image block and the count block hold after point n. -/
abbrev accSq (c : Dev nD) : (n : ℕ) → n < cfg1.N → FVec Ideal S8x128 .f32 := fun n h => (outsAt1 (F := Ideal) V c n h).2.2.1
abbrev accBn (c : Dev nD) : (n : ℕ) → n < cfg1.N → FVec Ideal S8x128 .f32 := fun n h => (outsAt1 (F := Ideal) V c n h).2.2.2

theorem accSq_first (c : Dev nD) (n : ℕ) (h : n < cfg1.N) (h8 : n % 8 = 0) :
    accSq V c n h = addf (zblk (F := Ideal)) (tSq V c n h) := by
  show (outsAt1 (F := Ideal) V c (⟨n, h⟩ : Fin cfg1.N).val (⟨n, h⟩ : Fin cfg1.N).isLt).2.2.1 = _
  rw [outsAt1_A V c ⟨n, h⟩ h8]
  dsimp only
  exact sq_first (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (ms1_6 ⟨n, h⟩) (hs1_6 ⟨n, h⟩) ((hcond1_0 ⟨n, h⟩).mpr h8) (iblk1 V c 0 ⟨n, h⟩) (iblk1 V c 1 ⟨n, h⟩) (iblk1 V c 2 ⟨n, h⟩)

theorem accSq_next (c : Dev nD) (n : ℕ) (h : n + 1 < cfg1.N) (h8 : ¬(n + 1) % 8 = 0) :
    accSq V c (n + 1) h = addf (accSq V c n (Nat.lt_of_succ_lt h)) (tSq V c (n + 1) h) := by
  show (outsAt1 (F := Ideal) V c (⟨n + 1, h⟩ : Fin cfg1.N).val (⟨n + 1, h⟩ : Fin cfg1.N).isLt).2.2.1 = _
  rw [outsAt1_B V c ⟨n + 1, h⟩ h8]
  dsimp only
  exact sq_next (F := Ideal) c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) (ms1_2 (⟨n + 1, h⟩ : Fin cfg1.N)) (hs1_2 (⟨n + 1, h⟩ : Fin cfg1.N)) (ms1_3 (⟨n + 1, h⟩ : Fin cfg1.N)) (hs1_3 (⟨n + 1, h⟩ : Fin cfg1.N)) (ms1_4 (⟨n + 1, h⟩ : Fin cfg1.N)) (hs1_4 (⟨n + 1, h⟩ : Fin cfg1.N)) (ms1_5 (⟨n + 1, h⟩ : Fin cfg1.N)) (hs1_5 (⟨n + 1, h⟩ : Fin cfg1.N)) (ms1_6 (⟨n + 1, h⟩ : Fin cfg1.N)) (hs1_6 (⟨n + 1, h⟩ : Fin cfg1.N)) (fun hh => h8 ((hcond1_0 (⟨n + 1, h⟩ : Fin cfg1.N)).mp hh)) (iblk1 V c 0 (⟨n + 1, h⟩ : Fin cfg1.N)) (iblk1 V c 1 (⟨n + 1, h⟩ : Fin cfg1.N)) (iblk1 V c 2 (⟨n + 1, h⟩ : Fin cfg1.N)) (outsAt1 V c ((⟨n + 1, h⟩ : Fin cfg1.N).val - 1) (Nat.lt_of_le_of_lt (Nat.sub_le _ _) (⟨n + 1, h⟩ : Fin cfg1.N).isLt)).2.1 (outsAt1 V c ((⟨n + 1, h⟩ : Fin cfg1.N).val - 1) (Nat.lt_of_le_of_lt (Nat.sub_le _ _) (⟨n + 1, h⟩ : Fin cfg1.N).isLt)).2.2.1 (outsAt1 V c ((⟨n + 1, h⟩ : Fin cfg1.N).val - 1) (Nat.lt_of_le_of_lt (Nat.sub_le _ _) (⟨n + 1, h⟩ : Fin cfg1.N).isLt)).2.2.2

theorem accBn_first (c : Dev nD) (n : ℕ) (h : n < cfg1.N) (h8 : n % 8 = 0) :
    accBn V c n h = addf (zblk (F := Ideal)) (tBn V c n h) := by
  show (outsAt1 (F := Ideal) V c (⟨n, h⟩ : Fin cfg1.N).val (⟨n, h⟩ : Fin cfg1.N).isLt).2.2.2 = _
  rw [outsAt1_A V c ⟨n, h⟩ h8]
  dsimp only
  exact bn_first (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (ms1_6 ⟨n, h⟩) (hs1_6 ⟨n, h⟩) ((hcond1_0 ⟨n, h⟩).mpr h8) (iblk1 V c 0 ⟨n, h⟩) (iblk1 V c 1 ⟨n, h⟩) (iblk1 V c 2 ⟨n, h⟩)

theorem accBn_next (c : Dev nD) (n : ℕ) (h : n + 1 < cfg1.N) (h8 : ¬(n + 1) % 8 = 0) :
    accBn V c (n + 1) h = addf (accBn V c n (Nat.lt_of_succ_lt h)) (tBn V c (n + 1) h) := by
  show (outsAt1 (F := Ideal) V c (⟨n + 1, h⟩ : Fin cfg1.N).val (⟨n + 1, h⟩ : Fin cfg1.N).isLt).2.2.2 = _
  rw [outsAt1_B V c ⟨n + 1, h⟩ h8]
  dsimp only
  exact bn_next (F := Ideal) c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) (ms1_2 (⟨n + 1, h⟩ : Fin cfg1.N)) (hs1_2 (⟨n + 1, h⟩ : Fin cfg1.N)) (ms1_3 (⟨n + 1, h⟩ : Fin cfg1.N)) (hs1_3 (⟨n + 1, h⟩ : Fin cfg1.N)) (ms1_4 (⟨n + 1, h⟩ : Fin cfg1.N)) (hs1_4 (⟨n + 1, h⟩ : Fin cfg1.N)) (ms1_5 (⟨n + 1, h⟩ : Fin cfg1.N)) (hs1_5 (⟨n + 1, h⟩ : Fin cfg1.N)) (ms1_6 (⟨n + 1, h⟩ : Fin cfg1.N)) (hs1_6 (⟨n + 1, h⟩ : Fin cfg1.N)) (fun hh => h8 ((hcond1_0 (⟨n + 1, h⟩ : Fin cfg1.N)).mp hh)) (iblk1 V c 0 (⟨n + 1, h⟩ : Fin cfg1.N)) (iblk1 V c 1 (⟨n + 1, h⟩ : Fin cfg1.N)) (iblk1 V c 2 (⟨n + 1, h⟩ : Fin cfg1.N)) (outsAt1 V c ((⟨n + 1, h⟩ : Fin cfg1.N).val - 1) (Nat.lt_of_le_of_lt (Nat.sub_le _ _) (⟨n + 1, h⟩ : Fin cfg1.N).isLt)).2.1 (outsAt1 V c ((⟨n + 1, h⟩ : Fin cfg1.N).val - 1) (Nat.lt_of_le_of_lt (Nat.sub_le _ _) (⟨n + 1, h⟩ : Fin cfg1.N).isLt)).2.2.1 (outsAt1 V c ((⟨n + 1, h⟩ : Fin cfg1.N).val - 1) (Nat.lt_of_le_of_lt (Nat.sub_le _ _) (⟨n + 1, h⟩ : Fin cfg1.N).isLt)).2.2.2

/-- A block that is reset to 0 + (the addend) at the first tile of a run of 8 and has the tile's addend added at each later one
    holds, after the run's last tile, the sum of the run's 8 addends. -/
theorem run_sum (acc tile : (n : ℕ) → n < cfg1.N → FVec Ideal S8x128 .f32)
    (h0 : ∀ (n : ℕ) (h : n < cfg1.N), n % 8 = 0 → acc n h = addf (zblk (F := Ideal)) (tile n h))
    (hs : ∀ (n : ℕ) (h : n + 1 < cfg1.N), ¬(n + 1) % 8 = 0 → acc (n + 1) h = addf (acc n (Nat.lt_of_succ_lt h)) (tile (n + 1) h))
    (t : Fin cfg1.N) (h7 : t.val % 8 = 7) (i : S8x128.Idx) :
    acc t.val t.isLt i = ∑ s : Fin 8, (if h : 8 * (t.val / 8) + s.val < cfg1.N then tile (8 * (t.val / 8) + s.val) h i else 0) := by
  have hN : cfg1.N = 32 := N_1
  have h' : 8 * (t.val / 8) + t.val % 8 < cfg1.N := by have := t.isLt; omega
  rw [Pipeline.eq_accAt_of_mod acc 8 (fun n h => addf (zblk (F := Ideal)) (tile n h)) (fun n h a => addf a (tile n h)) h0 hs (by norm_num) t.val t.isLt h']
  have key := Pipeline.accAt_add_apply (fun n h => addf (zblk (F := Ideal)) (tile n h)) (fun n h (a : S8x128.Idx → EReal) => addf a (tile n h))
    (fun _ => (Ideal.ofBits .f32 0x00000000#32 : EReal)) (fun n i => if h : n < cfg1.N then tile n h i else 0) (8 * (t.val / 8)) 7
    (fun h i => by show (_ : EReal) + tile _ h i = _ + _; rw [dif_pos h]; rfl)
    (fun n h a i _ _ => by show (a i : EReal) + tile n h i = _ + _; rw [dif_pos h])
    (t.val % 8) (by omega) h' i
  rw [key, h7, Ideal.ofBits_zero_f32, zero_add, Finset.sum_range]

/-! ## From the run's last tile to the result array -/

/-- The sum over a sample's pixels as the sum over the 8 row tiles of the sums over a tile's rows and columns. -/
theorem pixels_as_tiles {M : Type*} [AddCommMonoid M] (f : Cert.Spec.P → M) :
    ∑ p : Cert.Spec.P, f p = ∑ s : Fin 8, ∑ i' : Fin 128, ∑ q : Fin 1024, f (LibFiber.tileIx 8 128 s i', q) := by
  rw [LibFiber.sum_pair (B := 1024) (C := 1024) f]
  exact LibFiber.sum_tile 8 128 (fun r : Fin (8 * 128) => ∑ q : Fin 1024, f (r, q))

/-- After the last tile of sample block g's run the block's row b' holds, in every lane, the whole-image sum of sample 8 g + b'. -/
theorem accSq_last (c : Dev nD) (t : Fin cfg1.N) (h7 : t.val % 8 = 7) (b' : Fin 8) (l : Fin 128) (B : Fin 32)
    (hB : B.val = 8 * (t.val / 8) + b'.val) :
    accSq V c t.val t.isLt (ix2 b' l) = Cert.Spec.sumsq (xOf V c) (loOf V c) (hiOf V c) B := by
  have hN : cfg1.N = 32 := N_1
  rw [run_sum (accSq V c) (tSq V c) (accSq_first V c) (accSq_next V c) t h7, Cert.Spec.sumsq, pixels_as_tiles]
  refine Finset.sum_congr rfl fun s _ => ?_
  have hlt : 8 * (t.val / 8) + s.val < cfg1.N := by have := t.isLt; have := s.isLt; omega
  rw [dif_pos hlt]
  exact tSq_apply V c _ hlt b' l B s (by rw [hB]; have := s.isLt; omega) (by have := s.isLt; omega)

/-- The result array: row b holds sample b's sum in every lane. -/
abbrev Gsq (c : Dev nD) : FVec Ideal S32x128 .f32 :=
  fun j => Cert.Spec.sumsq (xOf V c) (loOf V c) (hiOf V c) ⟨(j 0).val, idx2_lt0 j⟩

/-- A block whose row b' holds, in every lane, the array's row 8 g + b' is, written back at a point of sample block g,
    that point's block of the array. -/
theorem flush_rows5 (X : FVec Ideal S8x128 .f32) (G : FVec Ideal S32x128 .f32) (t : Fin cfg1.N)
    (hX : ∀ (b' : Fin 8) (l : Fin 128) (B : Fin 32), B.val = 8 * (t.val / 8) + b'.val → X (ix2 b' l) = G (ix2 B l)) :
    (cfg1.win 5).cut (grid1.coords t) X = ((cfg1.win 5).blk t).view.read (Elt Ideal) G := by
  have hN : cfg1.N = 32 := N_1
  obtain ⟨-, -, -, -, -, -, -, e0, e1, -⟩ := idx1 t
  funext y
  rw [View.read_apply]
  show X ((cfg1.win 5).xinj (grid1.coords t) y) = G (((cfg1.win 5).blk t).view.emb y)
  have hy0 : (y 0).val < 8 := (y 0).isLt
  have hy1 : (y 1).val < 128 := (y 1).isLt
  have ht := t.isLt
  have i1 : (cfg1.win 5).xinj (grid1.coords t) y = ix2 (⟨(y 0).val, hy0⟩ : Fin 8) (⟨(y 1).val, hy1⟩ : Fin 128) :=
    funext fun a => Fin.ext (match a with | ⟨0, _⟩ => rfl | ⟨1, _⟩ => rfl)
  have i2 : ((cfg1.win 5).blk t).view.emb y
      = ix2 (⟨8 * (t.val / 8) + (y 0).val, by omega⟩ : Fin 32) (⟨(y 1).val, hy1⟩ : Fin 128) := by
    funext a; apply Fin.ext
    match a with
    | ⟨0, _⟩ => show win1_5.index t 0 * 8 + 1 * (y 0).val = 8 * (t.val / 8) + (y 0).val
                rw [e0]; omega
    | ⟨1, _⟩ => show win1_5.index t 1 * 128 + 1 * (y 1).val = (y 1).val
                rw [e1]; omega
  rw [i1, i2]
  exact hX _ _ _ rfl

/-- What a run's last point writes back is its block of that array. -/
theorem flushed_sq (c : Dev nD) (t : Fin cfg1.N) (hf : (cfg1.win 5).flush t = true) :
    (dat1 (F := Ideal) V c).flushed 5 t = ((cfg1.win 5).blk t).view.read (Elt Ideal) (Gsq V c) := by
  have h7 : t.val % 8 = 7 := (flush1_5 t).mp hf
  show (cfg1.win 5).cut (grid1.coords t) ((dat1 (F := Ideal) V c).after 5 t) = _
  rw [after1_5]
  exact flush_rows5 (accSq V c t.val t.isLt) (Gsq V c) t fun b' l B hB => accSq_last V c t h7 b' l B hB
/-- Every entry of the array is in the block some run's last point writes back: sample b in sample block b / 8. -/
theorem cover_sq (i : S32x128.Idx) : ∃ t : Fin cfg1.N, (cfg1.win 5).flush t = true ∧ i ∈ ((cfg1.win 5).blk t).view.set := by
  have hN : cfg1.N = 32 := N_1
  have hi0 : (i 0).val < 32 := (i 0).isLt
  have hi1 : (i 1).val < 128 := (i 1).isLt
  obtain ⟨t, ht⟩ : ∃ t : Fin cfg1.N, t.val = 8 * ((i 0).val / 8) + 7 := ⟨⟨_, by omega⟩, rfl⟩
  obtain ⟨-, -, -, -, -, -, -, e0, e1, -⟩ := idx1 t
  refine ⟨t, (flush1_5 t).mpr (by rw [ht]; omega), ?_⟩
  show i ∈ ((View.whole main_v10_2).slice (win1_5.rect t)).set
  rw [View.set_slice_whole, Rect.mem_set_unit]
  intro a
  match a with
  | ⟨0, _⟩ => show win1_5.index t 0 * 8 ≤ (i 0).val ∧ (i 0).val < win1_5.index t 0 * 8 + 8
              rw [e0, ht]; omega
  | ⟨1, _⟩ => show win1_5.index t 1 * 128 ≤ (i 1).val ∧ (i 1).val < win1_5.index t 1 * 128 + 128
              rw [e1]; omega

/-- After the last tile of sample block g's run the block's row b' holds, in every lane, the whole-image sum of sample 8 g + b'. -/
theorem accBn_last (c : Dev nD) (t : Fin cfg1.N) (h7 : t.val % 8 = 7) (b' : Fin 8) (l : Fin 128) (B : Fin 32)
    (hB : B.val = 8 * (t.val / 8) + b'.val) :
    accBn V c t.val t.isLt (ix2 b' l) = Cert.Spec.binsum (xOf V c) (loOf V c) (hiOf V c) B := by
  have hN : cfg1.N = 32 := N_1
  rw [run_sum (accBn V c) (tBn V c) (accBn_first V c) (accBn_next V c) t h7, Cert.Spec.binsum, pixels_as_tiles]
  refine Finset.sum_congr rfl fun s _ => ?_
  have hlt : 8 * (t.val / 8) + s.val < cfg1.N := by have := t.isLt; have := s.isLt; omega
  rw [dif_pos hlt]
  exact tBn_apply V c _ hlt b' l B s (by rw [hB]; have := s.isLt; omega) (by have := s.isLt; omega)

/-- The result array: row b holds sample b's sum in every lane. -/
abbrev Gbn (c : Dev nD) : FVec Ideal S32x128 .f32 :=
  fun j => Cert.Spec.binsum (xOf V c) (loOf V c) (hiOf V c) ⟨(j 0).val, idx2_lt0 j⟩

/-- A block whose row b' holds, in every lane, the array's row 8 g + b' is, written back at a point of sample block g,
    that point's block of the array. -/
theorem flush_rows6 (X : FVec Ideal S8x128 .f32) (G : FVec Ideal S32x128 .f32) (t : Fin cfg1.N)
    (hX : ∀ (b' : Fin 8) (l : Fin 128) (B : Fin 32), B.val = 8 * (t.val / 8) + b'.val → X (ix2 b' l) = G (ix2 B l)) :
    (cfg1.win 6).cut (grid1.coords t) X = ((cfg1.win 6).blk t).view.read (Elt Ideal) G := by
  have hN : cfg1.N = 32 := N_1
  obtain ⟨-, -, -, -, -, -, -, -, -, e0, e1⟩ := idx1 t
  funext y
  rw [View.read_apply]
  show X ((cfg1.win 6).xinj (grid1.coords t) y) = G (((cfg1.win 6).blk t).view.emb y)
  have hy0 : (y 0).val < 8 := (y 0).isLt
  have hy1 : (y 1).val < 128 := (y 1).isLt
  have ht := t.isLt
  have i1 : (cfg1.win 6).xinj (grid1.coords t) y = ix2 (⟨(y 0).val, hy0⟩ : Fin 8) (⟨(y 1).val, hy1⟩ : Fin 128) :=
    funext fun a => Fin.ext (match a with | ⟨0, _⟩ => rfl | ⟨1, _⟩ => rfl)
  have i2 : ((cfg1.win 6).blk t).view.emb y
      = ix2 (⟨8 * (t.val / 8) + (y 0).val, by omega⟩ : Fin 32) (⟨(y 1).val, hy1⟩ : Fin 128) := by
    funext a; apply Fin.ext
    match a with
    | ⟨0, _⟩ => show win1_6.index t 0 * 8 + 1 * (y 0).val = 8 * (t.val / 8) + (y 0).val
                rw [e0]; omega
    | ⟨1, _⟩ => show win1_6.index t 1 * 128 + 1 * (y 1).val = (y 1).val
                rw [e1]; omega
  rw [i1, i2]
  exact hX _ _ _ rfl

/-- What a run's last point writes back is its block of that array. -/
theorem flushed_bn (c : Dev nD) (t : Fin cfg1.N) (hf : (cfg1.win 6).flush t = true) :
    (dat1 (F := Ideal) V c).flushed 6 t = ((cfg1.win 6).blk t).view.read (Elt Ideal) (Gbn V c) := by
  have h7 : t.val % 8 = 7 := (flush1_6 t).mp hf
  show (cfg1.win 6).cut (grid1.coords t) ((dat1 (F := Ideal) V c).after 6 t) = _
  rw [after1_6]
  exact flush_rows6 (accBn V c t.val t.isLt) (Gbn V c) t fun b' l B hB => accBn_last V c t h7 b' l B hB
/-- Every entry of the array is in the block some run's last point writes back: sample b in sample block b / 8. -/
theorem cover_bn (i : S32x128.Idx) : ∃ t : Fin cfg1.N, (cfg1.win 6).flush t = true ∧ i ∈ ((cfg1.win 6).blk t).view.set := by
  have hN : cfg1.N = 32 := N_1
  have hi0 : (i 0).val < 32 := (i 0).isLt
  have hi1 : (i 1).val < 128 := (i 1).isLt
  obtain ⟨t, ht⟩ : ∃ t : Fin cfg1.N, t.val = 8 * ((i 0).val / 8) + 7 := ⟨⟨_, by omega⟩, rfl⟩
  obtain ⟨-, -, -, -, -, -, -, -, -, e0, e1⟩ := idx1 t
  refine ⟨t, (flush1_6 t).mpr (by rw [ht]; omega), ?_⟩
  show i ∈ ((View.whole main_v10_3).slice (win1_6.rect t)).set
  rw [View.set_slice_whole, Rect.mem_set_unit]
  intro a
  match a with
  | ⟨0, _⟩ => show win1_6.index t 0 * 8 ≤ (i 0).val ∧ (i 0).val < win1_6.index t 0 * 8 + 8
              rw [e0, ht]; omega
  | ⟨1, _⟩ => show win1_6.index t 1 * 128 ≤ (i 1).val ∧ (i 1).val < win1_6.index t 1 * 128 + 128
              rw [e1]; omega

end Sums1

variable (V : Entry)

theorem reg1_sumsq (c : Dev nD) (b : Fin 32) (l : Fin 128) :
    sumsq1 V c (ix2 b l) = Cert.Spec.sumsq (xOf V c) (loOf V c) (hiOf V c) b := by
  have e : sumsq1 V c = Sums1.Gsq V c :=
    (dat1 (F := Ideal) V c).arrAt_eq_of_cover 5 (Sums1.Gsq V c) (Sums1.flushed_sq V c) Sums1.cover_sq
  rw [e]

theorem reg1_binsum (c : Dev nD) (b : Fin 32) (l : Fin 128) :
    binsum1 V c (ix2 b l) = Cert.Spec.binsum (xOf V c) (loOf V c) (hiOf V c) b := by
  have e : binsum1 V c = Sums1.Gbn V c :=
    (dat1 (F := Ideal) V c).arrAt_eq_of_cover 6 (Sums1.Gbn V c) (Sums1.flushed_bn V c) Sums1.cover_bn
  rw [e]

end Cert.KernelIdeal.Val

end
-- ==== Proof.Reg2Val.lean ====
/-
  Pass 3, the two cross terms: every lane of sample b's row holds the sum over rows r of (sum over columns q of image(r, q) * colspan q) * rowspan r,
  for the normalized image and for the thresholded one — each accumulated over the 8 row tiles.
-/
import proofs.«117029_j24532853195288_1_alg».proof.Proof.KDefs
import proofs.«117029_j24532853195288_1_alg».proof.Proof.LibFiber
import Idealize.ShloMosaic.Lib.Pipeline.Value
import Idealize.ShloMosaic.Lib.ValueLayout
import Idealize.ShloMosaic.Lib.Tactic

noncomputable section

namespace Cert.KernelIdeal.Val

open Cert.KernelIdeal Cert.KernelIdeal.Gen Idealize.ShloMosaic Idealize.ShloMosaic.TcCoe Idealize.ShloMosaic.ValueIdx Idealize.SL.Sem Idealize.ShloMosaic.Pipeline
open scoped BigOperators

namespace Reg2

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Lane 0 of an [8, 128] block, as the body loads it: the [8, 1] rectangle at the origin. -/
abbrev lane0 (x : Vec F S8x128 .f32) : Vec F S8x1 .f32 :=
  View.ld x (Rect.unit (s := S8x128) ![0, 0] S8x1.size inb_S8x128_S8x1_0_0)

theorem out2_B_5_eq (c : Dev nD) (i : grid2.Coords) (arg2 : Memref sig .tc .vmem S8x128x1024 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x1024 .f32) (harg6 : arg6.IsWhole) (arg7 : Memref sig .tc .vmem S8x128 .f32) (harg7 : arg7.IsWhole) (arg8 : Memref sig .tc .vmem S8x128 .f32) (harg8 : arg8.IsWhole) (hc0 : ¬cond2_0 i)
    (x0 : Vec F S8x128x1024 .f32) (x1 : Vec F S8x128 .f32) (x2 : Vec F S8x128 .f32) (x3 : Vec F S8x128 .f32) (x4 : Vec F S8x1024 .f32) (xo5 : Vec F S8x128 .f32) (xo6 : Vec F S8x128 .f32) :
    out2_B_5 c i arg2 harg2 arg3 harg3 arg4 harg4 arg5 harg5 arg6 harg6 arg7 harg7 arg8 harg8 hc0 x0 x1 x2 x3 x4 xo5 xo6 = k2_pay3 (k2_pay8 x0 (lane0 x1) (lane0 x2) x4 x3) xo5 := by
  unfold out2_B_5
  rw [View.read_writes_eq_canon _ _ _ (cover2_B_5 c i arg2 harg2 arg3 harg3 arg4 harg4 arg5 harg5 arg6 harg6 arg7 harg7 arg8 harg8 hc0 x0 x1 x2 x3 x4 xo5 xo6)]
  unfold kernelRun2_B
  dsimp only
  sl_unfold_words
  rw [View.canon_unit_zero hz2]
  simp only [View.readAt_eq_ld, harg2.read_unread, harg3.read_unread, harg4.read_unread, harg5.read_unread, harg6.read_unread, harg7.read_unread,
    View.ld_unit_zero (S := S8x128) hz2, View.ld_unit_zero (S := S8x1024) hz2, View.ld_unit_zero (S := S8x128x1024) hz3]

theorem out2_B_6_eq (c : Dev nD) (i : grid2.Coords) (arg2 : Memref sig .tc .vmem S8x128x1024 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x1024 .f32) (harg6 : arg6.IsWhole) (arg7 : Memref sig .tc .vmem S8x128 .f32) (harg7 : arg7.IsWhole) (arg8 : Memref sig .tc .vmem S8x128 .f32) (harg8 : arg8.IsWhole) (hc0 : ¬cond2_0 i)
    (x0 : Vec F S8x128x1024 .f32) (x1 : Vec F S8x128 .f32) (x2 : Vec F S8x128 .f32) (x3 : Vec F S8x128 .f32) (x4 : Vec F S8x1024 .f32) (xo5 : Vec F S8x128 .f32) (xo6 : Vec F S8x128 .f32) :
    out2_B_6 c i arg2 harg2 arg3 harg3 arg4 harg4 arg5 harg5 arg6 harg6 arg7 harg7 arg8 harg8 hc0 x0 x1 x2 x3 x4 xo5 xo6 = k2_pay4 (k2_pay9 x0 (lane0 x1) (lane0 x2) x4 x3) xo6 := by
  unfold out2_B_6
  rw [View.read_writes_eq_canon _ _ _ (cover2_B_6 c i arg2 harg2 arg3 harg3 arg4 harg4 arg5 harg5 arg6 harg6 arg7 harg7 arg8 harg8 hc0 x0 x1 x2 x3 x4 xo5 xo6)]
  unfold kernelRun2_B
  dsimp only
  sl_unfold_words
  rw [View.canon_unit_zero hz2]
  simp only [View.readAt_eq_ld, harg2.read_unread, harg3.read_unread, harg4.read_unread, harg5.read_unread, harg6.read_unread, harg8.read_unread,
    View.ld_unit_zero (S := S8x128) hz2, View.ld_unit_zero (S := S8x1024) hz2, View.ld_unit_zero (S := S8x128x1024) hz3]

theorem out2_A_5_eq (c : Dev nD) (i : grid2.Coords) (arg2 : Memref sig .tc .vmem S8x128x1024 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x1024 .f32) (harg6 : arg6.IsWhole) (arg7 : Memref sig .tc .vmem S8x128 .f32) (harg7 : arg7.IsWhole) (arg8 : Memref sig .tc .vmem S8x128 .f32) (harg8 : arg8.IsWhole) (hc0 : cond2_0 i)
    (x0 : Vec F S8x128x1024 .f32) (x1 : Vec F S8x128 .f32) (x2 : Vec F S8x128 .f32) (x3 : Vec F S8x128 .f32) (x4 : Vec F S8x1024 .f32) :
    out2_A_5 c i arg2 harg2 arg3 harg3 arg4 harg4 arg5 harg5 arg6 harg6 arg7 harg7 arg8 harg8 hc0 x0 x1 x2 x3 x4 = k2_pay3 (k2_pay8 x0 (lane0 x1) (lane0 x2) x4 x3) (k2_pay1 (F := F)) := by
  unfold out2_A_5
  rw [View.read_writes_eq_canon _ _ _ (cover2_A_5 c i arg2 harg2 arg3 harg3 arg4 harg4 arg5 harg5 arg6 harg6 arg7 harg7 arg8 harg8 hc0 x0 x1 x2 x3 x4)]
  unfold kernelRun2_A
  dsimp only
  sl_unfold_words
  rw [View.canon_cons_unit_zero (S := S8x128) hz2, View.readCov_unit_zero (S := S8x128) _ hz2]
  simp only [View.readAt_eq_ld, harg2.read_unread, harg3.read_unread, harg4.read_unread, harg5.read_unread, harg6.read_unread,
    View.ld_unit_zero (S := S8x128) hz2, View.ld_unit_zero (S := S8x1024) hz2, View.ld_unit_zero (S := S8x128x1024) hz3]

theorem out2_A_6_eq (c : Dev nD) (i : grid2.Coords) (arg2 : Memref sig .tc .vmem S8x128x1024 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x1024 .f32) (harg6 : arg6.IsWhole) (arg7 : Memref sig .tc .vmem S8x128 .f32) (harg7 : arg7.IsWhole) (arg8 : Memref sig .tc .vmem S8x128 .f32) (harg8 : arg8.IsWhole) (hc0 : cond2_0 i)
    (x0 : Vec F S8x128x1024 .f32) (x1 : Vec F S8x128 .f32) (x2 : Vec F S8x128 .f32) (x3 : Vec F S8x128 .f32) (x4 : Vec F S8x1024 .f32) :
    out2_A_6 c i arg2 harg2 arg3 harg3 arg4 harg4 arg5 harg5 arg6 harg6 arg7 harg7 arg8 harg8 hc0 x0 x1 x2 x3 x4 = k2_pay4 (k2_pay9 x0 (lane0 x1) (lane0 x2) x4 x3) (k2_pay2 (F := F)) := by
  unfold out2_A_6
  rw [View.read_writes_eq_canon _ _ _ (cover2_A_6 c i arg2 harg2 arg3 harg3 arg4 harg4 arg5 harg5 arg6 harg6 arg7 harg7 arg8 harg8 hc0 x0 x1 x2 x3 x4)]
  unfold kernelRun2_A
  dsimp only
  sl_unfold_words
  rw [View.canon_cons_unit_zero (S := S8x128) hz2, View.readCov_unit_zero (S := S8x128) _ hz2]
  simp only [View.readAt_eq_ld, harg2.read_unread, harg3.read_unread, harg4.read_unread, harg5.read_unread, harg6.read_unread,
    View.ld_unit_zero (S := S8x128) hz2, View.ld_unit_zero (S := S8x1024) hz2, View.ld_unit_zero (S := S8x128x1024) hz3]

end Pieces

/-! ## Layout operations of the body read at an index given by its coordinates -/

section Layout
variable {α : Type}

/-- An [a, 1] column read as a vector [a]. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector [a] read as an [a, 1] column. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A vector [a] read as [a, 1, 1]. -/
theorem shapeCast_a_a11_apply {a : ℕ} (x : (⟨1, ![a]⟩ : Shape).Idx → α) (h : (⟨1, ![a]⟩ : Shape).ShapeCasts ⟨3, ![a, 1, 1]⟩)
    (i : Fin a) (u v : Fin 1) : shapeCast ⟨3, ![a, 1, 1]⟩ x h (ix3 i u v) = x (ix1 i) :=
  shapeCast_apply x h _ _ (by
    have hu : u.val = 0 := by omega
    have hv : v.val = 0 := by omega
    rw [Shape.rowMajor_val_one, Shape.rowMajor_val_three]
    show i.val = (i.val * 1 + u.val) * 1 + v.val
    omega)

/-- An [a, b] array read as [a, 1, b]. -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An [a, 1, 1] array broadcast to [a, b, c] reads its entry of the leading coordinate. -/
theorem broadcastTo_a11_abc_apply {a b c : ℕ} (v : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ v h (ix3 i j k) = v (ix3 i (0 : Fin 1) (0 : Fin 1)) := by
  refine broadcastTo_apply v h (ix3 i j k) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An [a, 1, c] array broadcast along its middle axis to [a, b, c]. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An [a, 1] column broadcast over the lanes to [a, b]. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## The body's arithmetic read at an index, at the ideal values -/

section Payload

/-- The normalized image of the tile: (x - lo) / (hi - lo + eps), with the extremes read at lane 0. -/
theorem pay5_apply (v0 : FVec Ideal S8x128x1024 .f32) (v2 v4 : FVec Ideal S8x1 .f32) (b : Fin 8) (i : Fin 128) (q : Fin 1024) :
    k2_pay5 (F := Ideal) v0 v2 v4 (ix3 b i q)
      = Ideal.div (v0 (ix3 b i q) - v2 (ix2 b (0 : Fin 1)))
          (v4 (ix2 b (0 : Fin 1)) - v2 (ix2 b (0 : Fin 1)) + Ideal.ofBits .f32 0x322BCC77#32) := by
  unfold k2_pay5
  rw [divf_apply, subf_apply, broadcastTo_a11_abc_apply, broadcastTo_a11_abc_apply, addf_apply, subf_apply,
    shapeCast_a_a11_apply, shapeCast_a_a11_apply, shapeCast_a1_a_apply, shapeCast_a1_a_apply, shapeCast_self, broadcast_apply]
  rfl

/-- A one-bit word widened and converted is the real 0 or 1 it denotes. -/
theorem sitofp_extui_bit (w : BitVec 1) :
    (FloatOps.sitofp (F := Ideal) .f32 (w.setWidth 32) : EReal) = Cert.Spec.bit w := by
  have e : (w.setWidth 32).toInt = (w.toNat : Int) := by
    rcases BitVec.eq_zero_or_eq_one w with h | h <;> subst h <;> decide
  show (((w.setWidth 32).toInt : ℝ) : EReal) = ((w.toNat : ℝ) : EReal)
  rw [e]
  norm_cast

/-- The tile's share of the first cross term: every lane of row b holds the sum over the tile's rows of
    (sum over the columns of normalized image times column span) times row span. -/
theorem pay8_apply (v0 : FVec Ideal S8x128x1024 .f32) (v2 v4 : FVec Ideal S8x1 .f32) (v19 : FVec Ideal S8x1024 .f32)
    (v22 : FVec Ideal S8x128 .f32) (b : Fin 8) (l : Fin 128) :
    k2_pay8 (F := Ideal) v0 v2 v4 v19 v22 (ix2 b l)
      = ∑ i : Fin 128, (∑ q : Fin 1024, k2_pay5 (F := Ideal) v0 v2 v4 (ix3 b i q) * v19 (ix2 b q)) * v22 (ix2 b i) := by
  unfold k2_pay8
  refine (broadcastTo_a1_ab_apply _ _ b l).trans ?_
  rw [shapeCast_self]
  refine (shapeCast_a_a1_apply _ _ b 0).trans ?_
  refine (Cert.LibFiber.mrAdd_2_1 _ _ _ _ _ b).trans ?_
  refine Finset.sum_congr rfl fun i _ => ?_
  rw [mulf_apply]
  congr 1
  · refine (Cert.LibFiber.mrAdd_3_2 _ _ _ _ _ b i).trans ?_
    refine Finset.sum_congr rfl fun q _ => ?_
    rw [mulf_apply, broadcastTo_a1c_abc_apply]
    unfold k2_pay6
    rw [shapeCast_ab_a1b_apply, shapeCast_self]
  · unfold k2_pay7
    rw [shapeCast_self]

/-- The same with the thresholded image. -/
theorem pay9_apply (v0 : FVec Ideal S8x128x1024 .f32) (v2 v4 : FVec Ideal S8x1 .f32) (v19 : FVec Ideal S8x1024 .f32)
    (v22 : FVec Ideal S8x128 .f32) (b : Fin 8) (l : Fin 128) :
    k2_pay9 (F := Ideal) v0 v2 v4 v19 v22 (ix2 b l)
      = ∑ i : Fin 128, (∑ q : Fin 1024,
          Cert.Spec.bit (Ideal.cmp .ogt (k2_pay5 (F := Ideal) v0 v2 v4 (ix3 b i q)) (Ideal.ofBits .f32 0x3F000000#32)) * v19 (ix2 b q))
            * v22 (ix2 b i) := by
  unfold k2_pay9
  refine (broadcastTo_a1_ab_apply _ _ b l).trans ?_
  rw [shapeCast_self]
  refine (shapeCast_a_a1_apply _ _ b 0).trans ?_
  refine (Cert.LibFiber.mrAdd_2_1 _ _ _ _ _ b).trans ?_
  refine Finset.sum_congr rfl fun i _ => ?_
  rw [mulf_apply]
  congr 1
  · refine (Cert.LibFiber.mrAdd_3_2 _ _ _ _ _ b i).trans ?_
    refine Finset.sum_congr rfl fun q _ => ?_
    rw [mulf_apply, broadcastTo_a1c_abc_apply]
    unfold k2_pay6
    rw [shapeCast_ab_a1b_apply, shapeCast_self, sitofp_apply, extui_apply, cmpf_apply, broadcast_apply]
    exact congrArg (· * v19 (ix2 b q)) (sitofp_extui_bit _)
  · unfold k2_pay7
    rw [shapeCast_self]

end Payload

/-! ## The blocks a point reads, and where they sit in the arrays -/

section Blocks
variable (V : Entry)

/-- The image tile, the extremes' blocks, the row-span tile and the column-span block at point t. -/
abbrev xblk (c : Dev nD) (t : Fin cfg2.N) : FVec Ideal S8x128x1024 .f32 := iblk2 (F := Ideal) V c 0 t
abbrev loblk (c : Dev nD) (t : Fin cfg2.N) : FVec Ideal S8x128 .f32 := iblk2 (F := Ideal) V c 1 t
abbrev hiblk (c : Dev nD) (t : Fin cfg2.N) : FVec Ideal S8x128 .f32 := iblk2 (F := Ideal) V c 2 t
abbrev srblk (c : Dev nD) (t : Fin cfg2.N) : FVec Ideal S8x128 .f32 := iblk2 (F := Ideal) V c 3 t
abbrev scblk (c : Dev nD) (t : Fin cfg2.N) : FVec Ideal S8x1024 .f32 := iblk2 (F := Ideal) V c 4 t

/-- The index maps over the grid (4, 8): point t = 8 g + r reads samples 8 g .. 8 g + 7 and rows 128 r .. 128 r + 127. -/
theorem idx_facts : ∀ t : Fin cfg2.N,
    win2_0.index t (0 : Fin 3) = t.val / 8 ∧ win2_0.index t (1 : Fin 3) = t.val % 8 ∧ win2_0.index t (2 : Fin 3) = 0
    ∧ win2_1.index t (0 : Fin 2) = t.val / 8 ∧ win2_1.index t (1 : Fin 2) = 0
    ∧ win2_2.index t (0 : Fin 2) = t.val / 8 ∧ win2_2.index t (1 : Fin 2) = 0
    ∧ win2_3.index t (0 : Fin 2) = t.val / 8 ∧ win2_3.index t (1 : Fin 2) = t.val % 8
    ∧ win2_4.index t (0 : Fin 2) = t.val / 8 ∧ win2_4.index t (1 : Fin 2) = 0
    ∧ win2_5.index t (0 : Fin 2) = t.val / 8 ∧ win2_5.index t (1 : Fin 2) = 0
    ∧ win2_6.index t (0 : Fin 2) = t.val / 8 ∧ win2_6.index t (1 : Fin 2) = 0 :=
  (by decide +kernel : ∀ t : Fin grid2.N, _)

theorem xblk_apply (c : Dev nD) (t : Fin cfg2.N) (b' : Fin 8) (i : Fin 128) (q : Fin 1024) (B : Fin 32) (R : Fin 1024)
    (hB : B.val = 8 * (t.val / 8) + b'.val) (hR : R.val = 128 * (t.val % 8) + i.val) :
    xblk V c t (ix3 b' i q) = xOf V c (ix3 B R q) := by
  obtain ⟨e0, e1, e2, -⟩ := idx_facts t
  show V c main_v0 (((cfg2.win 0).blk t).view.emb (ix3 b' i q)) = V c main_v0 (ix3 B R q)
  congr 1
  funext a; apply Fin.ext
  match a with
  | ⟨0, _⟩ => show win2_0.index t (0 : Fin 3) * 8 + 1 * b'.val = B.val; omega
  | ⟨1, _⟩ => show win2_0.index t (1 : Fin 3) * 128 + 1 * i.val = R.val; omega
  | ⟨2, _⟩ => show win2_0.index t (2 : Fin 3) * 1024 + 1 * q.val = q.val; omega

theorem lo_apply (c : Dev nD) (t : Fin cfg2.N) (b' : Fin 8) (B : Fin 32) (hB : B.val = 8 * (t.val / 8) + b'.val) :
    lane0 (F := Ideal) (loblk V c t) (ix2 b' (0 : Fin 1)) = loOf V c B := by
  obtain ⟨-, -, -, e0, e1, -⟩ := idx_facts t
  show V c main_v1_0 (((cfg2.win 1).blk t).view.emb ((Rect.unit (s := S8x128) ![0, 0] S8x1.size inb_S8x128_S8x1_0_0).idx (ix2 b' (0 : Fin 1))))
    = V c main_v1_0 (ix2 B (0 : Fin 128))
  congr 1
  funext a; apply Fin.ext
  match a with
  | ⟨0, _⟩ => show win2_1.index t (0 : Fin 2) * 8 + 1 * (0 + 1 * b'.val) = B.val; omega
  | ⟨1, _⟩ => show win2_1.index t (1 : Fin 2) * 128 + 1 * (0 + 1 * 0) = 0; omega

theorem hi_apply (c : Dev nD) (t : Fin cfg2.N) (b' : Fin 8) (B : Fin 32) (hB : B.val = 8 * (t.val / 8) + b'.val) :
    lane0 (F := Ideal) (hiblk V c t) (ix2 b' (0 : Fin 1)) = hiOf V c B := by
  obtain ⟨-, -, -, -, -, e0, e1, -⟩ := idx_facts t
  show V c main_v1_1 (((cfg2.win 2).blk t).view.emb ((Rect.unit (s := S8x128) ![0, 0] S8x1.size inb_S8x128_S8x1_0_0).idx (ix2 b' (0 : Fin 1))))
    = V c main_v1_1 (ix2 B (0 : Fin 128))
  congr 1
  funext a; apply Fin.ext
  match a with
  | ⟨0, _⟩ => show win2_2.index t (0 : Fin 2) * 8 + 1 * (0 + 1 * b'.val) = B.val; omega
  | ⟨1, _⟩ => show win2_2.index t (1 : Fin 2) * 128 + 1 * (0 + 1 * 0) = 0; omega

theorem srblk_apply (c : Dev nD) (t : Fin cfg2.N) (b' : Fin 8) (i : Fin 128) (B : Fin 32) (R : Fin 1024)
    (hB : B.val = 8 * (t.val / 8) + b'.val) (hR : R.val = 128 * (t.val % 8) + i.val) :
    srblk V c t (ix2 b' i) = srOf V c B R := by
  obtain ⟨-, -, -, -, -, -, -, e0, e1, -⟩ := idx_facts t
  show V c main_v26 (((cfg2.win 3).blk t).view.emb (ix2 b' i)) = V c main_v26 (ix2 B R)
  congr 1
  funext a; apply Fin.ext
  match a with
  | ⟨0, _⟩ => show win2_3.index t (0 : Fin 2) * 8 + 1 * b'.val = B.val; omega
  | ⟨1, _⟩ => show win2_3.index t (1 : Fin 2) * 128 + 1 * i.val = R.val; omega

theorem scblk_apply (c : Dev nD) (t : Fin cfg2.N) (b' : Fin 8) (q : Fin 1024) (B : Fin 32)
    (hB : B.val = 8 * (t.val / 8) + b'.val) :
    scblk V c t (ix2 b' q) = scOf V c B q := by
  obtain ⟨-, -, -, -, -, -, -, -, -, e0, e1, -⟩ := idx_facts t
  show V c main_v38 (((cfg2.win 4).blk t).view.emb (ix2 b' q)) = V c main_v38 (ix2 B q)
  congr 1
  funext a; apply Fin.ext
  match a with
  | ⟨0, _⟩ => show win2_4.index t (0 : Fin 2) * 8 + 1 * b'.val = B.val; omega
  | ⟨1, _⟩ => show win2_4.index t (1 : Fin 2) * 1024 + 1 * q.val = q.val; omega

end Blocks

/-! ## The accumulation over a run of 8 row tiles -/

section Acc
variable (V : Entry)

/-- What the reset point of a run of 8 row tiles leaves in the block: the zero block plus the tile's share. -/
def a5 (c : Dev nD) (n : ℕ) (hn : n < cfg2.N) : S8x128.Idx → EReal :=
  k2_pay3 (F := Ideal) (k2_pay8 (F := Ideal) (xblk V c ⟨n, hn⟩) (lane0 (F := Ideal) (loblk V c ⟨n, hn⟩)) (lane0 (F := Ideal) (hiblk V c ⟨n, hn⟩)) (scblk V c ⟨n, hn⟩) (srblk V c ⟨n, hn⟩)) (k2_pay1 (F := Ideal))

/-- What a later point of the run makes of the block: it adds the tile's share. -/
def g5 (c : Dev nD) (n : ℕ) (hn : n < cfg2.N) (acc : S8x128.Idx → EReal) : S8x128.Idx → EReal :=
  k2_pay3 (F := Ideal) (k2_pay8 (F := Ideal) (xblk V c ⟨n, hn⟩) (lane0 (F := Ideal) (loblk V c ⟨n, hn⟩)) (lane0 (F := Ideal) (hiblk V c ⟨n, hn⟩)) (scblk V c ⟨n, hn⟩) (srblk V c ⟨n, hn⟩)) acc

/-- The tile's share at point n (zero past the grid, where it is never used). -/
def tPn (c : Dev nD) (n : ℕ) : S8x128.Idx → EReal :=
  if hn : n < cfg2.N then (k2_pay8 (F := Ideal) (xblk V c ⟨n, hn⟩) (lane0 (F := Ideal) (loblk V c ⟨n, hn⟩)) (lane0 (F := Ideal) (hiblk V c ⟨n, hn⟩)) (scblk V c ⟨n, hn⟩) (srblk V c ⟨n, hn⟩)) else fun _ => 0

theorem reset5 (c : Dev nD) (n : ℕ) (hn : n < cfg2.N) (h8 : n % 8 = 0) :
    (outsAt2 (F := Ideal) V c n hn).1 = a5 V c n hn := by
  have e := outsAt2_A (F := Ideal) V c ⟨n, hn⟩ h8
  unfold a5
  show (outsAt2 (F := Ideal) V c n hn).1 = _
  rw [e]
  dsimp only
  exact out2_A_5_eq (F := Ideal) c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) (ms2_5 ⟨n, hn⟩) (hs2_5 ⟨n, hn⟩) (ms2_6 ⟨n, hn⟩) (hs2_6 ⟨n, hn⟩) ((hcond2_0 ⟨n, hn⟩).mpr h8) (iblk2 V c 0 ⟨n, hn⟩) (iblk2 V c 1 ⟨n, hn⟩) (iblk2 V c 2 ⟨n, hn⟩) (iblk2 V c 3 ⟨n, hn⟩) (iblk2 V c 4 ⟨n, hn⟩)

theorem step5 (c : Dev nD) (n : ℕ) (hn : n + 1 < cfg2.N) (h8 : ¬(n + 1) % 8 = 0) :
    (outsAt2 (F := Ideal) V c (n + 1) hn).1 = g5 V c (n + 1) hn (outsAt2 (F := Ideal) V c n (Nat.lt_of_succ_lt hn)).1 := by
  have e := outsAt2_B (F := Ideal) V c ⟨n + 1, hn⟩ h8
  unfold g5
  show (outsAt2 (F := Ideal) V c (n + 1) hn).1 = _
  rw [e]
  dsimp only
  exact out2_B_5_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h8 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
    (outsAt2 (F := Ideal) V c (n + 1 - 1) (Nat.lt_of_le_of_lt (Nat.sub_le _ _) hn)).1 (outsAt2 (F := Ideal) V c (n + 1 - 1) (Nat.lt_of_le_of_lt (Nat.sub_le _ _) hn)).2

/-- After point t the block holds 0 plus the shares of the run's tiles up to t. -/
theorem acc5 (c : Dev nD) (t : Fin cfg2.N) (y : S8x128.Idx) :
    (outsAt2 (F := Ideal) V c t.val t.isLt).1 y
      = Ideal.ofBits .f32 0x00000000#32 + ∑ s ∈ Finset.range (t.val % 8 + 1), tPn V c (8 * (t.val / 8) + s) y := by
  have h' : 8 * (t.val / 8) + t.val % 8 < cfg2.N := by rw [Nat.div_add_mod]; exact t.isLt
  have e := eq_accAt_of_mod (N := cfg2.N) (α := S8x128.Idx → EReal) (fun n hn => (outsAt2 (F := Ideal) V c n hn).1) 8
    (a5 V c) (g5 V c) (reset5 V c) (step5 V c) (by decide) t.val t.isLt h'
  refine (congrFun e y).trans ?_
  refine accAt_add_apply (a5 V c) (g5 V c) (fun _ => Ideal.ofBits .f32 0x00000000#32) (tPn V c) (8 * (t.val / 8)) 7 ?_ ?_
    (t.val % 8) (by omega) h' y
  · intro hb i
    unfold a5 tPn k2_pay3 k2_pay1
    rw [dif_pos hb, addf_apply, shapeCast_self, broadcast_apply]
    rfl
  · intro n hn acc i _ _
    unfold g5 tPn k2_pay3
    rw [dif_pos hn, addf_apply, shapeCast_self]

/-- What the reset point of a run of 8 row tiles leaves in the block: the zero block plus the tile's share. -/
def a6 (c : Dev nD) (n : ℕ) (hn : n < cfg2.N) : S8x128.Idx → EReal :=
  k2_pay4 (F := Ideal) (k2_pay9 (F := Ideal) (xblk V c ⟨n, hn⟩) (lane0 (F := Ideal) (loblk V c ⟨n, hn⟩)) (lane0 (F := Ideal) (hiblk V c ⟨n, hn⟩)) (scblk V c ⟨n, hn⟩) (srblk V c ⟨n, hn⟩)) (k2_pay2 (F := Ideal))

/-- What a later point of the run makes of the block: it adds the tile's share. -/
def g6 (c : Dev nD) (n : ℕ) (hn : n < cfg2.N) (acc : S8x128.Idx → EReal) : S8x128.Idx → EReal :=
  k2_pay4 (F := Ideal) (k2_pay9 (F := Ideal) (xblk V c ⟨n, hn⟩) (lane0 (F := Ideal) (loblk V c ⟨n, hn⟩)) (lane0 (F := Ideal) (hiblk V c ⟨n, hn⟩)) (scblk V c ⟨n, hn⟩) (srblk V c ⟨n, hn⟩)) acc

/-- The tile's share at point n (zero past the grid, where it is never used). -/
def tBn (c : Dev nD) (n : ℕ) : S8x128.Idx → EReal :=
  if hn : n < cfg2.N then (k2_pay9 (F := Ideal) (xblk V c ⟨n, hn⟩) (lane0 (F := Ideal) (loblk V c ⟨n, hn⟩)) (lane0 (F := Ideal) (hiblk V c ⟨n, hn⟩)) (scblk V c ⟨n, hn⟩) (srblk V c ⟨n, hn⟩)) else fun _ => 0

theorem reset6 (c : Dev nD) (n : ℕ) (hn : n < cfg2.N) (h8 : n % 8 = 0) :
    (outsAt2 (F := Ideal) V c n hn).2 = a6 V c n hn := by
  have e := outsAt2_A (F := Ideal) V c ⟨n, hn⟩ h8
  unfold a6
  show (outsAt2 (F := Ideal) V c n hn).2 = _
  rw [e]
  dsimp only
  exact out2_A_6_eq (F := Ideal) c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) (ms2_5 ⟨n, hn⟩) (hs2_5 ⟨n, hn⟩) (ms2_6 ⟨n, hn⟩) (hs2_6 ⟨n, hn⟩) ((hcond2_0 ⟨n, hn⟩).mpr h8) (iblk2 V c 0 ⟨n, hn⟩) (iblk2 V c 1 ⟨n, hn⟩) (iblk2 V c 2 ⟨n, hn⟩) (iblk2 V c 3 ⟨n, hn⟩) (iblk2 V c 4 ⟨n, hn⟩)

theorem step6 (c : Dev nD) (n : ℕ) (hn : n + 1 < cfg2.N) (h8 : ¬(n + 1) % 8 = 0) :
    (outsAt2 (F := Ideal) V c (n + 1) hn).2 = g6 V c (n + 1) hn (outsAt2 (F := Ideal) V c n (Nat.lt_of_succ_lt hn)).2 := by
  have e := outsAt2_B (F := Ideal) V c ⟨n + 1, hn⟩ h8
  unfold g6
  show (outsAt2 (F := Ideal) V c (n + 1) hn).2 = _
  rw [e]
  dsimp only
  exact out2_B_6_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h8 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
    (outsAt2 (F := Ideal) V c (n + 1 - 1) (Nat.lt_of_le_of_lt (Nat.sub_le _ _) hn)).1 (outsAt2 (F := Ideal) V c (n + 1 - 1) (Nat.lt_of_le_of_lt (Nat.sub_le _ _) hn)).2

/-- After point t the block holds 0 plus the shares of the run's tiles up to t. -/
theorem acc6 (c : Dev nD) (t : Fin cfg2.N) (y : S8x128.Idx) :
    (outsAt2 (F := Ideal) V c t.val t.isLt).2 y
      = Ideal.ofBits .f32 0x00000000#32 + ∑ s ∈ Finset.range (t.val % 8 + 1), tBn V c (8 * (t.val / 8) + s) y := by
  have h' : 8 * (t.val / 8) + t.val % 8 < cfg2.N := by rw [Nat.div_add_mod]; exact t.isLt
  have e := eq_accAt_of_mod (N := cfg2.N) (α := S8x128.Idx → EReal) (fun n hn => (outsAt2 (F := Ideal) V c n hn).2) 8
    (a6 V c) (g6 V c) (reset6 V c) (step6 V c) (by decide) t.val t.isLt h'
  refine (congrFun e y).trans ?_
  refine accAt_add_apply (a6 V c) (g6 V c) (fun _ => Ideal.ofBits .f32 0x00000000#32) (tBn V c) (8 * (t.val / 8)) 7 ?_ ?_
    (t.val % 8) (by omega) h' y
  · intro hb i
    unfold a6 tBn k2_pay4 k2_pay2
    rw [dif_pos hb, addf_apply, shapeCast_self, broadcast_apply]
    rfl
  · intro n hn acc i _ _
    unfold g6 tBn k2_pay4
    rw [dif_pos hn, addf_apply, shapeCast_self]

end Acc

/-! ## From the tiles to the whole image, and from the blocks to the arrays -/

section Final
variable (V : Entry)

/-- The tile's share at point 8 g + s, lane by lane, in the whole arrays' terms: the rows 128 s .. 128 s + 127 of sample 8 g + b'. -/
theorem tPn_apply (c : Dev nD) (g : ℕ) (s : Fin 8) (b' : Fin 8) (l : Fin 128) (B : Fin 32) (hg : g < 4) (hB : B.val = 8 * g + b'.val) :
    tPn V c (8 * g + s.val) (ix2 b' l)
      = ∑ i : Fin 128, (∑ q : Fin 1024, Cert.Spec.pn (xOf V c) (loOf V c) (hiOf V c) B (Cert.LibFiber.tileIx 8 128 s i, q) * scOf V c B q)
          * srOf V c B (Cert.LibFiber.tileIx 8 128 s i) := by
  have hN : cfg2.N = 32 := N_2
  have hlt : 8 * g + s.val < cfg2.N := by omega
  have hdiv : (8 * g + s.val) / 8 = g := by omega
  have hmod : (8 * g + s.val) % 8 = s.val := by omega
  unfold tPn
  rw [dif_pos hlt, pay8_apply]
  refine Finset.sum_congr rfl fun i _ => ?_
  have hR : (Cert.LibFiber.tileIx 8 128 s i).val = 128 * ((⟨8 * g + s.val, hlt⟩ : Fin cfg2.N).val % 8) + i.val := by
    show 128 * s.val + i.val = 128 * ((8 * g + s.val) % 8) + i.val
    rw [hmod]
  have hB' : B.val = 8 * ((⟨8 * g + s.val, hlt⟩ : Fin cfg2.N).val / 8) + b'.val := by
    show B.val = 8 * ((8 * g + s.val) / 8) + b'.val
    rw [hdiv]; exact hB
  rw [srblk_apply V c ⟨8 * g + s.val, hlt⟩ b' i B (Cert.LibFiber.tileIx 8 128 s i) hB' hR]
  refine congrArg (fun z => z * srOf V c B (Cert.LibFiber.tileIx 8 128 s i)) ?_
  refine Finset.sum_congr rfl fun q _ => ?_
  rw [pay5_apply, xblk_apply V c ⟨8 * g + s.val, hlt⟩ b' i q B (Cert.LibFiber.tileIx 8 128 s i) hB' hR,
    lo_apply V c ⟨8 * g + s.val, hlt⟩ b' B hB', hi_apply V c ⟨8 * g + s.val, hlt⟩ b' B hB',
    scblk_apply V c ⟨8 * g + s.val, hlt⟩ b' q B hB']
  unfold Cert.Spec.pn Cert.Spec.at3 Cert.Spec.eps
  rfl

/-- At the last point of a run the block holds the whole cross term of its samples. -/
theorem last5 (c : Dev nD) (t : Fin cfg2.N) (h7 : t.val % 8 = 7) (b' : Fin 8) (l : Fin 128) (B : Fin 32)
    (hB : B.val = 8 * (t.val / 8) + b'.val) :
    (outsAt2 (F := Ideal) V c t.val t.isLt).1 (ix2 b' l)
      = Cert.Spec.crossPn (xOf V c) (loOf V c) (hiOf V c) (srOf V c) (scOf V c) B := by
  have hN : cfg2.N = 32 := N_2
  have hg : t.val / 8 < 4 := by have := t.isLt; omega
  rw [acc5 V c t (ix2 b' l), h7, Ideal.ofBits_zero_f32, zero_add, Finset.sum_range]
  rw [Finset.sum_congr rfl fun (s : Fin 8) _ => tPn_apply V c (t.val / 8) s b' l B hg hB]
  unfold Cert.Spec.crossPn
  exact (Cert.LibFiber.sum_tile 8 128 fun r : Fin (8 * 128) =>
    (∑ q : Fin 1024, Cert.Spec.pn (xOf V c) (loOf V c) (hiOf V c) B (r, q) * scOf V c B q) * srOf V c B r).symm

/-- The array the output ends holding: every lane of row b is sample b's cross term. -/
abbrev G5 (c : Dev nD) : FVec Ideal S32x128 .f32 :=
  fun j => Cert.Spec.crossPn (xOf V c) (loOf V c) (hiOf V c) (srOf V c) (scOf V c) (j 0)

/-- What a run's last point writes back is its block of that array. -/
theorem flushed5_eq (c : Dev nD) (t : Fin cfg2.N) (hf : (cfg2.win 5).flush t = true) :
    (dat2 (F := Ideal) V c).flushed 5 t = ((cfg2.win 5).blk t).view.read (Elt Ideal) (G5 V c) := by
  have h7 : t.val % 8 = 7 := (flush2_5 t).mp hf
  have hN : cfg2.N = 32 := N_2
  obtain ⟨-, -, -, -, -, -, -, -, -, -, -, e50, e51, e60, e61⟩ := idx_facts t
  show (cfg2.win 5).cut (grid2.coords t) ((dat2 (F := Ideal) V c).after 5 t) = _
  rw [after2_5]
  refine funext fun (y : S8x128.Idx) => ?_
  obtain ⟨b', l, rfl⟩ : ∃ (b' : Fin 8) (l : Fin 128), y = ix2 b' l := ⟨y 0, y 1, eq_ix2 y⟩
  have hlt : 8 * (t.val / 8) + b'.val < 32 := by have := t.isLt; omega
  show (outsAt2 (F := Ideal) V c t.val t.isLt).1 (ix2 b' l) = G5 V c (((cfg2.win 5).blk t).view.emb (ix2 b' l))
  rw [last5 V c t h7 b' l ⟨8 * (t.val / 8) + b'.val, hlt⟩ rfl]
  show _ = Cert.Spec.crossPn (xOf V c) (loOf V c) (hiOf V c) (srOf V c) (scOf V c) ((((cfg2.win 5).blk t).view.emb (ix2 b' l)) 0)
  congr 1
  apply Fin.ext
  show 8 * (t.val / 8) + b'.val = win2_5.index t (0 : Fin 2) * 8 + 1 * b'.val
  omega

/-- Sample b's row is written back by the last point of the run of its group of 8 samples. -/
theorem cover5 (i : S32x128.Idx) : ∃ t : Fin cfg2.N, (cfg2.win 5).flush t = true ∧ i ∈ ((cfg2.win 5).blk t).view.set := by
  have hN : cfg2.N = 32 := N_2
  have h0 : (i 0).val < 32 := (i 0).isLt
  have h1 : (i 1).val < 128 := (i 1).isLt
  obtain ⟨t, ht⟩ : ∃ t : Fin cfg2.N, t.val = 8 * ((i 0).val / 8) + 7 := ⟨⟨8 * ((i 0).val / 8) + 7, by omega⟩, rfl⟩
  refine ⟨t, (flush2_5 t).mpr (by omega), ?_⟩
  obtain ⟨-, -, -, -, -, -, -, -, -, -, -, e50, e51, e60, e61⟩ := idx_facts t
  show i ∈ ((View.whole main_v42_0).slice (win2_5.rect t)).set
  rw [View.set_slice_whole, Rect.mem_set_unit]
  intro a
  match a with
  | ⟨0, _⟩ =>
    show win2_5.index t (0 : Fin 2) * 8 ≤ (i 0).val ∧ (i 0).val < win2_5.index t (0 : Fin 2) * 8 + 8
    omega
  | ⟨1, _⟩ =>
    show win2_5.index t (1 : Fin 2) * 128 ≤ (i 1).val ∧ (i 1).val < win2_5.index t (1 : Fin 2) * 128 + 128
    omega

theorem final5 (c : Dev nD) : (dat2 (F := Ideal) V c).arrAt 5 cfg2.N = G5 V c :=
  (dat2 (F := Ideal) V c).arrAt_eq_of_cover 5 (G5 V c) (flushed5_eq V c) cover5

/-- The tile's share at point 8 g + s, lane by lane, in the whole arrays' terms: the rows 128 s .. 128 s + 127 of sample 8 g + b'. -/
theorem tBn_apply (c : Dev nD) (g : ℕ) (s : Fin 8) (b' : Fin 8) (l : Fin 128) (B : Fin 32) (hg : g < 4) (hB : B.val = 8 * g + b'.val) :
    tBn V c (8 * g + s.val) (ix2 b' l)
      = ∑ i : Fin 128, (∑ q : Fin 1024, Cert.Spec.bit (Cert.Spec.bn (xOf V c) (loOf V c) (hiOf V c) B (Cert.LibFiber.tileIx 8 128 s i, q)) * scOf V c B q)
          * srOf V c B (Cert.LibFiber.tileIx 8 128 s i) := by
  have hN : cfg2.N = 32 := N_2
  have hlt : 8 * g + s.val < cfg2.N := by omega
  have hdiv : (8 * g + s.val) / 8 = g := by omega
  have hmod : (8 * g + s.val) % 8 = s.val := by omega
  unfold tBn
  rw [dif_pos hlt, pay9_apply]
  refine Finset.sum_congr rfl fun i _ => ?_
  have hR : (Cert.LibFiber.tileIx 8 128 s i).val = 128 * ((⟨8 * g + s.val, hlt⟩ : Fin cfg2.N).val % 8) + i.val := by
    show 128 * s.val + i.val = 128 * ((8 * g + s.val) % 8) + i.val
    rw [hmod]
  have hB' : B.val = 8 * ((⟨8 * g + s.val, hlt⟩ : Fin cfg2.N).val / 8) + b'.val := by
    show B.val = 8 * ((8 * g + s.val) / 8) + b'.val
    rw [hdiv]; exact hB
  rw [srblk_apply V c ⟨8 * g + s.val, hlt⟩ b' i B (Cert.LibFiber.tileIx 8 128 s i) hB' hR]
  refine congrArg (fun z => z * srOf V c B (Cert.LibFiber.tileIx 8 128 s i)) ?_
  refine Finset.sum_congr rfl fun q _ => ?_
  rw [scblk_apply V c ⟨8 * g + s.val, hlt⟩ b' q B hB']
  refine congrArg (fun z => Cert.Spec.bit z * scOf V c B q) ?_
  unfold Cert.Spec.bn Cert.Spec.half
  refine congrArg (fun z => Ideal.cmp .ogt z (Ideal.ofBits .f32 0x3F000000#32)) ?_
  rw [pay5_apply, xblk_apply V c ⟨8 * g + s.val, hlt⟩ b' i q B (Cert.LibFiber.tileIx 8 128 s i) hB' hR,
    lo_apply V c ⟨8 * g + s.val, hlt⟩ b' B hB', hi_apply V c ⟨8 * g + s.val, hlt⟩ b' B hB']
  unfold Cert.Spec.pn Cert.Spec.at3 Cert.Spec.eps
  rfl

/-- At the last point of a run the block holds the whole cross term of its samples. -/
theorem last6 (c : Dev nD) (t : Fin cfg2.N) (h7 : t.val % 8 = 7) (b' : Fin 8) (l : Fin 128) (B : Fin 32)
    (hB : B.val = 8 * (t.val / 8) + b'.val) :
    (outsAt2 (F := Ideal) V c t.val t.isLt).2 (ix2 b' l)
      = Cert.Spec.crossBn (xOf V c) (loOf V c) (hiOf V c) (srOf V c) (scOf V c) B := by
  have hN : cfg2.N = 32 := N_2
  have hg : t.val / 8 < 4 := by have := t.isLt; omega
  rw [acc6 V c t (ix2 b' l), h7, Ideal.ofBits_zero_f32, zero_add, Finset.sum_range]
  rw [Finset.sum_congr rfl fun (s : Fin 8) _ => tBn_apply V c (t.val / 8) s b' l B hg hB]
  unfold Cert.Spec.crossBn
  exact (Cert.LibFiber.sum_tile 8 128 fun r : Fin (8 * 128) =>
    (∑ q : Fin 1024, Cert.Spec.bit (Cert.Spec.bn (xOf V c) (loOf V c) (hiOf V c) B (r, q)) * scOf V c B q) * srOf V c B r).symm

/-- The array the output ends holding: every lane of row b is sample b's cross term. -/
abbrev G6 (c : Dev nD) : FVec Ideal S32x128 .f32 :=
  fun j => Cert.Spec.crossBn (xOf V c) (loOf V c) (hiOf V c) (srOf V c) (scOf V c) (j 0)

/-- What a run's last point writes back is its block of that array. -/
theorem flushed6_eq (c : Dev nD) (t : Fin cfg2.N) (hf : (cfg2.win 6).flush t = true) :
    (dat2 (F := Ideal) V c).flushed 6 t = ((cfg2.win 6).blk t).view.read (Elt Ideal) (G6 V c) := by
  have h7 : t.val % 8 = 7 := (flush2_6 t).mp hf
  have hN : cfg2.N = 32 := N_2
  obtain ⟨-, -, -, -, -, -, -, -, -, -, -, e50, e51, e60, e61⟩ := idx_facts t
  show (cfg2.win 6).cut (grid2.coords t) ((dat2 (F := Ideal) V c).after 6 t) = _
  rw [after2_6]
  refine funext fun (y : S8x128.Idx) => ?_
  obtain ⟨b', l, rfl⟩ : ∃ (b' : Fin 8) (l : Fin 128), y = ix2 b' l := ⟨y 0, y 1, eq_ix2 y⟩
  have hlt : 8 * (t.val / 8) + b'.val < 32 := by have := t.isLt; omega
  show (outsAt2 (F := Ideal) V c t.val t.isLt).2 (ix2 b' l) = G6 V c (((cfg2.win 6).blk t).view.emb (ix2 b' l))
  rw [last6 V c t h7 b' l ⟨8 * (t.val / 8) + b'.val, hlt⟩ rfl]
  show _ = Cert.Spec.crossBn (xOf V c) (loOf V c) (hiOf V c) (srOf V c) (scOf V c) ((((cfg2.win 6).blk t).view.emb (ix2 b' l)) 0)
  congr 1
  apply Fin.ext
  show 8 * (t.val / 8) + b'.val = win2_6.index t (0 : Fin 2) * 8 + 1 * b'.val
  omega

/-- Sample b's row is written back by the last point of the run of its group of 8 samples. -/
theorem cover6 (i : S32x128.Idx) : ∃ t : Fin cfg2.N, (cfg2.win 6).flush t = true ∧ i ∈ ((cfg2.win 6).blk t).view.set := by
  have hN : cfg2.N = 32 := N_2
  have h0 : (i 0).val < 32 := (i 0).isLt
  have h1 : (i 1).val < 128 := (i 1).isLt
  obtain ⟨t, ht⟩ : ∃ t : Fin cfg2.N, t.val = 8 * ((i 0).val / 8) + 7 := ⟨⟨8 * ((i 0).val / 8) + 7, by omega⟩, rfl⟩
  refine ⟨t, (flush2_6 t).mpr (by omega), ?_⟩
  obtain ⟨-, -, -, -, -, -, -, -, -, -, -, e50, e51, e60, e61⟩ := idx_facts t
  show i ∈ ((View.whole main_v42_1).slice (win2_6.rect t)).set
  rw [View.set_slice_whole, Rect.mem_set_unit]
  intro a
  match a with
  | ⟨0, _⟩ =>
    show win2_6.index t (0 : Fin 2) * 8 ≤ (i 0).val ∧ (i 0).val < win2_6.index t (0 : Fin 2) * 8 + 8
    omega
  | ⟨1, _⟩ =>
    show win2_6.index t (1 : Fin 2) * 128 ≤ (i 1).val ∧ (i 1).val < win2_6.index t (1 : Fin 2) * 128 + 128
    omega

theorem final6 (c : Dev nD) : (dat2 (F := Ideal) V c).arrAt 6 cfg2.N = G6 V c :=
  (dat2 (F := Ideal) V c).arrAt_eq_of_cover 6 (G6 V c) (flushed6_eq V c) cover6

end Final

end Reg2

variable (V : Entry)

theorem reg2_cpn (c : Dev nD) (b : Fin 32) (l : Fin 128) :
    cpn2 V c (ix2 b l)
      = Cert.Spec.crossPn (xOf V c) (loOf V c) (hiOf V c) (srOf V c) (scOf V c) b :=
  congrFun (Reg2.final5 V c) (ix2 b l)

theorem reg2_cbn (c : Dev nD) (b : Fin 32) (l : Fin 128) :
    cbn2 V c (ix2 b l)
      = Cert.Spec.crossBn (xOf V c) (loOf V c) (hiOf V c) (srOf V c) (scOf V c) b :=
  congrFun (Reg2.final6 V c) (ix2 b l)

end Cert.KernelIdeal.Val

end
-- ==== Proof.KValue.lean ====
/-
  The kernel side's result as a function of the image batch. Pass 1 leaves the extremes and the two sums of the batch Xk; the host
  divides the sums by the pixel count; pass 2, entered with the same batch and those extremes, leaves the "any" arrays and two more
  sums; the host turns the "any" arrays into spans; pass 3, entered with batch, extremes and spans, leaves the cross terms; the host
  combines everything. Chaining the passes' values through the boundaries gives the result buffer as the shared final chain applied
  to the per-sample numbers kLoss, kConf, kArea, kValid of Xk.
-/
import proofs.«117029_j24532853195288_1_alg».proof.Proof.KHostA
import proofs.«117029_j24532853195288_1_alg».proof.Proof.KHostB
import proofs.«117029_j24532853195288_1_alg».proof.Proof.KHostC
import proofs.«117029_j24532853195288_1_alg».proof.Proof.Reg0MinMax
import proofs.«117029_j24532853195288_1_alg».proof.Proof.Reg0Sums
import proofs.«117029_j24532853195288_1_alg».proof.Proof.Reg1Any
import proofs.«117029_j24532853195288_1_alg».proof.Proof.Reg1Cols
import proofs.«117029_j24532853195288_1_alg».proof.Proof.Reg1Sums
import proofs.«117029_j24532853195288_1_alg».proof.Proof.Reg2Val

noncomputable section

namespace Cert.KernelIdeal.Val

open Cert.KernelIdeal Cert.KernelIdeal.Gen Idealize.ShloMosaic Idealize.ShloMosaic.TcCoe Idealize.ShloMosaic.ValueIdx Idealize.SL.Sem Idealize.ShloMosaic.Pipeline
open scoped BigOperators

variable (m : (ℓ : Loc nD τ sig) → Buf (Elt Ideal) ℓ) (ρ : Dev nD → PrngReg)

/-! ## The extremes every later pass reads are the batch's -/

theorem lo_V3 (c : Dev nD) : loOf (V3 m ρ) c = Cert.Spec.lo (Xk m c) := by
  funext b
  show loArr (V3 m ρ) c (ix2 b 0) = _
  rw [V3_lo m ρ c, reg0_lo (V1 m ρ) c b 0, V1_v0 m ρ c]

theorem hi_V3 (c : Dev nD) : hiOf (V3 m ρ) c = Cert.Spec.hi (Xk m c) := by
  funext b
  show hiArr (V3 m ρ) c (ix2 b 0) = _
  rw [V3_hi m ρ c, reg0_hi (V1 m ρ) c b 0, V1_v0 m ρ c]

theorem lo_V13 (c : Dev nD) : loOf (V13 m ρ) c = Cert.Spec.lo (Xk m c) := by
  funext b
  show loArr (V13 m ρ) c (ix2 b 0) = _
  rw [V13_lo m ρ c, reg0_lo (V1 m ρ) c b 0, V1_v0 m ρ c]

theorem hi_V13 (c : Dev nD) : hiOf (V13 m ρ) c = Cert.Spec.hi (Xk m c) := by
  funext b
  show hiArr (V13 m ρ) c (ix2 b 0) = _
  rw [V13_hi m ρ c, reg0_hi (V1 m ρ) c b 0, V1_v0 m ρ c]

/-! ## Pass 2's "any" arrays and the spans made from them -/

theorem rows_V3 (c : Dev nD) : rows1 (V3 m ρ) c = Cert.Spec.kRowArr (Xk m c) := by
  funext j
  obtain ⟨b, r, rfl⟩ : ∃ (b : Fin 32) (r : Fin 1024), j = ix2 b r := ⟨j 0, j 1, eq_ix2 j⟩
  rw [reg1_rows (V3 m ρ) c b r, V3_v0 m ρ c, lo_V3 m ρ c, hi_V3 m ρ c]
  rfl

theorem cols_V3 (c : Dev nD) : cols1 (V3 m ρ) c = Cert.Spec.kColArr (Xk m c) := by
  funext j
  obtain ⟨b, q, rfl⟩ : ∃ (b : Fin 32) (q : Fin 1024), j = ix2 b q := ⟨j 0, j 1, eq_ix2 j⟩
  rw [reg1_cols (V3 m ρ) c b q, V3_v0 m ρ c, lo_V3 m ρ c, hi_V3 m ρ c]
  rfl

theorem sr_V13 (c : Dev nD) : srArr (V13 m ρ) c = Cert.Spec.kSr Gen.h_S_ Gen.reduceWindows_S32x1024_S32x1024_w1s1p0_0_w1024s1p1023_0 Gen.bcast_S_S_ Gen.bcast_S_S32x1024 (Xk m c) := by
  rw [V13_sr m ρ c, rows_V3 m ρ c]
  rfl

theorem sc_V13 (c : Dev nD) : scArr (V13 m ρ) c = Cert.Spec.kSc Gen.h_S_ Gen.reduceWindows_S32x1024_S32x1024_w1s1p0_0_w1024s1p1023_0 Gen.bcast_S_S_ Gen.bcast_S_S32x1024 (Xk m c) := by
  rw [V13_sc m ρ c, cols_V3 m ρ c]
  rfl

theorem srOf_V13 (c : Dev nD) : srOf (V13 m ρ) c = fun b r => Cert.Spec.kSr Gen.h_S_ Gen.reduceWindows_S32x1024_S32x1024_w1s1p0_0_w1024s1p1023_0 Gen.bcast_S_S_ Gen.bcast_S_S32x1024 (Xk m c) (ix2 b r) := by
  funext b r
  show srArr (V13 m ρ) c (ix2 b r) = _
  rw [sr_V13 m ρ c]

theorem scOf_V13 (c : Dev nD) : scOf (V13 m ρ) c = fun b q => Cert.Spec.kSc Gen.h_S_ Gen.reduceWindows_S32x1024_S32x1024_w1s1p0_0_w1024s1p1023_0 Gen.bcast_S_S_ Gen.bcast_S_S32x1024 (Xk m c) (ix2 b q) := by
  funext b q
  show scArr (V13 m ρ) c (ix2 b q) = _
  rw [sc_V13 m ρ c]

/-! ## The per-sample numbers -/

theorem v5_V13 (c : Dev nD) : v5Of (V13 m ρ) c = Cert.Spec.vec32 (Cert.Spec.kConf (Xk m c)) := by
  funext j
  obtain ⟨b, rfl⟩ : ∃ b : Fin 32, j = ix1 b := ⟨j 0, eq_ix1 j⟩
  rw [V13_v5 m ρ c, V3_v5 m ρ c b, reg0_conf (V1 m ρ) c b 0, V1_v0 m ρ c]
  rfl

theorem v9_V13 (c : Dev nD) : v9Of (V13 m ρ) c = Cert.Spec.vec32 (Cert.Spec.kArea (Xk m c)) := by
  funext j
  obtain ⟨b, rfl⟩ : ∃ b : Fin 32, j = ix1 b := ⟨j 0, eq_ix1 j⟩
  rw [V13_v9 m ρ c, V3_v9 m ρ c b, reg0_area (V1 m ρ) c b 0, V1_v0 m ρ c]
  rfl

theorem loss_V (c : Dev nD) : lossK m ρ c = Cert.Spec.vec32 (Cert.Spec.kLoss Gen.h_S_ Gen.reduceWindows_S32x1024_S32x1024_w1s1p0_0_w1024s1p1023_0 Gen.bcast_S_S_ Gen.bcast_S_S32x1024 (Xk m c)) := by
  funext j
  obtain ⟨b, rfl⟩ : ∃ b : Fin 32, j = ix1 b := ⟨j 0, eq_ix1 j⟩
  rw [lossK_apply m ρ c b, V13_v12 m ρ c b, reg1_sumsq (V3 m ρ) c b 0, V13_v41 m ρ c b, reg2_cpn (V13 m ρ) c b 0,
    V3_v0 m ρ c, lo_V3 m ρ c, hi_V3 m ρ c, V13_v0 m ρ c, lo_V13 m ρ c, hi_V13 m ρ c, srOf_V13 m ρ c, scOf_V13 m ρ c,
    sr_V13 m ρ c, sc_V13 m ρ c]
  rfl

theorem valid_V (c : Dev nD) : validK m ρ c = Cert.Spec.vec32 (Cert.Spec.kValid Gen.h_S_ Gen.reduceWindows_S32x1024_S32x1024_w1s1p0_0_w1024s1p1023_0 Gen.bcast_S_S_ Gen.bcast_S_S32x1024 (Xk m c)) := by
  funext j
  obtain ⟨b, rfl⟩ : ∃ b : Fin 32, j = ix1 b := ⟨j 0, eq_ix1 j⟩
  rw [validK_apply m ρ c b, V13_v14 m ρ c b, reg1_binsum (V3 m ρ) c b 0, V13_v41 m ρ c b, reg2_cbn (V13 m ρ) c b 0,
    V3_v0 m ρ c, lo_V3 m ρ c, hi_V3 m ρ c, V13_v0 m ρ c, lo_V13 m ρ c, hi_V13 m ρ c, srOf_V13 m ρ c, scOf_V13 m ρ c,
    sr_V13 m ρ c, sc_V13 m ρ c]
  rfl

/-- The result buffer at the end of @main, as a function of the image batch. -/
theorem kernel_value (c : Dev nD) :
    outK m ρ c = kFinal (mulf (Cert.Spec.vec32 (Cert.Spec.kLoss Gen.h_S_ Gen.reduceWindows_S32x1024_S32x1024_w1s1p0_0_w1024s1p1023_0 Gen.bcast_S_S_ Gen.bcast_S_S32x1024 (Xk m c)))
        (kW (Cert.Spec.vec32 (Cert.Spec.kConf (Xk m c))) (Cert.Spec.vec32 (Cert.Spec.kArea (Xk m c)))))
      (Cert.Spec.vec32 (Cert.Spec.kValid Gen.h_S_ Gen.reduceWindows_S32x1024_S32x1024_w1s1p0_0_w1024s1p1023_0 Gen.bcast_S_S_ Gen.bcast_S_S32x1024 (Xk m c))) := by
  rw [V22_out m ρ c, loss_V m ρ c, valid_V m ρ c, v5_V13 m ρ c, v9_V13 m ρ c]

end Cert.KernelIdeal.Val

end
-- ==== Proof.RDefs.lean ====
/-
  The reference's values by name, at the ideal instance: each intermediate array of its @main as the host operations' term of the image
  batch X (the argument with its unit axis dropped), in the order the program computes them, and the shared host chains at this
  program's shape facts.
-/
import proofs.«117029_j24532853195288_1_alg».proof.Proof.Gen.ReferenceIdeal
import proofs.«117029_j24532853195288_1_alg».proof.Proof.Spec

noncomputable section

namespace Cert.ReferenceIdeal.Val

open Cert.ReferenceIdeal Cert.ReferenceIdeal.Gen Idealize.ShloMosaic Idealize.ShloMosaic.ValueIdx

abbrev rSpan (a a' : IVec S32x1024 32) : IVec S32x1024 1 :=
  Cert.Spec.spanOf Gen.h_S_ Gen.reduceWindows_S32x1024_S32x1024_w1s1p0_0_w1024s1p1023_0 Gen.bcast_S_S_ Gen.bcast_S_S32x1024 a a'
abbrev rW (cf ar : FVec Ideal S32 .f32) : FVec Ideal S32 .f32 := Cert.Spec.wOf Gen.bcast_S_S32 cf ar
abbrev rFinal (lw : FVec Ideal S32 .f32) (vb : IVec S32 1) : FVec Ideal S_ .f32 := Cert.Spec.finalOf Gen.reducesTo_S32_S_d0 Gen.h_S_ lw vb

/-- A literal broadcast over the image batch, over the batch. -/
abbrev bc3 (w : BitVec 32) : FVec Ideal S32x1024x1024 .f32 := broadcastInDim S32x1024x1024 ![] Gen.bcast_S_S32x1024x1024 (constant S_ .f32 w)
abbrev bc1 (w : BitVec 32) : FVec Ideal S32 .f32 := broadcastInDim S32 ![] Gen.bcast_S_S32 (constant S_ .f32 w)
/-- A per-sample value spread over the sample's pixels. -/
abbrev spread {α : Type} (v : S32.Idx → α) : S32x1024x1024.Idx → α :=
  broadcastInDim S32x1024x1024 ![0, 1, 2] Gen.bcast_S32x1x1_S32x1024x1024_0_1_2 (broadcastInDim S32x1x1 ![0] Gen.bcast_S32_S32x1x1_0 v)

variable (X : FVec Ideal S32x1024x1024 .f32)

/-- The sigmoid, as jax expands it. -/
def sgT : FVec Ideal S32x1024x1024 .f32 := Host.divf (bc3 0x3F800000#32) (addf (bc3 0x3F800000#32) (Host.exp (Host.negf X)))
def confT : FVec Ideal S32 .f32 :=
  Host.divf (Host.reduceAdd (Host.absf (subf (sgT X) (bc3 0x3F000000#32))) (constant S_ .f32 0x00000000#32) Gen.reducesTo_S32x1024x1024_S32_d1_2 Gen.h_S_) (bc1 0x49800000#32)
def areaT : FVec Ideal S32 .f32 :=
  Host.divf (Host.reduceAdd (uitofp .f32 (cmpf .ogt (sgT X) (bc3 0x3F000000#32))) (constant S_ .f32 0x00000000#32) Gen.reducesTo_S32x1024x1024_S32_d1_2 Gen.h_S_) (bc1 0x49800000#32)
def loT : FVec Ideal S32 .f32 := Host.reduce FloatOps.minimumf X (constant S_ .f32 0x7F800000#32) Gen.reducesTo_S32x1024x1024_S32_d1_2 Gen.h_S_
def hiT : FVec Ideal S32 .f32 := Host.reduce FloatOps.maximumf X (constant S_ .f32 0xFF800000#32) Gen.reducesTo_S32x1024x1024_S32_d1_2 Gen.h_S_
def pnT : FVec Ideal S32x1024x1024 .f32 :=
  Host.divf (subf X (spread (loT X))) (spread (addf (subf (hiT X) (loT X)) (bc1 0x322BCC77#32)))
def bnT : IVec S32x1024x1024 1 := cmpf .ogt (pnT X) (bc3 0x3F000000#32)
def rowsT : IVec S32x1024 1 := Host.reduce IntOp.ori (bnT X) (constantI S_ 1 0#1) Gen.reducesTo_S32x1024x1024_S32x1024_d2 Gen.h_S_
def colsT : IVec S32x1024 1 := Host.reduce IntOp.ori (bnT X) (constantI S_ 1 0#1) Gen.reducesTo_S32x1024x1024_S32x1024_d1 Gen.h_S_
def srT : IVec S32x1024 1 := rSpan (extui 32 (rowsT X) Gen.natLt_1_32) (extui 32 (Host.reverse [1] (rowsT X)) Gen.natLt_1_32)
def scT : IVec S32x1024 1 := rSpan (extui 32 (colsT X) Gen.natLt_1_32) (extui 32 (Host.reverse [1] (colsT X)) Gen.natLt_1_32)
def anyT : IVec S32 1 := Host.reduce IntOp.ori (bnT X) (constantI S_ 1 0#1) Gen.reducesTo_S32x1024x1024_S32_d1_2 Gen.h_S_
/-- The filled rectangle: row span AND column span AND "something is set". -/
def fillT : IVec S32x1024x1024 1 :=
  andi (andi (broadcastInDim S32x1024x1024 ![0, 1, 2] Gen.bcast_S32x1024x1_S32x1024x1024_0_1_2 (broadcastInDim S32x1024x1 ![0, 1] Gen.bcast_S32x1024_S32x1024x1_0_1 (srT X)))
      (broadcastInDim S32x1024x1024 ![0, 1, 2] Gen.bcast_S32x1x1024_S32x1024x1024_0_1_2 (broadcastInDim S32x1x1024 ![0, 2] Gen.bcast_S32x1024_S32x1x1024_0_2 (scT X))))
    (spread (anyT X))
def validT : IVec S32 1 := Host.reduce IntOp.ori (cmpi .ne (fillT X) (bnT X)) (constantI S_ 1 0#1) Gen.reducesTo_S32x1024x1024_S32_d1_2 Gen.h_S_
def lossT : FVec Ideal S32 .f32 :=
  Host.divf (Host.reduceAdd (mulf (subf (pnT X) (uitofp .f32 (fillT X))) (subf (pnT X) (uitofp .f32 (fillT X)))) (constant S_ .f32 0x00000000#32) Gen.reducesTo_S32x1024x1024_S32_d1_2 Gen.h_S_) (bc1 0x49800000#32)

/-- The reference's result as a term of the image batch. -/
def outT : FVec Ideal S_ .f32 := rFinal (mulf (lossT X) (rW (confT X) (areaT X))) (validT X)

end Cert.ReferenceIdeal.Val

end
-- ==== Proof.RRunOps.lean ====
/-
  The reference's @main as the list of its 155 host operations, in the order it runs them: its own statements, and at each call the
  callee's statements over that call's buffers (the selects of the three weight tests, the four running counts, the final select).
-/
import proofs.«117029_j24532853195288_1_alg».proof.Proof.RDefs
import Idealize.ShloMosaic.Lib.StableHlo.Run

noncomputable section

namespace Cert.ReferenceIdeal.Val

open Cert.ReferenceIdeal Cert.ReferenceIdeal.Gen Idealize.ShloMosaic Idealize.ShloMosaic.TcCoe Idealize.ShloMosaic.ValueIdx Idealize.SL.Sem Idealize.ShloMosaic.StableHlo

variable {F : FTy → Type} [FloatOps F]

/-- @main's operations in order, the calls unfolded. -/
abbrev ops : List (HloOp τ sig (Elt F)) :=
  [ reshape main_arg0 main_v0 rfl shapeCasts_S32x1x1024x1024_S32x1024x1024,
    unary main_v0 main_v1 (Host.negf : (⟨S32x1024x1024, .f32⟩ : BufTy).Contents (Elt F) → (⟨S32x1024x1024, .f32⟩ : BufTy).Contents (Elt F)),
    unary main_v1 main_v2 (Host.exp : (⟨S32x1024x1024, .f32⟩ : BufTy).Contents (Elt F) → (⟨S32x1024x1024, .f32⟩ : BufTy).Contents (Elt F)),
    nullary main_cst (constant S_ .f32 0x3F800000#32),
    unary main_cst main_v3 (broadcastInDim S32x1024x1024 ![] bcast_S_S32x1024x1024 : (⟨S_, .f32⟩ : BufTy).Contents (Elt F) → (⟨S32x1024x1024, .f32⟩ : BufTy).Contents (Elt F)),
    binary main_v3 main_v2 main_v4 (addf : (⟨S32x1024x1024, .f32⟩ : BufTy).Contents (Elt F) → (⟨S32x1024x1024, .f32⟩ : BufTy).Contents (Elt F) → (⟨S32x1024x1024, .f32⟩ : BufTy).Contents (Elt F)),
    nullary main_cst_0 (constant S_ .f32 0x3F800000#32),
    unary main_cst_0 main_v5 (broadcastInDim S32x1024x1024 ![] bcast_S_S32x1024x1024 : (⟨S_, .f32⟩ : BufTy).Contents (Elt F) → (⟨S32x1024x1024, .f32⟩ : BufTy).Contents (Elt F)),
    binary main_v5 main_v4 main_v6 (Host.divf : (⟨S32x1024x1024, .f32⟩ : BufTy).Contents (Elt F) → (⟨S32x1024x1024, .f32⟩ : BufTy).Contents (Elt F) → (⟨S32x1024x1024, .f32⟩ : BufTy).Contents (Elt F)),
    nullary main_cst_1 (constant S_ .f32 0x3F000000#32),
    unary main_cst_1 main_v7 (broadcastInDim S32x1024x1024 ![] bcast_S_S32x1024x1024 : (⟨S_, .f32⟩ : BufTy).Contents (Elt F) → (⟨S32x1024x1024, .f32⟩ : BufTy).Contents (Elt F)),
    binary main_v6 main_v7 main_v8 (subf : (⟨S32x1024x1024, .f32⟩ : BufTy).Contents (Elt F) → (⟨S32x1024x1024, .f32⟩ : BufTy).Contents (Elt F) → (⟨S32x1024x1024, .f32⟩ : BufTy).Contents (Elt F)),
    unary main_v8 main_v9 (Host.absf : (⟨S32x1024x1024, .f32⟩ : BufTy).Contents (Elt F) → (⟨S32x1024x1024, .f32⟩ : BufTy).Contents (Elt F)),
    nullary main_cst_2 (constant S_ .f32 0x00000000#32),
    binary main_v9 main_cst_2 main_v10 ((fun x v => Host.reduceAdd x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)),
    nullary main_cst_3 (constant S_ .f32 0x49800000#32),
    unary main_cst_3 main_v11 (broadcastInDim S32 ![] bcast_S_S32 : (⟨S_, .f32⟩ : BufTy).Contents (Elt F) → (⟨S32, .f32⟩ : BufTy).Contents (Elt F)),
    binary main_v10 main_v11 main_v12 (Host.divf : (⟨S32, .f32⟩ : BufTy).Contents (Elt F) → (⟨S32, .f32⟩ : BufTy).Contents (Elt F) → (⟨S32, .f32⟩ : BufTy).Contents (Elt F)),
    nullary main_cst_4 (constant S_ .f32 0x3F000000#32),
    unary main_cst_4 main_v13 (broadcastInDim S32x1024x1024 ![] bcast_S_S32x1024x1024 : (⟨S_, .f32⟩ : BufTy).Contents (Elt F) → (⟨S32x1024x1024, .f32⟩ : BufTy).Contents (Elt F)),
    binary main_v6 main_v13 main_v14 (cmpf .ogt : (⟨S32x1024x1024, .f32⟩ : BufTy).Contents (Elt F) → (⟨S32x1024x1024, .f32⟩ : BufTy).Contents (Elt F) → (⟨S32x1024x1024, .i1⟩ : BufTy).Contents (Elt F)),
    unary main_v14 main_v15 (uitofp .f32 : (⟨S32x1024x1024, .i1⟩ : BufTy).Contents (Elt F) → (⟨S32x1024x1024, .f32⟩ : BufTy).Contents (Elt F)),
    nullary main_cst_5 (constant S_ .f32 0x00000000#32),
    binary main_v15 main_cst_5 main_v16 ((fun x v => Host.reduceAdd x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)),
    nullary main_cst_6 (constant S_ .f32 0x49800000#32),
    unary main_cst_6 main_v17 (broadcastInDim S32 ![] bcast_S_S32 : (⟨S_, .f32⟩ : BufTy).Contents (Elt F) → (⟨S32, .f32⟩ : BufTy).Contents (Elt F)),
    binary main_v16 main_v17 main_v18 (Host.divf : (⟨S32, .f32⟩ : BufTy).Contents (Elt F) → (⟨S32, .f32⟩ : BufTy).Contents (Elt F) → (⟨S32, .f32⟩ : BufTy).Contents (Elt F)),
    nullary main_cst_7 (constant S_ .f32 0x3E99999A#32),
    unary main_cst_7 main_v19 (broadcastInDim S32 ![] bcast_S_S32 : (⟨S_, .f32⟩ : BufTy).Contents (Elt F) → (⟨S32, .f32⟩ : BufTy).Contents (Elt F)),
    binary main_v12 main_v19 main_v20 (cmpf .olt : (⟨S32, .f32⟩ : BufTy).Contents (Elt F) → (⟨S32, .f32⟩ : BufTy).Contents (Elt F) → (⟨S32, .i1⟩ : BufTy).Contents (Elt F)),
    nullary main_cst_8 (constant S_ .f32 0x40000000#32),
    nullary main_cst_9 (constant S_ .f32 0x3F800000#32),
    TRef.unary (.of main_cst_9 : TRef sig ⟨S_, .f32⟩) main_call0.v0 (broadcastInDim S32 ![] bcast_S_S32),
    TRef.unary (.of main_cst_8 : TRef sig ⟨S_, .f32⟩) main_call0.v1 (broadcastInDim S32 ![] bcast_S_S32),
    TRef.ternary (.of main_v20 : TRef sig ⟨S32, .i1⟩) main_call0.v1 main_call0.v0 main_call0.v2 select,
    unary main_v21 main_v22 (id : (⟨S32, .f32⟩ : BufTy).Contents (Elt F) → (⟨S32, .f32⟩ : BufTy).Contents (Elt F)),
    nullary main_cst_10 (constant S_ .f32 0x3ECCCCCD#32),
    unary main_cst_10 main_v23 (broadcastInDim S32 ![] bcast_S_S32 : (⟨S_, .f32⟩ : BufTy).Contents (Elt F) → (⟨S32, .f32⟩ : BufTy).Contents (Elt F)),
    binary main_v23 main_v22 main_v24 (mulf : (⟨S32, .f32⟩ : BufTy).Contents (Elt F) → (⟨S32, .f32⟩ : BufTy).Contents (Elt F) → (⟨S32, .f32⟩ : BufTy).Contents (Elt F)),
    nullary main_cst_11 (constant S_ .f32 0x3D4CCCCD#32),
    unary main_cst_11 main_v25 (broadcastInDim S32 ![] bcast_S_S32 : (⟨S_, .f32⟩ : BufTy).Contents (Elt F) → (⟨S32, .f32⟩ : BufTy).Contents (Elt F)),
    binary main_v18 main_v25 main_v26 (cmpf .olt : (⟨S32, .f32⟩ : BufTy).Contents (Elt F) → (⟨S32, .f32⟩ : BufTy).Contents (Elt F) → (⟨S32, .i1⟩ : BufTy).Contents (Elt F)),
    nullary main_cst_12 (constant S_ .f32 0x3FC00000#32),
    nullary main_cst_13 (constant S_ .f32 0x3F800000#32),
    TRef.unary (.of main_cst_13 : TRef sig ⟨S_, .f32⟩) main_call1.v0 (broadcastInDim S32 ![] bcast_S_S32),
    TRef.unary (.of main_cst_12 : TRef sig ⟨S_, .f32⟩) main_call1.v1 (broadcastInDim S32 ![] bcast_S_S32),
    TRef.ternary (.of main_v26 : TRef sig ⟨S32, .i1⟩) main_call1.v1 main_call1.v0 main_call1.v2 select,
    unary main_v27 main_v28 (id : (⟨S32, .f32⟩ : BufTy).Contents (Elt F) → (⟨S32, .f32⟩ : BufTy).Contents (Elt F)),
    binary main_v24 main_v28 main_v29 (mulf : (⟨S32, .f32⟩ : BufTy).Contents (Elt F) → (⟨S32, .f32⟩ : BufTy).Contents (Elt F) → (⟨S32, .f32⟩ : BufTy).Contents (Elt F)),
    nullary main_cst_14 (constant S_ .f32 0x3ECCCCCD#32),
    unary main_cst_14 main_v30 (broadcastInDim S32 ![] bcast_S_S32 : (⟨S_, .f32⟩ : BufTy).Contents (Elt F) → (⟨S32, .f32⟩ : BufTy).Contents (Elt F)),
    binary main_v12 main_v30 main_v31 (cmpf .ogt : (⟨S32, .f32⟩ : BufTy).Contents (Elt F) → (⟨S32, .f32⟩ : BufTy).Contents (Elt F) → (⟨S32, .i1⟩ : BufTy).Contents (Elt F)),
    nullary main_cst_15 (constant S_ .f32 0x3DCCCCCD#32),
    unary main_cst_15 main_v32 (broadcastInDim S32 ![] bcast_S_S32 : (⟨S_, .f32⟩ : BufTy).Contents (Elt F) → (⟨S32, .f32⟩ : BufTy).Contents (Elt F)),
    binary main_v18 main_v32 main_v33 (cmpf .ogt : (⟨S32, .f32⟩ : BufTy).Contents (Elt F) → (⟨S32, .f32⟩ : BufTy).Contents (Elt F) → (⟨S32, .i1⟩ : BufTy).Contents (Elt F)),
    binary main_v31 main_v33 main_v34 (andi : (⟨S32, .i1⟩ : BufTy).Contents (Elt F) → (⟨S32, .i1⟩ : BufTy).Contents (Elt F) → (⟨S32, .i1⟩ : BufTy).Contents (Elt F)),
    nullary main_cst_16 (constant S_ .f32 0x3F000000#32),
    nullary main_cst_17 (constant S_ .f32 0x3F800000#32),
    TRef.unary (.of main_cst_17 : TRef sig ⟨S_, .f32⟩) main_call2.v0 (broadcastInDim S32 ![] bcast_S_S32),
    TRef.unary (.of main_cst_16 : TRef sig ⟨S_, .f32⟩) main_call2.v1 (broadcastInDim S32 ![] bcast_S_S32),
    TRef.ternary (.of main_v34 : TRef sig ⟨S32, .i1⟩) main_call2.v1 main_call2.v0 main_call2.v2 select,
    unary main_v35 main_v36 (id : (⟨S32, .f32⟩ : BufTy).Contents (Elt F) → (⟨S32, .f32⟩ : BufTy).Contents (Elt F)),
    binary main_v29 main_v36 main_v37 (mulf : (⟨S32, .f32⟩ : BufTy).Contents (Elt F) → (⟨S32, .f32⟩ : BufTy).Contents (Elt F) → (⟨S32, .f32⟩ : BufTy).Contents (Elt F)),
    nullary main_cst_18 (constant S_ .f32 0x7F800000#32),
    binary main_v0 main_cst_18 main_v38 ((fun x v => Host.reduce FloatOps.minimumf x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)),
    nullary main_cst_19 (constant S_ .f32 0xFF800000#32),
    binary main_v0 main_cst_19 main_v39 ((fun x v => Host.reduce FloatOps.maximumf x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)),
    unary main_v38 main_v40 (broadcastInDim S32x1x1 ![0] bcast_S32_S32x1x1_0 : (⟨S32, .f32⟩ : BufTy).Contents (Elt F) → (⟨S32x1x1, .f32⟩ : BufTy).Contents (Elt F)),
    unary main_v40 main_v41 (broadcastInDim S32x1024x1024 ![0, 1, 2] bcast_S32x1x1_S32x1024x1024_0_1_2 : (⟨S32x1x1, .f32⟩ : BufTy).Contents (Elt F) → (⟨S32x1024x1024, .f32⟩ : BufTy).Contents (Elt F)),
    binary main_v0 main_v41 main_v42 (subf : (⟨S32x1024x1024, .f32⟩ : BufTy).Contents (Elt F) → (⟨S32x1024x1024, .f32⟩ : BufTy).Contents (Elt F) → (⟨S32x1024x1024, .f32⟩ : BufTy).Contents (Elt F)),
    binary main_v39 main_v38 main_v43 (subf : (⟨S32, .f32⟩ : BufTy).Contents (Elt F) → (⟨S32, .f32⟩ : BufTy).Contents (Elt F) → (⟨S32, .f32⟩ : BufTy).Contents (Elt F)),
    nullary main_cst_20 (constant S_ .f32 0x322BCC77#32),
    unary main_cst_20 main_v44 (broadcastInDim S32 ![] bcast_S_S32 : (⟨S_, .f32⟩ : BufTy).Contents (Elt F) → (⟨S32, .f32⟩ : BufTy).Contents (Elt F)),
    binary main_v43 main_v44 main_v45 (addf : (⟨S32, .f32⟩ : BufTy).Contents (Elt F) → (⟨S32, .f32⟩ : BufTy).Contents (Elt F) → (⟨S32, .f32⟩ : BufTy).Contents (Elt F)),
    unary main_v45 main_v46 (broadcastInDim S32x1x1 ![0] bcast_S32_S32x1x1_0 : (⟨S32, .f32⟩ : BufTy).Contents (Elt F) → (⟨S32x1x1, .f32⟩ : BufTy).Contents (Elt F)),
    unary main_v46 main_v47 (broadcastInDim S32x1024x1024 ![0, 1, 2] bcast_S32x1x1_S32x1024x1024_0_1_2 : (⟨S32x1x1, .f32⟩ : BufTy).Contents (Elt F) → (⟨S32x1024x1024, .f32⟩ : BufTy).Contents (Elt F)),
    binary main_v42 main_v47 main_v48 (Host.divf : (⟨S32x1024x1024, .f32⟩ : BufTy).Contents (Elt F) → (⟨S32x1024x1024, .f32⟩ : BufTy).Contents (Elt F) → (⟨S32x1024x1024, .f32⟩ : BufTy).Contents (Elt F)),
    nullary main_cst_21 (constant S_ .f32 0x3F000000#32),
    unary main_cst_21 main_v49 (broadcastInDim S32x1024x1024 ![] bcast_S_S32x1024x1024 : (⟨S_, .f32⟩ : BufTy).Contents (Elt F) → (⟨S32x1024x1024, .f32⟩ : BufTy).Contents (Elt F)),
    binary main_v48 main_v49 main_v50 (cmpf .ogt : (⟨S32x1024x1024, .f32⟩ : BufTy).Contents (Elt F) → (⟨S32x1024x1024, .f32⟩ : BufTy).Contents (Elt F) → (⟨S32x1024x1024, .i1⟩ : BufTy).Contents (Elt F)),
    nullary main_c (constantI S_ 1 0#1),
    binary main_v50 main_c main_v51 ((fun x v => Host.reduce IntOp.ori x v reducesTo_S32x1024x1024_S32x1024_d2 h_S_) : (⟨S32x1024x1024, .i1⟩ : BufTy).Contents (Elt F) → (⟨S_, .i1⟩ : BufTy).Contents (Elt F) → (⟨S32x1024, .i1⟩ : BufTy).Contents (Elt F)),
    nullary main_c_22 (constantI S_ 1 0#1),
    binary main_v50 main_c_22 main_v52 ((fun x v => Host.reduce IntOp.ori x v reducesTo_S32x1024x1024_S32x1024_d1 h_S_) : (⟨S32x1024x1024, .i1⟩ : BufTy).Contents (Elt F) → (⟨S_, .i1⟩ : BufTy).Contents (Elt F) → (⟨S32x1024, .i1⟩ : BufTy).Contents (Elt F)),
    unary main_v51 main_v53 ((extui 32 · natLt_1_32) : (⟨S32x1024, .i1⟩ : BufTy).Contents (Elt F) → (⟨S32x1024, .i32⟩ : BufTy).Contents (Elt F)),
    TRef.nullary main_call3.call0.c (constantI S_ 32 0#32),
    TRef.unary main_call3.call0.c main_call3.call0.v0 (broadcastInDim S_ ![] bcast_S_S_),
    TRef.binary (.of main_v53 : TRef sig ⟨S32x1024, .i32⟩) main_call3.call0.v0 main_call3.call0.v1 (fun x v => Host.reduceWindow IntOp.addi ![1, 1024] ![1, 1] ![0, 1023] ![0, 0] x v reduceWindows_S32x1024_S32x1024_w1s1p0_0_w1024s1p1023_0 h_S_),
    nullary main_c_23 (constantI S_ 32 0#32),
    unary main_c_23 main_v55 (broadcastInDim S32x1024 ![] bcast_S_S32x1024 : (⟨S_, .i32⟩ : BufTy).Contents (Elt F) → (⟨S32x1024, .i32⟩ : BufTy).Contents (Elt F)),
    binary main_v54 main_v55 main_v56 (cmpi .sgt : (⟨S32x1024, .i32⟩ : BufTy).Contents (Elt F) → (⟨S32x1024, .i32⟩ : BufTy).Contents (Elt F) → (⟨S32x1024, .i1⟩ : BufTy).Contents (Elt F)),
    unary main_v51 main_v57 (Host.reverse [1] : (⟨S32x1024, .i1⟩ : BufTy).Contents (Elt F) → (⟨S32x1024, .i1⟩ : BufTy).Contents (Elt F)),
    unary main_v57 main_v58 ((extui 32 · natLt_1_32) : (⟨S32x1024, .i1⟩ : BufTy).Contents (Elt F) → (⟨S32x1024, .i32⟩ : BufTy).Contents (Elt F)),
    TRef.nullary main_call4.call0.c (constantI S_ 32 0#32),
    TRef.unary main_call4.call0.c main_call4.call0.v0 (broadcastInDim S_ ![] bcast_S_S_),
    TRef.binary (.of main_v58 : TRef sig ⟨S32x1024, .i32⟩) main_call4.call0.v0 main_call4.call0.v1 (fun x v => Host.reduceWindow IntOp.addi ![1, 1024] ![1, 1] ![0, 1023] ![0, 0] x v reduceWindows_S32x1024_S32x1024_w1s1p0_0_w1024s1p1023_0 h_S_),
    unary main_v59 main_v60 (Host.reverse [1] : (⟨S32x1024, .i32⟩ : BufTy).Contents (Elt F) → (⟨S32x1024, .i32⟩ : BufTy).Contents (Elt F)),
    nullary main_c_24 (constantI S_ 32 0#32),
    unary main_c_24 main_v61 (broadcastInDim S32x1024 ![] bcast_S_S32x1024 : (⟨S_, .i32⟩ : BufTy).Contents (Elt F) → (⟨S32x1024, .i32⟩ : BufTy).Contents (Elt F)),
    binary main_v60 main_v61 main_v62 (cmpi .sgt : (⟨S32x1024, .i32⟩ : BufTy).Contents (Elt F) → (⟨S32x1024, .i32⟩ : BufTy).Contents (Elt F) → (⟨S32x1024, .i1⟩ : BufTy).Contents (Elt F)),
    binary main_v56 main_v62 main_v63 (andi : (⟨S32x1024, .i1⟩ : BufTy).Contents (Elt F) → (⟨S32x1024, .i1⟩ : BufTy).Contents (Elt F) → (⟨S32x1024, .i1⟩ : BufTy).Contents (Elt F)),
    unary main_v63 main_v64 (broadcastInDim S32x1024x1 ![0, 1] bcast_S32x1024_S32x1024x1_0_1 : (⟨S32x1024, .i1⟩ : BufTy).Contents (Elt F) → (⟨S32x1024x1, .i1⟩ : BufTy).Contents (Elt F)),
    unary main_v52 main_v65 ((extui 32 · natLt_1_32) : (⟨S32x1024, .i1⟩ : BufTy).Contents (Elt F) → (⟨S32x1024, .i32⟩ : BufTy).Contents (Elt F)),
    TRef.nullary main_call5.call0.c (constantI S_ 32 0#32),
    TRef.unary main_call5.call0.c main_call5.call0.v0 (broadcastInDim S_ ![] bcast_S_S_),
    TRef.binary (.of main_v65 : TRef sig ⟨S32x1024, .i32⟩) main_call5.call0.v0 main_call5.call0.v1 (fun x v => Host.reduceWindow IntOp.addi ![1, 1024] ![1, 1] ![0, 1023] ![0, 0] x v reduceWindows_S32x1024_S32x1024_w1s1p0_0_w1024s1p1023_0 h_S_),
    nullary main_c_25 (constantI S_ 32 0#32),
    unary main_c_25 main_v67 (broadcastInDim S32x1024 ![] bcast_S_S32x1024 : (⟨S_, .i32⟩ : BufTy).Contents (Elt F) → (⟨S32x1024, .i32⟩ : BufTy).Contents (Elt F)),
    binary main_v66 main_v67 main_v68 (cmpi .sgt : (⟨S32x1024, .i32⟩ : BufTy).Contents (Elt F) → (⟨S32x1024, .i32⟩ : BufTy).Contents (Elt F) → (⟨S32x1024, .i1⟩ : BufTy).Contents (Elt F)),
    unary main_v52 main_v69 (Host.reverse [1] : (⟨S32x1024, .i1⟩ : BufTy).Contents (Elt F) → (⟨S32x1024, .i1⟩ : BufTy).Contents (Elt F)),
    unary main_v69 main_v70 ((extui 32 · natLt_1_32) : (⟨S32x1024, .i1⟩ : BufTy).Contents (Elt F) → (⟨S32x1024, .i32⟩ : BufTy).Contents (Elt F)),
    TRef.nullary main_call6.call0.c (constantI S_ 32 0#32),
    TRef.unary main_call6.call0.c main_call6.call0.v0 (broadcastInDim S_ ![] bcast_S_S_),
    TRef.binary (.of main_v70 : TRef sig ⟨S32x1024, .i32⟩) main_call6.call0.v0 main_call6.call0.v1 (fun x v => Host.reduceWindow IntOp.addi ![1, 1024] ![1, 1] ![0, 1023] ![0, 0] x v reduceWindows_S32x1024_S32x1024_w1s1p0_0_w1024s1p1023_0 h_S_),
    unary main_v71 main_v72 (Host.reverse [1] : (⟨S32x1024, .i32⟩ : BufTy).Contents (Elt F) → (⟨S32x1024, .i32⟩ : BufTy).Contents (Elt F)),
    nullary main_c_26 (constantI S_ 32 0#32),
    unary main_c_26 main_v73 (broadcastInDim S32x1024 ![] bcast_S_S32x1024 : (⟨S_, .i32⟩ : BufTy).Contents (Elt F) → (⟨S32x1024, .i32⟩ : BufTy).Contents (Elt F)),
    binary main_v72 main_v73 main_v74 (cmpi .sgt : (⟨S32x1024, .i32⟩ : BufTy).Contents (Elt F) → (⟨S32x1024, .i32⟩ : BufTy).Contents (Elt F) → (⟨S32x1024, .i1⟩ : BufTy).Contents (Elt F)),
    binary main_v68 main_v74 main_v75 (andi : (⟨S32x1024, .i1⟩ : BufTy).Contents (Elt F) → (⟨S32x1024, .i1⟩ : BufTy).Contents (Elt F) → (⟨S32x1024, .i1⟩ : BufTy).Contents (Elt F)),
    unary main_v75 main_v76 (broadcastInDim S32x1x1024 ![0, 2] bcast_S32x1024_S32x1x1024_0_2 : (⟨S32x1024, .i1⟩ : BufTy).Contents (Elt F) → (⟨S32x1x1024, .i1⟩ : BufTy).Contents (Elt F)),
    unary main_v64 main_v77 (broadcastInDim S32x1024x1024 ![0, 1, 2] bcast_S32x1024x1_S32x1024x1024_0_1_2 : (⟨S32x1024x1, .i1⟩ : BufTy).Contents (Elt F) → (⟨S32x1024x1024, .i1⟩ : BufTy).Contents (Elt F)),
    unary main_v76 main_v78 (broadcastInDim S32x1024x1024 ![0, 1, 2] bcast_S32x1x1024_S32x1024x1024_0_1_2 : (⟨S32x1x1024, .i1⟩ : BufTy).Contents (Elt F) → (⟨S32x1024x1024, .i1⟩ : BufTy).Contents (Elt F)),
    binary main_v77 main_v78 main_v79 (andi : (⟨S32x1024x1024, .i1⟩ : BufTy).Contents (Elt F) → (⟨S32x1024x1024, .i1⟩ : BufTy).Contents (Elt F) → (⟨S32x1024x1024, .i1⟩ : BufTy).Contents (Elt F)),
    nullary main_c_27 (constantI S_ 1 0#1),
    binary main_v50 main_c_27 main_v80 ((fun x v => Host.reduce IntOp.ori x v reducesTo_S32x1024x1024_S32_d1_2 h_S_) : (⟨S32x1024x1024, .i1⟩ : BufTy).Contents (Elt F) → (⟨S_, .i1⟩ : BufTy).Contents (Elt F) → (⟨S32, .i1⟩ : BufTy).Contents (Elt F)),
    unary main_v80 main_v81 (broadcastInDim S32x1x1 ![0] bcast_S32_S32x1x1_0 : (⟨S32, .i1⟩ : BufTy).Contents (Elt F) → (⟨S32x1x1, .i1⟩ : BufTy).Contents (Elt F)),
    unary main_v81 main_v82 (broadcastInDim S32x1024x1024 ![0, 1, 2] bcast_S32x1x1_S32x1024x1024_0_1_2 : (⟨S32x1x1, .i1⟩ : BufTy).Contents (Elt F) → (⟨S32x1024x1024, .i1⟩ : BufTy).Contents (Elt F)),
    binary main_v79 main_v82 main_v83 (andi : (⟨S32x1024x1024, .i1⟩ : BufTy).Contents (Elt F) → (⟨S32x1024x1024, .i1⟩ : BufTy).Contents (Elt F) → (⟨S32x1024x1024, .i1⟩ : BufTy).Contents (Elt F)),
    binary main_v83 main_v50 main_v84 (cmpi .ne : (⟨S32x1024x1024, .i1⟩ : BufTy).Contents (Elt F) → (⟨S32x1024x1024, .i1⟩ : BufTy).Contents (Elt F) → (⟨S32x1024x1024, .i1⟩ : BufTy).Contents (Elt F)),
    nullary main_c_28 (constantI S_ 1 0#1),
    binary main_v84 main_c_28 main_v85 ((fun x v => Host.reduce IntOp.ori x v reducesTo_S32x1024x1024_S32_d1_2 h_S_) : (⟨S32x1024x1024, .i1⟩ : BufTy).Contents (Elt F) → (⟨S_, .i1⟩ : BufTy).Contents (Elt F) → (⟨S32, .i1⟩ : BufTy).Contents (Elt F)),
    unary main_v83 main_v86 (uitofp .f32 : (⟨S32x1024x1024, .i1⟩ : BufTy).Contents (Elt F) → (⟨S32x1024x1024, .f32⟩ : BufTy).Contents (Elt F)),
    binary main_v48 main_v86 main_v87 (subf : (⟨S32x1024x1024, .f32⟩ : BufTy).Contents (Elt F) → (⟨S32x1024x1024, .f32⟩ : BufTy).Contents (Elt F) → (⟨S32x1024x1024, .f32⟩ : BufTy).Contents (Elt F)),
    binary main_v87 main_v87 main_v88 (mulf : (⟨S32x1024x1024, .f32⟩ : BufTy).Contents (Elt F) → (⟨S32x1024x1024, .f32⟩ : BufTy).Contents (Elt F) → (⟨S32x1024x1024, .f32⟩ : BufTy).Contents (Elt F)),
    nullary main_cst_29 (constant S_ .f32 0x00000000#32),
    binary main_v88 main_cst_29 main_v89 ((fun x v => Host.reduceAdd x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)),
    nullary main_cst_30 (constant S_ .f32 0x49800000#32),
    unary main_cst_30 main_v90 (broadcastInDim S32 ![] bcast_S_S32 : (⟨S_, .f32⟩ : BufTy).Contents (Elt F) → (⟨S32, .f32⟩ : BufTy).Contents (Elt F)),
    binary main_v89 main_v90 main_v91 (Host.divf : (⟨S32, .f32⟩ : BufTy).Contents (Elt F) → (⟨S32, .f32⟩ : BufTy).Contents (Elt F) → (⟨S32, .f32⟩ : BufTy).Contents (Elt F)),
    binary main_v91 main_v37 main_v92 (mulf : (⟨S32, .f32⟩ : BufTy).Contents (Elt F) → (⟨S32, .f32⟩ : BufTy).Contents (Elt F) → (⟨S32, .f32⟩ : BufTy).Contents (Elt F)),
    unary main_v85 main_v93 (uitofp .f32 : (⟨S32, .i1⟩ : BufTy).Contents (Elt F) → (⟨S32, .f32⟩ : BufTy).Contents (Elt F)),
    nullary main_cst_31 (constant S_ .f32 0x00000000#32),
    binary main_v93 main_cst_31 main_v94 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    unary main_v85 main_v95 (uitofp .f32 : (⟨S32, .i1⟩ : BufTy).Contents (Elt F) → (⟨S32, .f32⟩ : BufTy).Contents (Elt F)),
    binary main_v92 main_v95 main_v96 (mulf : (⟨S32, .f32⟩ : BufTy).Contents (Elt F) → (⟨S32, .f32⟩ : BufTy).Contents (Elt F) → (⟨S32, .f32⟩ : BufTy).Contents (Elt F)),
    nullary main_cst_32 (constant S_ .f32 0x00000000#32),
    binary main_v96 main_cst_32 main_v97 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_33 (constant S_ .f32 0x00000000#32),
    binary main_v94 main_cst_33 main_v98 (cmpf .ogt : (⟨S_, .f32⟩ : BufTy).Contents (Elt F) → (⟨S_, .f32⟩ : BufTy).Contents (Elt F) → (⟨S_, .i1⟩ : BufTy).Contents (Elt F)),
    nullary main_cst_34 (constant S_ .f32 0x3F800000#32),
    binary main_v94 main_cst_34 main_v99 (maximumf : (⟨S_, .f32⟩ : BufTy).Contents (Elt F) → (⟨S_, .f32⟩ : BufTy).Contents (Elt F) → (⟨S_, .f32⟩ : BufTy).Contents (Elt F)),
    binary main_v97 main_v99 main_v100 (Host.divf : (⟨S_, .f32⟩ : BufTy).Contents (Elt F) → (⟨S_, .f32⟩ : BufTy).Contents (Elt F) → (⟨S_, .f32⟩ : BufTy).Contents (Elt F)),
    nullary main_cst_35 (constant S_ .f32 0x00000000#32),
    TRef.unary (.of main_cst_35 : TRef sig ⟨S_, .f32⟩) main_call7.v0 id,
    TRef.ternary (.of main_v98 : TRef sig ⟨S_, .i1⟩) (.of main_v100 : TRef sig ⟨S_, .f32⟩) main_call7.v0 main_call7.v1 select ]

end Cert.ReferenceIdeal.Val

end
-- ==== Proof.RRun.lean ====
/-
  The reference's @main as the list of its host operations (the calls' bodies listed at the calls, over each call's buffers), and its run:
  every weakly fair execution terminates with every buffer at the operations' fold over the launch contents; the result buffer's
  fold is the term outT of the image batch, and the argument is untouched.
-/
import proofs.«117029_j24532853195288_1_alg».proof.Proof.RRunOps
import Idealize.ShloMosaic.Lib.StableHlo.Run

noncomputable section

namespace Cert.ReferenceIdeal.Val

open Cert.ReferenceIdeal Cert.ReferenceIdeal.Gen Idealize.ShloMosaic Idealize.ShloMosaic.TcCoe Idealize.ShloMosaic.ValueIdx Idealize.SL.Sem Idealize.ShloMosaic.StableHlo
open scoped BigOperators

variable {F : FTy → Type} [FloatOps F]

set_option maxRecDepth 4096 in
set_option maxHeartbeats 4000000 in
/-- @main is the straight line of its operations: its three windows in order, each function's definition unfolded at its call
    and each call's record at its fields; both sides are then one chain of host steps once sequencing is reassociated. -/
theorem main_eq (c : Dev nD) : main (F := F) c = seq ops := by
  simp only [main, main_part0, main_part1, main_part2, fn_where.body, fn_cumsum.body, fn_cumsum_0.body, fn_where_1.body, seq, bind_assoc, pure_bind]

/-- The signature declares no scoped buffer and no scoped semaphore on the TensorCore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 4096 in
/-- Every operation names only TensorCore buffers: a builder's buffers are its operands' and its result's. -/
theorem ops_sub : (ops : List (HloOp τ sig (Elt F))).Forall fun op => op.bufs ⊆ tcRefs τ sig := by
  simp only [List.forall_cons, List.Forall, nullary_bufs_sub, unary_bufs_sub, binary_bufs_sub, ternary_bufs_sub, reshape_bufs_sub, and_self]

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.reduceAdd Host.reduceWindow Host.reverse in
set_option maxRecDepth 16384 in
set_option maxHeartbeats 4000000 in
/-- The result buffer's fold is the reference's term of the image batch. Each operation's result at its own buffer is its function of
    its operands' contents, and at any other buffer what was there; so the fold at the result buffer is the operations' composed term
    of the argument's contents. That term is outT's definition written out: the reshape is the shape cast xin, the sigmoid, the two
    ratios, the extremes, the normalized image and its threshold, the row and column "any", the two spans (the shared chain spanOf over
    the running count cumsum), the filled rectangle, the flag and the loss are the program's values in its order, the three selects of
    the weight are wOf, and the closing reductions and select are finalOf. The host reductions, the window reduction and the reversal
    stay closed: the equation never looks inside them. -/
theorem out_eq (V : Valuation τ sig (Elt Ideal)) :
    (after ops V (main_v101 : DevRef τ sig) : FVec Ideal S_ .f32)
      = outT (Cert.Spec.xin Gen.shapeCasts_S32x1x1024x1024_S32x1024x1024 (V (main_arg0 : DevRef τ sig))) := by
  after_results_simp
  simp only [outT, rFinal, rW, Cert.Spec.finalOf, Cert.Spec.wOf, lossT, validT, fillT, anyT, scT, srT, rSpan, Cert.Spec.spanOf, Cert.Spec.cumsum,
    colsT, rowsT, bnT, pnT, hiT, loT, areaT, confT, sgT, bc1, bc3, spread, Cert.Spec.xin, cast_eq]
  rfl

set_option maxRecDepth 8192 in
/-- No operation writes the argument's buffer: the fold leaves it as it was. -/
theorem arg0_eq (V : Valuation τ sig (Elt F)) :
    after ops V (main_arg0 : DevRef τ sig) = V (main_arg0 : DevRef τ sig) := by
  simp only [after_cons, after_nil]
  rfl

end Cert.ReferenceIdeal.Val

end
-- ==== Proof.RRead1.lean ====
/-
  The reference's pointwise and per-sample values read at an index: the sigmoid, the confidence and area ratio, the extremes, the
  normalized image and its threshold.
-/
import proofs.«117029_j24532853195288_1_alg».proof.Proof.RDefs
import proofs.«117029_j24532853195288_1_alg».proof.Proof.LibFiber
import Idealize.ShloMosaic.Lib.Pipeline.Value
import Idealize.ShloMosaic.Lib.ValueLayout
import Idealize.ShloMosaic.Lib.StableHlo.Predicate

noncomputable section

namespace Cert.ReferenceIdeal.Val

open Cert.ReferenceIdeal Cert.ReferenceIdeal.Gen Idealize.ShloMosaic Idealize.ShloMosaic.ValueIdx
open scoped BigOperators

/-! ## Literal broadcasts and the host's pointwise operations, read at an index

At the ideal values a broadcast literal is the extended real its word denotes at every index, the host's division,
exponential, negation and absolute value are those of the extended reals, and a one-bit word converts to the real 0 or 1. -/

theorem bc3_apply (w : BitVec 32) (i : S32x1024x1024.Idx) : bc3 w i = Ideal.ofBits .f32 w := rfl
theorem bc1_apply (w : BitVec 32) (i : S32.Idx) : bc1 w i = Ideal.ofBits .f32 w := rfl

section Pointwise
variable {s : Shape}
theorem hostDivf_apply (x y : FVec Ideal s .f32) (i : s.Idx) : Host.divf x y i = Ideal.div (x i) (y i) := rfl
theorem hostExp_apply (x : FVec Ideal s .f32) (i : s.Idx) : Host.exp x i = Ideal.exp (x i) := rfl
theorem hostNegf_apply (x : FVec Ideal s .f32) (i : s.Idx) : Host.negf x i = -(x i) := rfl
theorem hostAbsf_apply (x : FVec Ideal s .f32) (i : s.Idx) : Host.absf x i = max (x i) (-(x i)) := rfl
theorem uitofp_bit_apply (x : IVec s 1) (i : s.Idx) : (uitofp .f32 x : FVec Ideal s .f32) i = Cert.Spec.bit (x i) := rfl
theorem cmpf_ideal_apply (c : CmpFPredicate) (x y : FVec Ideal s .f32) (i : s.Idx) : cmpf c x y i = Ideal.cmp c (x i) (y i) := rfl
end Pointwise

/-- A per-sample value spread over the pixels reads, at any pixel of sample b, the value of sample b: the first broadcast
    keeps the batch coordinate and sets the two unit coordinates to 0, the second reads the batch coordinate again. -/
theorem spread_apply {α : Type} (v : S32.Idx → α) (b : Fin 32) (r q : Fin 1024) : spread v (ix3 b r q) = v (ix1 b) := by
  refine (broadcastInDim_apply (s := S32x1x1) (t := S32x1024x1024) _ _ _ (ix3 b r q) (ix3 b (0 : Fin 1) (0 : Fin 1)) ?_).trans ?_
  · intro a
    match a with
    | ⟨0, _⟩ => rfl
    | ⟨1, _⟩ => rfl
    | ⟨2, _⟩ => rfl
  · refine broadcastInDim_apply (s := S32) (t := S32x1x1) _ _ _ (ix3 b (0 : Fin 1) (0 : Fin 1)) (ix1 b) ?_
    intro a
    match a with
    | ⟨0, _⟩ => rfl

/-! ## The host's reductions over a sample's pixels -/

/-- The host's sum over the two pixel axes from the zero word: that word's value plus the sum over the pixels. -/
theorem reduceAdd_pixels (x : FVec Ideal S32x1024x1024 .f32) (b : Fin 32) :
    Host.reduceAdd (F := Ideal) x (constant S_ .f32 0x00000000#32) Gen.reducesTo_S32x1024x1024_S32_d1_2 Gen.h_S_ (ix1 b)
      = Cert.Spec.zw + ∑ p : Cert.Spec.P, x (ix3 b p.1 p.2) :=
  Cert.LibFiber.hostAdd_3_12 (A := 32) (B := 1024) (C := 1024) Gen.reducesTo_S32x1024x1024_S32_d1_2 x _ b

/-- A fold of the ideal instance's minimum is the fold of min on the extended reals: one function; the commutativity and
    associativity arguments are proofs. -/
theorem fold_minimumf {ι : Type} (t : Finset ι) (e : EReal) (f : ι → EReal) :
    t.fold (FloatOps.minimumf (F := Ideal) (φ := .f32)) e f = t.fold min e f := rfl
theorem fold_maximumf {ι : Type} (t : Finset ι) (e : EReal) (f : ι → EReal) :
    t.fold (FloatOps.maximumf (F := Ideal) (φ := .f32)) e f = t.fold max e f := rfl

theorem reduceMin_pixels (x : FVec Ideal S32x1024x1024 .f32) (b : Fin 32) :
    Host.reduce FloatOps.minimumf x (constant (F := Ideal) S_ .f32 0x7F800000#32) Gen.reducesTo_S32x1024x1024_S32_d1_2 Gen.h_S_ (ix1 b)
      = (Finset.univ : Finset Cert.Spec.P).fold min Cert.Spec.topw fun p => x (ix3 b p.1 p.2) :=
  (Cert.LibFiber.hostFold_3_12 (A := 32) (B := 1024) (C := 1024) (FloatOps.minimumf (F := Ideal) (φ := .f32))
    Gen.reducesTo_S32x1024x1024_S32_d1_2 x _ Gen.h_S_ b).trans (fold_minimumf _ _ _)

theorem reduceMax_pixels (x : FVec Ideal S32x1024x1024 .f32) (b : Fin 32) :
    Host.reduce FloatOps.maximumf x (constant (F := Ideal) S_ .f32 0xFF800000#32) Gen.reducesTo_S32x1024x1024_S32_d1_2 Gen.h_S_ (ix1 b)
      = (Finset.univ : Finset Cert.Spec.P).fold max Cert.Spec.botw fun p => x (ix3 b p.1 p.2) :=
  (Cert.LibFiber.hostFold_3_12 (A := 32) (B := 1024) (C := 1024) (FloatOps.maximumf (F := Ideal) (φ := .f32))
    Gen.reducesTo_S32x1024x1024_S32_d1_2 x _ Gen.h_S_ b).trans (fold_maximumf _ _ _)

variable (X : FVec Ideal S32x1024x1024 .f32)

/-! ## The reference's values -/

theorem sgT_apply (b : Fin 32) (p : Cert.Spec.P) : sgT X (ix3 b p.1 p.2) = Cert.Spec.rsg X b p := rfl

theorem confT_apply (b : Fin 32) : confT X (ix1 b) = Cert.Spec.rConf X b := by
  unfold confT Cert.Spec.rConf
  rw [hostDivf_apply, reduceAdd_pixels, bc1_apply]
  refine congrArg (fun t => Ideal.div (Cert.Spec.zw + t) Cert.Spec.nTot) (Finset.sum_congr rfl fun p _ => ?_)
  rw [hostAbsf_apply, subf_apply, bc3_apply, sgT_apply]
  rfl

theorem areaT_apply (b : Fin 32) : areaT X (ix1 b) = Cert.Spec.rArea X b := by
  unfold areaT Cert.Spec.rArea
  rw [hostDivf_apply, reduceAdd_pixels, bc1_apply]
  refine congrArg (fun t => Ideal.div (Cert.Spec.zw + t) Cert.Spec.nTot) (Finset.sum_congr rfl fun p _ => ?_)
  rw [uitofp_bit_apply, cmpf_ideal_apply, bc3_apply, sgT_apply]
  rfl

theorem loT_apply (b : Fin 32) : loT X (ix1 b) = Cert.Spec.lo X b := reduceMin_pixels X b
theorem hiT_apply (b : Fin 32) : hiT X (ix1 b) = Cert.Spec.hi X b := reduceMax_pixels X b

theorem pnT_apply (b : Fin 32) (p : Cert.Spec.P) : pnT X (ix3 b p.1 p.2) = Cert.Spec.pn X (Cert.Spec.lo X) (Cert.Spec.hi X) b p := by
  unfold pnT Cert.Spec.pn
  rw [hostDivf_apply, subf_apply, spread_apply, spread_apply, addf_apply, subf_apply, bc1_apply, loT_apply, hiT_apply]
  rfl

theorem bnT_apply (b : Fin 32) (p : Cert.Spec.P) : bnT X (ix3 b p.1 p.2) = Cert.Spec.bn X (Cert.Spec.lo X) (Cert.Spec.hi X) b p := by
  unfold bnT Cert.Spec.bn
  rw [cmpf_ideal_apply, bc3_apply, pnT_apply]
  rfl

end Cert.ReferenceIdeal.Val

end
-- ==== Proof.RRead2.lean ====
/-
  The reference's row and column "any", spans, filled rectangle, loss and validity flag read at an index.
-/
import proofs.«117029_j24532853195288_1_alg».proof.Proof.RRead1

noncomputable section

namespace Cert.ReferenceIdeal.Val

open Cert.ReferenceIdeal Cert.ReferenceIdeal.Gen Idealize.ShloMosaic Idealize.ShloMosaic.ValueIdx
open scoped BigOperators

variable (X : FVec Ideal S32x1024x1024 .f32)

/-- Row r's "any" is the OR over the row's columns of the thresholded image: a host reduce by OR over the last axis. -/
private theorem rowsT_apply (b : Fin 32) (r : Fin 1024) : rowsT X (ix2 b r) = Cert.Spec.rRows X b r := by
  unfold rowsT Cert.Spec.rRows
  rw [Cert.LibFiber.hostFold_3_2 (A := 32) (B := 1024) (C := 1024) IntOp.ori]
  exact Finset.fold_congr fun q _ => bnT_apply X b (r, q)

/-- Column q's "any" is the OR over the column's rows: a host reduce by OR over the middle axis. -/
private theorem colsT_apply (b : Fin 32) (q : Fin 1024) : colsT X (ix2 b q) = Cert.Spec.rCols X b q := by
  unfold colsT Cert.Spec.rCols
  rw [Cert.LibFiber.hostFold_3_1 (A := 32) (B := 1024) (C := 1024) IntOp.ori]
  exact Finset.fold_congr fun r _ => bnT_apply X b (r, q)

theorem rowsT_eq : rowsT X = Cert.Spec.arr2 (Cert.Spec.rRows X) := by
  funext j
  rw [eq_ix2 j]
  exact rowsT_apply X (j 0) (j 1)

theorem colsT_eq : colsT X = Cert.Spec.arr2 (Cert.Spec.rCols X) := by
  funext j
  rw [eq_ix2 j]
  exact colsT_apply X (j 0) (j 1)

/-- "Something is set" is the OR over all of a sample's pixels: a host reduce by OR over both trailing axes. -/
theorem anyT_apply (b : Fin 32) : anyT X (ix1 b) = Cert.Spec.rAny X b := by
  unfold anyT Cert.Spec.rAny
  rw [Cert.LibFiber.hostFold_3_12 (A := 32) (B := 1024) (C := 1024) IntOp.ori]
  exact Finset.fold_congr fun p _ => bnT_apply X b p

/-- Both sides are the one span chain, applied to the widened row-any array and to its reversal. -/
theorem srT_eq : srT X = Cert.Spec.rSr Gen.h_S_ Gen.reduceWindows_S32x1024_S32x1024_w1s1p0_0_w1024s1p1023_0 Gen.bcast_S_S_ Gen.bcast_S_S32x1024 X := by
  unfold srT Cert.Spec.rSr
  rw [rowsT_eq]

theorem scT_eq : scT X = Cert.Spec.rSc Gen.h_S_ Gen.reduceWindows_S32x1024_S32x1024_w1s1p0_0_w1024s1p1023_0 Gen.bcast_S_S_ Gen.bcast_S_S32x1024 X := by
  unfold scT Cert.Spec.rSc
  rw [colsT_eq]

/-! ## The elementwise integer operations at an index (definitional) -/

private theorem andi_at {s : Shape} {w : Nat} (x y : IVec s w) (i : s.Idx) : andi x y i = IntOp.andi (x i) (y i) := rfl
private theorem cmpi_at {s : Shape} {w : Nat} (p : CmpIPredicate) (x y : IVec s w) (i : s.Idx) : cmpi p x y i = IntOp.cmpi p (x i) (y i) := rfl

/-! ## The three two-step broadcasts of the filled rectangle, read at a pixel -/

/-- A per-row value laid along the columns: [32, 1024] → [32, 1024, 1] → [32, 1024, 1024] reads, at (b, r, q), the value at (b, r). -/
private theorem bcRow_at {α : Type} (v : S32x1024.Idx → α) (b : Fin 32) (r q : Fin 1024) :
    broadcastInDim S32x1024x1024 ![0, 1, 2] Gen.bcast_S32x1024x1_S32x1024x1024_0_1_2
      (broadcastInDim S32x1024x1 ![0, 1] Gen.bcast_S32x1024_S32x1024x1_0_1 v) (ix3 b r q) = v (ix2 b r) :=
  (broadcastInDim_apply _ _ _ (ix3 b r q) (ix3 b r (0 : Fin 1))
      (fun a => match a with | ⟨0, _⟩ => rfl | ⟨1, _⟩ => rfl | ⟨2, _⟩ => rfl)).trans
    (broadcastInDim_apply _ _ _ (ix3 b r (0 : Fin 1)) (ix2 b r)
      (fun a => match a with | ⟨0, _⟩ => rfl | ⟨1, _⟩ => rfl))

/-- A per-column value laid down the rows: [32, 1024] → [32, 1, 1024] → [32, 1024, 1024] reads, at (b, r, q), the value at (b, q). -/
private theorem bcCol_at {α : Type} (v : S32x1024.Idx → α) (b : Fin 32) (r q : Fin 1024) :
    broadcastInDim S32x1024x1024 ![0, 1, 2] Gen.bcast_S32x1x1024_S32x1024x1024_0_1_2
      (broadcastInDim S32x1x1024 ![0, 2] Gen.bcast_S32x1024_S32x1x1024_0_2 v) (ix3 b r q) = v (ix2 b q) :=
  (broadcastInDim_apply _ _ _ (ix3 b r q) (ix3 b (0 : Fin 1) q)
      (fun a => match a with | ⟨0, _⟩ => rfl | ⟨1, _⟩ => rfl | ⟨2, _⟩ => rfl)).trans
    (broadcastInDim_apply _ _ _ (ix3 b (0 : Fin 1) q) (ix2 b q)
      (fun a => match a with | ⟨0, _⟩ => rfl | ⟨1, _⟩ => rfl))

/-- A per-sample value spread over the sample's pixels: [32] → [32, 1, 1] → [32, 1024, 1024] reads, at (b, r, q), the value at b. -/
private theorem spread_at {α : Type} (v : S32.Idx → α) (b : Fin 32) (r q : Fin 1024) : spread v (ix3 b r q) = v (ix1 b) :=
  (broadcastInDim_apply _ _ _ (ix3 b r q) (ix3 b (0 : Fin 1) (0 : Fin 1))
      (fun a => match a with | ⟨0, _⟩ => rfl | ⟨1, _⟩ => rfl | ⟨2, _⟩ => rfl)).trans
    (broadcastInDim_apply _ _ _ (ix3 b (0 : Fin 1) (0 : Fin 1)) (ix1 b)
      (fun a => match a with | ⟨0, _⟩ => rfl))

/-- The filled rectangle at a pixel: the row span at the pixel's row AND the column span at its column AND "something is set". -/
theorem fillT_apply (b : Fin 32) (p : Cert.Spec.P) : fillT X (ix3 b p.1 p.2) = Cert.Spec.rFill Gen.h_S_ Gen.reduceWindows_S32x1024_S32x1024_w1s1p0_0_w1024s1p1023_0 Gen.bcast_S_S_ Gen.bcast_S_S32x1024 X b p := by
  unfold fillT Cert.Spec.rFill
  rw [andi_at, andi_at, bcRow_at, bcCol_at, spread_at, srT_eq, scT_eq, anyT_apply]

/-! ## The host quotient, the host sum and a broadcast literal at an index, at the ideal values (definitional) -/

private theorem hostDivf_at {s : Shape} (a c : FVec Ideal s .f32) (i : s.Idx) : Host.divf a c i = Ideal.div (a i) (c i) := rfl
private theorem reduceAdd_at (x : FVec Ideal S32x1024x1024 .f32) (init : S_.Idx → Ideal .f32) (i : S32.Idx) :
    Host.reduceAdd x init Gen.reducesTo_S32x1024x1024_S32_d1_2 Gen.h_S_ i
      = Ideal.hostReduceAdd Gen.reducesTo_S32x1024x1024_S32_d1_2 x (init (Shape.Idx.first Gen.h_S_)) i := rfl
private theorem bc1_at (w : BitVec 32) (i : S32.Idx) : bc1 w i = Ideal.ofBits .f32 w := rfl
/-- A one-bit word converted to a float is the real 0 or 1. -/
private theorem uitofp_at {s : Shape} (x : IVec s 1) (i : s.Idx) : (uitofp .f32 x : FVec Ideal s .f32) i = Cert.Spec.bit (x i) := rfl

/-- The loss: the host's sum over a sample's pixels of the squared difference between the normalized image and the filled
    rectangle, from the literal 0, divided by the pixel count. -/
theorem lossT_apply (b : Fin 32) : lossT X (ix1 b) = Cert.Spec.rLoss Gen.h_S_ Gen.reduceWindows_S32x1024_S32x1024_w1s1p0_0_w1024s1p1023_0 Gen.bcast_S_S_ Gen.bcast_S_S32x1024 X b := by
  unfold lossT Cert.Spec.rLoss
  rw [hostDivf_at, reduceAdd_at, Cert.LibFiber.hostAdd_3_12 (A := 32) (B := 1024) (C := 1024), bc1_at]
  refine congrArg₂ Ideal.div (congrArg₂ (· + ·) rfl (Finset.sum_congr rfl fun p _ => ?_)) rfl
  rw [mulf_apply, subf_apply, uitofp_at, pnT_apply, fillT_apply]

/-- The validity flag: the host's OR over a sample's pixels of "the filled rectangle differs from the thresholded image". -/
theorem validT_apply (b : Fin 32) : validT X (ix1 b) = Cert.Spec.rValid Gen.h_S_ Gen.reduceWindows_S32x1024_S32x1024_w1s1p0_0_w1024s1p1023_0 Gen.bcast_S_S_ Gen.bcast_S_S32x1024 X b := by
  unfold validT Cert.Spec.rValid
  rw [Cert.LibFiber.hostFold_3_12 (A := 32) (B := 1024) (C := 1024) IntOp.ori]
  exact Finset.fold_congr fun p _ => by rw [cmpi_at, fillT_apply, bnT_apply]

end Cert.ReferenceIdeal.Val

end
-- ==== Proof.RValue.lean ====
/-
  The reference's result as the shared final chain applied to the per-sample numbers rLoss, rConf, rArea, rValid of the image batch.
-/
import proofs.«117029_j24532853195288_1_alg».proof.Proof.RRead2

noncomputable section

namespace Cert.ReferenceIdeal.Val

open Cert.ReferenceIdeal Cert.ReferenceIdeal.Gen Idealize.ShloMosaic Idealize.ShloMosaic.ValueIdx
open scoped BigOperators

variable (X : FVec Ideal S32x1024x1024 .f32)

theorem conf_vec : confT X = Cert.Spec.vec32 (Cert.Spec.rConf X) := by
  funext j
  obtain ⟨b, rfl⟩ : ∃ b : Fin 32, j = ix1 b := ⟨j 0, eq_ix1 j⟩
  exact confT_apply X b

theorem area_vec : areaT X = Cert.Spec.vec32 (Cert.Spec.rArea X) := by
  funext j
  obtain ⟨b, rfl⟩ : ∃ b : Fin 32, j = ix1 b := ⟨j 0, eq_ix1 j⟩
  exact areaT_apply X b

theorem loss_vec : lossT X = Cert.Spec.vec32 (Cert.Spec.rLoss Gen.h_S_ Gen.reduceWindows_S32x1024_S32x1024_w1s1p0_0_w1024s1p1023_0 Gen.bcast_S_S_ Gen.bcast_S_S32x1024 X) := by
  funext j
  obtain ⟨b, rfl⟩ : ∃ b : Fin 32, j = ix1 b := ⟨j 0, eq_ix1 j⟩
  exact lossT_apply X b

theorem valid_vec : validT X = Cert.Spec.vec32 (Cert.Spec.rValid Gen.h_S_ Gen.reduceWindows_S32x1024_S32x1024_w1s1p0_0_w1024s1p1023_0 Gen.bcast_S_S_ Gen.bcast_S_S32x1024 X) := by
  funext j
  obtain ⟨b, rfl⟩ : ∃ b : Fin 32, j = ix1 b := ⟨j 0, eq_ix1 j⟩
  exact validT_apply X b

/-- The reference's result, as a function of the image batch. -/
theorem ref_value :
    outT X = rFinal (mulf (Cert.Spec.vec32 (Cert.Spec.rLoss Gen.h_S_ Gen.reduceWindows_S32x1024_S32x1024_w1s1p0_0_w1024s1p1023_0 Gen.bcast_S_S_ Gen.bcast_S_S32x1024 X))
        (rW (Cert.Spec.vec32 (Cert.Spec.rConf X)) (Cert.Spec.vec32 (Cert.Spec.rArea X))))
      (Cert.Spec.vec32 (Cert.Spec.rValid Gen.h_S_ Gen.reduceWindows_S32x1024_S32x1024_w1s1p0_0_w1024s1p1023_0 Gen.bcast_S_S_ Gen.bcast_S_S32x1024 X)) := by
  unfold outT
  rw [loss_vec X, valid_vec X, conf_vec X, area_vec X]

end Cert.ReferenceIdeal.Val

end
-- ==== Proof.Math1.lean ====
/-
  The two sides' numbers are the same, first part: the sigmoid spelled out as 1 / (1 + e^(-x)) is the sigmoid, so the confidence
  and the area ratio agree; a maximum of 0/1 values is the OR of the bits (from minus infinity too, over a nonempty line), so the
  kernel side's "any" arrays truncated to integers are the reference's OR arrays zero-extended, and with them the spans, which
  both sides compute by one and the same chain of integer operations.
-/
import proofs.«117029_j24532853195288_1_alg».proof.Proof.Spec
import proofs.«117029_j24532853195288_1_alg».proof.Proof.LibFiber
import proofs.«117029_j24532853195288_1_alg».proof.Proof.Consts

noncomputable section

namespace Cert.Spec

open Idealize.ShloMosaic Idealize.ShloMosaic.ValueIdx
open scoped BigOperators

/-! ## One-bit words as the reals 0 and 1 -/

theorem bit_zero : bit 0#1 = 0 := by simp [bit]
theorem bit_one : bit 1#1 = 1 := by simp [bit]

theorem bit_nonneg (w : BitVec 1) : (0 : EReal) ≤ bit w := by
  rcases BitVec.eq_zero_or_eq_one w with h | h <;> subst h
  · rw [bit_zero]
  · rw [bit_one]; exact zero_le_one

/-- On 0/1 values the maximum is the OR of the bits. -/
theorem max_bit (u v : BitVec 1) : max (bit u) (bit v) = bit (IntOp.ori u v) := by
  rcases BitVec.eq_zero_or_eq_one u with h | h <;> rcases BitVec.eq_zero_or_eq_one v with h' | h' <;> subst h <;> subst h'
  · rw [show IntOp.ori 0#1 0#1 = 0#1 by decide, max_self]
  · rw [show IntOp.ori 0#1 1#1 = 1#1 by decide, bit_zero, bit_one]; exact max_eq_right zero_le_one
  · rw [show IntOp.ori 1#1 0#1 = 1#1 by decide, bit_zero, bit_one]; exact max_eq_left zero_le_one
  · rw [show IntOp.ori 1#1 1#1 = 1#1 by decide, max_self]

/-- The maximum of 0/1 values over a finite set, taken from 0, is the OR of the bits taken from 0. -/
theorem fold_max_bit {ι : Type} [DecidableEq ι] (s : Finset ι) (f : ι → BitVec 1) :
    s.fold max (0 : EReal) (fun i => bit (f i)) = bit (s.fold IntOp.ori 0#1 f) := by
  induction s using Finset.induction_on with
  | empty => rw [Finset.fold_empty, Finset.fold_empty, bit_zero]
  | insert a s ha ih => rw [Finset.fold_insert ha, Finset.fold_insert ha, ih, max_bit]

/-- Taking a maximum from minus infinity and then against 0 is taking it from 0. -/
theorem max_zero_fold_bot {ι : Type} [DecidableEq ι] (s : Finset ι) (g : ι → EReal) :
    max 0 (s.fold max ⊥ g) = s.fold max 0 g := by
  induction s using Finset.induction_on with
  | empty => rw [Finset.fold_empty, Finset.fold_empty]; exact max_eq_left bot_le
  | insert a s ha ih => rw [Finset.fold_insert ha, Finset.fold_insert ha, max_left_comm, ih]

/-- Over a nonempty set of nonnegative values the start value minus infinity can be replaced by 0. -/
theorem fold_bot_eq_fold_zero {ι : Type} [DecidableEq ι] (s : Finset ι) (g : ι → EReal) (a : ι) (ha : a ∈ s)
    (hg : ∀ i, 0 ≤ g i) : s.fold max ⊥ g = s.fold max 0 g := by
  rw [← max_zero_fold_bot]
  refine (max_eq_right ?_).symm
  rw [Finset.le_fold_max]
  exact Or.inr ⟨a, ha, hg a⟩

/-- Truncating the real 0 or 1 to a signed 32-bit integer gives the bit, zero-extended. -/
theorem fptosi_bit (w : BitVec 1) : Ideal.fptosi 32 (bit w) = w.setWidth 32 := by
  rcases BitVec.eq_zero_or_eq_one w with h | h <;> subst h
  · rw [show bit 0#1 = ((0 : ℝ) : EReal) by simp [bit], Ideal.fptosi, Ideal.toIntClamped_coe]
    norm_num
  · rw [show bit 1#1 = ((1 : ℝ) : EReal) by simp [bit], Ideal.fptosi, Ideal.toIntClamped_coe]
    norm_num

theorem uitofp_bit (v : IVec R2 1) (j : R2.Idx) : uitofp (F := Ideal) .f32 v j = bit (v j) := rfl

variable (h0 : 0 < S0.numel) (hrw : R2.ReduceWindows (![1, 1024] : Fin 2 → Nat) ![1, 1] ![0, 1023] ![0, 0] R2)
  (hbS : S0.BroadcastsInDim S0 (![] : Fin 0 → Fin S0.rank)) (hbR : S0.BroadcastsInDim R2 (![] : Fin 0 → Fin R2.rank))
variable (X : A3.Idx → EReal)

/-! ## The sigmoid, the confidence and the area ratio -/

/-- The sigmoid spelled out with the literal one is the sigmoid. -/
theorem rsg_eq (b : Fin 32) (p : P) : rsg X b p = sg X b p := by
  unfold rsg sg Ideal.logistic
  rw [Cert.Consts.onew_eq]

theorem bridge_conf (b : Fin 32) : kConf X b = rConf X b := by
  unfold kConf rConf conf
  rw [Cert.Consts.zw_eq, zero_add]
  simp only [rsg_eq]

theorem bridge_area (b : Fin 32) : kArea X b = rArea X b := by
  unfold kArea rArea area
  rw [Cert.Consts.zw_eq, zero_add]
  simp only [rsg_eq]

/-! ## The "any" arrays -/

/-- A row's maximum of the 0/1 image from minus infinity is the OR of the row's bits: the row is not empty. -/
theorem rowF_eq (l h : Fin 32 → EReal) (b : Fin 32) (r : Fin 1024) :
    rowF X l h b r = bit ((Finset.univ : Finset (Fin 1024)).fold IntOp.ori 0#1 fun q => bn X l h b (r, q)) := by
  unfold rowF
  rw [Cert.Consts.botw_eq, fold_bot_eq_fold_zero _ _ (0 : Fin 1024) (Finset.mem_univ _) (fun i => bit_nonneg _), fold_max_bit]

/-- A column's maximum of the 0/1 image from 0 is the OR of the column's bits. -/
theorem colF_eq (l h : Fin 32 → EReal) (b : Fin 32) (q : Fin 1024) :
    colF X l h b q = bit ((Finset.univ : Finset (Fin 1024)).fold IntOp.ori 0#1 fun r => bn X l h b (r, q)) := by
  unfold colF
  rw [Cert.Consts.zw_eq, fold_max_bit]

/-- The kernel side's row-any array, truncated to integers, is the reference's OR array, zero-extended. -/
theorem rowArr_eq : (fptosi 32 (kRowArr X) : IVec R2 32) = extui 32 (arr2 (rRows X)) (by decide) := by
  funext i
  obtain ⟨b, r, rfl⟩ : ∃ (b : Fin 32) (r : Fin 1024), i = ix2 b r := ⟨i 0, i 1, eq_ix2 i⟩
  show Ideal.fptosi 32 (rowF X (lo X) (hi X) b r) = (rRows X b r).setWidth 32
  rw [rowF_eq, fptosi_bit]
  rfl

theorem colArr_eq : (fptosi 32 (kColArr X) : IVec R2 32) = extui 32 (arr2 (rCols X)) (by decide) := by
  funext i
  obtain ⟨b, q, rfl⟩ : ∃ (b : Fin 32) (q : Fin 1024), i = ix2 b q := ⟨i 0, i 1, eq_ix2 i⟩
  show Ideal.fptosi 32 (colF X (lo X) (hi X) b q) = (rCols X b q).setWidth 32
  rw [colF_eq, fptosi_bit]
  rfl

/-- The reversed arrays agree because the arrays do: reversal only re-reads the array at the mirrored index. -/
theorem rowArr_rev_eq :
    (fptosi 32 (Host.reverse [1] (kRowArr X)) : IVec R2 32) = extui 32 (Host.reverse [1] (arr2 (rRows X))) (by decide) := by
  funext i
  exact congrFun (rowArr_eq X) (fun a => if a ∈ ([1] : List (Fin R2.rank)) then (i a).rev else i a)

theorem colArr_rev_eq :
    (fptosi 32 (Host.reverse [1] (kColArr X)) : IVec R2 32) = extui 32 (Host.reverse [1] (arr2 (rCols X))) (by decide) := by
  funext i
  exact congrFun (colArr_eq X) (fun a => if a ∈ ([1] : List (Fin R2.rank)) then (i a).rev else i a)

/-! ## The spans -/

/-- The kernel side's row span is the reference's, as 0/1 reals. -/
theorem kSr_eq (j : R2.Idx) : kSr h0 hrw hbS hbR X j = bit (rSr h0 hrw hbS hbR X j) := by
  unfold kSr rSr
  rw [rowArr_eq, rowArr_rev_eq]
  exact uitofp_bit _ j

theorem kSc_eq (j : R2.Idx) : kSc h0 hrw hbS hbR X j = bit (rSc h0 hrw hbS hbR X j) := by
  unfold kSc rSc
  rw [colArr_eq, colArr_rev_eq]
  exact uitofp_bit _ j

end Cert.Spec

end
-- ==== Proof.SpanZero.lean ====
/-
  A line with nothing set has an empty span: the running count of an all-zero line is zero everywhere, so neither "count from the
  left > 0" nor "count from the right > 0" holds; and a sample with no pixel over the threshold has all-zero row and column lines.
-/
import proofs.«117029_j24532853195288_1_alg».proof.Proof.Spec
import proofs.«117029_j24532853195288_1_alg».proof.Proof.LibFiber

noncomputable section

namespace Cert.Spec

open Idealize.ShloMosaic Idealize.ShloMosaic.ValueIdx
open scoped BigOperators

/-! ## Folds whose entries are all zero -/

/-- Two one-bit words whose OR is 0 are both 0. -/
theorem ori_eq_zero : ∀ x y : BitVec 1, IntOp.ori x y = 0#1 → x = 0#1 ∧ y = 0#1 := by decide

/-- An OR-fold from 0 that came out 0 met only 0s. -/
theorem fold_ori_eq_zero {ι : Type} (s : Finset ι) (f : ι → BitVec 1) (h : s.fold IntOp.ori 0#1 f = 0#1) :
    ∀ i ∈ s, f i = 0#1 := by
  induction s using Finset.cons_induction with
  | empty => intro i hi; exact absurd hi (Finset.notMem_empty i)
  | cons a s ha ih =>
    rw [Finset.fold_cons] at h
    obtain ⟨h1, h2⟩ := ori_eq_zero _ _ h
    intro i hi
    rcases Finset.mem_cons.1 hi with rfl | hi
    · exact h1
    · exact ih h2 i hi

/-- An OR-fold from 0 over entries that are all 0 is 0. -/
theorem fold_ori_zero {ι : Type} (s : Finset ι) (f : ι → BitVec 1) (h : ∀ i ∈ s, f i = 0#1) :
    s.fold IntOp.ori 0#1 f = 0#1 :=
  (Finset.fold_congr h).trans (Cert.LibFiber.fold_const_idem IntOp.ori 0#1 rfl s)

/-- A left fold of + from 0 over entries that are all 0 is 0. -/
theorem foldl_addi_zero {ι : Type} (g : ι → BitVec 32) :
    ∀ l : List ι, (∀ n ∈ l, g n = 0#32) → l.foldl (fun r n => IntOp.addi r (g n)) 0#32 = 0#32
  | [], _ => rfl
  | a :: l, h => by
    rw [List.foldl_cons, h a List.mem_cons_self]
    exact foldl_addi_zero g l fun n hn => h n (List.mem_cons_of_mem _ hn)

/-- An array that is 0 along row b is 0 at every index whose first coordinate is b. -/
theorem row_zero_at (a : IVec R2 32) (b : Fin 32) (ha : ∀ r : Fin 1024, a (ix2 b r) = 0#32) (k : R2.Idx)
    (hk : (k 0).val = b.val) : a k = 0#32 := by
  have e : k = ix2 b (k 1) := by
    funext d
    match d with
    | ⟨0, _⟩ => exact Fin.ext hk
    | ⟨1, _⟩ => rfl
  rw [e]
  exact ha _

variable (h0 : 0 < S0.numel) (hrw : R2.ReduceWindows (![1, 1024] : Fin 2 → Nat) ![1, 1] ![0, 1023] ![0, 0] R2)
  (hbS : S0.BroadcastsInDim S0 (![] : Fin 0 → Fin S0.rank)) (hbR : S0.BroadcastsInDim R2 (![] : Fin 0 → Fin R2.rank))
variable (X : A3.Idx → EReal)

/-! ## The running count and the span of an all-zero line -/

/-- The running count along row b reads only row b (the window is 1 x 1024, so a window position keeps the row), and the padding
    holds the initial value 0: over a row of zeros it is a sum of zeros. -/
theorem cumsum_row_zero (a : IVec R2 32) (b : Fin 32) (ha : ∀ r : Fin 1024, a (ix2 b r) = 0#32) (r : Fin 1024) :
    cumsum h0 hrw hbS a (ix2 b r) = 0#32 := by
  unfold cumsum Host.reduceWindow
  dsimp only
  refine foldl_addi_zero _ _ fun n _ => ?_
  split
  · next hin =>
    refine row_zero_at a b ha _ ?_
    -- on the row axis the window has extent 1, stride 1 and no padding: the position read is b * 1 + 0 - 0
    have hw : ((⟨2, ![1, 1024]⟩ : Shape).rowMajor.symm n 0).val < 1 := ((⟨2, ![1, 1024]⟩ : Shape).rowMajor.symm n 0).isLt
    show b.val * 1 + ((⟨2, ![1, 1024]⟩ : Shape).rowMajor.symm n 0).val - 0 = b.val
    omega
  · rfl

/-- The span of a line that is 0 along row b is 0 on row b: already "count from the left > 0" fails there. -/
theorem spanOf_row_zero (a a' : IVec R2 32) (b : Fin 32) (ha : ∀ r : Fin 1024, a (ix2 b r) = 0#32) (r : Fin 1024) :
    spanOf h0 hrw hbS hbR a a' (ix2 b r) = 0#1 := by
  unfold spanOf
  show IntOp.andi (IntOp.cmpi .sgt (cumsum h0 hrw hbS a (ix2 b r)) 0#32) _ = 0#1
  rw [cumsum_row_zero h0 hrw hbS a b ha r]
  exact BitVec.zero_and

/-! ## A sample with nothing set -/

/-- With nothing set in sample b every thresholded pixel of it is 0. -/
theorem bn_zero_of_rAny (b : Fin 32) (h : rAny X b = 0#1) (p : P) : bn X (lo X) (hi X) b p = 0#1 :=
  fold_ori_eq_zero _ _ h p (Finset.mem_univ p)

theorem rRows_zero (b : Fin 32) (h : rAny X b = 0#1) (r : Fin 1024) : rRows X b r = 0#1 :=
  fold_ori_zero _ _ fun q _ => bn_zero_of_rAny X b h (r, q)

theorem rCols_zero (b : Fin 32) (h : rAny X b = 0#1) (q : Fin 1024) : rCols X b q = 0#1 :=
  fold_ori_zero _ _ fun r _ => bn_zero_of_rAny X b h (r, q)

/-- With nothing set in sample b the spans are empty. -/
theorem rSr_zero (b : Fin 32) (h : rAny X b = 0#1) (r : Fin 1024) : rSr h0 hrw hbS hbR X (ix2 b r) = 0#1 := by
  unfold rSr
  refine spanOf_row_zero h0 hrw hbS hbR _ _ b (fun r' => ?_) r
  show (rRows X b r').setWidth 32 = 0#32
  rw [rRows_zero X b h r']
  rfl
theorem rSc_zero (b : Fin 32) (h : rAny X b = 0#1) (q : Fin 1024) : rSc h0 hrw hbS hbR X (ix2 b q) = 0#1 := by
  unfold rSc
  refine spanOf_row_zero h0 hrw hbS hbR _ _ b (fun q' => ?_) q
  show (rCols X b q').setWidth 32 = 0#32
  rw [rCols_zero X b h q']
  rfl

end Cert.Spec

end
-- ==== Proof.Math2.lean ====
/-
  The two sides' numbers are the same, second part: for finite images the mean squared distance to the filled rectangle is the
  kernel side's three-term expression, and the count of pixels where rectangle and thresholded image differ is positive exactly when
  some pixel differs.
-/
import proofs.«117029_j24532853195288_1_alg».proof.Proof.Math1
import proofs.«117029_j24532853195288_1_alg».proof.Proof.SpanZero
import proofs.«117029_j24532853195288_1_alg».proof.Proof.Consts
import Mathlib.Data.EReal.Operations
import Mathlib.Data.Finset.Fold
import Mathlib.Algebra.BigOperators.Ring.Finset
import Mathlib.Algebra.Order.BigOperators.Group.Finset
import Mathlib.Tactic.Ring
import Mathlib.Tactic.Linarith
import Mathlib.Tactic.LinearCombination
import Mathlib.Tactic.NormNum

noncomputable section

namespace Cert.Spec

open Idealize.ShloMosaic Idealize.ShloMosaic.ValueIdx
open scoped BigOperators

variable (h0 : 0 < S0.numel) (hrw : R2.ReduceWindows (![1, 1024] : Fin 2 → Nat) ![1, 1] ![0, 1023] ![0, 0] R2)
  (hbS : S0.BroadcastsInDim S0 (![] : Fin 0 → Fin S0.rank)) (hbR : S0.BroadcastsInDim R2 (![] : Fin 0 → Fin R2.rank))
variable (X : A3.Idx → EReal)

/-! ## One-bit words as the reals 0 and 1 -/

/-- A one-bit word as a real number. -/
private def tn (w : BitVec 1) : ℝ := (w.toNat : ℝ)

private theorem bit_eq (w : BitVec 1) : bit w = ((tn w : ℝ) : EReal) := rfl
private theorem tn_zero : tn 0#1 = 0 := by simp [tn]
private theorem tn_one : tn 1#1 = 1 := by simp [tn]
private theorem tn_nonneg (w : BitVec 1) : 0 ≤ tn w := Nat.cast_nonneg _
/-- 0 and 1 are their own squares. -/
private theorem tn_sq (w : BitVec 1) : tn w * tn w = tn w := by
  rcases BitVec.eq_zero_or_eq_one w with h | h <;> subst h <;> simp [tn]
/-- AND of bits is the product. -/
private theorem tn_andi (u v : BitVec 1) : tn (IntOp.andi u v) = tn u * tn v := by
  rcases BitVec.eq_zero_or_eq_one u with h | h <;> rcases BitVec.eq_zero_or_eq_one v with h' | h' <;>
    subst h <;> subst h' <;> simp [tn, IntOp.andi]
/-- "x AND y differs from z" as a real: z + xy - 2zxy. -/
private theorem tn_ne_andi (x y z : BitVec 1) :
    tn (IntOp.cmpi .ne (IntOp.andi x y) z) = tn z + tn x * tn y - 2 * (tn z * tn y * tn x) := by
  rcases BitVec.eq_zero_or_eq_one x with h | h <;> rcases BitVec.eq_zero_or_eq_one y with h' | h' <;>
    rcases BitVec.eq_zero_or_eq_one z with h'' | h'' <;> subst h <;> subst h' <;> subst h'' <;>
    simp [tn, IntOp.andi, IntOp.cmpi] <;> norm_num
private theorem andi_one (x : BitVec 1) : IntOp.andi x 1#1 = x := by
  rcases BitVec.eq_zero_or_eq_one x with h | h <;> subst h <;> decide

/-! ## Finite sums of reals inside the extended reals -/

private theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-! ## The two rearrangements, over the reals -/

section Real
variable {ι κ : Type*} [Fintype ι] [Fintype κ]

/-- A sum over pixels of a(r, q) t(q) s(r), row by row. -/
private theorem sum_cross (a : ι × κ → ℝ) (s : ι → ℝ) (t : κ → ℝ) :
    ∑ p : ι × κ, a p * t p.2 * s p.1 = ∑ r : ι, (∑ q : κ, a (r, q) * t q) * s r := by
  rw [Fintype.sum_prod_type]
  refine Finset.sum_congr rfl fun r _ => ?_
  rw [Finset.sum_mul]
/-- A sum over pixels of s(r) t(q) is the product of the two sums. -/
private theorem sum_rect (s : ι → ℝ) (t : κ → ℝ) :
    ∑ p : ι × κ, s p.1 * t p.2 = (∑ r : ι, s r) * ∑ q : κ, t q := by
  rw [Fintype.sum_prod_type, Finset.sum_mul_sum]

/-- The squared distance to a 0/1 rectangle s(r) t(q), expanded. -/
private theorem loss_real (a : ι × κ → ℝ) (s : ι → ℝ) (t : κ → ℝ)
    (hs : ∀ i, s i * s i = s i) (ht : ∀ j, t j * t j = t j) :
    ((∑ p : ι × κ, a p * a p) - 2 * ∑ r : ι, (∑ q : κ, a (r, q) * t q) * s r)
      + (0 + ∑ r : ι, s r) * (0 + ∑ q : κ, t q)
    = 0 + ∑ p : ι × κ, (a p - s p.1 * t p.2) * (a p - s p.1 * t p.2) := by
  have h1 : ∀ p : ι × κ, (a p - s p.1 * t p.2) * (a p - s p.1 * t p.2)
      = a p * a p - 2 * (a p * t p.2 * s p.1) + s p.1 * t p.2 := by
    intro p
    have e : (s p.1 * t p.2) * (s p.1 * t p.2) = s p.1 * t p.2 := by
      calc (s p.1 * t p.2) * (s p.1 * t p.2) = (s p.1 * s p.1) * (t p.2 * t p.2) := by ring
        _ = s p.1 * t p.2 := by rw [hs, ht]
    linear_combination e
  rw [Finset.sum_congr rfl fun p _ => h1 p, Finset.sum_add_distrib, Finset.sum_sub_distrib, ← Finset.mul_sum,
    sum_cross, sum_rect]
  ring

/-- The number of pixels where a 0/1 image u differs from a 0/1 rectangle, expanded. -/
private theorem count_real (β : ι × κ → BitVec 1) (σ : ι → BitVec 1) (τ : κ → BitVec 1) :
    ((∑ p : ι × κ, tn (β p)) + (0 + ∑ r : ι, tn (σ r)) * (0 + ∑ q : κ, tn (τ q)))
      - 2 * ∑ r : ι, (∑ q : κ, tn (β (r, q)) * tn (τ q)) * tn (σ r)
    = ∑ p : ι × κ, tn (IntOp.cmpi .ne (IntOp.andi (σ p.1) (τ p.2)) (β p)) := by
  rw [Finset.sum_congr rfl fun p _ => tn_ne_andi (σ p.1) (τ p.2) (β p), Finset.sum_sub_distrib, Finset.sum_add_distrib,
    ← Finset.mul_sum, sum_cross (fun p => tn (β p)) (fun r => tn (σ r)) (fun q => tn (τ q)),
    sum_rect (fun r => tn (σ r)) (fun q => tn (τ q))]
  ring

end Real

/-! ## The same two, in the extended reals, with the literals -/

section Lifted
variable {ι κ : Type*} [Fintype ι] [Fintype κ]

/-- The kernel side's three-term expression is the sum of squared distances to the rectangle. -/
private theorem loss_identity (a : ι × κ → ℝ) (σ : ι → BitVec 1) (τ : κ → BitVec 1) :
    ((∑ p : ι × κ, (a p : EReal) * (a p : EReal))
        - two * ∑ r : ι, (∑ q : κ, (a (r, q) : EReal) * bit (τ q)) * bit (σ r))
      + (zw + ∑ r : ι, bit (σ r)) * (zw + ∑ q : κ, bit (τ q))
    = zw + ∑ p : ι × κ, ((a p : EReal) - bit (IntOp.andi (σ p.1) (τ p.2))) * ((a p : EReal) - bit (IntOp.andi (σ p.1) (τ p.2))) := by
  have h := congrArg (fun x : ℝ => (x : EReal))
    (loss_real a (fun r => tn (σ r)) (fun q => tn (τ q)) (fun _ => tn_sq _) (fun _ => tn_sq _))
  simp only [EReal.coe_add, EReal.coe_sub, EReal.coe_mul, coe_sum, EReal.coe_zero] at h
  simp only [Cert.Consts.two_eq, Cert.Consts.zw_eq, bit_eq, tn_andi, EReal.coe_mul]
  exact h

/-- The kernel side's count expression is the number of pixels where image and rectangle differ. -/
private theorem count_identity (β : ι × κ → BitVec 1) (σ : ι → BitVec 1) (τ : κ → BitVec 1) :
    ((∑ p : ι × κ, bit (β p)) + (zw + ∑ r : ι, bit (σ r)) * (zw + ∑ q : κ, bit (τ q)))
      - two * ∑ r : ι, (∑ q : κ, bit (β (r, q)) * bit (τ q)) * bit (σ r)
    = ((∑ p : ι × κ, tn (IntOp.cmpi .ne (IntOp.andi (σ p.1) (τ p.2)) (β p)) : ℝ) : EReal) := by
  have h := congrArg (fun x : ℝ => (x : EReal)) (count_real β σ τ)
  simp only [EReal.coe_add, EReal.coe_sub, EReal.coe_mul, coe_sum, EReal.coe_zero] at h
  simp only [Cert.Consts.two_eq, Cert.Consts.zw_eq, bit_eq]
  rw [h, coe_sum]

end Lifted

/-! ## A count of set bits is over one half exactly when some bit is set -/

private theorem cmp_ogt (x y : EReal) : Ideal.cmp .ogt x y = BitVec.ofBool (decide (y < x)) := rfl

private theorem fold_ori_eq_zero_iff {ι : Type*} (s : Finset ι) (w : ι → BitVec 1) :
    s.fold IntOp.ori 0#1 w = 0#1 ↔ ∀ i ∈ s, w i = 0#1 := by
  classical
  induction s using Finset.induction_on with
  | empty => simp
  | insert i s hi ih =>
    rw [Finset.fold_insert hi, Finset.forall_mem_insert, ← ih]
    generalize s.fold IntOp.ori 0#1 w = y
    generalize w i = x
    rcases BitVec.eq_zero_or_eq_one x with h | h <;> rcases BitVec.eq_zero_or_eq_one y with h' | h' <;>
      subst h <;> subst h' <;> decide

private theorem count_pos {ι : Type*} [Fintype ι] (w : ι → BitVec 1) :
    Ideal.cmp .ogt (((∑ p : ι, tn (w p) : ℝ)) : EReal) half = (Finset.univ : Finset ι).fold IntOp.ori 0#1 w := by
  rw [cmp_ogt, Cert.Consts.half_eq]
  by_cases h : ∀ i ∈ (Finset.univ : Finset ι), w i = 0#1
  · rw [(fold_ori_eq_zero_iff _ w).mpr h]
    have h0 : ∑ p : ι, tn (w p) = 0 := Finset.sum_eq_zero fun p hp => by rw [h p hp, tn_zero]
    rw [h0, decide_eq_false (by rw [EReal.coe_lt_coe_iff]; norm_num)]
    rfl
  · have hne : (Finset.univ : Finset ι).fold IntOp.ori 0#1 w ≠ 0#1 := fun h' => h ((fold_ori_eq_zero_iff _ w).mp h')
    rw [(BitVec.eq_zero_or_eq_one _).resolve_left hne]
    obtain ⟨i, hi'⟩ := not_forall.mp h
    have hi : i ∈ (Finset.univ : Finset ι) := Finset.mem_univ i
    have hwi1 : w i = 1#1 := (BitVec.eq_zero_or_eq_one _).resolve_left fun e => hi' fun _ => e
    have h1 : (1 : ℝ) ≤ ∑ p : ι, tn (w p) := by
      calc (1 : ℝ) = tn (w i) := by rw [hwi1, tn_one]
        _ ≤ ∑ p : ι, tn (w p) := Finset.single_le_sum (f := fun p => tn (w p)) (fun p _ => tn_nonneg _) hi
    rw [decide_eq_true (by rw [EReal.coe_lt_coe_iff]; linarith)]
    rfl

/-! ## Every normalized pixel of a finite image is a real number -/

/-- The minimum of a finite image is finite, and below every pixel. -/
theorem lo_fin (hfin : ∀ i, X i ≠ ⊥ ∧ X i ≠ ⊤) (b : Fin 32) :
    lo X b ≠ ⊥ ∧ lo X b ≠ ⊤ ∧ ∀ p : P, lo X b ≤ at3 X b p := by
  have hle : ∀ p : P, lo X b ≤ at3 X b p := fun p =>
    (Finset.fold_min_le _).mpr (Or.inr ⟨p, Finset.mem_univ p, le_refl _⟩)
  refine ⟨?_, ?_, hle⟩
  · refine (bot_lt_iff_ne_bot.mp ?_)
    refine (Finset.lt_fold_min _).mpr ⟨?_, fun p _ => bot_lt_iff_ne_bot.mpr (hfin _).1⟩
    rw [Cert.Consts.topw_eq]; exact bot_lt_top
  · exact ne_top_of_le_ne_top (hfin (ix3 b 0 0)).2 (hle (0, 0))

/-- The maximum of a finite image is finite, and above every pixel. -/
theorem hi_fin (hfin : ∀ i, X i ≠ ⊥ ∧ X i ≠ ⊤) (b : Fin 32) :
    hi X b ≠ ⊥ ∧ hi X b ≠ ⊤ ∧ ∀ p : P, at3 X b p ≤ hi X b := by
  have hle : ∀ p : P, at3 X b p ≤ hi X b := fun p =>
    (Finset.le_fold_max _).mpr (Or.inr ⟨p, Finset.mem_univ p, le_refl _⟩)
  refine ⟨?_, ?_, hle⟩
  · exact ne_bot_of_le_ne_bot (hfin (ix3 b 0 0)).1 (hle (0, 0))
  · refine (lt_top_iff_ne_top.mp ?_)
    refine (Finset.fold_max_lt _).mpr ⟨?_, fun p _ => lt_top_iff_ne_top.mpr (hfin _).2⟩
    rw [Cert.Consts.botw_eq]; exact bot_lt_top

/-- The range plus the guard is a positive real, so the quotient is a real quotient. -/
theorem pn_real (hfin : ∀ i, X i ≠ ⊥ ∧ X i ≠ ⊤) (b : Fin 32) :
    ∃ a : P → ℝ, ∀ p : P, pn X (lo X) (hi X) b p = (a p : EReal) := by
  obtain ⟨e, he, hee⟩ := Cert.Consts.eps_pos
  obtain ⟨hl1, hl2, hl3⟩ := lo_fin X hfin b
  obtain ⟨hh1, hh2, hh3⟩ := hi_fin X hfin b
  have hlh : lo X b ≤ hi X b := (hl3 (0, 0)).trans (hh3 (0, 0))
  obtain ⟨l, hl⟩ : ∃ l : ℝ, lo X b = (l : EReal) := ⟨_, (EReal.coe_toReal hl2 hl1).symm⟩
  obtain ⟨h, hh⟩ : ∃ h : ℝ, hi X b = (h : EReal) := ⟨_, (EReal.coe_toReal hh2 hh1).symm⟩
  rw [hl, hh, EReal.coe_le_coe_iff] at hlh
  have hd : h - l + e ≠ 0 := by linarith
  refine ⟨fun p => ((at3 X b p).toReal - l) * (1 / (h - l + e)), fun p => ?_⟩
  have hx : at3 X b p = (((at3 X b p).toReal : ℝ) : EReal) := (EReal.coe_toReal (hfin _).2 (hfin _).1).symm
  unfold pn
  rw [hl, hh, hee, hx, ← EReal.coe_sub, ← EReal.coe_sub, ← EReal.coe_add, Ideal.div_coe hd, ← EReal.coe_mul]

/-- The filled rectangle is span of rows AND span of columns: the third factor changes nothing. -/
theorem rFill_eq (b : Fin 32) (p : P) :
    rFill h0 hrw hbS hbR X b p = IntOp.andi (rSr h0 hrw hbS hbR X (ix2 b p.1)) (rSc h0 hrw hbS hbR X (ix2 b p.2)) := by
  unfold rFill
  rcases BitVec.eq_zero_or_eq_one (rAny X b) with h | h
  · rw [h, rSr_zero h0 hrw hbS hbR X b h, rSc_zero h0 hrw hbS hbR X b h]; decide
  · rw [h, andi_one]

/-- The spans and the thresholded image of one sample, as opaque 0/1 functions. -/
private theorem sample_bits (b : Fin 32) : ∃ (σ τ : Fin 1024 → BitVec 1) (β : P → BitVec 1),
    (∀ r, kSr h0 hrw hbS hbR X (ix2 b r) = bit (σ r)) ∧ (∀ q, kSc h0 hrw hbS hbR X (ix2 b q) = bit (τ q)) ∧
    (∀ p : P, rFill h0 hrw hbS hbR X b p = IntOp.andi (σ p.1) (τ p.2)) ∧ (∀ p : P, bn X (lo X) (hi X) b p = β p) :=
  ⟨fun r => rSr h0 hrw hbS hbR X (ix2 b r), fun q => rSc h0 hrw hbS hbR X (ix2 b q), fun p => bn X (lo X) (hi X) b p,
    fun r => kSr_eq h0 hrw hbS hbR X _, fun q => kSc_eq h0 hrw hbS hbR X _, fun p => rFill_eq h0 hrw hbS hbR X b p, fun _ => rfl⟩

/-! ## The two sides' loss and flag -/

theorem bridge_loss (hfin : ∀ i, X i ≠ ⊥ ∧ X i ≠ ⊤) (b : Fin 32) : kLoss h0 hrw hbS hbR X b = rLoss h0 hrw hbS hbR X b := by
  obtain ⟨a, ha⟩ := pn_real X hfin b
  obtain ⟨σ, τ, β, hσ, hτ, hf, hβ⟩ := sample_bits h0 hrw hbS hbR X b
  unfold kLoss rLoss
  congr 1
  unfold sumsq crossPn kRc kCc
  simp only [hσ, hτ, hf, ha]
  exact loss_identity a σ τ
theorem bridge_valid (hfin : ∀ i, X i ≠ ⊥ ∧ X i ≠ ⊤) (b : Fin 32) : kValid h0 hrw hbS hbR X b = rValid h0 hrw hbS hbR X b := by
  obtain ⟨σ, τ, β, hσ, hτ, hf, hβ⟩ := sample_bits h0 hrw hbS hbR X b
  unfold kValid rValid
  unfold binsum crossBn kRc kCc
  simp only [hσ, hτ, hf, hβ]
  rw [count_identity β σ τ, count_pos]

end Cert.Spec

end
-- ==== Proof.Pre.lean ====
/-
  From the precondition to "every pixel is a real number": the printed predicate is an all-reduce of |x| < +inf over the argument, and
  dropping the unit axis keeps every element.
-/
import proofs.«117029_j24532853195288_1_alg».proof.Proof.Gen.Pre_finite_inputs
import proofs.«117029_j24532853195288_1_alg».proof.Proof.Spec
import proofs.«117029_j24532853195288_1_alg».proof.Proof.Consts
import Idealize.ShloMosaic.Lib.ReduceAll
import Idealize.ShloMosaic.Lib.Pipeline.Value

noncomputable section

namespace Cert.Spec

open Idealize.ShloMosaic Idealize.ShloMosaic.ValueIdx

/-- |x| < +inf holds only of a real number: at -inf and at +inf the absolute value max x (-x) is +inf. -/
theorem real_of_abs_lt_top (x : EReal) (h : Ideal.cmp .olt (max x (-x)) (Ideal.ofBits .f32 0x7F800000#32) = 1#1) :
    x ≠ ⊥ ∧ x ≠ ⊤ := by
  -- the word 0x7F800000 denotes +inf
  rw [Cert.Consts.ofBits_inf] at h
  induction x using EReal.rec with
  | bot => simp [Ideal.cmp] at h
  | coe r => exact ⟨EReal.coe_ne_bot r, EReal.coe_ne_top r⟩
  | top => simp [Ideal.cmp] at h

theorem finite_of_pre (a : FVec Ideal Cert.Pre_finite_inputs.S32x1x1024x1024 .f32)
    (h : Cert.Pre_finite_inputs.fn (F := Ideal) a = (fun _ => 1#1)) (hc : A4.ShapeCasts A3) (i : A3.Idx) :
    xin hc a i ≠ ⊥ ∧ xin hc a i ≠ ⊤ := by
  -- the all-reduce came out 1, so the compared bit is 1 at every index of the argument
  have h1 := congrFun h ValueIdx.ix0
  dsimp only [Cert.Pre_finite_inputs.fn] at h1
  -- a rank-0 shape has one index, so every element of the argument reduces into the result
  haveI : Subsingleton Cert.Pre_finite_inputs.S_.Idx := ⟨fun a b => funext fun d => d.elim0⟩
  have h2 := Host.reduce_andi_all _ _ _ _ _ h1 (Shape.reshapeEquiv hc i)
  -- the reshaped array reads the argument at the source index of i
  exact real_of_abs_lt_top _ h2

end Cert.Spec

end
-- ==== Proof.lean ====
/-
  The certificate: a three-pass kernel computing, per image of a batch, the sigmoid's confidence and area, the min-max normalized
  image's threshold, the bounding rectangle of the thresholded pixels and the mean squared distance to it, against the plain
  reference that forms the rectangle and takes the means directly.
  The frames: the kernel programs' are the generated ones; the reference's is its run with the result dropped.
  The value claim: the kernel side's result is the shared final chain applied to per-sample numbers of the image batch (its run,
  then the three passes' values chained through the host operations between them), the reference's result is the same chain applied
  to the reference's per-sample numbers (its run read operation by operation), and for finite images the two families of numbers
  agree: confidence and area because the expanded sigmoid is the sigmoid, the spans because a maximum of 0/1 values is the OR of the
  bits, the loss by expanding the square (the rectangle's indicator is a product of two 0/1 spans, all quantities finite reals), the
  validity flag because the three-term expression is the exact count of pixels where rectangle and threshold differ.
-/
import proofs.«117029_j24532853195288_1_alg».proof.Defs
import proofs.«117029_j24532853195288_1_alg».proof.Proof.Gen.Kernel
import proofs.«117029_j24532853195288_1_alg».proof.Proof.Gen.Kernel.Skeleton
import proofs.«117029_j24532853195288_1_alg».proof.Proof.Gen.Kernel.Launch
import proofs.«117029_j24532853195288_1_alg».proof.Proof.Gen.Kernel.Points
import proofs.«117029_j24532853195288_1_alg».proof.Proof.Gen.Kernel.Frame
import proofs.«117029_j24532853195288_1_alg».proof.Proof.Gen.KernelIdeal
import proofs.«117029_j24532853195288_1_alg».proof.Proof.Gen.KernelIdeal.Skeleton
import proofs.«117029_j24532853195288_1_alg».proof.Proof.Gen.KernelIdeal.Launch
import proofs.«117029_j24532853195288_1_alg».proof.Proof.Gen.KernelIdeal.Points
import proofs.«117029_j24532853195288_1_alg».proof.Proof.Gen.KernelIdeal.Frame
import proofs.«117029_j24532853195288_1_alg».proof.Proof.Gen.ReferenceIdeal
import proofs.«117029_j24532853195288_1_alg».proof.Proof.Gen.Pre_finite_inputs
import proofs.«117029_j24532853195288_1_alg».proof.Proof.KRun
import proofs.«117029_j24532853195288_1_alg».proof.Proof.KValue
import proofs.«117029_j24532853195288_1_alg».proof.Proof.RRun
import proofs.«117029_j24532853195288_1_alg».proof.Proof.RValue
import proofs.«117029_j24532853195288_1_alg».proof.Proof.Math1
import proofs.«117029_j24532853195288_1_alg».proof.Proof.Math2
import proofs.«117029_j24532853195288_1_alg».proof.Proof.Pre
import Idealize.ShloMosaic.Adequacy
import Idealize.ShloMosaic.Init

noncomputable section

namespace Cert.Proof

open Idealize.ShloMosaic Idealize.ShloMosaic.TcCoe Idealize.ShloMosaic.ValueIdx Idealize.SL.Sem Idealize.ShloMosaic.StableHlo

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, read at the argument, which no operation writes. -/
theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono
      (fun r h c => (h c Cert.ReferenceIdeal.main_arg0).trans (Cert.ReferenceIdeal.Val.arg0_eq (F := Ideal) (launchContents m c)))
      (Cert.ReferenceIdeal.Val.run_main (F := Ideal) m ρ)

/-- Both programs end with the shared final chain of the per-sample numbers of one image batch, and for a finite batch the two
    sides' numbers are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Val.outK m ρ c, Cert.KernelIdeal.Val.run_value (F := Ideal) m ρ, ?_⟩
  refine (θ_run Cert.ReferenceIdeal.defs _ _).mono (fun r h c => ⟨?_, ?_⟩) (Cert.ReferenceIdeal.Val.run_main (F := Ideal) m' ρ')
  · refine (h c Cert.ReferenceIdeal.main_v101).trans ?_
    -- the image batch is the same on both sides
    have hX : Cert.Spec.xin Cert.ReferenceIdeal.Gen.shapeCasts_S32x1x1024x1024_S32x1024x1024
        (launchContents m' c (Cert.ReferenceIdeal.main_arg0 : DevRef Cert.ReferenceIdeal.τ Cert.ReferenceIdeal.sig))
          = Cert.KernelIdeal.Val.Xk m c := by
      show Cert.Spec.xin _ (m' ((c.tc : Thread Cert.ReferenceIdeal.nD Cert.ReferenceIdeal.τ).loc Cert.ReferenceIdeal.main_arg0)) = _
      rw [hagree c]
    -- its pixels are finite
    have hfin : ∀ i, Cert.KernelIdeal.Val.Xk m c i ≠ ⊥ ∧ Cert.KernelIdeal.Val.Xk m c i ≠ ⊤ :=
      fun i => Cert.Spec.finite_of_pre _ (hpre c) _ i
    -- the two sides' numbers
    have e1 : Cert.Spec.vec32 (Cert.Spec.kLoss Cert.KernelIdeal.Gen.h_S_ Cert.KernelIdeal.Gen.reduceWindows_S32x1024_S32x1024_w1s1p0_0_w1024s1p1023_0
          Cert.KernelIdeal.Gen.bcast_S_S_ Cert.KernelIdeal.Gen.bcast_S_S32x1024 (Cert.KernelIdeal.Val.Xk m c))
        = Cert.Spec.vec32 (Cert.Spec.rLoss Cert.KernelIdeal.Gen.h_S_ Cert.KernelIdeal.Gen.reduceWindows_S32x1024_S32x1024_w1s1p0_0_w1024s1p1023_0
          Cert.KernelIdeal.Gen.bcast_S_S_ Cert.KernelIdeal.Gen.bcast_S_S32x1024 (Cert.KernelIdeal.Val.Xk m c)) :=
      funext fun j => Cert.Spec.bridge_loss _ _ _ _ _ hfin (j 0)
    have e2 : Cert.Spec.vec32 (Cert.Spec.kValid Cert.KernelIdeal.Gen.h_S_ Cert.KernelIdeal.Gen.reduceWindows_S32x1024_S32x1024_w1s1p0_0_w1024s1p1023_0
          Cert.KernelIdeal.Gen.bcast_S_S_ Cert.KernelIdeal.Gen.bcast_S_S32x1024 (Cert.KernelIdeal.Val.Xk m c))
        = Cert.Spec.vec32 (Cert.Spec.rValid Cert.KernelIdeal.Gen.h_S_ Cert.KernelIdeal.Gen.reduceWindows_S32x1024_S32x1024_w1s1p0_0_w1024s1p1023_0
          Cert.KernelIdeal.Gen.bcast_S_S_ Cert.KernelIdeal.Gen.bcast_S_S32x1024 (Cert.KernelIdeal.Val.Xk m c)) :=
      funext fun j => Cert.Spec.bridge_valid _ _ _ _ _ hfin (j 0)
    have e3 : Cert.Spec.vec32 (Cert.Spec.kConf (Cert.KernelIdeal.Val.Xk m c)) = Cert.Spec.vec32 (Cert.Spec.rConf (Cert.KernelIdeal.Val.Xk m c)) :=
      funext fun j => Cert.Spec.bridge_conf _ (j 0)
    have e4 : Cert.Spec.vec32 (Cert.Spec.kArea (Cert.KernelIdeal.Val.Xk m c)) = Cert.Spec.vec32 (Cert.Spec.rArea (Cert.KernelIdeal.Val.Xk m c)) :=
      funext fun j => Cert.Spec.bridge_area _ (j 0)
    rw [Cert.ReferenceIdeal.Val.out_eq, hX, Cert.ReferenceIdeal.Val.ref_value]
    show _ = Cert.KernelIdeal.Val.outK m ρ c
    rw [Cert.KernelIdeal.Val.kernel_value m ρ c, e1, e2, e3, e4]
  · exact (h c Cert.ReferenceIdeal.main_arg0).trans (Cert.ReferenceIdeal.Val.arg0_eq (F := Ideal) (launchContents m' c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
